-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384x16 : Shape := ⟨2, ![16384, 16]⟩
abbrev S16384 : Shape := ⟨1, ![16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 16384#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : FVec F S4096x16384 .f32) (main_arg1 : FVec F S16384x16 .f32) (main_arg2 : IVec S16384 32) (main_arg3 : IVec S16384 32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 16384#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4096x16384 : Shape := ⟨2, ![4096, 16384]⟩
abbrev S16384x16 : Shape := ⟨2, ![16384, 16]⟩
abbrev S16384 : Shape := ⟨1, ![16384]⟩
abbrev S16x4 : Shape := ⟨2, ![16, 4]⟩
abbrev S_ : Shape := ⟨0, ![]⟩
abbrev S16384x1 : Shape := ⟨2, ![16384, 1]⟩
abbrev S16384x4 : Shape := ⟨2, ![16384, 4]⟩
abbrev S16384x4096 : Shape := ⟨2, ![16384, 4096]⟩
abbrev S512x512 : Shape := ⟨2, ![512, 512]⟩
abbrev S128x4 : Shape := ⟨2, ![128, 4]⟩
abbrev S4096x128 : Shape := ⟨2, ![4096, 128]⟩
abbrev S128x4096 : Shape := ⟨2, ![128, 4096]⟩
abbrev S32 : Shape := ⟨1, ![32]⟩
abbrev S1 : Shape := ⟨1, ![1]⟩
abbrev S1x4096 : Shape := ⟨2, ![1, 4096]⟩
abbrev S4096 : Shape := ⟨1, ![4096]⟩
abbrev S128x1 : Shape := ⟨2, ![128, 1]⟩

abbrev nBuf : Space → Nat
  | .hbm => 20
  | .vmem => 10
  | .smem => 2
  | _ => 0

abbrev bufTy : (tb : Table) → Fin (tcTables nBuf tb) → BufTy
  | .hbm, ⟨0, _⟩ => ⟨S4096x16384, .f32⟩
  | .hbm, ⟨1, _⟩ => ⟨S16384x16, .f32⟩
  | .hbm, ⟨2, _⟩ => ⟨S16x4, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x16, .f32⟩
  | .hbm, ⟨16, _⟩ => ⟨S16384x16, .f32⟩
  | .hbm, ⟨17, _⟩ => ⟨S16384x4, .f32⟩
  | .hbm, ⟨18, _⟩ => ⟨S16384x4096, .f32⟩
  | .hbm, ⟨19, _⟩ => ⟨S4096x16384, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S128x4, .f32⟩
  | .local _ .vmem, ⟨5, _⟩ => ⟨S128x4, .f32⟩
  | .local _ .vmem, ⟨6, _⟩ => ⟨S4096x128, .f32⟩
  | .local _ .vmem, ⟨7, _⟩ => ⟨S4096x128, .f32⟩
  | .local _ .vmem, ⟨8, _⟩ => ⟨S128x4096, .f32⟩
  | .local _ .vmem, ⟨9, _⟩ => ⟨S128x4096, .f32⟩
  | .local _ .smem, ⟨0, _⟩ => ⟨S16384, .i32⟩
  | .local _ .smem, ⟨1, _⟩ => ⟨S16384, .i32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc1_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![128], ![false]⟩

abbrev pre1 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_4 : BitVec 32 := 0#32
  ![v3.toNat, 0]

def k1_chk1 (v3 : BitVec 32) : Prop :=
  (∀ a, (k1_off2 v3) a + S1x4096.size a ≤ S16384x4096.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x4096.size a ≤ S16384x4096.size a := fun v3 k1_hw1 => k1_hw1

def k1_off3 (v6 : BitVec 32) : Fin 2 → Nat :=
  let c0_i32_8 : BitVec 32 := 0#32
  ![v6.toNat, 0]

def k1_chk2 (v6 : BitVec 32) : Prop :=
  (∀ a, (k1_off3 v6) a + S1x4096.size a ≤ S16384x4096.size a)
instance k1_chk2.dec : ∀ (v6 : BitVec 32), Decidable (k1_chk2 v6) := fun v6 => decidable_of_iff' _ (Iff.of_eq (k1_chk2.eq_1 v6))
theorem k1_off3_inb : ∀ (v6 : BitVec 32) (k1_hw2 : k1_chk2 v6), ∀ a, (k1_off3 v6) a + S1x4096.size a ≤ S16384x4096.size a := fun v6 k1_hw2 => k1_hw2

def k1_off4 (i : grid1.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v19 : BitVec 32 := Scalar.addi v0 c1_i32
  let v20 : Index := Scalar.indexCast v19
  ![v20.toNat]
def k1_off5 (v21 : BitVec 32) : Fin 2 → Nat :=
  let c0_i32_13 : BitVec 32 := 0#32
  ![v21.toNat, 0]

def k1_chk3 (v21 : BitVec 32) : Prop :=
  (∀ a, (k1_off5 v21) a + S1x4096.size a ≤ S16384x4096.size a)
instance k1_chk3.dec : ∀ (v21 : BitVec 32), Decidable (k1_chk3 v21) := fun v21 => decidable_of_iff' _ (Iff.of_eq (k1_chk3.eq_1 v21))
theorem k1_off5_inb : ∀ (v21 : BitVec 32) (k1_hw3 : k1_chk3 v21), ∀ a, (k1_off5 v21) a + S1x4096.size a ≤ S16384x4096.size a := fun v21 k1_hw3 => k1_hw3

def k1_off6 (v24 : BitVec 32) : Fin 2 → Nat :=
  let c0_i32_17 : BitVec 32 := 0#32
  ![v24.toNat, 0]

def k1_chk4 (v24 : BitVec 32) : Prop :=
  (∀ a, (k1_off6 v24) a + S1x4096.size a ≤ S16384x4096.size a)
instance k1_chk4.dec : ∀ (v24 : BitVec 32), Decidable (k1_chk4 v24) := fun v24 => decidable_of_iff' _ (Iff.of_eq (k1_chk4.eq_1 v24))
theorem k1_off6_inb : ∀ (v24 : BitVec 32) (k1_hw4 : k1_chk4 v24), ∀ a, (k1_off6 v24) a + S1x4096.size a ≤ S16384x4096.size a := fun v24 k1_hw4 => k1_hw4

def k1_off7 (i : grid1.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v37 : BitVec 32 := Scalar.addi v0 c2_i32
  let v38 : Index := Scalar.indexCast v37
  ![v38.toNat]
def k1_off8 (v39 : BitVec 32) : Fin 2 → Nat :=
  let c0_i32_22 : BitVec 32 := 0#32
  ![v39.toNat, 0]

def k1_chk5 (v39 : BitVec 32) : Prop :=
  (∀ a, (k1_off8 v39) a + S1x4096.size a ≤ S16384x4096.size a)
instance k1_chk5.dec : ∀ (v39 : BitVec 32), Decidable (k1_chk5 v39) := fun v39 => decidable_of_iff' _ (Iff.of_eq (k1_chk5.eq_1 v39))
theorem k1_off8_inb : ∀ (v39 : BitVec 32) (k1_hw5 : k1_chk5 v39), ∀ a, (k1_off8 v39) a + S1x4096.size a ≤ S16384x4096.size a := fun v39 k1_hw5 => k1_hw5

def k1_off9 (v42 : BitVec 32) : Fin 2 → Nat :=
  let c0_i32_26 : BitVec 32 := 0#32
  ![v42.toNat, 0]

def k1_chk6 (v42 : BitVec 32) : Prop :=
  (∀ a, (k1_off9 v42) a + S1x4096.size a ≤ S16384x4096.size a)
instance k1_chk6.dec : ∀ (v42 : BitVec 32), Decidable (k1_chk6 v42) := fun v42 => decidable_of_iff' _ (Iff.of_eq (k1_chk6.eq_1 v42))
theorem k1_off9_inb : ∀ (v42 : BitVec 32) (k1_hw6 : k1_chk6 v42), ∀ a, (k1_off9 v42) a + S1x4096.size a ≤ S16384x4096.size a := fun v42 k1_hw6 => k1_hw6

def k1_off10 (i : grid1.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v55 : BitVec 32 := Scalar.addi v0 c3_i32
  let v56 : Index := Scalar.indexCast v55
  ![v56.toNat]
def k1_off11 (v57 : BitVec 32) : Fin 2 → Nat :=
  let c0_i32_31 : BitVec 32 := 0#32
  ![v57.toNat, 0]

def k1_chk7 (v57 : BitVec 32) : Prop :=
  (∀ a, (k1_off11 v57) a + S1x4096.size a ≤ S16384x4096.size a)
instance k1_chk7.dec : ∀ (v57 : BitVec 32), Decidable (k1_chk7 v57) := fun v57 => decidable_of_iff' _ (Iff.of_eq (k1_chk7.eq_1 v57))
theorem k1_off11_inb : ∀ (v57 : BitVec 32) (k1_hw7 : k1_chk7 v57), ∀ a, (k1_off11 v57) a + S1x4096.size a ≤ S16384x4096.size a := fun v57 k1_hw7 => k1_hw7

def k1_off12 (v60 : BitVec 32) : Fin 2 → Nat :=
  let c0_i32_35 : BitVec 32 := 0#32
  ![v60.toNat, 0]

def k1_chk8 (v60 : BitVec 32) : Prop :=
  (∀ a, (k1_off12 v60) a + S1x4096.size a ≤ S16384x4096.size a)
instance k1_chk8.dec : ∀ (v60 : BitVec 32), Decidable (k1_chk8 v60) := fun v60 => decidable_of_iff' _ (Iff.of_eq (k1_chk8.eq_1 v60))
theorem k1_off12_inb : ∀ (v60 : BitVec 32) (k1_hw8 : k1_chk8 v60), ∀ a, (k1_off12 v60) a + S1x4096.size a ≤ S16384x4096.size a := fun v60 k1_hw8 => k1_hw8

def k1_off13 (i : grid1.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v73 : BitVec 32 := Scalar.addi v0 c4_i32
  let v74 : Index := Scalar.indexCast v73
  ![v74.toNat]
def k1_off14 (v75 : BitVec 32) : Fin 2 → Nat :=
  let c0_i32_40 : BitVec 32 := 0#32
  ![v75.toNat, 0]

def k1_chk9 (v75 : BitVec 32) : Prop :=
  (∀ a, (k1_off14 v75) a + S1x4096.size a ≤ S16384x4096.size a)
instance k1_chk9.dec : ∀ (v75 : BitVec 32), Decidable (k1_chk9 v75) := fun v75 => decidable_of_iff' _ (Iff.of_eq (k1_chk9.eq_1 v75))
theorem k1_off14_inb : ∀ (v75 : BitVec 32) (k1_hw9 : k1_chk9 v75), ∀ a, (k1_off14 v75) a + S1x4096.size a ≤ S16384x4096.size a := fun v75 k1_hw9 => k1_hw9

def k1_off15 (v78 : BitVec 32) : Fin 2 → Nat :=
  let c0_i32_44 : BitVec 32 := 0#32
  ![v78.toNat, 0]

def k1_chk10 (v78 : BitVec 32) : Prop :=
  (∀ a, (k1_off15 v78) a + S1x4096.size a ≤ S16384x4096.size a)
instance k1_chk10.dec : ∀ (v78 : BitVec 32), Decidable (k1_chk10 v78) := fun v78 => decidable_of_iff' _ (Iff.of_eq (k1_chk10.eq_1 v78))
theorem k1_off15_inb : ∀ (v78 : BitVec 32) (k1_hw10 : k1_chk10 v78), ∀ a, (k1_off15 v78) a + S1x4096.size a ≤ S16384x4096.size a := fun v78 k1_hw10 => k1_hw10

def k1_off16 (i : grid1.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v91 : BitVec 32 := Scalar.addi v0 c5_i32
  let v92 : Index := Scalar.indexCast v91
  ![v92.toNat]
def k1_off17 (v93 : BitVec 32) : Fin 2 → Nat :=
  let c0_i32_49 : BitVec 32 := 0#32
  ![v93.toNat, 0]

def k1_chk11 (v93 : BitVec 32) : Prop :=
  (∀ a, (k1_off17 v93) a + S1x4096.size a ≤ S16384x4096.size a)
instance k1_chk11.dec : ∀ (v93 : BitVec 32), Decidable (k1_chk11 v93) := fun v93 => decidable_of_iff' _ (Iff.of_eq (k1_chk11.eq_1 v93))
theorem k1_off17_inb : ∀ (v93 : BitVec 32) (k1_hw11 : k1_chk11 v93), ∀ a, (k1_off17 v93) a + S1x4096.size a ≤ S16384x4096.size a := fun v93 k1_hw11 => k1_hw11

def k1_off18 (v96 : BitVec 32) : Fin 2 → Nat :=
  let c0_i32_53 : BitVec 32 := 0#32
  ![v96.toNat, 0]

def k1_chk12 (v96 : BitVec 32) : Prop :=
  (∀ a, (k1_off18 v96) a + S1x4096.size a ≤ S16384x4096.size a)
instance k1_chk12.dec : ∀ (v96 : BitVec 32), Decidable (k1_chk12 v96) := fun v96 => decidable_of_iff' _ (Iff.of_eq (k1_chk12.eq_1 v96))
theorem k1_off18_inb : ∀ (v96 : BitVec 32) (k1_hw12 : k1_chk12 v96), ∀ a, (k1_off18 v96) a + S1x4096.size a ≤ S16384x4096.size a := fun v96 k1_hw12 => k1_hw12

def k1_off19 (i : grid1.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v109 : BitVec 32 := Scalar.addi v0 c6_i32
  let v110 : Index := Scalar.indexCast v109
  ![v110.toNat]
def k1_off20 (v111 : BitVec 32) : Fin 2 → Nat :=
  let c0_i32_58 : BitVec 32 := 0#32
  ![v111.toNat, 0]

def k1_chk13 (v111 : BitVec 32) : Prop :=
  (∀ a, (k1_off20 v111) a + S1x4096.size a ≤ S16384x4096.size a)
instance k1_chk13.dec : ∀ (v111 : BitVec 32), Decidable (k1_chk13 v111) := fun v111 => decidable_of_iff' _ (Iff.of_eq (k1_chk13.eq_1 v111))
theorem k1_off20_inb : ∀ (v111 : BitVec 32) (k1_hw13 : k1_chk13 v111), ∀ a, (k1_off20 v111) a + S1x4096.size a ≤ S16384x4096.size a := fun v111 k1_hw13 => k1_hw13

def k1_off21 (v114 : BitVec 32) : Fin 2 → Nat :=
  let c0_i32_62 : BitVec 32 := 0#32
  ![v114.toNat, 0]

def k1_chk14 (v114 : BitVec 32) : Prop :=
  (∀ a, (k1_off21 v114) a + S1x4096.size a ≤ S16384x4096.size a)
instance k1_chk14.dec : ∀ (v114 : BitVec 32), Decidable (k1_chk14 v114) := fun v114 => decidable_of_iff' _ (Iff.of_eq (k1_chk14.eq_1 v114))
theorem k1_off21_inb : ∀ (v114 : BitVec 32) (k1_hw14 : k1_chk14 v114), ∀ a, (k1_off21 v114) a + S1x4096.size a ≤ S16384x4096.size a := fun v114 k1_hw14 => k1_hw14

def k1_off22 (i : grid1.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v127 : BitVec 32 := Scalar.addi v0 c7_i32
  let v128 : Index := Scalar.indexCast v127
  ![v128.toNat]
def k1_off23 (v129 : BitVec 32) : Fin 2 → Nat :=
  let c0_i32_67 : BitVec 32 := 0#32
  ![v129.toNat, 0]

def k1_chk15 (v129 : BitVec 32) : Prop :=
  (∀ a, (k1_off23 v129) a + S1x4096.size a ≤ S16384x4096.size a)
instance k1_chk15.dec : ∀ (v129 : BitVec 32), Decidable (k1_chk15 v129) := fun v129 => decidable_of_iff' _ (Iff.of_eq (k1_chk15.eq_1 v129))
theorem k1_off23_inb : ∀ (v129 : BitVec 32) (k1_hw15 : k1_chk15 v129), ∀ a, (k1_off23 v129) a + S1x4096.size a ≤ S16384x4096.size a := fun v129 k1_hw15 => k1_hw15

def k1_off24 (v132 : BitVec 32) : Fin 2 → Nat :=
  let c0_i32_71 : BitVec 32 := 0#32
  ![v132.toNat, 0]

def k1_chk16 (v132 : BitVec 32) : Prop :=
  (∀ a, (k1_off24 v132) a + S1x4096.size a ≤ S16384x4096.size a)
instance k1_chk16.dec : ∀ (v132 : BitVec 32), Decidable (k1_chk16 v132) := fun v132 => decidable_of_iff' _ (Iff.of_eq (k1_chk16.eq_1 v132))
theorem k1_off24_inb : ∀ (v132 : BitVec 32) (k1_hw16 : k1_chk16 v132), ∀ a, (k1_off24 v132) a + S1x4096.size a ≤ S16384x4096.size a := fun v132 k1_hw16 => k1_hw16

def k1_off25 (i : grid1.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v145 : BitVec 32 := Scalar.addi v0 c8_i32
  let v146 : Index := Scalar.indexCast v145
  ![v146.toNat]
def k1_off26 (v147 : BitVec 32) : Fin 2 → Nat :=
  let c0_i32_76 : BitVec 32 := 0#32
  ![v147.toNat, 0]

def k1_chk17 (v147 : BitVec 32) : Prop :=
  (∀ a, (k1_off26 v147) a + S1x4096.size a ≤ S16384x4096.size a)
instance k1_chk17.dec : ∀ (v147 : BitVec 32), Decidable (k1_chk17 v147) := fun v147 => decidable_of_iff' _ (Iff.of_eq (k1_chk17.eq_1 v147))
theorem k1_off26_inb : ∀ (v147 : BitVec 32) (k1_hw17 : k1_chk17 v147), ∀ a, (k1_off26 v147) a + S1x4096.size a ≤ S16384x4096.size a := fun v147 k1_hw17 => k1_hw17

def k1_off27 (v150 : BitVec 32) : Fin 2 → Nat :=
  let c0_i32_80 : BitVec 32 := 0#32
  ![v150.toNat, 0]

def k1_chk18 (v150 : BitVec 32) : Prop :=
  (∀ a, (k1_off27 v150) a + S1x4096.size a ≤ S16384x4096.size a)
instance k1_chk18.dec : ∀ (v150 : BitVec 32), Decidable (k1_chk18 v150) := fun v150 => decidable_of_iff' _ (Iff.of_eq (k1_chk18.eq_1 v150))
theorem k1_off27_inb : ∀ (v150 : BitVec 32) (k1_hw18 : k1_chk18 v150), ∀ a, (k1_off27 v150) a + S1x4096.size a ≤ S16384x4096.size a := fun v150 k1_hw18 => k1_hw18

def k1_off28 (i : grid1.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v163 : BitVec 32 := Scalar.addi v0 c9_i32
  let v164 : Index := Scalar.indexCast v163
  ![v164.toNat]
def k1_off29 (v165 : BitVec 32) : Fin 2 → Nat :=
  let c0_i32_85 : BitVec 32 := 0#32
  ![v165.toNat, 0]

def k1_chk19 (v165 : BitVec 32) : Prop :=
  (∀ a, (k1_off29 v165) a + S1x4096.size a ≤ S16384x4096.size a)
instance k1_chk19.dec : ∀ (v165 : BitVec 32), Decidable (k1_chk19 v165) := fun v165 => decidable_of_iff' _ (Iff.of_eq (k1_chk19.eq_1 v165))
theorem k1_off29_inb : ∀ (v165 : BitVec 32) (k1_hw19 : k1_chk19 v165), ∀ a, (k1_off29 v165) a + S1x4096.size a ≤ S16384x4096.size a := fun v165 k1_hw19 => k1_hw19

def k1_off30 (v168 : BitVec 32) : Fin 2 → Nat :=
  let c0_i32_89 : BitVec 32 := 0#32
  ![v168.toNat, 0]

def k1_chk20 (v168 : BitVec 32) : Prop :=
  (∀ a, (k1_off30 v168) a + S1x4096.size a ≤ S16384x4096.size a)
instance k1_chk20.dec : ∀ (v168 : BitVec 32), Decidable (k1_chk20 v168) := fun v168 => decidable_of_iff' _ (Iff.of_eq (k1_chk20.eq_1 v168))
theorem k1_off30_inb : ∀ (v168 : BitVec 32) (k1_hw20 : k1_chk20 v168), ∀ a, (k1_off30 v168) a + S1x4096.size a ≤ S16384x4096.size a := fun v168 k1_hw20 => k1_hw20

def k1_off31 (i : grid1.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v181 : BitVec 32 := Scalar.addi v0 c10_i32
  let v182 : Index := Scalar.indexCast v181
  ![v182.toNat]
def k1_off32 (v183 : BitVec 32) : Fin 2 → Nat :=
  let c0_i32_94 : BitVec 32 := 0#32
  ![v183.toNat, 0]

def k1_chk21 (v183 : BitVec 32) : Prop :=
  (∀ a, (k1_off32 v183) a + S1x4096.size a ≤ S16384x4096.size a)
instance k1_chk21.dec : ∀ (v183 : BitVec 32), Decidable (k1_chk21 v183) := fun v183 => decidable_of_iff' _ (Iff.of_eq (k1_chk21.eq_1 v183))
theorem k1_off32_inb : ∀ (v183 : BitVec 32) (k1_hw21 : k1_chk21 v183), ∀ a, (k1_off32 v183) a + S1x4096.size a ≤ S16384x4096.size a := fun v183 k1_hw21 => k1_hw21

def k1_off33 (v186 : BitVec 32) : Fin 2 → Nat :=
  let c0_i32_98 : BitVec 32 := 0#32
  ![v186.toNat, 0]

def k1_chk22 (v186 : BitVec 32) : Prop :=
  (∀ a, (k1_off33 v186) a + S1x4096.size a ≤ S16384x4096.size a)
instance k1_chk22.dec : ∀ (v186 : BitVec 32), Decidable (k1_chk22 v186) := fun v186 => decidable_of_iff' _ (Iff.of_eq (k1_chk22.eq_1 v186))
theorem k1_off33_inb : ∀ (v186 : BitVec 32) (k1_hw22 : k1_chk22 v186), ∀ a, (k1_off33 v186) a + S1x4096.size a ≤ S16384x4096.size a := fun v186 k1_hw22 => k1_hw22

def k1_off34 (i : grid1.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v199 : BitVec 32 := Scalar.addi v0 c11_i32
  let v200 : Index := Scalar.indexCast v199
  ![v200.toNat]
def k1_off35 (v201 : BitVec 32) : Fin 2 → Nat :=
  let c0_i32_103 : BitVec 32 := 0#32
  ![v201.toNat, 0]

def k1_chk23 (v201 : BitVec 32) : Prop :=
  (∀ a, (k1_off35 v201) a + S1x4096.size a ≤ S16384x4096.size a)
instance k1_chk23.dec : ∀ (v201 : BitVec 32), Decidable (k1_chk23 v201) := fun v201 => decidable_of_iff' _ (Iff.of_eq (k1_chk23.eq_1 v201))
theorem k1_off35_inb : ∀ (v201 : BitVec 32) (k1_hw23 : k1_chk23 v201), ∀ a, (k1_off35 v201) a + S1x4096.size a ≤ S16384x4096.size a := fun v201 k1_hw23 => k1_hw23

def k1_off36 (v204 : BitVec 32) : Fin 2 → Nat :=
  let c0_i32_107 : BitVec 32 := 0#32
  ![v204.toNat, 0]

def k1_chk24 (v204 : BitVec 32) : Prop :=
  (∀ a, (k1_off36 v204) a + S1x4096.size a ≤ S16384x4096.size a)
instance k1_chk24.dec : ∀ (v204 : BitVec 32), Decidable (k1_chk24 v204) := fun v204 => decidable_of_iff' _ (Iff.of_eq (k1_chk24.eq_1 v204))
theorem k1_off36_inb : ∀ (v204 : BitVec 32) (k1_hw24 : k1_chk24 v204), ∀ a, (k1_off36 v204) a + S1x4096.size a ≤ S16384x4096.size a := fun v204 k1_hw24 => k1_hw24

def k1_off37 (i : grid1.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v217 : BitVec 32 := Scalar.addi v0 c12_i32
  let v218 : Index := Scalar.indexCast v217
  ![v218.toNat]
def k1_off38 (v219 : BitVec 32) : Fin 2 → Nat :=
  let c0_i32_112 : BitVec 32 := 0#32
  ![v219.toNat, 0]

def k1_chk25 (v219 : BitVec 32) : Prop :=
  (∀ a, (k1_off38 v219) a + S1x4096.size a ≤ S16384x4096.size a)
instance k1_chk25.dec : ∀ (v219 : BitVec 32), Decidable (k1_chk25 v219) := fun v219 => decidable_of_iff' _ (Iff.of_eq (k1_chk25.eq_1 v219))
theorem k1_off38_inb : ∀ (v219 : BitVec 32) (k1_hw25 : k1_chk25 v219), ∀ a, (k1_off38 v219) a + S1x4096.size a ≤ S16384x4096.size a := fun v219 k1_hw25 => k1_hw25

def k1_off39 (v222 : BitVec 32) : Fin 2 → Nat :=
  let c0_i32_116 : BitVec 32 := 0#32
  ![v222.toNat, 0]

def k1_chk26 (v222 : BitVec 32) : Prop :=
  (∀ a, (k1_off39 v222) a + S1x4096.size a ≤ S16384x4096.size a)
instance k1_chk26.dec : ∀ (v222 : BitVec 32), Decidable (k1_chk26 v222) := fun v222 => decidable_of_iff' _ (Iff.of_eq (k1_chk26.eq_1 v222))
theorem k1_off39_inb : ∀ (v222 : BitVec 32) (k1_hw26 : k1_chk26 v222), ∀ a, (k1_off39 v222) a + S1x4096.size a ≤ S16384x4096.size a := fun v222 k1_hw26 => k1_hw26

def k1_off40 (i : grid1.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v235 : BitVec 32 := Scalar.addi v0 c13_i32
  let v236 : Index := Scalar.indexCast v235
  ![v236.toNat]
def k1_off41 (v237 : BitVec 32) : Fin 2 → Nat :=
  let c0_i32_121 : BitVec 32 := 0#32
  ![v237.toNat, 0]

def k1_chk27 (v237 : BitVec 32) : Prop :=
  (∀ a, (k1_off41 v237) a + S1x4096.size a ≤ S16384x4096.size a)
instance k1_chk27.dec : ∀ (v237 : BitVec 32), Decidable (k1_chk27 v237) := fun v237 => decidable_of_iff' _ (Iff.of_eq (k1_chk27.eq_1 v237))
theorem k1_off41_inb : ∀ (v237 : BitVec 32) (k1_hw27 : k1_chk27 v237), ∀ a, (k1_off41 v237) a + S1x4096.size a ≤ S16384x4096.size a := fun v237 k1_hw27 => k1_hw27

def k1_off42 (v240 : BitVec 32) : Fin 2 → Nat :=
  let c0_i32_125 : BitVec 32 := 0#32
  ![v240.toNat, 0]

def k1_chk28 (v240 : BitVec 32) : Prop :=
  (∀ a, (k1_off42 v240) a + S1x4096.size a ≤ S16384x4096.size a)
instance k1_chk28.dec : ∀ (v240 : BitVec 32), Decidable (k1_chk28 v240) := fun v240 => decidable_of_iff' _ (Iff.of_eq (k1_chk28.eq_1 v240))
theorem k1_off42_inb : ∀ (v240 : BitVec 32) (k1_hw28 : k1_chk28 v240), ∀ a, (k1_off42 v240) a + S1x4096.size a ≤ S16384x4096.size a := fun v240 k1_hw28 => k1_hw28

def k1_off43 (i : grid1.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v253 : BitVec 32 := Scalar.addi v0 c14_i32
  let v254 : Index := Scalar.indexCast v253
  ![v254.toNat]
def k1_off44 (v255 : BitVec 32) : Fin 2 → Nat :=
  let c0_i32_130 : BitVec 32 := 0#32
  ![v255.toNat, 0]

def k1_chk29 (v255 : BitVec 32) : Prop :=
  (∀ a, (k1_off44 v255) a + S1x4096.size a ≤ S16384x4096.size a)
instance k1_chk29.dec : ∀ (v255 : BitVec 32), Decidable (k1_chk29 v255) := fun v255 => decidable_of_iff' _ (Iff.of_eq (k1_chk29.eq_1 v255))
theorem k1_off44_inb : ∀ (v255 : BitVec 32) (k1_hw29 : k1_chk29 v255), ∀ a, (k1_off44 v255) a + S1x4096.size a ≤ S16384x4096.size a := fun v255 k1_hw29 => k1_hw29

def k1_off45 (v258 : BitVec 32) : Fin 2 → Nat :=
  let c0_i32_134 : BitVec 32 := 0#32
  ![v258.toNat, 0]

def k1_chk30 (v258 : BitVec 32) : Prop :=
  (∀ a, (k1_off45 v258) a + S1x4096.size a ≤ S16384x4096.size a)
instance k1_chk30.dec : ∀ (v258 : BitVec 32), Decidable (k1_chk30 v258) := fun v258 => decidable_of_iff' _ (Iff.of_eq (k1_chk30.eq_1 v258))
theorem k1_off45_inb : ∀ (v258 : BitVec 32) (k1_hw30 : k1_chk30 v258), ∀ a, (k1_off45 v258) a + S1x4096.size a ≤ S16384x4096.size a := fun v258 k1_hw30 => k1_hw30

def k1_off46 (i : grid1.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v271 : BitVec 32 := Scalar.addi v0 c15_i32
  let v272 : Index := Scalar.indexCast v271
  ![v272.toNat]
def k1_off47 (v273 : BitVec 32) : Fin 2 → Nat :=
  let c0_i32_139 : BitVec 32 := 0#32
  ![v273.toNat, 0]

def k1_chk31 (v273 : BitVec 32) : Prop :=
  (∀ a, (k1_off47 v273) a + S1x4096.size a ≤ S16384x4096.size a)
instance k1_chk31.dec : ∀ (v273 : BitVec 32), Decidable (k1_chk31 v273) := fun v273 => decidable_of_iff' _ (Iff.of_eq (k1_chk31.eq_1 v273))
theorem k1_off47_inb : ∀ (v273 : BitVec 32) (k1_hw31 : k1_chk31 v273), ∀ a, (k1_off47 v273) a + S1x4096.size a ≤ S16384x4096.size a := fun v273 k1_hw31 => k1_hw31

def k1_off48 (v276 : BitVec 32) : Fin 2 → Nat :=
  let c0_i32_143 : BitVec 32 := 0#32
  ![v276.toNat, 0]

def k1_chk32 (v276 : BitVec 32) : Prop :=
  (∀ a, (k1_off48 v276) a + S1x4096.size a ≤ S16384x4096.size a)
instance k1_chk32.dec : ∀ (v276 : BitVec 32), Decidable (k1_chk32 v276) := fun v276 => decidable_of_iff' _ (Iff.of_eq (k1_chk32.eq_1 v276))
theorem k1_off48_inb : ∀ (v276 : BitVec 32) (k1_hw32 : k1_chk32 v276), ∀ a, (k1_off48 v276) a + S1x4096.size a ≤ S16384x4096.size a := fun v276 k1_hw32 => k1_hw32

def k1_off49 (i : grid1.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v289 : BitVec 32 := Scalar.addi v0 c16_i32
  let v290 : Index := Scalar.indexCast v289
  ![v290.toNat]
def k1_off50 (v291 : BitVec 32) : Fin 2 → Nat :=
  let c0_i32_148 : BitVec 32 := 0#32
  ![v291.toNat, 0]

def k1_chk33 (v291 : BitVec 32) : Prop :=
  (∀ a, (k1_off50 v291) a + S1x4096.size a ≤ S16384x4096.size a)
instance k1_chk33.dec : ∀ (v291 : BitVec 32), Decidable (k1_chk33 v291) := fun v291 => decidable_of_iff' _ (Iff.of_eq (k1_chk33.eq_1 v291))
theorem k1_off50_inb : ∀ (v291 : BitVec 32) (k1_hw33 : k1_chk33 v291), ∀ a, (k1_off50 v291) a + S1x4096.size a ≤ S16384x4096.size a := fun v291 k1_hw33 => k1_hw33

def k1_off51 (v294 : BitVec 32) : Fin 2 → Nat :=
  let c0_i32_152 : BitVec 32 := 0#32
  ![v294.toNat, 0]

def k1_chk34 (v294 : BitVec 32) : Prop :=
  (∀ a, (k1_off51 v294) a + S1x4096.size a ≤ S16384x4096.size a)
instance k1_chk34.dec : ∀ (v294 : BitVec 32), Decidable (k1_chk34 v294) := fun v294 => decidable_of_iff' _ (Iff.of_eq (k1_chk34.eq_1 v294))
theorem k1_off51_inb : ∀ (v294 : BitVec 32) (k1_hw34 : k1_chk34 v294), ∀ a, (k1_off51 v294) a + S1x4096.size a ≤ S16384x4096.size a := fun v294 k1_hw34 => k1_hw34

def k1_off52 (i : grid1.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v307 : BitVec 32 := Scalar.addi v0 c17_i32
  let v308 : Index := Scalar.indexCast v307
  ![v308.toNat]
def k1_off53 (v309 : BitVec 32) : Fin 2 → Nat :=
  let c0_i32_157 : BitVec 32 := 0#32
  ![v309.toNat, 0]

def k1_chk35 (v309 : BitVec 32) : Prop :=
  (∀ a, (k1_off53 v309) a + S1x4096.size a ≤ S16384x4096.size a)
instance k1_chk35.dec : ∀ (v309 : BitVec 32), Decidable (k1_chk35 v309) := fun v309 => decidable_of_iff' _ (Iff.of_eq (k1_chk35.eq_1 v309))
theorem k1_off53_inb : ∀ (v309 : BitVec 32) (k1_hw35 : k1_chk35 v309), ∀ a, (k1_off53 v309) a + S1x4096.size a ≤ S16384x4096.size a := fun v309 k1_hw35 => k1_hw35

def k1_off54 (v312 : BitVec 32) : Fin 2 → Nat :=
  let c0_i32_161 : BitVec 32 := 0#32
  ![v312.toNat, 0]

def k1_chk36 (v312 : BitVec 32) : Prop :=
  (∀ a, (k1_off54 v312) a + S1x4096.size a ≤ S16384x4096.size a)
instance k1_chk36.dec : ∀ (v312 : BitVec 32), Decidable (k1_chk36 v312) := fun v312 => decidable_of_iff' _ (Iff.of_eq (k1_chk36.eq_1 v312))
theorem k1_off54_inb : ∀ (v312 : BitVec 32) (k1_hw36 : k1_chk36 v312), ∀ a, (k1_off54 v312) a + S1x4096.size a ≤ S16384x4096.size a := fun v312 k1_hw36 => k1_hw36

def k1_off55 (i : grid1.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v325 : BitVec 32 := Scalar.addi v0 c18_i32
  let v326 : Index := Scalar.indexCast v325
  ![v326.toNat]
def k1_off56 (v327 : BitVec 32) : Fin 2 → Nat :=
  let c0_i32_166 : BitVec 32 := 0#32
  ![v327.toNat, 0]

def k1_chk37 (v327 : BitVec 32) : Prop :=
  (∀ a, (k1_off56 v327) a + S1x4096.size a ≤ S16384x4096.size a)
instance k1_chk37.dec : ∀ (v327 : BitVec 32), Decidable (k1_chk37 v327) := fun v327 => decidable_of_iff' _ (Iff.of_eq (k1_chk37.eq_1 v327))
theorem k1_off56_inb : ∀ (v327 : BitVec 32) (k1_hw37 : k1_chk37 v327), ∀ a, (k1_off56 v327) a + S1x4096.size a ≤ S16384x4096.size a := fun v327 k1_hw37 => k1_hw37

def k1_off57 (v330 : BitVec 32) : Fin 2 → Nat :=
  let c0_i32_170 : BitVec 32 := 0#32
  ![v330.toNat, 0]

def k1_chk38 (v330 : BitVec 32) : Prop :=
  (∀ a, (k1_off57 v330) a + S1x4096.size a ≤ S16384x4096.size a)
instance k1_chk38.dec : ∀ (v330 : BitVec 32), Decidable (k1_chk38 v330) := fun v330 => decidable_of_iff' _ (Iff.of_eq (k1_chk38.eq_1 v330))
theorem k1_off57_inb : ∀ (v330 : BitVec 32) (k1_hw38 : k1_chk38 v330), ∀ a, (k1_off57 v330) a + S1x4096.size a ≤ S16384x4096.size a := fun v330 k1_hw38 => k1_hw38

def k1_off58 (i : grid1.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v343 : BitVec 32 := Scalar.addi v0 c19_i32
  let v344 : Index := Scalar.indexCast v343
  ![v344.toNat]
def k1_off59 (v345 : BitVec 32) : Fin 2 → Nat :=
  let c0_i32_175 : BitVec 32 := 0#32
  ![v345.toNat, 0]

def k1_chk39 (v345 : BitVec 32) : Prop :=
  (∀ a, (k1_off59 v345) a + S1x4096.size a ≤ S16384x4096.size a)
instance k1_chk39.dec : ∀ (v345 : BitVec 32), Decidable (k1_chk39 v345) := fun v345 => decidable_of_iff' _ (Iff.of_eq (k1_chk39.eq_1 v345))
theorem k1_off59_inb : ∀ (v345 : BitVec 32) (k1_hw39 : k1_chk39 v345), ∀ a, (k1_off59 v345) a + S1x4096.size a ≤ S16384x4096.size a := fun v345 k1_hw39 => k1_hw39

def k1_off60 (v348 : BitVec 32) : Fin 2 → Nat :=
  let c0_i32_179 : BitVec 32 := 0#32
  ![v348.toNat, 0]

def k1_chk40 (v348 : BitVec 32) : Prop :=
  (∀ a, (k1_off60 v348) a + S1x4096.size a ≤ S16384x4096.size a)
instance k1_chk40.dec : ∀ (v348 : BitVec 32), Decidable (k1_chk40 v348) := fun v348 => decidable_of_iff' _ (Iff.of_eq (k1_chk40.eq_1 v348))
theorem k1_off60_inb : ∀ (v348 : BitVec 32) (k1_hw40 : k1_chk40 v348), ∀ a, (k1_off60 v348) a + S1x4096.size a ≤ S16384x4096.size a := fun v348 k1_hw40 => k1_hw40

def k1_off61 (i : grid1.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v361 : BitVec 32 := Scalar.addi v0 c20_i32
  let v362 : Index := Scalar.indexCast v361
  ![v362.toNat]
def k1_off62 (v363 : BitVec 32) : Fin 2 → Nat :=
  let c0_i32_184 : BitVec 32 := 0#32
  ![v363.toNat, 0]

def k1_chk41 (v363 : BitVec 32) : Prop :=
  (∀ a, (k1_off62 v363) a + S1x4096.size a ≤ S16384x4096.size a)
instance k1_chk41.dec : ∀ (v363 : BitVec 32), Decidable (k1_chk41 v363) := fun v363 => decidable_of_iff' _ (Iff.of_eq (k1_chk41.eq_1 v363))
theorem k1_off62_inb : ∀ (v363 : BitVec 32) (k1_hw41 : k1_chk41 v363), ∀ a, (k1_off62 v363) a + S1x4096.size a ≤ S16384x4096.size a := fun v363 k1_hw41 => k1_hw41

def k1_off63 (v366 : BitVec 32) : Fin 2 → Nat :=
  let c0_i32_188 : BitVec 32 := 0#32
  ![v366.toNat, 0]

def k1_chk42 (v366 : BitVec 32) : Prop :=
  (∀ a, (k1_off63 v366) a + S1x4096.size a ≤ S16384x4096.size a)
instance k1_chk42.dec : ∀ (v366 : BitVec 32), Decidable (k1_chk42 v366) := fun v366 => decidable_of_iff' _ (Iff.of_eq (k1_chk42.eq_1 v366))
theorem k1_off63_inb : ∀ (v366 : BitVec 32) (k1_hw42 : k1_chk42 v366), ∀ a, (k1_off63 v366) a + S1x4096.size a ≤ S16384x4096.size a := fun v366 k1_hw42 => k1_hw42

def k1_off64 (i : grid1.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v379 : BitVec 32 := Scalar.addi v0 c21_i32
  let v380 : Index := Scalar.indexCast v379
  ![v380.toNat]
def k1_off65 (v381 : BitVec 32) : Fin 2 → Nat :=
  let c0_i32_193 : BitVec 32 := 0#32
  ![v381.toNat, 0]

def k1_chk43 (v381 : BitVec 32) : Prop :=
  (∀ a, (k1_off65 v381) a + S1x4096.size a ≤ S16384x4096.size a)
instance k1_chk43.dec : ∀ (v381 : BitVec 32), Decidable (k1_chk43 v381) := fun v381 => decidable_of_iff' _ (Iff.of_eq (k1_chk43.eq_1 v381))
theorem k1_off65_inb : ∀ (v381 : BitVec 32) (k1_hw43 : k1_chk43 v381), ∀ a, (k1_off65 v381) a + S1x4096.size a ≤ S16384x4096.size a := fun v381 k1_hw43 => k1_hw43

def k1_off66 (v384 : BitVec 32) : Fin 2 → Nat :=
  let c0_i32_197 : BitVec 32 := 0#32
  ![v384.toNat, 0]

def k1_chk44 (v384 : BitVec 32) : Prop :=
  (∀ a, (k1_off66 v384) a + S1x4096.size a ≤ S16384x4096.size a)
instance k1_chk44.dec : ∀ (v384 : BitVec 32), Decidable (k1_chk44 v384) := fun v384 => decidable_of_iff' _ (Iff.of_eq (k1_chk44.eq_1 v384))
theorem k1_off66_inb : ∀ (v384 : BitVec 32) (k1_hw44 : k1_chk44 v384), ∀ a, (k1_off66 v384) a + S1x4096.size a ≤ S16384x4096.size a := fun v384 k1_hw44 => k1_hw44

def k1_off67 (i : grid1.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v397 : BitVec 32 := Scalar.addi v0 c22_i32
  let v398 : Index := Scalar.indexCast v397
  ![v398.toNat]
def k1_off68 (v399 : BitVec 32) : Fin 2 → Nat :=
  let c0_i32_202 : BitVec 32 := 0#32
  ![v399.toNat, 0]

def k1_chk45 (v399 : BitVec 32) : Prop :=
  (∀ a, (k1_off68 v399) a + S1x4096.size a ≤ S16384x4096.size a)
instance k1_chk45.dec : ∀ (v399 : BitVec 32), Decidable (k1_chk45 v399) := fun v399 => decidable_of_iff' _ (Iff.of_eq (k1_chk45.eq_1 v399))
theorem k1_off68_inb : ∀ (v399 : BitVec 32) (k1_hw45 : k1_chk45 v399), ∀ a, (k1_off68 v399) a + S1x4096.size a ≤ S16384x4096.size a := fun v399 k1_hw45 => k1_hw45

def k1_off69 (v402 : BitVec 32) : Fin 2 → Nat :=
  let c0_i32_206 : BitVec 32 := 0#32
  ![v402.toNat, 0]

def k1_chk46 (v402 : BitVec 32) : Prop :=
  (∀ a, (k1_off69 v402) a + S1x4096.size a ≤ S16384x4096.size a)
instance k1_chk46.dec : ∀ (v402 : BitVec 32), Decidable (k1_chk46 v402) := fun v402 => decidable_of_iff' _ (Iff.of_eq (k1_chk46.eq_1 v402))
theorem k1_off69_inb : ∀ (v402 : BitVec 32) (k1_hw46 : k1_chk46 v402), ∀ a, (k1_off69 v402) a + S1x4096.size a ≤ S16384x4096.size a := fun v402 k1_hw46 => k1_hw46

def k1_off70 (i : grid1.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v415 : BitVec 32 := Scalar.addi v0 c23_i32
  let v416 : Index := Scalar.indexCast v415
  ![v416.toNat]
def k1_off71 (v417 : BitVec 32) : Fin 2 → Nat :=
  let c0_i32_211 : BitVec 32 := 0#32
  ![v417.toNat, 0]

def k1_chk47 (v417 : BitVec 32) : Prop :=
  (∀ a, (k1_off71 v417) a + S1x4096.size a ≤ S16384x4096.size a)
instance k1_chk47.dec : ∀ (v417 : BitVec 32), Decidable (k1_chk47 v417) := fun v417 => decidable_of_iff' _ (Iff.of_eq (k1_chk47.eq_1 v417))
theorem k1_off71_inb : ∀ (v417 : BitVec 32) (k1_hw47 : k1_chk47 v417), ∀ a, (k1_off71 v417) a + S1x4096.size a ≤ S16384x4096.size a := fun v417 k1_hw47 => k1_hw47

def k1_off72 (v420 : BitVec 32) : Fin 2 → Nat :=
  let c0_i32_215 : BitVec 32 := 0#32
  ![v420.toNat, 0]

def k1_chk48 (v420 : BitVec 32) : Prop :=
  (∀ a, (k1_off72 v420) a + S1x4096.size a ≤ S16384x4096.size a)
instance k1_chk48.dec : ∀ (v420 : BitVec 32), Decidable (k1_chk48 v420) := fun v420 => decidable_of_iff' _ (Iff.of_eq (k1_chk48.eq_1 v420))
theorem k1_off72_inb : ∀ (v420 : BitVec 32) (k1_hw48 : k1_chk48 v420), ∀ a, (k1_off72 v420) a + S1x4096.size a ≤ S16384x4096.size a := fun v420 k1_hw48 => k1_hw48

def k1_off73 (i : grid1.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v433 : BitVec 32 := Scalar.addi v0 c24_i32
  let v434 : Index := Scalar.indexCast v433
  ![v434.toNat]
def k1_off74 (v435 : BitVec 32) : Fin 2 → Nat :=
  let c0_i32_220 : BitVec 32 := 0#32
  ![v435.toNat, 0]

def k1_chk49 (v435 : BitVec 32) : Prop :=
  (∀ a, (k1_off74 v435) a + S1x4096.size a ≤ S16384x4096.size a)
instance k1_chk49.dec : ∀ (v435 : BitVec 32), Decidable (k1_chk49 v435) := fun v435 => decidable_of_iff' _ (Iff.of_eq (k1_chk49.eq_1 v435))
theorem k1_off74_inb : ∀ (v435 : BitVec 32) (k1_hw49 : k1_chk49 v435), ∀ a, (k1_off74 v435) a + S1x4096.size a ≤ S16384x4096.size a := fun v435 k1_hw49 => k1_hw49

def k1_off75 (v438 : BitVec 32) : Fin 2 → Nat :=
  let c0_i32_224 : BitVec 32 := 0#32
  ![v438.toNat, 0]

def k1_chk50 (v438 : BitVec 32) : Prop :=
  (∀ a, (k1_off75 v438) a + S1x4096.size a ≤ S16384x4096.size a)
instance k1_chk50.dec : ∀ (v438 : BitVec 32), Decidable (k1_chk50 v438) := fun v438 => decidable_of_iff' _ (Iff.of_eq (k1_chk50.eq_1 v438))
theorem k1_off75_inb : ∀ (v438 : BitVec 32) (k1_hw50 : k1_chk50 v438), ∀ a, (k1_off75 v438) a + S1x4096.size a ≤ S16384x4096.size a := fun v438 k1_hw50 => k1_hw50

def k1_off76 (i : grid1.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v451 : BitVec 32 := Scalar.addi v0 c25_i32
  let v452 : Index := Scalar.indexCast v451
  ![v452.toNat]
def k1_off77 (v453 : BitVec 32) : Fin 2 → Nat :=
  let c0_i32_229 : BitVec 32 := 0#32
  ![v453.toNat, 0]

def k1_chk51 (v453 : BitVec 32) : Prop :=
  (∀ a, (k1_off77 v453) a + S1x4096.size a ≤ S16384x4096.size a)
instance k1_chk51.dec : ∀ (v453 : BitVec 32), Decidable (k1_chk51 v453) := fun v453 => decidable_of_iff' _ (Iff.of_eq (k1_chk51.eq_1 v453))
theorem k1_off77_inb : ∀ (v453 : BitVec 32) (k1_hw51 : k1_chk51 v453), ∀ a, (k1_off77 v453) a + S1x4096.size a ≤ S16384x4096.size a := fun v453 k1_hw51 => k1_hw51

def k1_off78 (v456 : BitVec 32) : Fin 2 → Nat :=
  let c0_i32_233 : BitVec 32 := 0#32
  ![v456.toNat, 0]

def k1_chk52 (v456 : BitVec 32) : Prop :=
  (∀ a, (k1_off78 v456) a + S1x4096.size a ≤ S16384x4096.size a)
instance k1_chk52.dec : ∀ (v456 : BitVec 32), Decidable (k1_chk52 v456) := fun v456 => decidable_of_iff' _ (Iff.of_eq (k1_chk52.eq_1 v456))
theorem k1_off78_inb : ∀ (v456 : BitVec 32) (k1_hw52 : k1_chk52 v456), ∀ a, (k1_off78 v456) a + S1x4096.size a ≤ S16384x4096.size a := fun v456 k1_hw52 => k1_hw52

def k1_off79 (i : grid1.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v469 : BitVec 32 := Scalar.addi v0 c26_i32
  let v470 : Index := Scalar.indexCast v469
  ![v470.toNat]
def k1_off80 (v471 : BitVec 32) : Fin 2 → Nat :=
  let c0_i32_238 : BitVec 32 := 0#32
  ![v471.toNat, 0]

def k1_chk53 (v471 : BitVec 32) : Prop :=
  (∀ a, (k1_off80 v471) a + S1x4096.size a ≤ S16384x4096.size a)
instance k1_chk53.dec : ∀ (v471 : BitVec 32), Decidable (k1_chk53 v471) := fun v471 => decidable_of_iff' _ (Iff.of_eq (k1_chk53.eq_1 v471))
theorem k1_off80_inb : ∀ (v471 : BitVec 32) (k1_hw53 : k1_chk53 v471), ∀ a, (k1_off80 v471) a + S1x4096.size a ≤ S16384x4096.size a := fun v471 k1_hw53 => k1_hw53

def k1_off81 (v474 : BitVec 32) : Fin 2 → Nat :=
  let c0_i32_242 : BitVec 32 := 0#32
  ![v474.toNat, 0]

def k1_chk54 (v474 : BitVec 32) : Prop :=
  (∀ a, (k1_off81 v474) a + S1x4096.size a ≤ S16384x4096.size a)
instance k1_chk54.dec : ∀ (v474 : BitVec 32), Decidable (k1_chk54 v474) := fun v474 => decidable_of_iff' _ (Iff.of_eq (k1_chk54.eq_1 v474))
theorem k1_off81_inb : ∀ (v474 : BitVec 32) (k1_hw54 : k1_chk54 v474), ∀ a, (k1_off81 v474) a + S1x4096.size a ≤ S16384x4096.size a := fun v474 k1_hw54 => k1_hw54

def k1_off82 (i : grid1.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v487 : BitVec 32 := Scalar.addi v0 c27_i32
  let v488 : Index := Scalar.indexCast v487
  ![v488.toNat]
def k1_off83 (v489 : BitVec 32) : Fin 2 → Nat :=
  let c0_i32_247 : BitVec 32 := 0#32
  ![v489.toNat, 0]

def k1_chk55 (v489 : BitVec 32) : Prop :=
  (∀ a, (k1_off83 v489) a + S1x4096.size a ≤ S16384x4096.size a)
instance k1_chk55.dec : ∀ (v489 : BitVec 32), Decidable (k1_chk55 v489) := fun v489 => decidable_of_iff' _ (Iff.of_eq (k1_chk55.eq_1 v489))
theorem k1_off83_inb : ∀ (v489 : BitVec 32) (k1_hw55 : k1_chk55 v489), ∀ a, (k1_off83 v489) a + S1x4096.size a ≤ S16384x4096.size a := fun v489 k1_hw55 => k1_hw55

def k1_off84 (v492 : BitVec 32) : Fin 2 → Nat :=
  let c0_i32_251 : BitVec 32 := 0#32
  ![v492.toNat, 0]

def k1_chk56 (v492 : BitVec 32) : Prop :=
  (∀ a, (k1_off84 v492) a + S1x4096.size a ≤ S16384x4096.size a)
instance k1_chk56.dec : ∀ (v492 : BitVec 32), Decidable (k1_chk56 v492) := fun v492 => decidable_of_iff' _ (Iff.of_eq (k1_chk56.eq_1 v492))
theorem k1_off84_inb : ∀ (v492 : BitVec 32) (k1_hw56 : k1_chk56 v492), ∀ a, (k1_off84 v492) a + S1x4096.size a ≤ S16384x4096.size a := fun v492 k1_hw56 => k1_hw56

def k1_off85 (i : grid1.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v505 : BitVec 32 := Scalar.addi v0 c28_i32
  let v506 : Index := Scalar.indexCast v505
  ![v506.toNat]
def k1_off86 (v507 : BitVec 32) : Fin 2 → Nat :=
  let c0_i32_256 : BitVec 32 := 0#32
  ![v507.toNat, 0]

def k1_chk57 (v507 : BitVec 32) : Prop :=
  (∀ a, (k1_off86 v507) a + S1x4096.size a ≤ S16384x4096.size a)
instance k1_chk57.dec : ∀ (v507 : BitVec 32), Decidable (k1_chk57 v507) := fun v507 => decidable_of_iff' _ (Iff.of_eq (k1_chk57.eq_1 v507))
theorem k1_off86_inb : ∀ (v507 : BitVec 32) (k1_hw57 : k1_chk57 v507), ∀ a, (k1_off86 v507) a + S1x4096.size a ≤ S16384x4096.size a := fun v507 k1_hw57 => k1_hw57

def k1_off87 (v510 : BitVec 32) : Fin 2 → Nat :=
  let c0_i32_260 : BitVec 32 := 0#32
  ![v510.toNat, 0]

def k1_chk58 (v510 : BitVec 32) : Prop :=
  (∀ a, (k1_off87 v510) a + S1x4096.size a ≤ S16384x4096.size a)
instance k1_chk58.dec : ∀ (v510 : BitVec 32), Decidable (k1_chk58 v510) := fun v510 => decidable_of_iff' _ (Iff.of_eq (k1_chk58.eq_1 v510))
theorem k1_off87_inb : ∀ (v510 : BitVec 32) (k1_hw58 : k1_chk58 v510), ∀ a, (k1_off87 v510) a + S1x4096.size a ≤ S16384x4096.size a := fun v510 k1_hw58 => k1_hw58

def k1_off88 (i : grid1.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v523 : BitVec 32 := Scalar.addi v0 c29_i32
  let v524 : Index := Scalar.indexCast v523
  ![v524.toNat]
def k1_off89 (v525 : BitVec 32) : Fin 2 → Nat :=
  let c0_i32_265 : BitVec 32 := 0#32
  ![v525.toNat, 0]

def k1_chk59 (v525 : BitVec 32) : Prop :=
  (∀ a, (k1_off89 v525) a + S1x4096.size a ≤ S16384x4096.size a)
instance k1_chk59.dec : ∀ (v525 : BitVec 32), Decidable (k1_chk59 v525) := fun v525 => decidable_of_iff' _ (Iff.of_eq (k1_chk59.eq_1 v525))
theorem k1_off89_inb : ∀ (v525 : BitVec 32) (k1_hw59 : k1_chk59 v525), ∀ a, (k1_off89 v525) a + S1x4096.size a ≤ S16384x4096.size a := fun v525 k1_hw59 => k1_hw59

def k1_off90 (v528 : BitVec 32) : Fin 2 → Nat :=
  let c0_i32_269 : BitVec 32 := 0#32
  ![v528.toNat, 0]

def k1_chk60 (v528 : BitVec 32) : Prop :=
  (∀ a, (k1_off90 v528) a + S1x4096.size a ≤ S16384x4096.size a)
instance k1_chk60.dec : ∀ (v528 : BitVec 32), Decidable (k1_chk60 v528) := fun v528 => decidable_of_iff' _ (Iff.of_eq (k1_chk60.eq_1 v528))
theorem k1_off90_inb : ∀ (v528 : BitVec 32) (k1_hw60 : k1_chk60 v528), ∀ a, (k1_off90 v528) a + S1x4096.size a ≤ S16384x4096.size a := fun v528 k1_hw60 => k1_hw60

def k1_off91 (i : grid1.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v541 : BitVec 32 := Scalar.addi v0 c30_i32
  let v542 : Index := Scalar.indexCast v541
  ![v542.toNat]
def k1_off92 (v543 : BitVec 32) : Fin 2 → Nat :=
  let c0_i32_274 : BitVec 32 := 0#32
  ![v543.toNat, 0]

def k1_chk61 (v543 : BitVec 32) : Prop :=
  (∀ a, (k1_off92 v543) a + S1x4096.size a ≤ S16384x4096.size a)
instance k1_chk61.dec : ∀ (v543 : BitVec 32), Decidable (k1_chk61 v543) := fun v543 => decidable_of_iff' _ (Iff.of_eq (k1_chk61.eq_1 v543))
theorem k1_off92_inb : ∀ (v543 : BitVec 32) (k1_hw61 : k1_chk61 v543), ∀ a, (k1_off92 v543) a + S1x4096.size a ≤ S16384x4096.size a := fun v543 k1_hw61 => k1_hw61

def k1_off93 (v546 : BitVec 32) : Fin 2 → Nat :=
  let c0_i32_278 : BitVec 32 := 0#32
  ![v546.toNat, 0]

def k1_chk62 (v546 : BitVec 32) : Prop :=
  (∀ a, (k1_off93 v546) a + S1x4096.size a ≤ S16384x4096.size a)
instance k1_chk62.dec : ∀ (v546 : BitVec 32), Decidable (k1_chk62 v546) := fun v546 => decidable_of_iff' _ (Iff.of_eq (k1_chk62.eq_1 v546))
theorem k1_off93_inb : ∀ (v546 : BitVec 32) (k1_hw62 : k1_chk62 v546), ∀ a, (k1_off93 v546) a + S1x4096.size a ≤ S16384x4096.size a := fun v546 k1_hw62 => k1_hw62

def k1_off94 (i : grid1.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v559 : BitVec 32 := Scalar.addi v0 c31_i32
  let v560 : Index := Scalar.indexCast v559
  ![v560.toNat]
def k1_off95 (v561 : BitVec 32) : Fin 2 → Nat :=
  let c0_i32_283 : BitVec 32 := 0#32
  ![v561.toNat, 0]

def k1_chk63 (v561 : BitVec 32) : Prop :=
  (∀ a, (k1_off95 v561) a + S1x4096.size a ≤ S16384x4096.size a)
instance k1_chk63.dec : ∀ (v561 : BitVec 32), Decidable (k1_chk63 v561) := fun v561 => decidable_of_iff' _ (Iff.of_eq (k1_chk63.eq_1 v561))
theorem k1_off95_inb : ∀ (v561 : BitVec 32) (k1_hw63 : k1_chk63 v561), ∀ a, (k1_off95 v561) a + S1x4096.size a ≤ S16384x4096.size a := fun v561 k1_hw63 => k1_hw63

def k1_off96 (v564 : BitVec 32) : Fin 2 → Nat :=
  let c0_i32_287 : BitVec 32 := 0#32
  ![v564.toNat, 0]

def k1_chk64 (v564 : BitVec 32) : Prop :=
  (∀ a, (k1_off96 v564) a + S1x4096.size a ≤ S16384x4096.size a)
instance k1_chk64.dec : ∀ (v564 : BitVec 32), Decidable (k1_chk64 v564) := fun v564 => decidable_of_iff' _ (Iff.of_eq (k1_chk64.eq_1 v564))
theorem k1_off96_inb : ∀ (v564 : BitVec 32) (k1_hw64 : k1_chk64 v564), ∀ a, (k1_off96 v564) a + S1x4096.size a ≤ S16384x4096.size a := fun v564 k1_hw64 => k1_hw64

def k1_off97 (i : grid1.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v961 : BitVec 32 := Scalar.addi v0 c32_i32
  let v962 : Index := Scalar.indexCast v961
  ![v962.toNat]
def k1_off98 (v963 : BitVec 32) : Fin 2 → Nat :=
  let c0_i32_612 : BitVec 32 := 0#32
  ![v963.toNat, 0]

def k1_chk65 (v963 : BitVec 32) : Prop :=
  (∀ a, (k1_off98 v963) a + S1x4096.size a ≤ S16384x4096.size a)
instance k1_chk65.dec : ∀ (v963 : BitVec 32), Decidable (k1_chk65 v963) := fun v963 => decidable_of_iff' _ (Iff.of_eq (k1_chk65.eq_1 v963))
theorem k1_off98_inb : ∀ (v963 : BitVec 32) (k1_hw65 : k1_chk65 v963), ∀ a, (k1_off98 v963) a + S1x4096.size a ≤ S16384x4096.size a := fun v963 k1_hw65 => k1_hw65

def k1_off99 (v966 : BitVec 32) : Fin 2 → Nat :=
  let c0_i32_616 : BitVec 32 := 0#32
  ![v966.toNat, 0]

def k1_chk66 (v966 : BitVec 32) : Prop :=
  (∀ a, (k1_off99 v966) a + S1x4096.size a ≤ S16384x4096.size a)
instance k1_chk66.dec : ∀ (v966 : BitVec 32), Decidable (k1_chk66 v966) := fun v966 => decidable_of_iff' _ (Iff.of_eq (k1_chk66.eq_1 v966))
theorem k1_off99_inb : ∀ (v966 : BitVec 32) (k1_hw66 : k1_chk66 v966), ∀ a, (k1_off99 v966) a + S1x4096.size a ≤ S16384x4096.size a := fun v966 k1_hw66 => k1_hw66

def k1_off100 (i : grid1.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v979 : BitVec 32 := Scalar.addi v0 c33_i32
  let v980 : Index := Scalar.indexCast v979
  ![v980.toNat]
def k1_off101 (v981 : BitVec 32) : Fin 2 → Nat :=
  let c0_i32_621 : BitVec 32 := 0#32
  ![v981.toNat, 0]

def k1_chk67 (v981 : BitVec 32) : Prop :=
  (∀ a, (k1_off101 v981) a + S1x4096.size a ≤ S16384x4096.size a)
instance k1_chk67.dec : ∀ (v981 : BitVec 32), Decidable (k1_chk67 v981) := fun v981 => decidable_of_iff' _ (Iff.of_eq (k1_chk67.eq_1 v981))
theorem k1_off101_inb : ∀ (v981 : BitVec 32) (k1_hw67 : k1_chk67 v981), ∀ a, (k1_off101 v981) a + S1x4096.size a ≤ S16384x4096.size a := fun v981 k1_hw67 => k1_hw67

def k1_off102 (v984 : BitVec 32) : Fin 2 → Nat :=
  let c0_i32_625 : BitVec 32 := 0#32
  ![v984.toNat, 0]

def k1_chk68 (v984 : BitVec 32) : Prop :=
  (∀ a, (k1_off102 v984) a + S1x4096.size a ≤ S16384x4096.size a)
instance k1_chk68.dec : ∀ (v984 : BitVec 32), Decidable (k1_chk68 v984) := fun v984 => decidable_of_iff' _ (Iff.of_eq (k1_chk68.eq_1 v984))
theorem k1_off102_inb : ∀ (v984 : BitVec 32) (k1_hw68 : k1_chk68 v984), ∀ a, (k1_off102 v984) a + S1x4096.size a ≤ S16384x4096.size a := fun v984 k1_hw68 => k1_hw68

def k1_off103 (i : grid1.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v997 : BitVec 32 := Scalar.addi v0 c34_i32
  let v998 : Index := Scalar.indexCast v997
  ![v998.toNat]
def k1_off104 (v999 : BitVec 32) : Fin 2 → Nat :=
  let c0_i32_630 : BitVec 32 := 0#32
  ![v999.toNat, 0]

def k1_chk69 (v999 : BitVec 32) : Prop :=
  (∀ a, (k1_off104 v999) a + S1x4096.size a ≤ S16384x4096.size a)
instance k1_chk69.dec : ∀ (v999 : BitVec 32), Decidable (k1_chk69 v999) := fun v999 => decidable_of_iff' _ (Iff.of_eq (k1_chk69.eq_1 v999))
theorem k1_off104_inb : ∀ (v999 : BitVec 32) (k1_hw69 : k1_chk69 v999), ∀ a, (k1_off104 v999) a + S1x4096.size a ≤ S16384x4096.size a := fun v999 k1_hw69 => k1_hw69

def k1_off105 (v1002 : BitVec 32) : Fin 2 → Nat :=
  let c0_i32_634 : BitVec 32 := 0#32
  ![v1002.toNat, 0]

def k1_chk70 (v1002 : BitVec 32) : Prop :=
  (∀ a, (k1_off105 v1002) a + S1x4096.size a ≤ S16384x4096.size a)
instance k1_chk70.dec : ∀ (v1002 : BitVec 32), Decidable (k1_chk70 v1002) := fun v1002 => decidable_of_iff' _ (Iff.of_eq (k1_chk70.eq_1 v1002))
theorem k1_off105_inb : ∀ (v1002 : BitVec 32) (k1_hw70 : k1_chk70 v1002), ∀ a, (k1_off105 v1002) a + S1x4096.size a ≤ S16384x4096.size a := fun v1002 k1_hw70 => k1_hw70

def k1_off106 (i : grid1.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v1015 : BitVec 32 := Scalar.addi v0 c35_i32
  let v1016 : Index := Scalar.indexCast v1015
  ![v1016.toNat]
def k1_off107 (v1017 : BitVec 32) : Fin 2 → Nat :=
  let c0_i32_639 : BitVec 32 := 0#32
  ![v1017.toNat, 0]

def k1_chk71 (v1017 : BitVec 32) : Prop :=
  (∀ a, (k1_off107 v1017) a + S1x4096.size a ≤ S16384x4096.size a)
instance k1_chk71.dec : ∀ (v1017 : BitVec 32), Decidable (k1_chk71 v1017) := fun v1017 => decidable_of_iff' _ (Iff.of_eq (k1_chk71.eq_1 v1017))
theorem k1_off107_inb : ∀ (v1017 : BitVec 32) (k1_hw71 : k1_chk71 v1017), ∀ a, (k1_off107 v1017) a + S1x4096.size a ≤ S16384x4096.size a := fun v1017 k1_hw71 => k1_hw71

def k1_off108 (v1020 : BitVec 32) : Fin 2 → Nat :=
  let c0_i32_643 : BitVec 32 := 0#32
  ![v1020.toNat, 0]

def k1_chk72 (v1020 : BitVec 32) : Prop :=
  (∀ a, (k1_off108 v1020) a + S1x4096.size a ≤ S16384x4096.size a)
instance k1_chk72.dec : ∀ (v1020 : BitVec 32), Decidable (k1_chk72 v1020) := fun v1020 => decidable_of_iff' _ (Iff.of_eq (k1_chk72.eq_1 v1020))
theorem k1_off108_inb : ∀ (v1020 : BitVec 32) (k1_hw72 : k1_chk72 v1020), ∀ a, (k1_off108 v1020) a + S1x4096.size a ≤ S16384x4096.size a := fun v1020 k1_hw72 => k1_hw72

def k1_off109 (i : grid1.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v1033 : BitVec 32 := Scalar.addi v0 c36_i32
  let v1034 : Index := Scalar.indexCast v1033
  ![v1034.toNat]
def k1_off110 (v1035 : BitVec 32) : Fin 2 → Nat :=
  let c0_i32_648 : BitVec 32 := 0#32
  ![v1035.toNat, 0]

def k1_chk73 (v1035 : BitVec 32) : Prop :=
  (∀ a, (k1_off110 v1035) a + S1x4096.size a ≤ S16384x4096.size a)
instance k1_chk73.dec : ∀ (v1035 : BitVec 32), Decidable (k1_chk73 v1035) := fun v1035 => decidable_of_iff' _ (Iff.of_eq (k1_chk73.eq_1 v1035))
theorem k1_off110_inb : ∀ (v1035 : BitVec 32) (k1_hw73 : k1_chk73 v1035), ∀ a, (k1_off110 v1035) a + S1x4096.size a ≤ S16384x4096.size a := fun v1035 k1_hw73 => k1_hw73

def k1_off111 (v1038 : BitVec 32) : Fin 2 → Nat :=
  let c0_i32_652 : BitVec 32 := 0#32
  ![v1038.toNat, 0]

def k1_chk74 (v1038 : BitVec 32) : Prop :=
  (∀ a, (k1_off111 v1038) a + S1x4096.size a ≤ S16384x4096.size a)
instance k1_chk74.dec : ∀ (v1038 : BitVec 32), Decidable (k1_chk74 v1038) := fun v1038 => decidable_of_iff' _ (Iff.of_eq (k1_chk74.eq_1 v1038))
theorem k1_off111_inb : ∀ (v1038 : BitVec 32) (k1_hw74 : k1_chk74 v1038), ∀ a, (k1_off111 v1038) a + S1x4096.size a ≤ S16384x4096.size a := fun v1038 k1_hw74 => k1_hw74

def k1_off112 (i : grid1.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v1051 : BitVec 32 := Scalar.addi v0 c37_i32
  let v1052 : Index := Scalar.indexCast v1051
  ![v1052.toNat]
def k1_off113 (v1053 : BitVec 32) : Fin 2 → Nat :=
  let c0_i32_657 : BitVec 32 := 0#32
  ![v1053.toNat, 0]

def k1_chk75 (v1053 : BitVec 32) : Prop :=
  (∀ a, (k1_off113 v1053) a + S1x4096.size a ≤ S16384x4096.size a)
instance k1_chk75.dec : ∀ (v1053 : BitVec 32), Decidable (k1_chk75 v1053) := fun v1053 => decidable_of_iff' _ (Iff.of_eq (k1_chk75.eq_1 v1053))
theorem k1_off113_inb : ∀ (v1053 : BitVec 32) (k1_hw75 : k1_chk75 v1053), ∀ a, (k1_off113 v1053) a + S1x4096.size a ≤ S16384x4096.size a := fun v1053 k1_hw75 => k1_hw75

def k1_off114 (v1056 : BitVec 32) : Fin 2 → Nat :=
  let c0_i32_661 : BitVec 32 := 0#32
  ![v1056.toNat, 0]

def k1_chk76 (v1056 : BitVec 32) : Prop :=
  (∀ a, (k1_off114 v1056) a + S1x4096.size a ≤ S16384x4096.size a)
instance k1_chk76.dec : ∀ (v1056 : BitVec 32), Decidable (k1_chk76 v1056) := fun v1056 => decidable_of_iff' _ (Iff.of_eq (k1_chk76.eq_1 v1056))
theorem k1_off114_inb : ∀ (v1056 : BitVec 32) (k1_hw76 : k1_chk76 v1056), ∀ a, (k1_off114 v1056) a + S1x4096.size a ≤ S16384x4096.size a := fun v1056 k1_hw76 => k1_hw76

def k1_off115 (i : grid1.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v1069 : BitVec 32 := Scalar.addi v0 c38_i32
  let v1070 : Index := Scalar.indexCast v1069
  ![v1070.toNat]
def k1_off116 (v1071 : BitVec 32) : Fin 2 → Nat :=
  let c0_i32_666 : BitVec 32 := 0#32
  ![v1071.toNat, 0]

def k1_chk77 (v1071 : BitVec 32) : Prop :=
  (∀ a, (k1_off116 v1071) a + S1x4096.size a ≤ S16384x4096.size a)
instance k1_chk77.dec : ∀ (v1071 : BitVec 32), Decidable (k1_chk77 v1071) := fun v1071 => decidable_of_iff' _ (Iff.of_eq (k1_chk77.eq_1 v1071))
theorem k1_off116_inb : ∀ (v1071 : BitVec 32) (k1_hw77 : k1_chk77 v1071), ∀ a, (k1_off116 v1071) a + S1x4096.size a ≤ S16384x4096.size a := fun v1071 k1_hw77 => k1_hw77

def k1_off117 (v1074 : BitVec 32) : Fin 2 → Nat :=
  let c0_i32_670 : BitVec 32 := 0#32
  ![v1074.toNat, 0]

def k1_chk78 (v1074 : BitVec 32) : Prop :=
  (∀ a, (k1_off117 v1074) a + S1x4096.size a ≤ S16384x4096.size a)
instance k1_chk78.dec : ∀ (v1074 : BitVec 32), Decidable (k1_chk78 v1074) := fun v1074 => decidable_of_iff' _ (Iff.of_eq (k1_chk78.eq_1 v1074))
theorem k1_off117_inb : ∀ (v1074 : BitVec 32) (k1_hw78 : k1_chk78 v1074), ∀ a, (k1_off117 v1074) a + S1x4096.size a ≤ S16384x4096.size a := fun v1074 k1_hw78 => k1_hw78

def k1_off118 (i : grid1.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v1087 : BitVec 32 := Scalar.addi v0 c39_i32
  let v1088 : Index := Scalar.indexCast v1087
  ![v1088.toNat]
def k1_off119 (v1089 : BitVec 32) : Fin 2 → Nat :=
  let c0_i32_675 : BitVec 32 := 0#32
  ![v1089.toNat, 0]

def k1_chk79 (v1089 : BitVec 32) : Prop :=
  (∀ a, (k1_off119 v1089) a + S1x4096.size a ≤ S16384x4096.size a)
instance k1_chk79.dec : ∀ (v1089 : BitVec 32), Decidable (k1_chk79 v1089) := fun v1089 => decidable_of_iff' _ (Iff.of_eq (k1_chk79.eq_1 v1089))
theorem k1_off119_inb : ∀ (v1089 : BitVec 32) (k1_hw79 : k1_chk79 v1089), ∀ a, (k1_off119 v1089) a + S1x4096.size a ≤ S16384x4096.size a := fun v1089 k1_hw79 => k1_hw79

def k1_off120 (v1092 : BitVec 32) : Fin 2 → Nat :=
  let c0_i32_679 : BitVec 32 := 0#32
  ![v1092.toNat, 0]

def k1_chk80 (v1092 : BitVec 32) : Prop :=
  (∀ a, (k1_off120 v1092) a + S1x4096.size a ≤ S16384x4096.size a)
instance k1_chk80.dec : ∀ (v1092 : BitVec 32), Decidable (k1_chk80 v1092) := fun v1092 => decidable_of_iff' _ (Iff.of_eq (k1_chk80.eq_1 v1092))
theorem k1_off120_inb : ∀ (v1092 : BitVec 32) (k1_hw80 : k1_chk80 v1092), ∀ a, (k1_off120 v1092) a + S1x4096.size a ≤ S16384x4096.size a := fun v1092 k1_hw80 => k1_hw80

def k1_off121 (i : grid1.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v1105 : BitVec 32 := Scalar.addi v0 c40_i32
  let v1106 : Index := Scalar.indexCast v1105
  ![v1106.toNat]
def k1_off122 (v1107 : BitVec 32) : Fin 2 → Nat :=
  let c0_i32_684 : BitVec 32 := 0#32
  ![v1107.toNat, 0]

def k1_chk81 (v1107 : BitVec 32) : Prop :=
  (∀ a, (k1_off122 v1107) a + S1x4096.size a ≤ S16384x4096.size a)
instance k1_chk81.dec : ∀ (v1107 : BitVec 32), Decidable (k1_chk81 v1107) := fun v1107 => decidable_of_iff' _ (Iff.of_eq (k1_chk81.eq_1 v1107))
theorem k1_off122_inb : ∀ (v1107 : BitVec 32) (k1_hw81 : k1_chk81 v1107), ∀ a, (k1_off122 v1107) a + S1x4096.size a ≤ S16384x4096.size a := fun v1107 k1_hw81 => k1_hw81

def k1_off123 (v1110 : BitVec 32) : Fin 2 → Nat :=
  let c0_i32_688 : BitVec 32 := 0#32
  ![v1110.toNat, 0]

def k1_chk82 (v1110 : BitVec 32) : Prop :=
  (∀ a, (k1_off123 v1110) a + S1x4096.size a ≤ S16384x4096.size a)
instance k1_chk82.dec : ∀ (v1110 : BitVec 32), Decidable (k1_chk82 v1110) := fun v1110 => decidable_of_iff' _ (Iff.of_eq (k1_chk82.eq_1 v1110))
theorem k1_off123_inb : ∀ (v1110 : BitVec 32) (k1_hw82 : k1_chk82 v1110), ∀ a, (k1_off123 v1110) a + S1x4096.size a ≤ S16384x4096.size a := fun v1110 k1_hw82 => k1_hw82

def k1_off124 (i : grid1.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v1123 : BitVec 32 := Scalar.addi v0 c41_i32
  let v1124 : Index := Scalar.indexCast v1123
  ![v1124.toNat]
def k1_off125 (v1125 : BitVec 32) : Fin 2 → Nat :=
  let c0_i32_693 : BitVec 32 := 0#32
  ![v1125.toNat, 0]

def k1_chk83 (v1125 : BitVec 32) : Prop :=
  (∀ a, (k1_off125 v1125) a + S1x4096.size a ≤ S16384x4096.size a)
instance k1_chk83.dec : ∀ (v1125 : BitVec 32), Decidable (k1_chk83 v1125) := fun v1125 => decidable_of_iff' _ (Iff.of_eq (k1_chk83.eq_1 v1125))
theorem k1_off125_inb : ∀ (v1125 : BitVec 32) (k1_hw83 : k1_chk83 v1125), ∀ a, (k1_off125 v1125) a + S1x4096.size a ≤ S16384x4096.size a := fun v1125 k1_hw83 => k1_hw83

def k1_off126 (v1128 : BitVec 32) : Fin 2 → Nat :=
  let c0_i32_697 : BitVec 32 := 0#32
  ![v1128.toNat, 0]

def k1_chk84 (v1128 : BitVec 32) : Prop :=
  (∀ a, (k1_off126 v1128) a + S1x4096.size a ≤ S16384x4096.size a)
instance k1_chk84.dec : ∀ (v1128 : BitVec 32), Decidable (k1_chk84 v1128) := fun v1128 => decidable_of_iff' _ (Iff.of_eq (k1_chk84.eq_1 v1128))
theorem k1_off126_inb : ∀ (v1128 : BitVec 32) (k1_hw84 : k1_chk84 v1128), ∀ a, (k1_off126 v1128) a + S1x4096.size a ≤ S16384x4096.size a := fun v1128 k1_hw84 => k1_hw84

def k1_off127 (i : grid1.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v1141 : BitVec 32 := Scalar.addi v0 c42_i32
  let v1142 : Index := Scalar.indexCast v1141
  ![v1142.toNat]
def k1_off128 (v1143 : BitVec 32) : Fin 2 → Nat :=
  let c0_i32_702 : BitVec 32 := 0#32
  ![v1143.toNat, 0]

def k1_chk85 (v1143 : BitVec 32) : Prop :=
  (∀ a, (k1_off128 v1143) a + S1x4096.size a ≤ S16384x4096.size a)
instance k1_chk85.dec : ∀ (v1143 : BitVec 32), Decidable (k1_chk85 v1143) := fun v1143 => decidable_of_iff' _ (Iff.of_eq (k1_chk85.eq_1 v1143))
theorem k1_off128_inb : ∀ (v1143 : BitVec 32) (k1_hw85 : k1_chk85 v1143), ∀ a, (k1_off128 v1143) a + S1x4096.size a ≤ S16384x4096.size a := fun v1143 k1_hw85 => k1_hw85

def k1_off129 (v1146 : BitVec 32) : Fin 2 → Nat :=
  let c0_i32_706 : BitVec 32 := 0#32
  ![v1146.toNat, 0]

def k1_chk86 (v1146 : BitVec 32) : Prop :=
  (∀ a, (k1_off129 v1146) a + S1x4096.size a ≤ S16384x4096.size a)
instance k1_chk86.dec : ∀ (v1146 : BitVec 32), Decidable (k1_chk86 v1146) := fun v1146 => decidable_of_iff' _ (Iff.of_eq (k1_chk86.eq_1 v1146))
theorem k1_off129_inb : ∀ (v1146 : BitVec 32) (k1_hw86 : k1_chk86 v1146), ∀ a, (k1_off129 v1146) a + S1x4096.size a ≤ S16384x4096.size a := fun v1146 k1_hw86 => k1_hw86

def k1_off130 (i : grid1.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v1159 : BitVec 32 := Scalar.addi v0 c43_i32
  let v1160 : Index := Scalar.indexCast v1159
  ![v1160.toNat]
def k1_off131 (v1161 : BitVec 32) : Fin 2 → Nat :=
  let c0_i32_711 : BitVec 32 := 0#32
  ![v1161.toNat, 0]

def k1_chk87 (v1161 : BitVec 32) : Prop :=
  (∀ a, (k1_off131 v1161) a + S1x4096.size a ≤ S16384x4096.size a)
instance k1_chk87.dec : ∀ (v1161 : BitVec 32), Decidable (k1_chk87 v1161) := fun v1161 => decidable_of_iff' _ (Iff.of_eq (k1_chk87.eq_1 v1161))
theorem k1_off131_inb : ∀ (v1161 : BitVec 32) (k1_hw87 : k1_chk87 v1161), ∀ a, (k1_off131 v1161) a + S1x4096.size a ≤ S16384x4096.size a := fun v1161 k1_hw87 => k1_hw87

def k1_off132 (v1164 : BitVec 32) : Fin 2 → Nat :=
  let c0_i32_715 : BitVec 32 := 0#32
  ![v1164.toNat, 0]

def k1_chk88 (v1164 : BitVec 32) : Prop :=
  (∀ a, (k1_off132 v1164) a + S1x4096.size a ≤ S16384x4096.size a)
instance k1_chk88.dec : ∀ (v1164 : BitVec 32), Decidable (k1_chk88 v1164) := fun v1164 => decidable_of_iff' _ (Iff.of_eq (k1_chk88.eq_1 v1164))
theorem k1_off132_inb : ∀ (v1164 : BitVec 32) (k1_hw88 : k1_chk88 v1164), ∀ a, (k1_off132 v1164) a + S1x4096.size a ≤ S16384x4096.size a := fun v1164 k1_hw88 => k1_hw88

def k1_off133 (i : grid1.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v1177 : BitVec 32 := Scalar.addi v0 c44_i32
  let v1178 : Index := Scalar.indexCast v1177
  ![v1178.toNat]
def k1_off134 (v1179 : BitVec 32) : Fin 2 → Nat :=
  let c0_i32_720 : BitVec 32 := 0#32
  ![v1179.toNat, 0]

def k1_chk89 (v1179 : BitVec 32) : Prop :=
  (∀ a, (k1_off134 v1179) a + S1x4096.size a ≤ S16384x4096.size a)
instance k1_chk89.dec : ∀ (v1179 : BitVec 32), Decidable (k1_chk89 v1179) := fun v1179 => decidable_of_iff' _ (Iff.of_eq (k1_chk89.eq_1 v1179))
theorem k1_off134_inb : ∀ (v1179 : BitVec 32) (k1_hw89 : k1_chk89 v1179), ∀ a, (k1_off134 v1179) a + S1x4096.size a ≤ S16384x4096.size a := fun v1179 k1_hw89 => k1_hw89

def k1_off135 (v1182 : BitVec 32) : Fin 2 → Nat :=
  let c0_i32_724 : BitVec 32 := 0#32
  ![v1182.toNat, 0]

def k1_chk90 (v1182 : BitVec 32) : Prop :=
  (∀ a, (k1_off135 v1182) a + S1x4096.size a ≤ S16384x4096.size a)
instance k1_chk90.dec : ∀ (v1182 : BitVec 32), Decidable (k1_chk90 v1182) := fun v1182 => decidable_of_iff' _ (Iff.of_eq (k1_chk90.eq_1 v1182))
theorem k1_off135_inb : ∀ (v1182 : BitVec 32) (k1_hw90 : k1_chk90 v1182), ∀ a, (k1_off135 v1182) a + S1x4096.size a ≤ S16384x4096.size a := fun v1182 k1_hw90 => k1_hw90

def k1_off136 (i : grid1.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v1195 : BitVec 32 := Scalar.addi v0 c45_i32
  let v1196 : Index := Scalar.indexCast v1195
  ![v1196.toNat]
def k1_off137 (v1197 : BitVec 32) : Fin 2 → Nat :=
  let c0_i32_729 : BitVec 32 := 0#32
  ![v1197.toNat, 0]

def k1_chk91 (v1197 : BitVec 32) : Prop :=
  (∀ a, (k1_off137 v1197) a + S1x4096.size a ≤ S16384x4096.size a)
instance k1_chk91.dec : ∀ (v1197 : BitVec 32), Decidable (k1_chk91 v1197) := fun v1197 => decidable_of_iff' _ (Iff.of_eq (k1_chk91.eq_1 v1197))
theorem k1_off137_inb : ∀ (v1197 : BitVec 32) (k1_hw91 : k1_chk91 v1197), ∀ a, (k1_off137 v1197) a + S1x4096.size a ≤ S16384x4096.size a := fun v1197 k1_hw91 => k1_hw91

def k1_off138 (v1200 : BitVec 32) : Fin 2 → Nat :=
  let c0_i32_733 : BitVec 32 := 0#32
  ![v1200.toNat, 0]

def k1_chk92 (v1200 : BitVec 32) : Prop :=
  (∀ a, (k1_off138 v1200) a + S1x4096.size a ≤ S16384x4096.size a)
instance k1_chk92.dec : ∀ (v1200 : BitVec 32), Decidable (k1_chk92 v1200) := fun v1200 => decidable_of_iff' _ (Iff.of_eq (k1_chk92.eq_1 v1200))
theorem k1_off138_inb : ∀ (v1200 : BitVec 32) (k1_hw92 : k1_chk92 v1200), ∀ a, (k1_off138 v1200) a + S1x4096.size a ≤ S16384x4096.size a := fun v1200 k1_hw92 => k1_hw92

def k1_off139 (i : grid1.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v1213 : BitVec 32 := Scalar.addi v0 c46_i32
  let v1214 : Index := Scalar.indexCast v1213
  ![v1214.toNat]
def k1_off140 (v1215 : BitVec 32) : Fin 2 → Nat :=
  let c0_i32_738 : BitVec 32 := 0#32
  ![v1215.toNat, 0]

def k1_chk93 (v1215 : BitVec 32) : Prop :=
  (∀ a, (k1_off140 v1215) a + S1x4096.size a ≤ S16384x4096.size a)
instance k1_chk93.dec : ∀ (v1215 : BitVec 32), Decidable (k1_chk93 v1215) := fun v1215 => decidable_of_iff' _ (Iff.of_eq (k1_chk93.eq_1 v1215))
theorem k1_off140_inb : ∀ (v1215 : BitVec 32) (k1_hw93 : k1_chk93 v1215), ∀ a, (k1_off140 v1215) a + S1x4096.size a ≤ S16384x4096.size a := fun v1215 k1_hw93 => k1_hw93

def k1_off141 (v1218 : BitVec 32) : Fin 2 → Nat :=
  let c0_i32_742 : BitVec 32 := 0#32
  ![v1218.toNat, 0]

def k1_chk94 (v1218 : BitVec 32) : Prop :=
  (∀ a, (k1_off141 v1218) a + S1x4096.size a ≤ S16384x4096.size a)
instance k1_chk94.dec : ∀ (v1218 : BitVec 32), Decidable (k1_chk94 v1218) := fun v1218 => decidable_of_iff' _ (Iff.of_eq (k1_chk94.eq_1 v1218))
theorem k1_off141_inb : ∀ (v1218 : BitVec 32) (k1_hw94 : k1_chk94 v1218), ∀ a, (k1_off141 v1218) a + S1x4096.size a ≤ S16384x4096.size a := fun v1218 k1_hw94 => k1_hw94

def k1_off142 (i : grid1.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v1231 : BitVec 32 := Scalar.addi v0 c47_i32
  let v1232 : Index := Scalar.indexCast v1231
  ![v1232.toNat]
def k1_off143 (v1233 : BitVec 32) : Fin 2 → Nat :=
  let c0_i32_747 : BitVec 32 := 0#32
  ![v1233.toNat, 0]

def k1_chk95 (v1233 : BitVec 32) : Prop :=
  (∀ a, (k1_off143 v1233) a + S1x4096.size a ≤ S16384x4096.size a)
instance k1_chk95.dec : ∀ (v1233 : BitVec 32), Decidable (k1_chk95 v1233) := fun v1233 => decidable_of_iff' _ (Iff.of_eq (k1_chk95.eq_1 v1233))
theorem k1_off143_inb : ∀ (v1233 : BitVec 32) (k1_hw95 : k1_chk95 v1233), ∀ a, (k1_off143 v1233) a + S1x4096.size a ≤ S16384x4096.size a := fun v1233 k1_hw95 => k1_hw95

def k1_off144 (v1236 : BitVec 32) : Fin 2 → Nat :=
  let c0_i32_751 : BitVec 32 := 0#32
  ![v1236.toNat, 0]

def k1_chk96 (v1236 : BitVec 32) : Prop :=
  (∀ a, (k1_off144 v1236) a + S1x4096.size a ≤ S16384x4096.size a)
instance k1_chk96.dec : ∀ (v1236 : BitVec 32), Decidable (k1_chk96 v1236) := fun v1236 => decidable_of_iff' _ (Iff.of_eq (k1_chk96.eq_1 v1236))
theorem k1_off144_inb : ∀ (v1236 : BitVec 32) (k1_hw96 : k1_chk96 v1236), ∀ a, (k1_off144 v1236) a + S1x4096.size a ≤ S16384x4096.size a := fun v1236 k1_hw96 => k1_hw96

def k1_off145 (i : grid1.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v1249 : BitVec 32 := Scalar.addi v0 c48_i32
  let v1250 : Index := Scalar.indexCast v1249
  ![v1250.toNat]
def k1_off146 (v1251 : BitVec 32) : Fin 2 → Nat :=
  let c0_i32_756 : BitVec 32 := 0#32
  ![v1251.toNat, 0]

def k1_chk97 (v1251 : BitVec 32) : Prop :=
  (∀ a, (k1_off146 v1251) a + S1x4096.size a ≤ S16384x4096.size a)
instance k1_chk97.dec : ∀ (v1251 : BitVec 32), Decidable (k1_chk97 v1251) := fun v1251 => decidable_of_iff' _ (Iff.of_eq (k1_chk97.eq_1 v1251))
theorem k1_off146_inb : ∀ (v1251 : BitVec 32) (k1_hw97 : k1_chk97 v1251), ∀ a, (k1_off146 v1251) a + S1x4096.size a ≤ S16384x4096.size a := fun v1251 k1_hw97 => k1_hw97

def k1_off147 (v1254 : BitVec 32) : Fin 2 → Nat :=
  let c0_i32_760 : BitVec 32 := 0#32
  ![v1254.toNat, 0]

def k1_chk98 (v1254 : BitVec 32) : Prop :=
  (∀ a, (k1_off147 v1254) a + S1x4096.size a ≤ S16384x4096.size a)
instance k1_chk98.dec : ∀ (v1254 : BitVec 32), Decidable (k1_chk98 v1254) := fun v1254 => decidable_of_iff' _ (Iff.of_eq (k1_chk98.eq_1 v1254))
theorem k1_off147_inb : ∀ (v1254 : BitVec 32) (k1_hw98 : k1_chk98 v1254), ∀ a, (k1_off147 v1254) a + S1x4096.size a ≤ S16384x4096.size a := fun v1254 k1_hw98 => k1_hw98

def k1_off148 (i : grid1.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v1267 : BitVec 32 := Scalar.addi v0 c49_i32
  let v1268 : Index := Scalar.indexCast v1267
  ![v1268.toNat]
def k1_off149 (v1269 : BitVec 32) : Fin 2 → Nat :=
  let c0_i32_765 : BitVec 32 := 0#32
  ![v1269.toNat, 0]

def k1_chk99 (v1269 : BitVec 32) : Prop :=
  (∀ a, (k1_off149 v1269) a + S1x4096.size a ≤ S16384x4096.size a)
instance k1_chk99.dec : ∀ (v1269 : BitVec 32), Decidable (k1_chk99 v1269) := fun v1269 => decidable_of_iff' _ (Iff.of_eq (k1_chk99.eq_1 v1269))
theorem k1_off149_inb : ∀ (v1269 : BitVec 32) (k1_hw99 : k1_chk99 v1269), ∀ a, (k1_off149 v1269) a + S1x4096.size a ≤ S16384x4096.size a := fun v1269 k1_hw99 => k1_hw99

def k1_off150 (v1272 : BitVec 32) : Fin 2 → Nat :=
  let c0_i32_769 : BitVec 32 := 0#32
  ![v1272.toNat, 0]

def k1_chk100 (v1272 : BitVec 32) : Prop :=
  (∀ a, (k1_off150 v1272) a + S1x4096.size a ≤ S16384x4096.size a)
instance k1_chk100.dec : ∀ (v1272 : BitVec 32), Decidable (k1_chk100 v1272) := fun v1272 => decidable_of_iff' _ (Iff.of_eq (k1_chk100.eq_1 v1272))
theorem k1_off150_inb : ∀ (v1272 : BitVec 32) (k1_hw100 : k1_chk100 v1272), ∀ a, (k1_off150 v1272) a + S1x4096.size a ≤ S16384x4096.size a := fun v1272 k1_hw100 => k1_hw100

def k1_off151 (i : grid1.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v1285 : BitVec 32 := Scalar.addi v0 c50_i32
  let v1286 : Index := Scalar.indexCast v1285
  ![v1286.toNat]
def k1_off152 (v1287 : BitVec 32) : Fin 2 → Nat :=
  let c0_i32_774 : BitVec 32 := 0#32
  ![v1287.toNat, 0]

def k1_chk101 (v1287 : BitVec 32) : Prop :=
  (∀ a, (k1_off152 v1287) a + S1x4096.size a ≤ S16384x4096.size a)
instance k1_chk101.dec : ∀ (v1287 : BitVec 32), Decidable (k1_chk101 v1287) := fun v1287 => decidable_of_iff' _ (Iff.of_eq (k1_chk101.eq_1 v1287))
theorem k1_off152_inb : ∀ (v1287 : BitVec 32) (k1_hw101 : k1_chk101 v1287), ∀ a, (k1_off152 v1287) a + S1x4096.size a ≤ S16384x4096.size a := fun v1287 k1_hw101 => k1_hw101

def k1_off153 (v1290 : BitVec 32) : Fin 2 → Nat :=
  let c0_i32_778 : BitVec 32 := 0#32
  ![v1290.toNat, 0]

def k1_chk102 (v1290 : BitVec 32) : Prop :=
  (∀ a, (k1_off153 v1290) a + S1x4096.size a ≤ S16384x4096.size a)
instance k1_chk102.dec : ∀ (v1290 : BitVec 32), Decidable (k1_chk102 v1290) := fun v1290 => decidable_of_iff' _ (Iff.of_eq (k1_chk102.eq_1 v1290))
theorem k1_off153_inb : ∀ (v1290 : BitVec 32) (k1_hw102 : k1_chk102 v1290), ∀ a, (k1_off153 v1290) a + S1x4096.size a ≤ S16384x4096.size a := fun v1290 k1_hw102 => k1_hw102

def k1_off154 (i : grid1.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v1303 : BitVec 32 := Scalar.addi v0 c51_i32
  let v1304 : Index := Scalar.indexCast v1303
  ![v1304.toNat]
def k1_off155 (v1305 : BitVec 32) : Fin 2 → Nat :=
  let c0_i32_783 : BitVec 32 := 0#32
  ![v1305.toNat, 0]

def k1_chk103 (v1305 : BitVec 32) : Prop :=
  (∀ a, (k1_off155 v1305) a + S1x4096.size a ≤ S16384x4096.size a)
instance k1_chk103.dec : ∀ (v1305 : BitVec 32), Decidable (k1_chk103 v1305) := fun v1305 => decidable_of_iff' _ (Iff.of_eq (k1_chk103.eq_1 v1305))
theorem k1_off155_inb : ∀ (v1305 : BitVec 32) (k1_hw103 : k1_chk103 v1305), ∀ a, (k1_off155 v1305) a + S1x4096.size a ≤ S16384x4096.size a := fun v1305 k1_hw103 => k1_hw103

def k1_off156 (v1308 : BitVec 32) : Fin 2 → Nat :=
  let c0_i32_787 : BitVec 32 := 0#32
  ![v1308.toNat, 0]

def k1_chk104 (v1308 : BitVec 32) : Prop :=
  (∀ a, (k1_off156 v1308) a + S1x4096.size a ≤ S16384x4096.size a)
instance k1_chk104.dec : ∀ (v1308 : BitVec 32), Decidable (k1_chk104 v1308) := fun v1308 => decidable_of_iff' _ (Iff.of_eq (k1_chk104.eq_1 v1308))
theorem k1_off156_inb : ∀ (v1308 : BitVec 32) (k1_hw104 : k1_chk104 v1308), ∀ a, (k1_off156 v1308) a + S1x4096.size a ≤ S16384x4096.size a := fun v1308 k1_hw104 => k1_hw104

def k1_off157 (i : grid1.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v1321 : BitVec 32 := Scalar.addi v0 c52_i32
  let v1322 : Index := Scalar.indexCast v1321
  ![v1322.toNat]
def k1_off158 (v1323 : BitVec 32) : Fin 2 → Nat :=
  let c0_i32_792 : BitVec 32 := 0#32
  ![v1323.toNat, 0]

def k1_chk105 (v1323 : BitVec 32) : Prop :=
  (∀ a, (k1_off158 v1323) a + S1x4096.size a ≤ S16384x4096.size a)
instance k1_chk105.dec : ∀ (v1323 : BitVec 32), Decidable (k1_chk105 v1323) := fun v1323 => decidable_of_iff' _ (Iff.of_eq (k1_chk105.eq_1 v1323))
theorem k1_off158_inb : ∀ (v1323 : BitVec 32) (k1_hw105 : k1_chk105 v1323), ∀ a, (k1_off158 v1323) a + S1x4096.size a ≤ S16384x4096.size a := fun v1323 k1_hw105 => k1_hw105

def k1_off159 (v1326 : BitVec 32) : Fin 2 → Nat :=
  let c0_i32_796 : BitVec 32 := 0#32
  ![v1326.toNat, 0]

def k1_chk106 (v1326 : BitVec 32) : Prop :=
  (∀ a, (k1_off159 v1326) a + S1x4096.size a ≤ S16384x4096.size a)
instance k1_chk106.dec : ∀ (v1326 : BitVec 32), Decidable (k1_chk106 v1326) := fun v1326 => decidable_of_iff' _ (Iff.of_eq (k1_chk106.eq_1 v1326))
theorem k1_off159_inb : ∀ (v1326 : BitVec 32) (k1_hw106 : k1_chk106 v1326), ∀ a, (k1_off159 v1326) a + S1x4096.size a ≤ S16384x4096.size a := fun v1326 k1_hw106 => k1_hw106

def k1_off160 (i : grid1.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v1339 : BitVec 32 := Scalar.addi v0 c53_i32
  let v1340 : Index := Scalar.indexCast v1339
  ![v1340.toNat]
def k1_off161 (v1341 : BitVec 32) : Fin 2 → Nat :=
  let c0_i32_801 : BitVec 32 := 0#32
  ![v1341.toNat, 0]

def k1_chk107 (v1341 : BitVec 32) : Prop :=
  (∀ a, (k1_off161 v1341) a + S1x4096.size a ≤ S16384x4096.size a)
instance k1_chk107.dec : ∀ (v1341 : BitVec 32), Decidable (k1_chk107 v1341) := fun v1341 => decidable_of_iff' _ (Iff.of_eq (k1_chk107.eq_1 v1341))
theorem k1_off161_inb : ∀ (v1341 : BitVec 32) (k1_hw107 : k1_chk107 v1341), ∀ a, (k1_off161 v1341) a + S1x4096.size a ≤ S16384x4096.size a := fun v1341 k1_hw107 => k1_hw107

def k1_off162 (v1344 : BitVec 32) : Fin 2 → Nat :=
  let c0_i32_805 : BitVec 32 := 0#32
  ![v1344.toNat, 0]

def k1_chk108 (v1344 : BitVec 32) : Prop :=
  (∀ a, (k1_off162 v1344) a + S1x4096.size a ≤ S16384x4096.size a)
instance k1_chk108.dec : ∀ (v1344 : BitVec 32), Decidable (k1_chk108 v1344) := fun v1344 => decidable_of_iff' _ (Iff.of_eq (k1_chk108.eq_1 v1344))
theorem k1_off162_inb : ∀ (v1344 : BitVec 32) (k1_hw108 : k1_chk108 v1344), ∀ a, (k1_off162 v1344) a + S1x4096.size a ≤ S16384x4096.size a := fun v1344 k1_hw108 => k1_hw108

def k1_off163 (i : grid1.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v1357 : BitVec 32 := Scalar.addi v0 c54_i32
  let v1358 : Index := Scalar.indexCast v1357
  ![v1358.toNat]
def k1_off164 (v1359 : BitVec 32) : Fin 2 → Nat :=
  let c0_i32_810 : BitVec 32 := 0#32
  ![v1359.toNat, 0]

def k1_chk109 (v1359 : BitVec 32) : Prop :=
  (∀ a, (k1_off164 v1359) a + S1x4096.size a ≤ S16384x4096.size a)
instance k1_chk109.dec : ∀ (v1359 : BitVec 32), Decidable (k1_chk109 v1359) := fun v1359 => decidable_of_iff' _ (Iff.of_eq (k1_chk109.eq_1 v1359))
theorem k1_off164_inb : ∀ (v1359 : BitVec 32) (k1_hw109 : k1_chk109 v1359), ∀ a, (k1_off164 v1359) a + S1x4096.size a ≤ S16384x4096.size a := fun v1359 k1_hw109 => k1_hw109

def k1_off165 (v1362 : BitVec 32) : Fin 2 → Nat :=
  let c0_i32_814 : BitVec 32 := 0#32
  ![v1362.toNat, 0]

def k1_chk110 (v1362 : BitVec 32) : Prop :=
  (∀ a, (k1_off165 v1362) a + S1x4096.size a ≤ S16384x4096.size a)
instance k1_chk110.dec : ∀ (v1362 : BitVec 32), Decidable (k1_chk110 v1362) := fun v1362 => decidable_of_iff' _ (Iff.of_eq (k1_chk110.eq_1 v1362))
theorem k1_off165_inb : ∀ (v1362 : BitVec 32) (k1_hw110 : k1_chk110 v1362), ∀ a, (k1_off165 v1362) a + S1x4096.size a ≤ S16384x4096.size a := fun v1362 k1_hw110 => k1_hw110

def k1_off166 (i : grid1.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v1375 : BitVec 32 := Scalar.addi v0 c55_i32
  let v1376 : Index := Scalar.indexCast v1375
  ![v1376.toNat]
def k1_off167 (v1377 : BitVec 32) : Fin 2 → Nat :=
  let c0_i32_819 : BitVec 32 := 0#32
  ![v1377.toNat, 0]

def k1_chk111 (v1377 : BitVec 32) : Prop :=
  (∀ a, (k1_off167 v1377) a + S1x4096.size a ≤ S16384x4096.size a)
instance k1_chk111.dec : ∀ (v1377 : BitVec 32), Decidable (k1_chk111 v1377) := fun v1377 => decidable_of_iff' _ (Iff.of_eq (k1_chk111.eq_1 v1377))
theorem k1_off167_inb : ∀ (v1377 : BitVec 32) (k1_hw111 : k1_chk111 v1377), ∀ a, (k1_off167 v1377) a + S1x4096.size a ≤ S16384x4096.size a := fun v1377 k1_hw111 => k1_hw111

def k1_off168 (v1380 : BitVec 32) : Fin 2 → Nat :=
  let c0_i32_823 : BitVec 32 := 0#32
  ![v1380.toNat, 0]

def k1_chk112 (v1380 : BitVec 32) : Prop :=
  (∀ a, (k1_off168 v1380) a + S1x4096.size a ≤ S16384x4096.size a)
instance k1_chk112.dec : ∀ (v1380 : BitVec 32), Decidable (k1_chk112 v1380) := fun v1380 => decidable_of_iff' _ (Iff.of_eq (k1_chk112.eq_1 v1380))
theorem k1_off168_inb : ∀ (v1380 : BitVec 32) (k1_hw112 : k1_chk112 v1380), ∀ a, (k1_off168 v1380) a + S1x4096.size a ≤ S16384x4096.size a := fun v1380 k1_hw112 => k1_hw112

def k1_off169 (i : grid1.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v1393 : BitVec 32 := Scalar.addi v0 c56_i32
  let v1394 : Index := Scalar.indexCast v1393
  ![v1394.toNat]
def k1_off170 (v1395 : BitVec 32) : Fin 2 → Nat :=
  let c0_i32_828 : BitVec 32 := 0#32
  ![v1395.toNat, 0]

def k1_chk113 (v1395 : BitVec 32) : Prop :=
  (∀ a, (k1_off170 v1395) a + S1x4096.size a ≤ S16384x4096.size a)
instance k1_chk113.dec : ∀ (v1395 : BitVec 32), Decidable (k1_chk113 v1395) := fun v1395 => decidable_of_iff' _ (Iff.of_eq (k1_chk113.eq_1 v1395))
theorem k1_off170_inb : ∀ (v1395 : BitVec 32) (k1_hw113 : k1_chk113 v1395), ∀ a, (k1_off170 v1395) a + S1x4096.size a ≤ S16384x4096.size a := fun v1395 k1_hw113 => k1_hw113

def k1_off171 (v1398 : BitVec 32) : Fin 2 → Nat :=
  let c0_i32_832 : BitVec 32 := 0#32
  ![v1398.toNat, 0]

def k1_chk114 (v1398 : BitVec 32) : Prop :=
  (∀ a, (k1_off171 v1398) a + S1x4096.size a ≤ S16384x4096.size a)
instance k1_chk114.dec : ∀ (v1398 : BitVec 32), Decidable (k1_chk114 v1398) := fun v1398 => decidable_of_iff' _ (Iff.of_eq (k1_chk114.eq_1 v1398))
theorem k1_off171_inb : ∀ (v1398 : BitVec 32) (k1_hw114 : k1_chk114 v1398), ∀ a, (k1_off171 v1398) a + S1x4096.size a ≤ S16384x4096.size a := fun v1398 k1_hw114 => k1_hw114

def k1_off172 (i : grid1.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v1411 : BitVec 32 := Scalar.addi v0 c57_i32
  let v1412 : Index := Scalar.indexCast v1411
  ![v1412.toNat]
def k1_off173 (v1413 : BitVec 32) : Fin 2 → Nat :=
  let c0_i32_837 : BitVec 32 := 0#32
  ![v1413.toNat, 0]

def k1_chk115 (v1413 : BitVec 32) : Prop :=
  (∀ a, (k1_off173 v1413) a + S1x4096.size a ≤ S16384x4096.size a)
instance k1_chk115.dec : ∀ (v1413 : BitVec 32), Decidable (k1_chk115 v1413) := fun v1413 => decidable_of_iff' _ (Iff.of_eq (k1_chk115.eq_1 v1413))
theorem k1_off173_inb : ∀ (v1413 : BitVec 32) (k1_hw115 : k1_chk115 v1413), ∀ a, (k1_off173 v1413) a + S1x4096.size a ≤ S16384x4096.size a := fun v1413 k1_hw115 => k1_hw115

def k1_off174 (v1416 : BitVec 32) : Fin 2 → Nat :=
  let c0_i32_841 : BitVec 32 := 0#32
  ![v1416.toNat, 0]

def k1_chk116 (v1416 : BitVec 32) : Prop :=
  (∀ a, (k1_off174 v1416) a + S1x4096.size a ≤ S16384x4096.size a)
instance k1_chk116.dec : ∀ (v1416 : BitVec 32), Decidable (k1_chk116 v1416) := fun v1416 => decidable_of_iff' _ (Iff.of_eq (k1_chk116.eq_1 v1416))
theorem k1_off174_inb : ∀ (v1416 : BitVec 32) (k1_hw116 : k1_chk116 v1416), ∀ a, (k1_off174 v1416) a + S1x4096.size a ≤ S16384x4096.size a := fun v1416 k1_hw116 => k1_hw116

def k1_off175 (i : grid1.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v1429 : BitVec 32 := Scalar.addi v0 c58_i32
  let v1430 : Index := Scalar.indexCast v1429
  ![v1430.toNat]
def k1_off176 (v1431 : BitVec 32) : Fin 2 → Nat :=
  let c0_i32_846 : BitVec 32 := 0#32
  ![v1431.toNat, 0]

def k1_chk117 (v1431 : BitVec 32) : Prop :=
  (∀ a, (k1_off176 v1431) a + S1x4096.size a ≤ S16384x4096.size a)
instance k1_chk117.dec : ∀ (v1431 : BitVec 32), Decidable (k1_chk117 v1431) := fun v1431 => decidable_of_iff' _ (Iff.of_eq (k1_chk117.eq_1 v1431))
theorem k1_off176_inb : ∀ (v1431 : BitVec 32) (k1_hw117 : k1_chk117 v1431), ∀ a, (k1_off176 v1431) a + S1x4096.size a ≤ S16384x4096.size a := fun v1431 k1_hw117 => k1_hw117

def k1_off177 (v1434 : BitVec 32) : Fin 2 → Nat :=
  let c0_i32_850 : BitVec 32 := 0#32
  ![v1434.toNat, 0]

def k1_chk118 (v1434 : BitVec 32) : Prop :=
  (∀ a, (k1_off177 v1434) a + S1x4096.size a ≤ S16384x4096.size a)
instance k1_chk118.dec : ∀ (v1434 : BitVec 32), Decidable (k1_chk118 v1434) := fun v1434 => decidable_of_iff' _ (Iff.of_eq (k1_chk118.eq_1 v1434))
theorem k1_off177_inb : ∀ (v1434 : BitVec 32) (k1_hw118 : k1_chk118 v1434), ∀ a, (k1_off177 v1434) a + S1x4096.size a ≤ S16384x4096.size a := fun v1434 k1_hw118 => k1_hw118

def k1_off178 (i : grid1.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v1447 : BitVec 32 := Scalar.addi v0 c59_i32
  let v1448 : Index := Scalar.indexCast v1447
  ![v1448.toNat]
def k1_off179 (v1449 : BitVec 32) : Fin 2 → Nat :=
  let c0_i32_855 : BitVec 32 := 0#32
  ![v1449.toNat, 0]

def k1_chk119 (v1449 : BitVec 32) : Prop :=
  (∀ a, (k1_off179 v1449) a + S1x4096.size a ≤ S16384x4096.size a)
instance k1_chk119.dec : ∀ (v1449 : BitVec 32), Decidable (k1_chk119 v1449) := fun v1449 => decidable_of_iff' _ (Iff.of_eq (k1_chk119.eq_1 v1449))
theorem k1_off179_inb : ∀ (v1449 : BitVec 32) (k1_hw119 : k1_chk119 v1449), ∀ a, (k1_off179 v1449) a + S1x4096.size a ≤ S16384x4096.size a := fun v1449 k1_hw119 => k1_hw119

def k1_off180 (v1452 : BitVec 32) : Fin 2 → Nat :=
  let c0_i32_859 : BitVec 32 := 0#32
  ![v1452.toNat, 0]

def k1_chk120 (v1452 : BitVec 32) : Prop :=
  (∀ a, (k1_off180 v1452) a + S1x4096.size a ≤ S16384x4096.size a)
instance k1_chk120.dec : ∀ (v1452 : BitVec 32), Decidable (k1_chk120 v1452) := fun v1452 => decidable_of_iff' _ (Iff.of_eq (k1_chk120.eq_1 v1452))
theorem k1_off180_inb : ∀ (v1452 : BitVec 32) (k1_hw120 : k1_chk120 v1452), ∀ a, (k1_off180 v1452) a + S1x4096.size a ≤ S16384x4096.size a := fun v1452 k1_hw120 => k1_hw120

def k1_off181 (i : grid1.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v1465 : BitVec 32 := Scalar.addi v0 c60_i32
  let v1466 : Index := Scalar.indexCast v1465
  ![v1466.toNat]
def k1_off182 (v1467 : BitVec 32) : Fin 2 → Nat :=
  let c0_i32_864 : BitVec 32 := 0#32
  ![v1467.toNat, 0]

def k1_chk121 (v1467 : BitVec 32) : Prop :=
  (∀ a, (k1_off182 v1467) a + S1x4096.size a ≤ S16384x4096.size a)
instance k1_chk121.dec : ∀ (v1467 : BitVec 32), Decidable (k1_chk121 v1467) := fun v1467 => decidable_of_iff' _ (Iff.of_eq (k1_chk121.eq_1 v1467))
theorem k1_off182_inb : ∀ (v1467 : BitVec 32) (k1_hw121 : k1_chk121 v1467), ∀ a, (k1_off182 v1467) a + S1x4096.size a ≤ S16384x4096.size a := fun v1467 k1_hw121 => k1_hw121

def k1_off183 (v1470 : BitVec 32) : Fin 2 → Nat :=
  let c0_i32_868 : BitVec 32 := 0#32
  ![v1470.toNat, 0]

def k1_chk122 (v1470 : BitVec 32) : Prop :=
  (∀ a, (k1_off183 v1470) a + S1x4096.size a ≤ S16384x4096.size a)
instance k1_chk122.dec : ∀ (v1470 : BitVec 32), Decidable (k1_chk122 v1470) := fun v1470 => decidable_of_iff' _ (Iff.of_eq (k1_chk122.eq_1 v1470))
theorem k1_off183_inb : ∀ (v1470 : BitVec 32) (k1_hw122 : k1_chk122 v1470), ∀ a, (k1_off183 v1470) a + S1x4096.size a ≤ S16384x4096.size a := fun v1470 k1_hw122 => k1_hw122

def k1_off184 (i : grid1.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v1483 : BitVec 32 := Scalar.addi v0 c61_i32
  let v1484 : Index := Scalar.indexCast v1483
  ![v1484.toNat]
def k1_off185 (v1485 : BitVec 32) : Fin 2 → Nat :=
  let c0_i32_873 : BitVec 32 := 0#32
  ![v1485.toNat, 0]

def k1_chk123 (v1485 : BitVec 32) : Prop :=
  (∀ a, (k1_off185 v1485) a + S1x4096.size a ≤ S16384x4096.size a)
instance k1_chk123.dec : ∀ (v1485 : BitVec 32), Decidable (k1_chk123 v1485) := fun v1485 => decidable_of_iff' _ (Iff.of_eq (k1_chk123.eq_1 v1485))
theorem k1_off185_inb : ∀ (v1485 : BitVec 32) (k1_hw123 : k1_chk123 v1485), ∀ a, (k1_off185 v1485) a + S1x4096.size a ≤ S16384x4096.size a := fun v1485 k1_hw123 => k1_hw123

def k1_off186 (v1488 : BitVec 32) : Fin 2 → Nat :=
  let c0_i32_877 : BitVec 32 := 0#32
  ![v1488.toNat, 0]

def k1_chk124 (v1488 : BitVec 32) : Prop :=
  (∀ a, (k1_off186 v1488) a + S1x4096.size a ≤ S16384x4096.size a)
instance k1_chk124.dec : ∀ (v1488 : BitVec 32), Decidable (k1_chk124 v1488) := fun v1488 => decidable_of_iff' _ (Iff.of_eq (k1_chk124.eq_1 v1488))
theorem k1_off186_inb : ∀ (v1488 : BitVec 32) (k1_hw124 : k1_chk124 v1488), ∀ a, (k1_off186 v1488) a + S1x4096.size a ≤ S16384x4096.size a := fun v1488 k1_hw124 => k1_hw124

def k1_off187 (i : grid1.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v1501 : BitVec 32 := Scalar.addi v0 c62_i32
  let v1502 : Index := Scalar.indexCast v1501
  ![v1502.toNat]
def k1_off188 (v1503 : BitVec 32) : Fin 2 → Nat :=
  let c0_i32_882 : BitVec 32 := 0#32
  ![v1503.toNat, 0]

def k1_chk125 (v1503 : BitVec 32) : Prop :=
  (∀ a, (k1_off188 v1503) a + S1x4096.size a ≤ S16384x4096.size a)
instance k1_chk125.dec : ∀ (v1503 : BitVec 32), Decidable (k1_chk125 v1503) := fun v1503 => decidable_of_iff' _ (Iff.of_eq (k1_chk125.eq_1 v1503))
theorem k1_off188_inb : ∀ (v1503 : BitVec 32) (k1_hw125 : k1_chk125 v1503), ∀ a, (k1_off188 v1503) a + S1x4096.size a ≤ S16384x4096.size a := fun v1503 k1_hw125 => k1_hw125

def k1_off189 (v1506 : BitVec 32) : Fin 2 → Nat :=
  let c0_i32_886 : BitVec 32 := 0#32
  ![v1506.toNat, 0]

def k1_chk126 (v1506 : BitVec 32) : Prop :=
  (∀ a, (k1_off189 v1506) a + S1x4096.size a ≤ S16384x4096.size a)
instance k1_chk126.dec : ∀ (v1506 : BitVec 32), Decidable (k1_chk126 v1506) := fun v1506 => decidable_of_iff' _ (Iff.of_eq (k1_chk126.eq_1 v1506))
theorem k1_off189_inb : ∀ (v1506 : BitVec 32) (k1_hw126 : k1_chk126 v1506), ∀ a, (k1_off189 v1506) a + S1x4096.size a ≤ S16384x4096.size a := fun v1506 k1_hw126 => k1_hw126

def k1_off190 (i : grid1.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v1519 : BitVec 32 := Scalar.addi v0 c63_i32
  let v1520 : Index := Scalar.indexCast v1519
  ![v1520.toNat]
def k1_off191 (v1521 : BitVec 32) : Fin 2 → Nat :=
  let c0_i32_891 : BitVec 32 := 0#32
  ![v1521.toNat, 0]

def k1_chk127 (v1521 : BitVec 32) : Prop :=
  (∀ a, (k1_off191 v1521) a + S1x4096.size a ≤ S16384x4096.size a)
instance k1_chk127.dec : ∀ (v1521 : BitVec 32), Decidable (k1_chk127 v1521) := fun v1521 => decidable_of_iff' _ (Iff.of_eq (k1_chk127.eq_1 v1521))
theorem k1_off191_inb : ∀ (v1521 : BitVec 32) (k1_hw127 : k1_chk127 v1521), ∀ a, (k1_off191 v1521) a + S1x4096.size a ≤ S16384x4096.size a := fun v1521 k1_hw127 => k1_hw127

def k1_off192 (v1524 : BitVec 32) : Fin 2 → Nat :=
  let c0_i32_895 : BitVec 32 := 0#32
  ![v1524.toNat, 0]

def k1_chk128 (v1524 : BitVec 32) : Prop :=
  (∀ a, (k1_off192 v1524) a + S1x4096.size a ≤ S16384x4096.size a)
instance k1_chk128.dec : ∀ (v1524 : BitVec 32), Decidable (k1_chk128 v1524) := fun v1524 => decidable_of_iff' _ (Iff.of_eq (k1_chk128.eq_1 v1524))
theorem k1_off192_inb : ∀ (v1524 : BitVec 32) (k1_hw128 : k1_chk128 v1524), ∀ a, (k1_off192 v1524) a + S1x4096.size a ≤ S16384x4096.size a := fun v1524 k1_hw128 => k1_hw128

def k1_off193 (i : grid1.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v1921 : BitVec 32 := Scalar.addi v0 c64_i32
  let v1922 : Index := Scalar.indexCast v1921
  ![v1922.toNat]
def k1_off194 (v1923 : BitVec 32) : Fin 2 → Nat :=
  let c0_i32_1220 : BitVec 32 := 0#32
  ![v1923.toNat, 0]

def k1_chk129 (v1923 : BitVec 32) : Prop :=
  (∀ a, (k1_off194 v1923) a + S1x4096.size a ≤ S16384x4096.size a)
instance k1_chk129.dec : ∀ (v1923 : BitVec 32), Decidable (k1_chk129 v1923) := fun v1923 => decidable_of_iff' _ (Iff.of_eq (k1_chk129.eq_1 v1923))
theorem k1_off194_inb : ∀ (v1923 : BitVec 32) (k1_hw129 : k1_chk129 v1923), ∀ a, (k1_off194 v1923) a + S1x4096.size a ≤ S16384x4096.size a := fun v1923 k1_hw129 => k1_hw129

def k1_off195 (v1926 : BitVec 32) : Fin 2 → Nat :=
  let c0_i32_1224 : BitVec 32 := 0#32
  ![v1926.toNat, 0]

def k1_chk130 (v1926 : BitVec 32) : Prop :=
  (∀ a, (k1_off195 v1926) a + S1x4096.size a ≤ S16384x4096.size a)
instance k1_chk130.dec : ∀ (v1926 : BitVec 32), Decidable (k1_chk130 v1926) := fun v1926 => decidable_of_iff' _ (Iff.of_eq (k1_chk130.eq_1 v1926))
theorem k1_off195_inb : ∀ (v1926 : BitVec 32) (k1_hw130 : k1_chk130 v1926), ∀ a, (k1_off195 v1926) a + S1x4096.size a ≤ S16384x4096.size a := fun v1926 k1_hw130 => k1_hw130

def k1_off196 (i : grid1.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v1939 : BitVec 32 := Scalar.addi v0 c65_i32
  let v1940 : Index := Scalar.indexCast v1939
  ![v1940.toNat]
def k1_off197 (v1941 : BitVec 32) : Fin 2 → Nat :=
  let c0_i32_1229 : BitVec 32 := 0#32
  ![v1941.toNat, 0]

def k1_chk131 (v1941 : BitVec 32) : Prop :=
  (∀ a, (k1_off197 v1941) a + S1x4096.size a ≤ S16384x4096.size a)
instance k1_chk131.dec : ∀ (v1941 : BitVec 32), Decidable (k1_chk131 v1941) := fun v1941 => decidable_of_iff' _ (Iff.of_eq (k1_chk131.eq_1 v1941))
theorem k1_off197_inb : ∀ (v1941 : BitVec 32) (k1_hw131 : k1_chk131 v1941), ∀ a, (k1_off197 v1941) a + S1x4096.size a ≤ S16384x4096.size a := fun v1941 k1_hw131 => k1_hw131

def k1_off198 (v1944 : BitVec 32) : Fin 2 → Nat :=
  let c0_i32_1233 : BitVec 32 := 0#32
  ![v1944.toNat, 0]

def k1_chk132 (v1944 : BitVec 32) : Prop :=
  (∀ a, (k1_off198 v1944) a + S1x4096.size a ≤ S16384x4096.size a)
instance k1_chk132.dec : ∀ (v1944 : BitVec 32), Decidable (k1_chk132 v1944) := fun v1944 => decidable_of_iff' _ (Iff.of_eq (k1_chk132.eq_1 v1944))
theorem k1_off198_inb : ∀ (v1944 : BitVec 32) (k1_hw132 : k1_chk132 v1944), ∀ a, (k1_off198 v1944) a + S1x4096.size a ≤ S16384x4096.size a := fun v1944 k1_hw132 => k1_hw132

def k1_off199 (i : grid1.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v1957 : BitVec 32 := Scalar.addi v0 c66_i32
  let v1958 : Index := Scalar.indexCast v1957
  ![v1958.toNat]
def k1_off200 (v1959 : BitVec 32) : Fin 2 → Nat :=
  let c0_i32_1238 : BitVec 32 := 0#32
  ![v1959.toNat, 0]

def k1_chk133 (v1959 : BitVec 32) : Prop :=
  (∀ a, (k1_off200 v1959) a + S1x4096.size a ≤ S16384x4096.size a)
instance k1_chk133.dec : ∀ (v1959 : BitVec 32), Decidable (k1_chk133 v1959) := fun v1959 => decidable_of_iff' _ (Iff.of_eq (k1_chk133.eq_1 v1959))
theorem k1_off200_inb : ∀ (v1959 : BitVec 32) (k1_hw133 : k1_chk133 v1959), ∀ a, (k1_off200 v1959) a + S1x4096.size a ≤ S16384x4096.size a := fun v1959 k1_hw133 => k1_hw133

def k1_off201 (v1962 : BitVec 32) : Fin 2 → Nat :=
  let c0_i32_1242 : BitVec 32 := 0#32
  ![v1962.toNat, 0]

def k1_chk134 (v1962 : BitVec 32) : Prop :=
  (∀ a, (k1_off201 v1962) a + S1x4096.size a ≤ S16384x4096.size a)
instance k1_chk134.dec : ∀ (v1962 : BitVec 32), Decidable (k1_chk134 v1962) := fun v1962 => decidable_of_iff' _ (Iff.of_eq (k1_chk134.eq_1 v1962))
theorem k1_off201_inb : ∀ (v1962 : BitVec 32) (k1_hw134 : k1_chk134 v1962), ∀ a, (k1_off201 v1962) a + S1x4096.size a ≤ S16384x4096.size a := fun v1962 k1_hw134 => k1_hw134

def k1_off202 (i : grid1.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v1975 : BitVec 32 := Scalar.addi v0 c67_i32
  let v1976 : Index := Scalar.indexCast v1975
  ![v1976.toNat]
def k1_off203 (v1977 : BitVec 32) : Fin 2 → Nat :=
  let c0_i32_1247 : BitVec 32 := 0#32
  ![v1977.toNat, 0]

def k1_chk135 (v1977 : BitVec 32) : Prop :=
  (∀ a, (k1_off203 v1977) a + S1x4096.size a ≤ S16384x4096.size a)
instance k1_chk135.dec : ∀ (v1977 : BitVec 32), Decidable (k1_chk135 v1977) := fun v1977 => decidable_of_iff' _ (Iff.of_eq (k1_chk135.eq_1 v1977))
theorem k1_off203_inb : ∀ (v1977 : BitVec 32) (k1_hw135 : k1_chk135 v1977), ∀ a, (k1_off203 v1977) a + S1x4096.size a ≤ S16384x4096.size a := fun v1977 k1_hw135 => k1_hw135

def k1_off204 (v1980 : BitVec 32) : Fin 2 → Nat :=
  let c0_i32_1251 : BitVec 32 := 0#32
  ![v1980.toNat, 0]

def k1_chk136 (v1980 : BitVec 32) : Prop :=
  (∀ a, (k1_off204 v1980) a + S1x4096.size a ≤ S16384x4096.size a)
instance k1_chk136.dec : ∀ (v1980 : BitVec 32), Decidable (k1_chk136 v1980) := fun v1980 => decidable_of_iff' _ (Iff.of_eq (k1_chk136.eq_1 v1980))
theorem k1_off204_inb : ∀ (v1980 : BitVec 32) (k1_hw136 : k1_chk136 v1980), ∀ a, (k1_off204 v1980) a + S1x4096.size a ≤ S16384x4096.size a := fun v1980 k1_hw136 => k1_hw136

def k1_off205 (i : grid1.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v1993 : BitVec 32 := Scalar.addi v0 c68_i32
  let v1994 : Index := Scalar.indexCast v1993
  ![v1994.toNat]
def k1_off206 (v1995 : BitVec 32) : Fin 2 → Nat :=
  let c0_i32_1256 : BitVec 32 := 0#32
  ![v1995.toNat, 0]

def k1_chk137 (v1995 : BitVec 32) : Prop :=
  (∀ a, (k1_off206 v1995) a + S1x4096.size a ≤ S16384x4096.size a)
instance k1_chk137.dec : ∀ (v1995 : BitVec 32), Decidable (k1_chk137 v1995) := fun v1995 => decidable_of_iff' _ (Iff.of_eq (k1_chk137.eq_1 v1995))
theorem k1_off206_inb : ∀ (v1995 : BitVec 32) (k1_hw137 : k1_chk137 v1995), ∀ a, (k1_off206 v1995) a + S1x4096.size a ≤ S16384x4096.size a := fun v1995 k1_hw137 => k1_hw137

def k1_off207 (v1998 : BitVec 32) : Fin 2 → Nat :=
  let c0_i32_1260 : BitVec 32 := 0#32
  ![v1998.toNat, 0]

def k1_chk138 (v1998 : BitVec 32) : Prop :=
  (∀ a, (k1_off207 v1998) a + S1x4096.size a ≤ S16384x4096.size a)
instance k1_chk138.dec : ∀ (v1998 : BitVec 32), Decidable (k1_chk138 v1998) := fun v1998 => decidable_of_iff' _ (Iff.of_eq (k1_chk138.eq_1 v1998))
theorem k1_off207_inb : ∀ (v1998 : BitVec 32) (k1_hw138 : k1_chk138 v1998), ∀ a, (k1_off207 v1998) a + S1x4096.size a ≤ S16384x4096.size a := fun v1998 k1_hw138 => k1_hw138

def k1_off208 (i : grid1.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v2011 : BitVec 32 := Scalar.addi v0 c69_i32
  let v2012 : Index := Scalar.indexCast v2011
  ![v2012.toNat]
def k1_off209 (v2013 : BitVec 32) : Fin 2 → Nat :=
  let c0_i32_1265 : BitVec 32 := 0#32
  ![v2013.toNat, 0]

def k1_chk139 (v2013 : BitVec 32) : Prop :=
  (∀ a, (k1_off209 v2013) a + S1x4096.size a ≤ S16384x4096.size a)
instance k1_chk139.dec : ∀ (v2013 : BitVec 32), Decidable (k1_chk139 v2013) := fun v2013 => decidable_of_iff' _ (Iff.of_eq (k1_chk139.eq_1 v2013))
theorem k1_off209_inb : ∀ (v2013 : BitVec 32) (k1_hw139 : k1_chk139 v2013), ∀ a, (k1_off209 v2013) a + S1x4096.size a ≤ S16384x4096.size a := fun v2013 k1_hw139 => k1_hw139

def k1_off210 (v2016 : BitVec 32) : Fin 2 → Nat :=
  let c0_i32_1269 : BitVec 32 := 0#32
  ![v2016.toNat, 0]

def k1_chk140 (v2016 : BitVec 32) : Prop :=
  (∀ a, (k1_off210 v2016) a + S1x4096.size a ≤ S16384x4096.size a)
instance k1_chk140.dec : ∀ (v2016 : BitVec 32), Decidable (k1_chk140 v2016) := fun v2016 => decidable_of_iff' _ (Iff.of_eq (k1_chk140.eq_1 v2016))
theorem k1_off210_inb : ∀ (v2016 : BitVec 32) (k1_hw140 : k1_chk140 v2016), ∀ a, (k1_off210 v2016) a + S1x4096.size a ≤ S16384x4096.size a := fun v2016 k1_hw140 => k1_hw140

def k1_off211 (i : grid1.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v2029 : BitVec 32 := Scalar.addi v0 c70_i32
  let v2030 : Index := Scalar.indexCast v2029
  ![v2030.toNat]
def k1_off212 (v2031 : BitVec 32) : Fin 2 → Nat :=
  let c0_i32_1274 : BitVec 32 := 0#32
  ![v2031.toNat, 0]

def k1_chk141 (v2031 : BitVec 32) : Prop :=
  (∀ a, (k1_off212 v2031) a + S1x4096.size a ≤ S16384x4096.size a)
instance k1_chk141.dec : ∀ (v2031 : BitVec 32), Decidable (k1_chk141 v2031) := fun v2031 => decidable_of_iff' _ (Iff.of_eq (k1_chk141.eq_1 v2031))
theorem k1_off212_inb : ∀ (v2031 : BitVec 32) (k1_hw141 : k1_chk141 v2031), ∀ a, (k1_off212 v2031) a + S1x4096.size a ≤ S16384x4096.size a := fun v2031 k1_hw141 => k1_hw141

def k1_off213 (v2034 : BitVec 32) : Fin 2 → Nat :=
  let c0_i32_1278 : BitVec 32 := 0#32
  ![v2034.toNat, 0]

def k1_chk142 (v2034 : BitVec 32) : Prop :=
  (∀ a, (k1_off213 v2034) a + S1x4096.size a ≤ S16384x4096.size a)
instance k1_chk142.dec : ∀ (v2034 : BitVec 32), Decidable (k1_chk142 v2034) := fun v2034 => decidable_of_iff' _ (Iff.of_eq (k1_chk142.eq_1 v2034))
theorem k1_off213_inb : ∀ (v2034 : BitVec 32) (k1_hw142 : k1_chk142 v2034), ∀ a, (k1_off213 v2034) a + S1x4096.size a ≤ S16384x4096.size a := fun v2034 k1_hw142 => k1_hw142

def k1_off214 (i : grid1.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v2047 : BitVec 32 := Scalar.addi v0 c71_i32
  let v2048 : Index := Scalar.indexCast v2047
  ![v2048.toNat]
def k1_off215 (v2049 : BitVec 32) : Fin 2 → Nat :=
  let c0_i32_1283 : BitVec 32 := 0#32
  ![v2049.toNat, 0]

def k1_chk143 (v2049 : BitVec 32) : Prop :=
  (∀ a, (k1_off215 v2049) a + S1x4096.size a ≤ S16384x4096.size a)
instance k1_chk143.dec : ∀ (v2049 : BitVec 32), Decidable (k1_chk143 v2049) := fun v2049 => decidable_of_iff' _ (Iff.of_eq (k1_chk143.eq_1 v2049))
theorem k1_off215_inb : ∀ (v2049 : BitVec 32) (k1_hw143 : k1_chk143 v2049), ∀ a, (k1_off215 v2049) a + S1x4096.size a ≤ S16384x4096.size a := fun v2049 k1_hw143 => k1_hw143

def k1_off216 (v2052 : BitVec 32) : Fin 2 → Nat :=
  let c0_i32_1287 : BitVec 32 := 0#32
  ![v2052.toNat, 0]

def k1_chk144 (v2052 : BitVec 32) : Prop :=
  (∀ a, (k1_off216 v2052) a + S1x4096.size a ≤ S16384x4096.size a)
instance k1_chk144.dec : ∀ (v2052 : BitVec 32), Decidable (k1_chk144 v2052) := fun v2052 => decidable_of_iff' _ (Iff.of_eq (k1_chk144.eq_1 v2052))
theorem k1_off216_inb : ∀ (v2052 : BitVec 32) (k1_hw144 : k1_chk144 v2052), ∀ a, (k1_off216 v2052) a + S1x4096.size a ≤ S16384x4096.size a := fun v2052 k1_hw144 => k1_hw144

def k1_off217 (i : grid1.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v2065 : BitVec 32 := Scalar.addi v0 c72_i32
  let v2066 : Index := Scalar.indexCast v2065
  ![v2066.toNat]
def k1_off218 (v2067 : BitVec 32) : Fin 2 → Nat :=
  let c0_i32_1292 : BitVec 32 := 0#32
  ![v2067.toNat, 0]

def k1_chk145 (v2067 : BitVec 32) : Prop :=
  (∀ a, (k1_off218 v2067) a + S1x4096.size a ≤ S16384x4096.size a)
instance k1_chk145.dec : ∀ (v2067 : BitVec 32), Decidable (k1_chk145 v2067) := fun v2067 => decidable_of_iff' _ (Iff.of_eq (k1_chk145.eq_1 v2067))
theorem k1_off218_inb : ∀ (v2067 : BitVec 32) (k1_hw145 : k1_chk145 v2067), ∀ a, (k1_off218 v2067) a + S1x4096.size a ≤ S16384x4096.size a := fun v2067 k1_hw145 => k1_hw145

def k1_off219 (v2070 : BitVec 32) : Fin 2 → Nat :=
  let c0_i32_1296 : BitVec 32 := 0#32
  ![v2070.toNat, 0]

def k1_chk146 (v2070 : BitVec 32) : Prop :=
  (∀ a, (k1_off219 v2070) a + S1x4096.size a ≤ S16384x4096.size a)
instance k1_chk146.dec : ∀ (v2070 : BitVec 32), Decidable (k1_chk146 v2070) := fun v2070 => decidable_of_iff' _ (Iff.of_eq (k1_chk146.eq_1 v2070))
theorem k1_off219_inb : ∀ (v2070 : BitVec 32) (k1_hw146 : k1_chk146 v2070), ∀ a, (k1_off219 v2070) a + S1x4096.size a ≤ S16384x4096.size a := fun v2070 k1_hw146 => k1_hw146

def k1_off220 (i : grid1.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v2083 : BitVec 32 := Scalar.addi v0 c73_i32
  let v2084 : Index := Scalar.indexCast v2083
  ![v2084.toNat]
def k1_off221 (v2085 : BitVec 32) : Fin 2 → Nat :=
  let c0_i32_1301 : BitVec 32 := 0#32
  ![v2085.toNat, 0]

def k1_chk147 (v2085 : BitVec 32) : Prop :=
  (∀ a, (k1_off221 v2085) a + S1x4096.size a ≤ S16384x4096.size a)
instance k1_chk147.dec : ∀ (v2085 : BitVec 32), Decidable (k1_chk147 v2085) := fun v2085 => decidable_of_iff' _ (Iff.of_eq (k1_chk147.eq_1 v2085))
theorem k1_off221_inb : ∀ (v2085 : BitVec 32) (k1_hw147 : k1_chk147 v2085), ∀ a, (k1_off221 v2085) a + S1x4096.size a ≤ S16384x4096.size a := fun v2085 k1_hw147 => k1_hw147

def k1_off222 (v2088 : BitVec 32) : Fin 2 → Nat :=
  let c0_i32_1305 : BitVec 32 := 0#32
  ![v2088.toNat, 0]

def k1_chk148 (v2088 : BitVec 32) : Prop :=
  (∀ a, (k1_off222 v2088) a + S1x4096.size a ≤ S16384x4096.size a)
instance k1_chk148.dec : ∀ (v2088 : BitVec 32), Decidable (k1_chk148 v2088) := fun v2088 => decidable_of_iff' _ (Iff.of_eq (k1_chk148.eq_1 v2088))
theorem k1_off222_inb : ∀ (v2088 : BitVec 32) (k1_hw148 : k1_chk148 v2088), ∀ a, (k1_off222 v2088) a + S1x4096.size a ≤ S16384x4096.size a := fun v2088 k1_hw148 => k1_hw148

def k1_off223 (i : grid1.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v2101 : BitVec 32 := Scalar.addi v0 c74_i32
  let v2102 : Index := Scalar.indexCast v2101
  ![v2102.toNat]
def k1_off224 (v2103 : BitVec 32) : Fin 2 → Nat :=
  let c0_i32_1310 : BitVec 32 := 0#32
  ![v2103.toNat, 0]

def k1_chk149 (v2103 : BitVec 32) : Prop :=
  (∀ a, (k1_off224 v2103) a + S1x4096.size a ≤ S16384x4096.size a)
instance k1_chk149.dec : ∀ (v2103 : BitVec 32), Decidable (k1_chk149 v2103) := fun v2103 => decidable_of_iff' _ (Iff.of_eq (k1_chk149.eq_1 v2103))
theorem k1_off224_inb : ∀ (v2103 : BitVec 32) (k1_hw149 : k1_chk149 v2103), ∀ a, (k1_off224 v2103) a + S1x4096.size a ≤ S16384x4096.size a := fun v2103 k1_hw149 => k1_hw149

def k1_off225 (v2106 : BitVec 32) : Fin 2 → Nat :=
  let c0_i32_1314 : BitVec 32 := 0#32
  ![v2106.toNat, 0]

def k1_chk150 (v2106 : BitVec 32) : Prop :=
  (∀ a, (k1_off225 v2106) a + S1x4096.size a ≤ S16384x4096.size a)
instance k1_chk150.dec : ∀ (v2106 : BitVec 32), Decidable (k1_chk150 v2106) := fun v2106 => decidable_of_iff' _ (Iff.of_eq (k1_chk150.eq_1 v2106))
theorem k1_off225_inb : ∀ (v2106 : BitVec 32) (k1_hw150 : k1_chk150 v2106), ∀ a, (k1_off225 v2106) a + S1x4096.size a ≤ S16384x4096.size a := fun v2106 k1_hw150 => k1_hw150

def k1_off226 (i : grid1.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v2119 : BitVec 32 := Scalar.addi v0 c75_i32
  let v2120 : Index := Scalar.indexCast v2119
  ![v2120.toNat]
def k1_off227 (v2121 : BitVec 32) : Fin 2 → Nat :=
  let c0_i32_1319 : BitVec 32 := 0#32
  ![v2121.toNat, 0]

def k1_chk151 (v2121 : BitVec 32) : Prop :=
  (∀ a, (k1_off227 v2121) a + S1x4096.size a ≤ S16384x4096.size a)
instance k1_chk151.dec : ∀ (v2121 : BitVec 32), Decidable (k1_chk151 v2121) := fun v2121 => decidable_of_iff' _ (Iff.of_eq (k1_chk151.eq_1 v2121))
theorem k1_off227_inb : ∀ (v2121 : BitVec 32) (k1_hw151 : k1_chk151 v2121), ∀ a, (k1_off227 v2121) a + S1x4096.size a ≤ S16384x4096.size a := fun v2121 k1_hw151 => k1_hw151

def k1_off228 (v2124 : BitVec 32) : Fin 2 → Nat :=
  let c0_i32_1323 : BitVec 32 := 0#32
  ![v2124.toNat, 0]

def k1_chk152 (v2124 : BitVec 32) : Prop :=
  (∀ a, (k1_off228 v2124) a + S1x4096.size a ≤ S16384x4096.size a)
instance k1_chk152.dec : ∀ (v2124 : BitVec 32), Decidable (k1_chk152 v2124) := fun v2124 => decidable_of_iff' _ (Iff.of_eq (k1_chk152.eq_1 v2124))
theorem k1_off228_inb : ∀ (v2124 : BitVec 32) (k1_hw152 : k1_chk152 v2124), ∀ a, (k1_off228 v2124) a + S1x4096.size a ≤ S16384x4096.size a := fun v2124 k1_hw152 => k1_hw152

def k1_off229 (i : grid1.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v2137 : BitVec 32 := Scalar.addi v0 c76_i32
  let v2138 : Index := Scalar.indexCast v2137
  ![v2138.toNat]
def k1_off230 (v2139 : BitVec 32) : Fin 2 → Nat :=
  let c0_i32_1328 : BitVec 32 := 0#32
  ![v2139.toNat, 0]

def k1_chk153 (v2139 : BitVec 32) : Prop :=
  (∀ a, (k1_off230 v2139) a + S1x4096.size a ≤ S16384x4096.size a)
instance k1_chk153.dec : ∀ (v2139 : BitVec 32), Decidable (k1_chk153 v2139) := fun v2139 => decidable_of_iff' _ (Iff.of_eq (k1_chk153.eq_1 v2139))
theorem k1_off230_inb : ∀ (v2139 : BitVec 32) (k1_hw153 : k1_chk153 v2139), ∀ a, (k1_off230 v2139) a + S1x4096.size a ≤ S16384x4096.size a := fun v2139 k1_hw153 => k1_hw153

def k1_off231 (v2142 : BitVec 32) : Fin 2 → Nat :=
  let c0_i32_1332 : BitVec 32 := 0#32
  ![v2142.toNat, 0]

def k1_chk154 (v2142 : BitVec 32) : Prop :=
  (∀ a, (k1_off231 v2142) a + S1x4096.size a ≤ S16384x4096.size a)
instance k1_chk154.dec : ∀ (v2142 : BitVec 32), Decidable (k1_chk154 v2142) := fun v2142 => decidable_of_iff' _ (Iff.of_eq (k1_chk154.eq_1 v2142))
theorem k1_off231_inb : ∀ (v2142 : BitVec 32) (k1_hw154 : k1_chk154 v2142), ∀ a, (k1_off231 v2142) a + S1x4096.size a ≤ S16384x4096.size a := fun v2142 k1_hw154 => k1_hw154

def k1_off232 (i : grid1.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v2155 : BitVec 32 := Scalar.addi v0 c77_i32
  let v2156 : Index := Scalar.indexCast v2155
  ![v2156.toNat]
def k1_off233 (v2157 : BitVec 32) : Fin 2 → Nat :=
  let c0_i32_1337 : BitVec 32 := 0#32
  ![v2157.toNat, 0]

def k1_chk155 (v2157 : BitVec 32) : Prop :=
  (∀ a, (k1_off233 v2157) a + S1x4096.size a ≤ S16384x4096.size a)
instance k1_chk155.dec : ∀ (v2157 : BitVec 32), Decidable (k1_chk155 v2157) := fun v2157 => decidable_of_iff' _ (Iff.of_eq (k1_chk155.eq_1 v2157))
theorem k1_off233_inb : ∀ (v2157 : BitVec 32) (k1_hw155 : k1_chk155 v2157), ∀ a, (k1_off233 v2157) a + S1x4096.size a ≤ S16384x4096.size a := fun v2157 k1_hw155 => k1_hw155

def k1_off234 (v2160 : BitVec 32) : Fin 2 → Nat :=
  let c0_i32_1341 : BitVec 32 := 0#32
  ![v2160.toNat, 0]

def k1_chk156 (v2160 : BitVec 32) : Prop :=
  (∀ a, (k1_off234 v2160) a + S1x4096.size a ≤ S16384x4096.size a)
instance k1_chk156.dec : ∀ (v2160 : BitVec 32), Decidable (k1_chk156 v2160) := fun v2160 => decidable_of_iff' _ (Iff.of_eq (k1_chk156.eq_1 v2160))
theorem k1_off234_inb : ∀ (v2160 : BitVec 32) (k1_hw156 : k1_chk156 v2160), ∀ a, (k1_off234 v2160) a + S1x4096.size a ≤ S16384x4096.size a := fun v2160 k1_hw156 => k1_hw156

def k1_off235 (i : grid1.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v2173 : BitVec 32 := Scalar.addi v0 c78_i32
  let v2174 : Index := Scalar.indexCast v2173
  ![v2174.toNat]
def k1_off236 (v2175 : BitVec 32) : Fin 2 → Nat :=
  let c0_i32_1346 : BitVec 32 := 0#32
  ![v2175.toNat, 0]

def k1_chk157 (v2175 : BitVec 32) : Prop :=
  (∀ a, (k1_off236 v2175) a + S1x4096.size a ≤ S16384x4096.size a)
instance k1_chk157.dec : ∀ (v2175 : BitVec 32), Decidable (k1_chk157 v2175) := fun v2175 => decidable_of_iff' _ (Iff.of_eq (k1_chk157.eq_1 v2175))
theorem k1_off236_inb : ∀ (v2175 : BitVec 32) (k1_hw157 : k1_chk157 v2175), ∀ a, (k1_off236 v2175) a + S1x4096.size a ≤ S16384x4096.size a := fun v2175 k1_hw157 => k1_hw157

def k1_off237 (v2178 : BitVec 32) : Fin 2 → Nat :=
  let c0_i32_1350 : BitVec 32 := 0#32
  ![v2178.toNat, 0]

def k1_chk158 (v2178 : BitVec 32) : Prop :=
  (∀ a, (k1_off237 v2178) a + S1x4096.size a ≤ S16384x4096.size a)
instance k1_chk158.dec : ∀ (v2178 : BitVec 32), Decidable (k1_chk158 v2178) := fun v2178 => decidable_of_iff' _ (Iff.of_eq (k1_chk158.eq_1 v2178))
theorem k1_off237_inb : ∀ (v2178 : BitVec 32) (k1_hw158 : k1_chk158 v2178), ∀ a, (k1_off237 v2178) a + S1x4096.size a ≤ S16384x4096.size a := fun v2178 k1_hw158 => k1_hw158

def k1_off238 (i : grid1.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v2191 : BitVec 32 := Scalar.addi v0 c79_i32
  let v2192 : Index := Scalar.indexCast v2191
  ![v2192.toNat]
def k1_off239 (v2193 : BitVec 32) : Fin 2 → Nat :=
  let c0_i32_1355 : BitVec 32 := 0#32
  ![v2193.toNat, 0]

def k1_chk159 (v2193 : BitVec 32) : Prop :=
  (∀ a, (k1_off239 v2193) a + S1x4096.size a ≤ S16384x4096.size a)
instance k1_chk159.dec : ∀ (v2193 : BitVec 32), Decidable (k1_chk159 v2193) := fun v2193 => decidable_of_iff' _ (Iff.of_eq (k1_chk159.eq_1 v2193))
theorem k1_off239_inb : ∀ (v2193 : BitVec 32) (k1_hw159 : k1_chk159 v2193), ∀ a, (k1_off239 v2193) a + S1x4096.size a ≤ S16384x4096.size a := fun v2193 k1_hw159 => k1_hw159

def k1_off240 (v2196 : BitVec 32) : Fin 2 → Nat :=
  let c0_i32_1359 : BitVec 32 := 0#32
  ![v2196.toNat, 0]

def k1_chk160 (v2196 : BitVec 32) : Prop :=
  (∀ a, (k1_off240 v2196) a + S1x4096.size a ≤ S16384x4096.size a)
instance k1_chk160.dec : ∀ (v2196 : BitVec 32), Decidable (k1_chk160 v2196) := fun v2196 => decidable_of_iff' _ (Iff.of_eq (k1_chk160.eq_1 v2196))
theorem k1_off240_inb : ∀ (v2196 : BitVec 32) (k1_hw160 : k1_chk160 v2196), ∀ a, (k1_off240 v2196) a + S1x4096.size a ≤ S16384x4096.size a := fun v2196 k1_hw160 => k1_hw160

def k1_off241 (i : grid1.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v2209 : BitVec 32 := Scalar.addi v0 c80_i32
  let v2210 : Index := Scalar.indexCast v2209
  ![v2210.toNat]
def k1_off242 (v2211 : BitVec 32) : Fin 2 → Nat :=
  let c0_i32_1364 : BitVec 32 := 0#32
  ![v2211.toNat, 0]

def k1_chk161 (v2211 : BitVec 32) : Prop :=
  (∀ a, (k1_off242 v2211) a + S1x4096.size a ≤ S16384x4096.size a)
instance k1_chk161.dec : ∀ (v2211 : BitVec 32), Decidable (k1_chk161 v2211) := fun v2211 => decidable_of_iff' _ (Iff.of_eq (k1_chk161.eq_1 v2211))
theorem k1_off242_inb : ∀ (v2211 : BitVec 32) (k1_hw161 : k1_chk161 v2211), ∀ a, (k1_off242 v2211) a + S1x4096.size a ≤ S16384x4096.size a := fun v2211 k1_hw161 => k1_hw161

def k1_off243 (v2214 : BitVec 32) : Fin 2 → Nat :=
  let c0_i32_1368 : BitVec 32 := 0#32
  ![v2214.toNat, 0]

def k1_chk162 (v2214 : BitVec 32) : Prop :=
  (∀ a, (k1_off243 v2214) a + S1x4096.size a ≤ S16384x4096.size a)
instance k1_chk162.dec : ∀ (v2214 : BitVec 32), Decidable (k1_chk162 v2214) := fun v2214 => decidable_of_iff' _ (Iff.of_eq (k1_chk162.eq_1 v2214))
theorem k1_off243_inb : ∀ (v2214 : BitVec 32) (k1_hw162 : k1_chk162 v2214), ∀ a, (k1_off243 v2214) a + S1x4096.size a ≤ S16384x4096.size a := fun v2214 k1_hw162 => k1_hw162

def k1_off244 (i : grid1.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v2227 : BitVec 32 := Scalar.addi v0 c81_i32
  let v2228 : Index := Scalar.indexCast v2227
  ![v2228.toNat]
def k1_off245 (v2229 : BitVec 32) : Fin 2 → Nat :=
  let c0_i32_1373 : BitVec 32 := 0#32
  ![v2229.toNat, 0]

def k1_chk163 (v2229 : BitVec 32) : Prop :=
  (∀ a, (k1_off245 v2229) a + S1x4096.size a ≤ S16384x4096.size a)
instance k1_chk163.dec : ∀ (v2229 : BitVec 32), Decidable (k1_chk163 v2229) := fun v2229 => decidable_of_iff' _ (Iff.of_eq (k1_chk163.eq_1 v2229))
theorem k1_off245_inb : ∀ (v2229 : BitVec 32) (k1_hw163 : k1_chk163 v2229), ∀ a, (k1_off245 v2229) a + S1x4096.size a ≤ S16384x4096.size a := fun v2229 k1_hw163 => k1_hw163

def k1_off246 (v2232 : BitVec 32) : Fin 2 → Nat :=
  let c0_i32_1377 : BitVec 32 := 0#32
  ![v2232.toNat, 0]

def k1_chk164 (v2232 : BitVec 32) : Prop :=
  (∀ a, (k1_off246 v2232) a + S1x4096.size a ≤ S16384x4096.size a)
instance k1_chk164.dec : ∀ (v2232 : BitVec 32), Decidable (k1_chk164 v2232) := fun v2232 => decidable_of_iff' _ (Iff.of_eq (k1_chk164.eq_1 v2232))
theorem k1_off246_inb : ∀ (v2232 : BitVec 32) (k1_hw164 : k1_chk164 v2232), ∀ a, (k1_off246 v2232) a + S1x4096.size a ≤ S16384x4096.size a := fun v2232 k1_hw164 => k1_hw164

def k1_off247 (i : grid1.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v2245 : BitVec 32 := Scalar.addi v0 c82_i32
  let v2246 : Index := Scalar.indexCast v2245
  ![v2246.toNat]
def k1_off248 (v2247 : BitVec 32) : Fin 2 → Nat :=
  let c0_i32_1382 : BitVec 32 := 0#32
  ![v2247.toNat, 0]

def k1_chk165 (v2247 : BitVec 32) : Prop :=
  (∀ a, (k1_off248 v2247) a + S1x4096.size a ≤ S16384x4096.size a)
instance k1_chk165.dec : ∀ (v2247 : BitVec 32), Decidable (k1_chk165 v2247) := fun v2247 => decidable_of_iff' _ (Iff.of_eq (k1_chk165.eq_1 v2247))
theorem k1_off248_inb : ∀ (v2247 : BitVec 32) (k1_hw165 : k1_chk165 v2247), ∀ a, (k1_off248 v2247) a + S1x4096.size a ≤ S16384x4096.size a := fun v2247 k1_hw165 => k1_hw165

def k1_off249 (v2250 : BitVec 32) : Fin 2 → Nat :=
  let c0_i32_1386 : BitVec 32 := 0#32
  ![v2250.toNat, 0]

def k1_chk166 (v2250 : BitVec 32) : Prop :=
  (∀ a, (k1_off249 v2250) a + S1x4096.size a ≤ S16384x4096.size a)
instance k1_chk166.dec : ∀ (v2250 : BitVec 32), Decidable (k1_chk166 v2250) := fun v2250 => decidable_of_iff' _ (Iff.of_eq (k1_chk166.eq_1 v2250))
theorem k1_off249_inb : ∀ (v2250 : BitVec 32) (k1_hw166 : k1_chk166 v2250), ∀ a, (k1_off249 v2250) a + S1x4096.size a ≤ S16384x4096.size a := fun v2250 k1_hw166 => k1_hw166

def k1_off250 (i : grid1.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v2263 : BitVec 32 := Scalar.addi v0 c83_i32
  let v2264 : Index := Scalar.indexCast v2263
  ![v2264.toNat]
def k1_off251 (v2265 : BitVec 32) : Fin 2 → Nat :=
  let c0_i32_1391 : BitVec 32 := 0#32
  ![v2265.toNat, 0]

def k1_chk167 (v2265 : BitVec 32) : Prop :=
  (∀ a, (k1_off251 v2265) a + S1x4096.size a ≤ S16384x4096.size a)
instance k1_chk167.dec : ∀ (v2265 : BitVec 32), Decidable (k1_chk167 v2265) := fun v2265 => decidable_of_iff' _ (Iff.of_eq (k1_chk167.eq_1 v2265))
theorem k1_off251_inb : ∀ (v2265 : BitVec 32) (k1_hw167 : k1_chk167 v2265), ∀ a, (k1_off251 v2265) a + S1x4096.size a ≤ S16384x4096.size a := fun v2265 k1_hw167 => k1_hw167

def k1_off252 (v2268 : BitVec 32) : Fin 2 → Nat :=
  let c0_i32_1395 : BitVec 32 := 0#32
  ![v2268.toNat, 0]

def k1_chk168 (v2268 : BitVec 32) : Prop :=
  (∀ a, (k1_off252 v2268) a + S1x4096.size a ≤ S16384x4096.size a)
instance k1_chk168.dec : ∀ (v2268 : BitVec 32), Decidable (k1_chk168 v2268) := fun v2268 => decidable_of_iff' _ (Iff.of_eq (k1_chk168.eq_1 v2268))
theorem k1_off252_inb : ∀ (v2268 : BitVec 32) (k1_hw168 : k1_chk168 v2268), ∀ a, (k1_off252 v2268) a + S1x4096.size a ≤ S16384x4096.size a := fun v2268 k1_hw168 => k1_hw168

def k1_off253 (i : grid1.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v2281 : BitVec 32 := Scalar.addi v0 c84_i32
  let v2282 : Index := Scalar.indexCast v2281
  ![v2282.toNat]
def k1_off254 (v2283 : BitVec 32) : Fin 2 → Nat :=
  let c0_i32_1400 : BitVec 32 := 0#32
  ![v2283.toNat, 0]

def k1_chk169 (v2283 : BitVec 32) : Prop :=
  (∀ a, (k1_off254 v2283) a + S1x4096.size a ≤ S16384x4096.size a)
instance k1_chk169.dec : ∀ (v2283 : BitVec 32), Decidable (k1_chk169 v2283) := fun v2283 => decidable_of_iff' _ (Iff.of_eq (k1_chk169.eq_1 v2283))
theorem k1_off254_inb : ∀ (v2283 : BitVec 32) (k1_hw169 : k1_chk169 v2283), ∀ a, (k1_off254 v2283) a + S1x4096.size a ≤ S16384x4096.size a := fun v2283 k1_hw169 => k1_hw169

def k1_off255 (v2286 : BitVec 32) : Fin 2 → Nat :=
  let c0_i32_1404 : BitVec 32 := 0#32
  ![v2286.toNat, 0]

def k1_chk170 (v2286 : BitVec 32) : Prop :=
  (∀ a, (k1_off255 v2286) a + S1x4096.size a ≤ S16384x4096.size a)
instance k1_chk170.dec : ∀ (v2286 : BitVec 32), Decidable (k1_chk170 v2286) := fun v2286 => decidable_of_iff' _ (Iff.of_eq (k1_chk170.eq_1 v2286))
theorem k1_off255_inb : ∀ (v2286 : BitVec 32) (k1_hw170 : k1_chk170 v2286), ∀ a, (k1_off255 v2286) a + S1x4096.size a ≤ S16384x4096.size a := fun v2286 k1_hw170 => k1_hw170

def k1_off256 (i : grid1.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v2299 : BitVec 32 := Scalar.addi v0 c85_i32
  let v2300 : Index := Scalar.indexCast v2299
  ![v2300.toNat]
def k1_off257 (v2301 : BitVec 32) : Fin 2 → Nat :=
  let c0_i32_1409 : BitVec 32 := 0#32
  ![v2301.toNat, 0]

def k1_chk171 (v2301 : BitVec 32) : Prop :=
  (∀ a, (k1_off257 v2301) a + S1x4096.size a ≤ S16384x4096.size a)
instance k1_chk171.dec : ∀ (v2301 : BitVec 32), Decidable (k1_chk171 v2301) := fun v2301 => decidable_of_iff' _ (Iff.of_eq (k1_chk171.eq_1 v2301))
theorem k1_off257_inb : ∀ (v2301 : BitVec 32) (k1_hw171 : k1_chk171 v2301), ∀ a, (k1_off257 v2301) a + S1x4096.size a ≤ S16384x4096.size a := fun v2301 k1_hw171 => k1_hw171

def k1_off258 (v2304 : BitVec 32) : Fin 2 → Nat :=
  let c0_i32_1413 : BitVec 32 := 0#32
  ![v2304.toNat, 0]

def k1_chk172 (v2304 : BitVec 32) : Prop :=
  (∀ a, (k1_off258 v2304) a + S1x4096.size a ≤ S16384x4096.size a)
instance k1_chk172.dec : ∀ (v2304 : BitVec 32), Decidable (k1_chk172 v2304) := fun v2304 => decidable_of_iff' _ (Iff.of_eq (k1_chk172.eq_1 v2304))
theorem k1_off258_inb : ∀ (v2304 : BitVec 32) (k1_hw172 : k1_chk172 v2304), ∀ a, (k1_off258 v2304) a + S1x4096.size a ≤ S16384x4096.size a := fun v2304 k1_hw172 => k1_hw172

def k1_off259 (i : grid1.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v2317 : BitVec 32 := Scalar.addi v0 c86_i32
  let v2318 : Index := Scalar.indexCast v2317
  ![v2318.toNat]
def k1_off260 (v2319 : BitVec 32) : Fin 2 → Nat :=
  let c0_i32_1418 : BitVec 32 := 0#32
  ![v2319.toNat, 0]

def k1_chk173 (v2319 : BitVec 32) : Prop :=
  (∀ a, (k1_off260 v2319) a + S1x4096.size a ≤ S16384x4096.size a)
instance k1_chk173.dec : ∀ (v2319 : BitVec 32), Decidable (k1_chk173 v2319) := fun v2319 => decidable_of_iff' _ (Iff.of_eq (k1_chk173.eq_1 v2319))
theorem k1_off260_inb : ∀ (v2319 : BitVec 32) (k1_hw173 : k1_chk173 v2319), ∀ a, (k1_off260 v2319) a + S1x4096.size a ≤ S16384x4096.size a := fun v2319 k1_hw173 => k1_hw173

def k1_off261 (v2322 : BitVec 32) : Fin 2 → Nat :=
  let c0_i32_1422 : BitVec 32 := 0#32
  ![v2322.toNat, 0]

def k1_chk174 (v2322 : BitVec 32) : Prop :=
  (∀ a, (k1_off261 v2322) a + S1x4096.size a ≤ S16384x4096.size a)
instance k1_chk174.dec : ∀ (v2322 : BitVec 32), Decidable (k1_chk174 v2322) := fun v2322 => decidable_of_iff' _ (Iff.of_eq (k1_chk174.eq_1 v2322))
theorem k1_off261_inb : ∀ (v2322 : BitVec 32) (k1_hw174 : k1_chk174 v2322), ∀ a, (k1_off261 v2322) a + S1x4096.size a ≤ S16384x4096.size a := fun v2322 k1_hw174 => k1_hw174

def k1_off262 (i : grid1.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v2335 : BitVec 32 := Scalar.addi v0 c87_i32
  let v2336 : Index := Scalar.indexCast v2335
  ![v2336.toNat]
def k1_off263 (v2337 : BitVec 32) : Fin 2 → Nat :=
  let c0_i32_1427 : BitVec 32 := 0#32
  ![v2337.toNat, 0]

def k1_chk175 (v2337 : BitVec 32) : Prop :=
  (∀ a, (k1_off263 v2337) a + S1x4096.size a ≤ S16384x4096.size a)
instance k1_chk175.dec : ∀ (v2337 : BitVec 32), Decidable (k1_chk175 v2337) := fun v2337 => decidable_of_iff' _ (Iff.of_eq (k1_chk175.eq_1 v2337))
theorem k1_off263_inb : ∀ (v2337 : BitVec 32) (k1_hw175 : k1_chk175 v2337), ∀ a, (k1_off263 v2337) a + S1x4096.size a ≤ S16384x4096.size a := fun v2337 k1_hw175 => k1_hw175

def k1_off264 (v2340 : BitVec 32) : Fin 2 → Nat :=
  let c0_i32_1431 : BitVec 32 := 0#32
  ![v2340.toNat, 0]

def k1_chk176 (v2340 : BitVec 32) : Prop :=
  (∀ a, (k1_off264 v2340) a + S1x4096.size a ≤ S16384x4096.size a)
instance k1_chk176.dec : ∀ (v2340 : BitVec 32), Decidable (k1_chk176 v2340) := fun v2340 => decidable_of_iff' _ (Iff.of_eq (k1_chk176.eq_1 v2340))
theorem k1_off264_inb : ∀ (v2340 : BitVec 32) (k1_hw176 : k1_chk176 v2340), ∀ a, (k1_off264 v2340) a + S1x4096.size a ≤ S16384x4096.size a := fun v2340 k1_hw176 => k1_hw176

def k1_off265 (i : grid1.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v2353 : BitVec 32 := Scalar.addi v0 c88_i32
  let v2354 : Index := Scalar.indexCast v2353
  ![v2354.toNat]
def k1_off266 (v2355 : BitVec 32) : Fin 2 → Nat :=
  let c0_i32_1436 : BitVec 32 := 0#32
  ![v2355.toNat, 0]

def k1_chk177 (v2355 : BitVec 32) : Prop :=
  (∀ a, (k1_off266 v2355) a + S1x4096.size a ≤ S16384x4096.size a)
instance k1_chk177.dec : ∀ (v2355 : BitVec 32), Decidable (k1_chk177 v2355) := fun v2355 => decidable_of_iff' _ (Iff.of_eq (k1_chk177.eq_1 v2355))
theorem k1_off266_inb : ∀ (v2355 : BitVec 32) (k1_hw177 : k1_chk177 v2355), ∀ a, (k1_off266 v2355) a + S1x4096.size a ≤ S16384x4096.size a := fun v2355 k1_hw177 => k1_hw177

def k1_off267 (v2358 : BitVec 32) : Fin 2 → Nat :=
  let c0_i32_1440 : BitVec 32 := 0#32
  ![v2358.toNat, 0]

def k1_chk178 (v2358 : BitVec 32) : Prop :=
  (∀ a, (k1_off267 v2358) a + S1x4096.size a ≤ S16384x4096.size a)
instance k1_chk178.dec : ∀ (v2358 : BitVec 32), Decidable (k1_chk178 v2358) := fun v2358 => decidable_of_iff' _ (Iff.of_eq (k1_chk178.eq_1 v2358))
theorem k1_off267_inb : ∀ (v2358 : BitVec 32) (k1_hw178 : k1_chk178 v2358), ∀ a, (k1_off267 v2358) a + S1x4096.size a ≤ S16384x4096.size a := fun v2358 k1_hw178 => k1_hw178

def k1_off268 (i : grid1.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v2371 : BitVec 32 := Scalar.addi v0 c89_i32
  let v2372 : Index := Scalar.indexCast v2371
  ![v2372.toNat]
def k1_off269 (v2373 : BitVec 32) : Fin 2 → Nat :=
  let c0_i32_1445 : BitVec 32 := 0#32
  ![v2373.toNat, 0]

def k1_chk179 (v2373 : BitVec 32) : Prop :=
  (∀ a, (k1_off269 v2373) a + S1x4096.size a ≤ S16384x4096.size a)
instance k1_chk179.dec : ∀ (v2373 : BitVec 32), Decidable (k1_chk179 v2373) := fun v2373 => decidable_of_iff' _ (Iff.of_eq (k1_chk179.eq_1 v2373))
theorem k1_off269_inb : ∀ (v2373 : BitVec 32) (k1_hw179 : k1_chk179 v2373), ∀ a, (k1_off269 v2373) a + S1x4096.size a ≤ S16384x4096.size a := fun v2373 k1_hw179 => k1_hw179

def k1_off270 (v2376 : BitVec 32) : Fin 2 → Nat :=
  let c0_i32_1449 : BitVec 32 := 0#32
  ![v2376.toNat, 0]

def k1_chk180 (v2376 : BitVec 32) : Prop :=
  (∀ a, (k1_off270 v2376) a + S1x4096.size a ≤ S16384x4096.size a)
instance k1_chk180.dec : ∀ (v2376 : BitVec 32), Decidable (k1_chk180 v2376) := fun v2376 => decidable_of_iff' _ (Iff.of_eq (k1_chk180.eq_1 v2376))
theorem k1_off270_inb : ∀ (v2376 : BitVec 32) (k1_hw180 : k1_chk180 v2376), ∀ a, (k1_off270 v2376) a + S1x4096.size a ≤ S16384x4096.size a := fun v2376 k1_hw180 => k1_hw180

def k1_off271 (i : grid1.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v2389 : BitVec 32 := Scalar.addi v0 c90_i32
  let v2390 : Index := Scalar.indexCast v2389
  ![v2390.toNat]
def k1_off272 (v2391 : BitVec 32) : Fin 2 → Nat :=
  let c0_i32_1454 : BitVec 32 := 0#32
  ![v2391.toNat, 0]

def k1_chk181 (v2391 : BitVec 32) : Prop :=
  (∀ a, (k1_off272 v2391) a + S1x4096.size a ≤ S16384x4096.size a)
instance k1_chk181.dec : ∀ (v2391 : BitVec 32), Decidable (k1_chk181 v2391) := fun v2391 => decidable_of_iff' _ (Iff.of_eq (k1_chk181.eq_1 v2391))
theorem k1_off272_inb : ∀ (v2391 : BitVec 32) (k1_hw181 : k1_chk181 v2391), ∀ a, (k1_off272 v2391) a + S1x4096.size a ≤ S16384x4096.size a := fun v2391 k1_hw181 => k1_hw181

def k1_off273 (v2394 : BitVec 32) : Fin 2 → Nat :=
  let c0_i32_1458 : BitVec 32 := 0#32
  ![v2394.toNat, 0]

def k1_chk182 (v2394 : BitVec 32) : Prop :=
  (∀ a, (k1_off273 v2394) a + S1x4096.size a ≤ S16384x4096.size a)
instance k1_chk182.dec : ∀ (v2394 : BitVec 32), Decidable (k1_chk182 v2394) := fun v2394 => decidable_of_iff' _ (Iff.of_eq (k1_chk182.eq_1 v2394))
theorem k1_off273_inb : ∀ (v2394 : BitVec 32) (k1_hw182 : k1_chk182 v2394), ∀ a, (k1_off273 v2394) a + S1x4096.size a ≤ S16384x4096.size a := fun v2394 k1_hw182 => k1_hw182

def k1_off274 (i : grid1.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v2407 : BitVec 32 := Scalar.addi v0 c91_i32
  let v2408 : Index := Scalar.indexCast v2407
  ![v2408.toNat]
def k1_off275 (v2409 : BitVec 32) : Fin 2 → Nat :=
  let c0_i32_1463 : BitVec 32 := 0#32
  ![v2409.toNat, 0]

def k1_chk183 (v2409 : BitVec 32) : Prop :=
  (∀ a, (k1_off275 v2409) a + S1x4096.size a ≤ S16384x4096.size a)
instance k1_chk183.dec : ∀ (v2409 : BitVec 32), Decidable (k1_chk183 v2409) := fun v2409 => decidable_of_iff' _ (Iff.of_eq (k1_chk183.eq_1 v2409))
theorem k1_off275_inb : ∀ (v2409 : BitVec 32) (k1_hw183 : k1_chk183 v2409), ∀ a, (k1_off275 v2409) a + S1x4096.size a ≤ S16384x4096.size a := fun v2409 k1_hw183 => k1_hw183

def k1_off276 (v2412 : BitVec 32) : Fin 2 → Nat :=
  let c0_i32_1467 : BitVec 32 := 0#32
  ![v2412.toNat, 0]

def k1_chk184 (v2412 : BitVec 32) : Prop :=
  (∀ a, (k1_off276 v2412) a + S1x4096.size a ≤ S16384x4096.size a)
instance k1_chk184.dec : ∀ (v2412 : BitVec 32), Decidable (k1_chk184 v2412) := fun v2412 => decidable_of_iff' _ (Iff.of_eq (k1_chk184.eq_1 v2412))
theorem k1_off276_inb : ∀ (v2412 : BitVec 32) (k1_hw184 : k1_chk184 v2412), ∀ a, (k1_off276 v2412) a + S1x4096.size a ≤ S16384x4096.size a := fun v2412 k1_hw184 => k1_hw184

def k1_off277 (i : grid1.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v2425 : BitVec 32 := Scalar.addi v0 c92_i32
  let v2426 : Index := Scalar.indexCast v2425
  ![v2426.toNat]
def k1_off278 (v2427 : BitVec 32) : Fin 2 → Nat :=
  let c0_i32_1472 : BitVec 32 := 0#32
  ![v2427.toNat, 0]

def k1_chk185 (v2427 : BitVec 32) : Prop :=
  (∀ a, (k1_off278 v2427) a + S1x4096.size a ≤ S16384x4096.size a)
instance k1_chk185.dec : ∀ (v2427 : BitVec 32), Decidable (k1_chk185 v2427) := fun v2427 => decidable_of_iff' _ (Iff.of_eq (k1_chk185.eq_1 v2427))
theorem k1_off278_inb : ∀ (v2427 : BitVec 32) (k1_hw185 : k1_chk185 v2427), ∀ a, (k1_off278 v2427) a + S1x4096.size a ≤ S16384x4096.size a := fun v2427 k1_hw185 => k1_hw185

def k1_off279 (v2430 : BitVec 32) : Fin 2 → Nat :=
  let c0_i32_1476 : BitVec 32 := 0#32
  ![v2430.toNat, 0]

def k1_chk186 (v2430 : BitVec 32) : Prop :=
  (∀ a, (k1_off279 v2430) a + S1x4096.size a ≤ S16384x4096.size a)
instance k1_chk186.dec : ∀ (v2430 : BitVec 32), Decidable (k1_chk186 v2430) := fun v2430 => decidable_of_iff' _ (Iff.of_eq (k1_chk186.eq_1 v2430))
theorem k1_off279_inb : ∀ (v2430 : BitVec 32) (k1_hw186 : k1_chk186 v2430), ∀ a, (k1_off279 v2430) a + S1x4096.size a ≤ S16384x4096.size a := fun v2430 k1_hw186 => k1_hw186

def k1_off280 (i : grid1.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v2443 : BitVec 32 := Scalar.addi v0 c93_i32
  let v2444 : Index := Scalar.indexCast v2443
  ![v2444.toNat]
def k1_off281 (v2445 : BitVec 32) : Fin 2 → Nat :=
  let c0_i32_1481 : BitVec 32 := 0#32
  ![v2445.toNat, 0]

def k1_chk187 (v2445 : BitVec 32) : Prop :=
  (∀ a, (k1_off281 v2445) a + S1x4096.size a ≤ S16384x4096.size a)
instance k1_chk187.dec : ∀ (v2445 : BitVec 32), Decidable (k1_chk187 v2445) := fun v2445 => decidable_of_iff' _ (Iff.of_eq (k1_chk187.eq_1 v2445))
theorem k1_off281_inb : ∀ (v2445 : BitVec 32) (k1_hw187 : k1_chk187 v2445), ∀ a, (k1_off281 v2445) a + S1x4096.size a ≤ S16384x4096.size a := fun v2445 k1_hw187 => k1_hw187

def k1_off282 (v2448 : BitVec 32) : Fin 2 → Nat :=
  let c0_i32_1485 : BitVec 32 := 0#32
  ![v2448.toNat, 0]

def k1_chk188 (v2448 : BitVec 32) : Prop :=
  (∀ a, (k1_off282 v2448) a + S1x4096.size a ≤ S16384x4096.size a)
instance k1_chk188.dec : ∀ (v2448 : BitVec 32), Decidable (k1_chk188 v2448) := fun v2448 => decidable_of_iff' _ (Iff.of_eq (k1_chk188.eq_1 v2448))
theorem k1_off282_inb : ∀ (v2448 : BitVec 32) (k1_hw188 : k1_chk188 v2448), ∀ a, (k1_off282 v2448) a + S1x4096.size a ≤ S16384x4096.size a := fun v2448 k1_hw188 => k1_hw188

def k1_off283 (i : grid1.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v2461 : BitVec 32 := Scalar.addi v0 c94_i32
  let v2462 : Index := Scalar.indexCast v2461
  ![v2462.toNat]
def k1_off284 (v2463 : BitVec 32) : Fin 2 → Nat :=
  let c0_i32_1490 : BitVec 32 := 0#32
  ![v2463.toNat, 0]

def k1_chk189 (v2463 : BitVec 32) : Prop :=
  (∀ a, (k1_off284 v2463) a + S1x4096.size a ≤ S16384x4096.size a)
instance k1_chk189.dec : ∀ (v2463 : BitVec 32), Decidable (k1_chk189 v2463) := fun v2463 => decidable_of_iff' _ (Iff.of_eq (k1_chk189.eq_1 v2463))
theorem k1_off284_inb : ∀ (v2463 : BitVec 32) (k1_hw189 : k1_chk189 v2463), ∀ a, (k1_off284 v2463) a + S1x4096.size a ≤ S16384x4096.size a := fun v2463 k1_hw189 => k1_hw189

def k1_off285 (v2466 : BitVec 32) : Fin 2 → Nat :=
  let c0_i32_1494 : BitVec 32 := 0#32
  ![v2466.toNat, 0]

def k1_chk190 (v2466 : BitVec 32) : Prop :=
  (∀ a, (k1_off285 v2466) a + S1x4096.size a ≤ S16384x4096.size a)
instance k1_chk190.dec : ∀ (v2466 : BitVec 32), Decidable (k1_chk190 v2466) := fun v2466 => decidable_of_iff' _ (Iff.of_eq (k1_chk190.eq_1 v2466))
theorem k1_off285_inb : ∀ (v2466 : BitVec 32) (k1_hw190 : k1_chk190 v2466), ∀ a, (k1_off285 v2466) a + S1x4096.size a ≤ S16384x4096.size a := fun v2466 k1_hw190 => k1_hw190

def k1_off286 (i : grid1.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v2479 : BitVec 32 := Scalar.addi v0 c95_i32
  let v2480 : Index := Scalar.indexCast v2479
  ![v2480.toNat]
def k1_off287 (v2481 : BitVec 32) : Fin 2 → Nat :=
  let c0_i32_1499 : BitVec 32 := 0#32
  ![v2481.toNat, 0]

def k1_chk191 (v2481 : BitVec 32) : Prop :=
  (∀ a, (k1_off287 v2481) a + S1x4096.size a ≤ S16384x4096.size a)
instance k1_chk191.dec : ∀ (v2481 : BitVec 32), Decidable (k1_chk191 v2481) := fun v2481 => decidable_of_iff' _ (Iff.of_eq (k1_chk191.eq_1 v2481))
theorem k1_off287_inb : ∀ (v2481 : BitVec 32) (k1_hw191 : k1_chk191 v2481), ∀ a, (k1_off287 v2481) a + S1x4096.size a ≤ S16384x4096.size a := fun v2481 k1_hw191 => k1_hw191

def k1_off288 (v2484 : BitVec 32) : Fin 2 → Nat :=
  let c0_i32_1503 : BitVec 32 := 0#32
  ![v2484.toNat, 0]

def k1_chk192 (v2484 : BitVec 32) : Prop :=
  (∀ a, (k1_off288 v2484) a + S1x4096.size a ≤ S16384x4096.size a)
instance k1_chk192.dec : ∀ (v2484 : BitVec 32), Decidable (k1_chk192 v2484) := fun v2484 => decidable_of_iff' _ (Iff.of_eq (k1_chk192.eq_1 v2484))
theorem k1_off288_inb : ∀ (v2484 : BitVec 32) (k1_hw192 : k1_chk192 v2484), ∀ a, (k1_off288 v2484) a + S1x4096.size a ≤ S16384x4096.size a := fun v2484 k1_hw192 => k1_hw192

def k1_off289 (i : grid1.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v2881 : BitVec 32 := Scalar.addi v0 c96_i32
  let v2882 : Index := Scalar.indexCast v2881
  ![v2882.toNat]
def k1_off290 (v2883 : BitVec 32) : Fin 2 → Nat :=
  let c0_i32_1828 : BitVec 32 := 0#32
  ![v2883.toNat, 0]

def k1_chk193 (v2883 : BitVec 32) : Prop :=
  (∀ a, (k1_off290 v2883) a + S1x4096.size a ≤ S16384x4096.size a)
instance k1_chk193.dec : ∀ (v2883 : BitVec 32), Decidable (k1_chk193 v2883) := fun v2883 => decidable_of_iff' _ (Iff.of_eq (k1_chk193.eq_1 v2883))
theorem k1_off290_inb : ∀ (v2883 : BitVec 32) (k1_hw193 : k1_chk193 v2883), ∀ a, (k1_off290 v2883) a + S1x4096.size a ≤ S16384x4096.size a := fun v2883 k1_hw193 => k1_hw193

def k1_off291 (v2886 : BitVec 32) : Fin 2 → Nat :=
  let c0_i32_1832 : BitVec 32 := 0#32
  ![v2886.toNat, 0]

def k1_chk194 (v2886 : BitVec 32) : Prop :=
  (∀ a, (k1_off291 v2886) a + S1x4096.size a ≤ S16384x4096.size a)
instance k1_chk194.dec : ∀ (v2886 : BitVec 32), Decidable (k1_chk194 v2886) := fun v2886 => decidable_of_iff' _ (Iff.of_eq (k1_chk194.eq_1 v2886))
theorem k1_off291_inb : ∀ (v2886 : BitVec 32) (k1_hw194 : k1_chk194 v2886), ∀ a, (k1_off291 v2886) a + S1x4096.size a ≤ S16384x4096.size a := fun v2886 k1_hw194 => k1_hw194

def k1_off292 (i : grid1.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v2899 : BitVec 32 := Scalar.addi v0 c97_i32
  let v2900 : Index := Scalar.indexCast v2899
  ![v2900.toNat]
def k1_off293 (v2901 : BitVec 32) : Fin 2 → Nat :=
  let c0_i32_1837 : BitVec 32 := 0#32
  ![v2901.toNat, 0]

def k1_chk195 (v2901 : BitVec 32) : Prop :=
  (∀ a, (k1_off293 v2901) a + S1x4096.size a ≤ S16384x4096.size a)
instance k1_chk195.dec : ∀ (v2901 : BitVec 32), Decidable (k1_chk195 v2901) := fun v2901 => decidable_of_iff' _ (Iff.of_eq (k1_chk195.eq_1 v2901))
theorem k1_off293_inb : ∀ (v2901 : BitVec 32) (k1_hw195 : k1_chk195 v2901), ∀ a, (k1_off293 v2901) a + S1x4096.size a ≤ S16384x4096.size a := fun v2901 k1_hw195 => k1_hw195

def k1_off294 (v2904 : BitVec 32) : Fin 2 → Nat :=
  let c0_i32_1841 : BitVec 32 := 0#32
  ![v2904.toNat, 0]

def k1_chk196 (v2904 : BitVec 32) : Prop :=
  (∀ a, (k1_off294 v2904) a + S1x4096.size a ≤ S16384x4096.size a)
instance k1_chk196.dec : ∀ (v2904 : BitVec 32), Decidable (k1_chk196 v2904) := fun v2904 => decidable_of_iff' _ (Iff.of_eq (k1_chk196.eq_1 v2904))
theorem k1_off294_inb : ∀ (v2904 : BitVec 32) (k1_hw196 : k1_chk196 v2904), ∀ a, (k1_off294 v2904) a + S1x4096.size a ≤ S16384x4096.size a := fun v2904 k1_hw196 => k1_hw196

def k1_off295 (i : grid1.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v2917 : BitVec 32 := Scalar.addi v0 c98_i32
  let v2918 : Index := Scalar.indexCast v2917
  ![v2918.toNat]
def k1_off296 (v2919 : BitVec 32) : Fin 2 → Nat :=
  let c0_i32_1846 : BitVec 32 := 0#32
  ![v2919.toNat, 0]

def k1_chk197 (v2919 : BitVec 32) : Prop :=
  (∀ a, (k1_off296 v2919) a + S1x4096.size a ≤ S16384x4096.size a)
instance k1_chk197.dec : ∀ (v2919 : BitVec 32), Decidable (k1_chk197 v2919) := fun v2919 => decidable_of_iff' _ (Iff.of_eq (k1_chk197.eq_1 v2919))
theorem k1_off296_inb : ∀ (v2919 : BitVec 32) (k1_hw197 : k1_chk197 v2919), ∀ a, (k1_off296 v2919) a + S1x4096.size a ≤ S16384x4096.size a := fun v2919 k1_hw197 => k1_hw197

def k1_off297 (v2922 : BitVec 32) : Fin 2 → Nat :=
  let c0_i32_1850 : BitVec 32 := 0#32
  ![v2922.toNat, 0]

def k1_chk198 (v2922 : BitVec 32) : Prop :=
  (∀ a, (k1_off297 v2922) a + S1x4096.size a ≤ S16384x4096.size a)
instance k1_chk198.dec : ∀ (v2922 : BitVec 32), Decidable (k1_chk198 v2922) := fun v2922 => decidable_of_iff' _ (Iff.of_eq (k1_chk198.eq_1 v2922))
theorem k1_off297_inb : ∀ (v2922 : BitVec 32) (k1_hw198 : k1_chk198 v2922), ∀ a, (k1_off297 v2922) a + S1x4096.size a ≤ S16384x4096.size a := fun v2922 k1_hw198 => k1_hw198

def k1_off298 (i : grid1.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v2935 : BitVec 32 := Scalar.addi v0 c99_i32
  let v2936 : Index := Scalar.indexCast v2935
  ![v2936.toNat]
def k1_off299 (v2937 : BitVec 32) : Fin 2 → Nat :=
  let c0_i32_1855 : BitVec 32 := 0#32
  ![v2937.toNat, 0]

def k1_chk199 (v2937 : BitVec 32) : Prop :=
  (∀ a, (k1_off299 v2937) a + S1x4096.size a ≤ S16384x4096.size a)
instance k1_chk199.dec : ∀ (v2937 : BitVec 32), Decidable (k1_chk199 v2937) := fun v2937 => decidable_of_iff' _ (Iff.of_eq (k1_chk199.eq_1 v2937))
theorem k1_off299_inb : ∀ (v2937 : BitVec 32) (k1_hw199 : k1_chk199 v2937), ∀ a, (k1_off299 v2937) a + S1x4096.size a ≤ S16384x4096.size a := fun v2937 k1_hw199 => k1_hw199

def k1_off300 (v2940 : BitVec 32) : Fin 2 → Nat :=
  let c0_i32_1859 : BitVec 32 := 0#32
  ![v2940.toNat, 0]

def k1_chk200 (v2940 : BitVec 32) : Prop :=
  (∀ a, (k1_off300 v2940) a + S1x4096.size a ≤ S16384x4096.size a)
instance k1_chk200.dec : ∀ (v2940 : BitVec 32), Decidable (k1_chk200 v2940) := fun v2940 => decidable_of_iff' _ (Iff.of_eq (k1_chk200.eq_1 v2940))
theorem k1_off300_inb : ∀ (v2940 : BitVec 32) (k1_hw200 : k1_chk200 v2940), ∀ a, (k1_off300 v2940) a + S1x4096.size a ≤ S16384x4096.size a := fun v2940 k1_hw200 => k1_hw200

def k1_off301 (i : grid1.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v2953 : BitVec 32 := Scalar.addi v0 c100_i32
  let v2954 : Index := Scalar.indexCast v2953
  ![v2954.toNat]
def k1_off302 (v2955 : BitVec 32) : Fin 2 → Nat :=
  let c0_i32_1864 : BitVec 32 := 0#32
  ![v2955.toNat, 0]

def k1_chk201 (v2955 : BitVec 32) : Prop :=
  (∀ a, (k1_off302 v2955) a + S1x4096.size a ≤ S16384x4096.size a)
instance k1_chk201.dec : ∀ (v2955 : BitVec 32), Decidable (k1_chk201 v2955) := fun v2955 => decidable_of_iff' _ (Iff.of_eq (k1_chk201.eq_1 v2955))
theorem k1_off302_inb : ∀ (v2955 : BitVec 32) (k1_hw201 : k1_chk201 v2955), ∀ a, (k1_off302 v2955) a + S1x4096.size a ≤ S16384x4096.size a := fun v2955 k1_hw201 => k1_hw201

def k1_off303 (v2958 : BitVec 32) : Fin 2 → Nat :=
  let c0_i32_1868 : BitVec 32 := 0#32
  ![v2958.toNat, 0]

def k1_chk202 (v2958 : BitVec 32) : Prop :=
  (∀ a, (k1_off303 v2958) a + S1x4096.size a ≤ S16384x4096.size a)
instance k1_chk202.dec : ∀ (v2958 : BitVec 32), Decidable (k1_chk202 v2958) := fun v2958 => decidable_of_iff' _ (Iff.of_eq (k1_chk202.eq_1 v2958))
theorem k1_off303_inb : ∀ (v2958 : BitVec 32) (k1_hw202 : k1_chk202 v2958), ∀ a, (k1_off303 v2958) a + S1x4096.size a ≤ S16384x4096.size a := fun v2958 k1_hw202 => k1_hw202

def k1_off304 (i : grid1.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v2971 : BitVec 32 := Scalar.addi v0 c101_i32
  let v2972 : Index := Scalar.indexCast v2971
  ![v2972.toNat]
def k1_off305 (v2973 : BitVec 32) : Fin 2 → Nat :=
  let c0_i32_1873 : BitVec 32 := 0#32
  ![v2973.toNat, 0]

def k1_chk203 (v2973 : BitVec 32) : Prop :=
  (∀ a, (k1_off305 v2973) a + S1x4096.size a ≤ S16384x4096.size a)
instance k1_chk203.dec : ∀ (v2973 : BitVec 32), Decidable (k1_chk203 v2973) := fun v2973 => decidable_of_iff' _ (Iff.of_eq (k1_chk203.eq_1 v2973))
theorem k1_off305_inb : ∀ (v2973 : BitVec 32) (k1_hw203 : k1_chk203 v2973), ∀ a, (k1_off305 v2973) a + S1x4096.size a ≤ S16384x4096.size a := fun v2973 k1_hw203 => k1_hw203

def k1_off306 (v2976 : BitVec 32) : Fin 2 → Nat :=
  let c0_i32_1877 : BitVec 32 := 0#32
  ![v2976.toNat, 0]

def k1_chk204 (v2976 : BitVec 32) : Prop :=
  (∀ a, (k1_off306 v2976) a + S1x4096.size a ≤ S16384x4096.size a)
instance k1_chk204.dec : ∀ (v2976 : BitVec 32), Decidable (k1_chk204 v2976) := fun v2976 => decidable_of_iff' _ (Iff.of_eq (k1_chk204.eq_1 v2976))
theorem k1_off306_inb : ∀ (v2976 : BitVec 32) (k1_hw204 : k1_chk204 v2976), ∀ a, (k1_off306 v2976) a + S1x4096.size a ≤ S16384x4096.size a := fun v2976 k1_hw204 => k1_hw204

def k1_off307 (i : grid1.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v2989 : BitVec 32 := Scalar.addi v0 c102_i32
  let v2990 : Index := Scalar.indexCast v2989
  ![v2990.toNat]
def k1_off308 (v2991 : BitVec 32) : Fin 2 → Nat :=
  let c0_i32_1882 : BitVec 32 := 0#32
  ![v2991.toNat, 0]

def k1_chk205 (v2991 : BitVec 32) : Prop :=
  (∀ a, (k1_off308 v2991) a + S1x4096.size a ≤ S16384x4096.size a)
instance k1_chk205.dec : ∀ (v2991 : BitVec 32), Decidable (k1_chk205 v2991) := fun v2991 => decidable_of_iff' _ (Iff.of_eq (k1_chk205.eq_1 v2991))
theorem k1_off308_inb : ∀ (v2991 : BitVec 32) (k1_hw205 : k1_chk205 v2991), ∀ a, (k1_off308 v2991) a + S1x4096.size a ≤ S16384x4096.size a := fun v2991 k1_hw205 => k1_hw205

def k1_off309 (v2994 : BitVec 32) : Fin 2 → Nat :=
  let c0_i32_1886 : BitVec 32 := 0#32
  ![v2994.toNat, 0]

def k1_chk206 (v2994 : BitVec 32) : Prop :=
  (∀ a, (k1_off309 v2994) a + S1x4096.size a ≤ S16384x4096.size a)
instance k1_chk206.dec : ∀ (v2994 : BitVec 32), Decidable (k1_chk206 v2994) := fun v2994 => decidable_of_iff' _ (Iff.of_eq (k1_chk206.eq_1 v2994))
theorem k1_off309_inb : ∀ (v2994 : BitVec 32) (k1_hw206 : k1_chk206 v2994), ∀ a, (k1_off309 v2994) a + S1x4096.size a ≤ S16384x4096.size a := fun v2994 k1_hw206 => k1_hw206

def k1_off310 (i : grid1.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v3007 : BitVec 32 := Scalar.addi v0 c103_i32
  let v3008 : Index := Scalar.indexCast v3007
  ![v3008.toNat]
def k1_off311 (v3009 : BitVec 32) : Fin 2 → Nat :=
  let c0_i32_1891 : BitVec 32 := 0#32
  ![v3009.toNat, 0]

def k1_chk207 (v3009 : BitVec 32) : Prop :=
  (∀ a, (k1_off311 v3009) a + S1x4096.size a ≤ S16384x4096.size a)
instance k1_chk207.dec : ∀ (v3009 : BitVec 32), Decidable (k1_chk207 v3009) := fun v3009 => decidable_of_iff' _ (Iff.of_eq (k1_chk207.eq_1 v3009))
theorem k1_off311_inb : ∀ (v3009 : BitVec 32) (k1_hw207 : k1_chk207 v3009), ∀ a, (k1_off311 v3009) a + S1x4096.size a ≤ S16384x4096.size a := fun v3009 k1_hw207 => k1_hw207

def k1_off312 (v3012 : BitVec 32) : Fin 2 → Nat :=
  let c0_i32_1895 : BitVec 32 := 0#32
  ![v3012.toNat, 0]

def k1_chk208 (v3012 : BitVec 32) : Prop :=
  (∀ a, (k1_off312 v3012) a + S1x4096.size a ≤ S16384x4096.size a)
instance k1_chk208.dec : ∀ (v3012 : BitVec 32), Decidable (k1_chk208 v3012) := fun v3012 => decidable_of_iff' _ (Iff.of_eq (k1_chk208.eq_1 v3012))
theorem k1_off312_inb : ∀ (v3012 : BitVec 32) (k1_hw208 : k1_chk208 v3012), ∀ a, (k1_off312 v3012) a + S1x4096.size a ≤ S16384x4096.size a := fun v3012 k1_hw208 => k1_hw208

def k1_off313 (i : grid1.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v3025 : BitVec 32 := Scalar.addi v0 c104_i32
  let v3026 : Index := Scalar.indexCast v3025
  ![v3026.toNat]
def k1_off314 (v3027 : BitVec 32) : Fin 2 → Nat :=
  let c0_i32_1900 : BitVec 32 := 0#32
  ![v3027.toNat, 0]

def k1_chk209 (v3027 : BitVec 32) : Prop :=
  (∀ a, (k1_off314 v3027) a + S1x4096.size a ≤ S16384x4096.size a)
instance k1_chk209.dec : ∀ (v3027 : BitVec 32), Decidable (k1_chk209 v3027) := fun v3027 => decidable_of_iff' _ (Iff.of_eq (k1_chk209.eq_1 v3027))
theorem k1_off314_inb : ∀ (v3027 : BitVec 32) (k1_hw209 : k1_chk209 v3027), ∀ a, (k1_off314 v3027) a + S1x4096.size a ≤ S16384x4096.size a := fun v3027 k1_hw209 => k1_hw209

def k1_off315 (v3030 : BitVec 32) : Fin 2 → Nat :=
  let c0_i32_1904 : BitVec 32 := 0#32
  ![v3030.toNat, 0]

def k1_chk210 (v3030 : BitVec 32) : Prop :=
  (∀ a, (k1_off315 v3030) a + S1x4096.size a ≤ S16384x4096.size a)
instance k1_chk210.dec : ∀ (v3030 : BitVec 32), Decidable (k1_chk210 v3030) := fun v3030 => decidable_of_iff' _ (Iff.of_eq (k1_chk210.eq_1 v3030))
theorem k1_off315_inb : ∀ (v3030 : BitVec 32) (k1_hw210 : k1_chk210 v3030), ∀ a, (k1_off315 v3030) a + S1x4096.size a ≤ S16384x4096.size a := fun v3030 k1_hw210 => k1_hw210

def k1_off316 (i : grid1.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v3043 : BitVec 32 := Scalar.addi v0 c105_i32
  let v3044 : Index := Scalar.indexCast v3043
  ![v3044.toNat]
def k1_off317 (v3045 : BitVec 32) : Fin 2 → Nat :=
  let c0_i32_1909 : BitVec 32 := 0#32
  ![v3045.toNat, 0]

def k1_chk211 (v3045 : BitVec 32) : Prop :=
  (∀ a, (k1_off317 v3045) a + S1x4096.size a ≤ S16384x4096.size a)
instance k1_chk211.dec : ∀ (v3045 : BitVec 32), Decidable (k1_chk211 v3045) := fun v3045 => decidable_of_iff' _ (Iff.of_eq (k1_chk211.eq_1 v3045))
theorem k1_off317_inb : ∀ (v3045 : BitVec 32) (k1_hw211 : k1_chk211 v3045), ∀ a, (k1_off317 v3045) a + S1x4096.size a ≤ S16384x4096.size a := fun v3045 k1_hw211 => k1_hw211

def k1_off318 (v3048 : BitVec 32) : Fin 2 → Nat :=
  let c0_i32_1913 : BitVec 32 := 0#32
  ![v3048.toNat, 0]

def k1_chk212 (v3048 : BitVec 32) : Prop :=
  (∀ a, (k1_off318 v3048) a + S1x4096.size a ≤ S16384x4096.size a)
instance k1_chk212.dec : ∀ (v3048 : BitVec 32), Decidable (k1_chk212 v3048) := fun v3048 => decidable_of_iff' _ (Iff.of_eq (k1_chk212.eq_1 v3048))
theorem k1_off318_inb : ∀ (v3048 : BitVec 32) (k1_hw212 : k1_chk212 v3048), ∀ a, (k1_off318 v3048) a + S1x4096.size a ≤ S16384x4096.size a := fun v3048 k1_hw212 => k1_hw212

def k1_off319 (i : grid1.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v3061 : BitVec 32 := Scalar.addi v0 c106_i32
  let v3062 : Index := Scalar.indexCast v3061
  ![v3062.toNat]
def k1_off320 (v3063 : BitVec 32) : Fin 2 → Nat :=
  let c0_i32_1918 : BitVec 32 := 0#32
  ![v3063.toNat, 0]

def k1_chk213 (v3063 : BitVec 32) : Prop :=
  (∀ a, (k1_off320 v3063) a + S1x4096.size a ≤ S16384x4096.size a)
instance k1_chk213.dec : ∀ (v3063 : BitVec 32), Decidable (k1_chk213 v3063) := fun v3063 => decidable_of_iff' _ (Iff.of_eq (k1_chk213.eq_1 v3063))
theorem k1_off320_inb : ∀ (v3063 : BitVec 32) (k1_hw213 : k1_chk213 v3063), ∀ a, (k1_off320 v3063) a + S1x4096.size a ≤ S16384x4096.size a := fun v3063 k1_hw213 => k1_hw213

def k1_off321 (v3066 : BitVec 32) : Fin 2 → Nat :=
  let c0_i32_1922 : BitVec 32 := 0#32
  ![v3066.toNat, 0]

def k1_chk214 (v3066 : BitVec 32) : Prop :=
  (∀ a, (k1_off321 v3066) a + S1x4096.size a ≤ S16384x4096.size a)
instance k1_chk214.dec : ∀ (v3066 : BitVec 32), Decidable (k1_chk214 v3066) := fun v3066 => decidable_of_iff' _ (Iff.of_eq (k1_chk214.eq_1 v3066))
theorem k1_off321_inb : ∀ (v3066 : BitVec 32) (k1_hw214 : k1_chk214 v3066), ∀ a, (k1_off321 v3066) a + S1x4096.size a ≤ S16384x4096.size a := fun v3066 k1_hw214 => k1_hw214

def k1_off322 (i : grid1.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v3079 : BitVec 32 := Scalar.addi v0 c107_i32
  let v3080 : Index := Scalar.indexCast v3079
  ![v3080.toNat]
def k1_off323 (v3081 : BitVec 32) : Fin 2 → Nat :=
  let c0_i32_1927 : BitVec 32 := 0#32
  ![v3081.toNat, 0]

def k1_chk215 (v3081 : BitVec 32) : Prop :=
  (∀ a, (k1_off323 v3081) a + S1x4096.size a ≤ S16384x4096.size a)
instance k1_chk215.dec : ∀ (v3081 : BitVec 32), Decidable (k1_chk215 v3081) := fun v3081 => decidable_of_iff' _ (Iff.of_eq (k1_chk215.eq_1 v3081))
theorem k1_off323_inb : ∀ (v3081 : BitVec 32) (k1_hw215 : k1_chk215 v3081), ∀ a, (k1_off323 v3081) a + S1x4096.size a ≤ S16384x4096.size a := fun v3081 k1_hw215 => k1_hw215

def k1_off324 (v3084 : BitVec 32) : Fin 2 → Nat :=
  let c0_i32_1931 : BitVec 32 := 0#32
  ![v3084.toNat, 0]

def k1_chk216 (v3084 : BitVec 32) : Prop :=
  (∀ a, (k1_off324 v3084) a + S1x4096.size a ≤ S16384x4096.size a)
instance k1_chk216.dec : ∀ (v3084 : BitVec 32), Decidable (k1_chk216 v3084) := fun v3084 => decidable_of_iff' _ (Iff.of_eq (k1_chk216.eq_1 v3084))
theorem k1_off324_inb : ∀ (v3084 : BitVec 32) (k1_hw216 : k1_chk216 v3084), ∀ a, (k1_off324 v3084) a + S1x4096.size a ≤ S16384x4096.size a := fun v3084 k1_hw216 => k1_hw216

def k1_off325 (i : grid1.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v3097 : BitVec 32 := Scalar.addi v0 c108_i32
  let v3098 : Index := Scalar.indexCast v3097
  ![v3098.toNat]
def k1_off326 (v3099 : BitVec 32) : Fin 2 → Nat :=
  let c0_i32_1936 : BitVec 32 := 0#32
  ![v3099.toNat, 0]

def k1_chk217 (v3099 : BitVec 32) : Prop :=
  (∀ a, (k1_off326 v3099) a + S1x4096.size a ≤ S16384x4096.size a)
instance k1_chk217.dec : ∀ (v3099 : BitVec 32), Decidable (k1_chk217 v3099) := fun v3099 => decidable_of_iff' _ (Iff.of_eq (k1_chk217.eq_1 v3099))
theorem k1_off326_inb : ∀ (v3099 : BitVec 32) (k1_hw217 : k1_chk217 v3099), ∀ a, (k1_off326 v3099) a + S1x4096.size a ≤ S16384x4096.size a := fun v3099 k1_hw217 => k1_hw217

def k1_off327 (v3102 : BitVec 32) : Fin 2 → Nat :=
  let c0_i32_1940 : BitVec 32 := 0#32
  ![v3102.toNat, 0]

def k1_chk218 (v3102 : BitVec 32) : Prop :=
  (∀ a, (k1_off327 v3102) a + S1x4096.size a ≤ S16384x4096.size a)
instance k1_chk218.dec : ∀ (v3102 : BitVec 32), Decidable (k1_chk218 v3102) := fun v3102 => decidable_of_iff' _ (Iff.of_eq (k1_chk218.eq_1 v3102))
theorem k1_off327_inb : ∀ (v3102 : BitVec 32) (k1_hw218 : k1_chk218 v3102), ∀ a, (k1_off327 v3102) a + S1x4096.size a ≤ S16384x4096.size a := fun v3102 k1_hw218 => k1_hw218

def k1_off328 (i : grid1.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v3115 : BitVec 32 := Scalar.addi v0 c109_i32
  let v3116 : Index := Scalar.indexCast v3115
  ![v3116.toNat]
def k1_off329 (v3117 : BitVec 32) : Fin 2 → Nat :=
  let c0_i32_1945 : BitVec 32 := 0#32
  ![v3117.toNat, 0]

def k1_chk219 (v3117 : BitVec 32) : Prop :=
  (∀ a, (k1_off329 v3117) a + S1x4096.size a ≤ S16384x4096.size a)
instance k1_chk219.dec : ∀ (v3117 : BitVec 32), Decidable (k1_chk219 v3117) := fun v3117 => decidable_of_iff' _ (Iff.of_eq (k1_chk219.eq_1 v3117))
theorem k1_off329_inb : ∀ (v3117 : BitVec 32) (k1_hw219 : k1_chk219 v3117), ∀ a, (k1_off329 v3117) a + S1x4096.size a ≤ S16384x4096.size a := fun v3117 k1_hw219 => k1_hw219

def k1_off330 (v3120 : BitVec 32) : Fin 2 → Nat :=
  let c0_i32_1949 : BitVec 32 := 0#32
  ![v3120.toNat, 0]

def k1_chk220 (v3120 : BitVec 32) : Prop :=
  (∀ a, (k1_off330 v3120) a + S1x4096.size a ≤ S16384x4096.size a)
instance k1_chk220.dec : ∀ (v3120 : BitVec 32), Decidable (k1_chk220 v3120) := fun v3120 => decidable_of_iff' _ (Iff.of_eq (k1_chk220.eq_1 v3120))
theorem k1_off330_inb : ∀ (v3120 : BitVec 32) (k1_hw220 : k1_chk220 v3120), ∀ a, (k1_off330 v3120) a + S1x4096.size a ≤ S16384x4096.size a := fun v3120 k1_hw220 => k1_hw220

def k1_off331 (i : grid1.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v3133 : BitVec 32 := Scalar.addi v0 c110_i32
  let v3134 : Index := Scalar.indexCast v3133
  ![v3134.toNat]
def k1_off332 (v3135 : BitVec 32) : Fin 2 → Nat :=
  let c0_i32_1954 : BitVec 32 := 0#32
  ![v3135.toNat, 0]

def k1_chk221 (v3135 : BitVec 32) : Prop :=
  (∀ a, (k1_off332 v3135) a + S1x4096.size a ≤ S16384x4096.size a)
instance k1_chk221.dec : ∀ (v3135 : BitVec 32), Decidable (k1_chk221 v3135) := fun v3135 => decidable_of_iff' _ (Iff.of_eq (k1_chk221.eq_1 v3135))
theorem k1_off332_inb : ∀ (v3135 : BitVec 32) (k1_hw221 : k1_chk221 v3135), ∀ a, (k1_off332 v3135) a + S1x4096.size a ≤ S16384x4096.size a := fun v3135 k1_hw221 => k1_hw221

def k1_off333 (v3138 : BitVec 32) : Fin 2 → Nat :=
  let c0_i32_1958 : BitVec 32 := 0#32
  ![v3138.toNat, 0]

def k1_chk222 (v3138 : BitVec 32) : Prop :=
  (∀ a, (k1_off333 v3138) a + S1x4096.size a ≤ S16384x4096.size a)
instance k1_chk222.dec : ∀ (v3138 : BitVec 32), Decidable (k1_chk222 v3138) := fun v3138 => decidable_of_iff' _ (Iff.of_eq (k1_chk222.eq_1 v3138))
theorem k1_off333_inb : ∀ (v3138 : BitVec 32) (k1_hw222 : k1_chk222 v3138), ∀ a, (k1_off333 v3138) a + S1x4096.size a ≤ S16384x4096.size a := fun v3138 k1_hw222 => k1_hw222

def k1_off334 (i : grid1.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v3151 : BitVec 32 := Scalar.addi v0 c111_i32
  let v3152 : Index := Scalar.indexCast v3151
  ![v3152.toNat]
def k1_off335 (v3153 : BitVec 32) : Fin 2 → Nat :=
  let c0_i32_1963 : BitVec 32 := 0#32
  ![v3153.toNat, 0]

def k1_chk223 (v3153 : BitVec 32) : Prop :=
  (∀ a, (k1_off335 v3153) a + S1x4096.size a ≤ S16384x4096.size a)
instance k1_chk223.dec : ∀ (v3153 : BitVec 32), Decidable (k1_chk223 v3153) := fun v3153 => decidable_of_iff' _ (Iff.of_eq (k1_chk223.eq_1 v3153))
theorem k1_off335_inb : ∀ (v3153 : BitVec 32) (k1_hw223 : k1_chk223 v3153), ∀ a, (k1_off335 v3153) a + S1x4096.size a ≤ S16384x4096.size a := fun v3153 k1_hw223 => k1_hw223

def k1_off336 (v3156 : BitVec 32) : Fin 2 → Nat :=
  let c0_i32_1967 : BitVec 32 := 0#32
  ![v3156.toNat, 0]

def k1_chk224 (v3156 : BitVec 32) : Prop :=
  (∀ a, (k1_off336 v3156) a + S1x4096.size a ≤ S16384x4096.size a)
instance k1_chk224.dec : ∀ (v3156 : BitVec 32), Decidable (k1_chk224 v3156) := fun v3156 => decidable_of_iff' _ (Iff.of_eq (k1_chk224.eq_1 v3156))
theorem k1_off336_inb : ∀ (v3156 : BitVec 32) (k1_hw224 : k1_chk224 v3156), ∀ a, (k1_off336 v3156) a + S1x4096.size a ≤ S16384x4096.size a := fun v3156 k1_hw224 => k1_hw224

def k1_off337 (i : grid1.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v3169 : BitVec 32 := Scalar.addi v0 c112_i32
  let v3170 : Index := Scalar.indexCast v3169
  ![v3170.toNat]
def k1_off338 (v3171 : BitVec 32) : Fin 2 → Nat :=
  let c0_i32_1972 : BitVec 32 := 0#32
  ![v3171.toNat, 0]

def k1_chk225 (v3171 : BitVec 32) : Prop :=
  (∀ a, (k1_off338 v3171) a + S1x4096.size a ≤ S16384x4096.size a)
instance k1_chk225.dec : ∀ (v3171 : BitVec 32), Decidable (k1_chk225 v3171) := fun v3171 => decidable_of_iff' _ (Iff.of_eq (k1_chk225.eq_1 v3171))
theorem k1_off338_inb : ∀ (v3171 : BitVec 32) (k1_hw225 : k1_chk225 v3171), ∀ a, (k1_off338 v3171) a + S1x4096.size a ≤ S16384x4096.size a := fun v3171 k1_hw225 => k1_hw225

def k1_off339 (v3174 : BitVec 32) : Fin 2 → Nat :=
  let c0_i32_1976 : BitVec 32 := 0#32
  ![v3174.toNat, 0]

def k1_chk226 (v3174 : BitVec 32) : Prop :=
  (∀ a, (k1_off339 v3174) a + S1x4096.size a ≤ S16384x4096.size a)
instance k1_chk226.dec : ∀ (v3174 : BitVec 32), Decidable (k1_chk226 v3174) := fun v3174 => decidable_of_iff' _ (Iff.of_eq (k1_chk226.eq_1 v3174))
theorem k1_off339_inb : ∀ (v3174 : BitVec 32) (k1_hw226 : k1_chk226 v3174), ∀ a, (k1_off339 v3174) a + S1x4096.size a ≤ S16384x4096.size a := fun v3174 k1_hw226 => k1_hw226

def k1_off340 (i : grid1.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v3187 : BitVec 32 := Scalar.addi v0 c113_i32
  let v3188 : Index := Scalar.indexCast v3187
  ![v3188.toNat]
def k1_off341 (v3189 : BitVec 32) : Fin 2 → Nat :=
  let c0_i32_1981 : BitVec 32 := 0#32
  ![v3189.toNat, 0]

def k1_chk227 (v3189 : BitVec 32) : Prop :=
  (∀ a, (k1_off341 v3189) a + S1x4096.size a ≤ S16384x4096.size a)
instance k1_chk227.dec : ∀ (v3189 : BitVec 32), Decidable (k1_chk227 v3189) := fun v3189 => decidable_of_iff' _ (Iff.of_eq (k1_chk227.eq_1 v3189))
theorem k1_off341_inb : ∀ (v3189 : BitVec 32) (k1_hw227 : k1_chk227 v3189), ∀ a, (k1_off341 v3189) a + S1x4096.size a ≤ S16384x4096.size a := fun v3189 k1_hw227 => k1_hw227

def k1_off342 (v3192 : BitVec 32) : Fin 2 → Nat :=
  let c0_i32_1985 : BitVec 32 := 0#32
  ![v3192.toNat, 0]

def k1_chk228 (v3192 : BitVec 32) : Prop :=
  (∀ a, (k1_off342 v3192) a + S1x4096.size a ≤ S16384x4096.size a)
instance k1_chk228.dec : ∀ (v3192 : BitVec 32), Decidable (k1_chk228 v3192) := fun v3192 => decidable_of_iff' _ (Iff.of_eq (k1_chk228.eq_1 v3192))
theorem k1_off342_inb : ∀ (v3192 : BitVec 32) (k1_hw228 : k1_chk228 v3192), ∀ a, (k1_off342 v3192) a + S1x4096.size a ≤ S16384x4096.size a := fun v3192 k1_hw228 => k1_hw228

def k1_off343 (i : grid1.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v3205 : BitVec 32 := Scalar.addi v0 c114_i32
  let v3206 : Index := Scalar.indexCast v3205
  ![v3206.toNat]
def k1_off344 (v3207 : BitVec 32) : Fin 2 → Nat :=
  let c0_i32_1990 : BitVec 32 := 0#32
  ![v3207.toNat, 0]

def k1_chk229 (v3207 : BitVec 32) : Prop :=
  (∀ a, (k1_off344 v3207) a + S1x4096.size a ≤ S16384x4096.size a)
instance k1_chk229.dec : ∀ (v3207 : BitVec 32), Decidable (k1_chk229 v3207) := fun v3207 => decidable_of_iff' _ (Iff.of_eq (k1_chk229.eq_1 v3207))
theorem k1_off344_inb : ∀ (v3207 : BitVec 32) (k1_hw229 : k1_chk229 v3207), ∀ a, (k1_off344 v3207) a + S1x4096.size a ≤ S16384x4096.size a := fun v3207 k1_hw229 => k1_hw229

def k1_off345 (v3210 : BitVec 32) : Fin 2 → Nat :=
  let c0_i32_1994 : BitVec 32 := 0#32
  ![v3210.toNat, 0]

def k1_chk230 (v3210 : BitVec 32) : Prop :=
  (∀ a, (k1_off345 v3210) a + S1x4096.size a ≤ S16384x4096.size a)
instance k1_chk230.dec : ∀ (v3210 : BitVec 32), Decidable (k1_chk230 v3210) := fun v3210 => decidable_of_iff' _ (Iff.of_eq (k1_chk230.eq_1 v3210))
theorem k1_off345_inb : ∀ (v3210 : BitVec 32) (k1_hw230 : k1_chk230 v3210), ∀ a, (k1_off345 v3210) a + S1x4096.size a ≤ S16384x4096.size a := fun v3210 k1_hw230 => k1_hw230

def k1_off346 (i : grid1.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v3223 : BitVec 32 := Scalar.addi v0 c115_i32
  let v3224 : Index := Scalar.indexCast v3223
  ![v3224.toNat]
def k1_off347 (v3225 : BitVec 32) : Fin 2 → Nat :=
  let c0_i32_1999 : BitVec 32 := 0#32
  ![v3225.toNat, 0]

def k1_chk231 (v3225 : BitVec 32) : Prop :=
  (∀ a, (k1_off347 v3225) a + S1x4096.size a ≤ S16384x4096.size a)
instance k1_chk231.dec : ∀ (v3225 : BitVec 32), Decidable (k1_chk231 v3225) := fun v3225 => decidable_of_iff' _ (Iff.of_eq (k1_chk231.eq_1 v3225))
theorem k1_off347_inb : ∀ (v3225 : BitVec 32) (k1_hw231 : k1_chk231 v3225), ∀ a, (k1_off347 v3225) a + S1x4096.size a ≤ S16384x4096.size a := fun v3225 k1_hw231 => k1_hw231

def k1_off348 (v3228 : BitVec 32) : Fin 2 → Nat :=
  let c0_i32_2003 : BitVec 32 := 0#32
  ![v3228.toNat, 0]

def k1_chk232 (v3228 : BitVec 32) : Prop :=
  (∀ a, (k1_off348 v3228) a + S1x4096.size a ≤ S16384x4096.size a)
instance k1_chk232.dec : ∀ (v3228 : BitVec 32), Decidable (k1_chk232 v3228) := fun v3228 => decidable_of_iff' _ (Iff.of_eq (k1_chk232.eq_1 v3228))
theorem k1_off348_inb : ∀ (v3228 : BitVec 32) (k1_hw232 : k1_chk232 v3228), ∀ a, (k1_off348 v3228) a + S1x4096.size a ≤ S16384x4096.size a := fun v3228 k1_hw232 => k1_hw232

def k1_off349 (i : grid1.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v3241 : BitVec 32 := Scalar.addi v0 c116_i32
  let v3242 : Index := Scalar.indexCast v3241
  ![v3242.toNat]
def k1_off350 (v3243 : BitVec 32) : Fin 2 → Nat :=
  let c0_i32_2008 : BitVec 32 := 0#32
  ![v3243.toNat, 0]

def k1_chk233 (v3243 : BitVec 32) : Prop :=
  (∀ a, (k1_off350 v3243) a + S1x4096.size a ≤ S16384x4096.size a)
instance k1_chk233.dec : ∀ (v3243 : BitVec 32), Decidable (k1_chk233 v3243) := fun v3243 => decidable_of_iff' _ (Iff.of_eq (k1_chk233.eq_1 v3243))
theorem k1_off350_inb : ∀ (v3243 : BitVec 32) (k1_hw233 : k1_chk233 v3243), ∀ a, (k1_off350 v3243) a + S1x4096.size a ≤ S16384x4096.size a := fun v3243 k1_hw233 => k1_hw233

def k1_off351 (v3246 : BitVec 32) : Fin 2 → Nat :=
  let c0_i32_2012 : BitVec 32 := 0#32
  ![v3246.toNat, 0]

def k1_chk234 (v3246 : BitVec 32) : Prop :=
  (∀ a, (k1_off351 v3246) a + S1x4096.size a ≤ S16384x4096.size a)
instance k1_chk234.dec : ∀ (v3246 : BitVec 32), Decidable (k1_chk234 v3246) := fun v3246 => decidable_of_iff' _ (Iff.of_eq (k1_chk234.eq_1 v3246))
theorem k1_off351_inb : ∀ (v3246 : BitVec 32) (k1_hw234 : k1_chk234 v3246), ∀ a, (k1_off351 v3246) a + S1x4096.size a ≤ S16384x4096.size a := fun v3246 k1_hw234 => k1_hw234

def k1_off352 (i : grid1.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v3259 : BitVec 32 := Scalar.addi v0 c117_i32
  let v3260 : Index := Scalar.indexCast v3259
  ![v3260.toNat]
def k1_off353 (v3261 : BitVec 32) : Fin 2 → Nat :=
  let c0_i32_2017 : BitVec 32 := 0#32
  ![v3261.toNat, 0]

def k1_chk235 (v3261 : BitVec 32) : Prop :=
  (∀ a, (k1_off353 v3261) a + S1x4096.size a ≤ S16384x4096.size a)
instance k1_chk235.dec : ∀ (v3261 : BitVec 32), Decidable (k1_chk235 v3261) := fun v3261 => decidable_of_iff' _ (Iff.of_eq (k1_chk235.eq_1 v3261))
theorem k1_off353_inb : ∀ (v3261 : BitVec 32) (k1_hw235 : k1_chk235 v3261), ∀ a, (k1_off353 v3261) a + S1x4096.size a ≤ S16384x4096.size a := fun v3261 k1_hw235 => k1_hw235

def k1_off354 (v3264 : BitVec 32) : Fin 2 → Nat :=
  let c0_i32_2021 : BitVec 32 := 0#32
  ![v3264.toNat, 0]

def k1_chk236 (v3264 : BitVec 32) : Prop :=
  (∀ a, (k1_off354 v3264) a + S1x4096.size a ≤ S16384x4096.size a)
instance k1_chk236.dec : ∀ (v3264 : BitVec 32), Decidable (k1_chk236 v3264) := fun v3264 => decidable_of_iff' _ (Iff.of_eq (k1_chk236.eq_1 v3264))
theorem k1_off354_inb : ∀ (v3264 : BitVec 32) (k1_hw236 : k1_chk236 v3264), ∀ a, (k1_off354 v3264) a + S1x4096.size a ≤ S16384x4096.size a := fun v3264 k1_hw236 => k1_hw236

def k1_off355 (i : grid1.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v3277 : BitVec 32 := Scalar.addi v0 c118_i32
  let v3278 : Index := Scalar.indexCast v3277
  ![v3278.toNat]
def k1_off356 (v3279 : BitVec 32) : Fin 2 → Nat :=
  let c0_i32_2026 : BitVec 32 := 0#32
  ![v3279.toNat, 0]

def k1_chk237 (v3279 : BitVec 32) : Prop :=
  (∀ a, (k1_off356 v3279) a + S1x4096.size a ≤ S16384x4096.size a)
instance k1_chk237.dec : ∀ (v3279 : BitVec 32), Decidable (k1_chk237 v3279) := fun v3279 => decidable_of_iff' _ (Iff.of_eq (k1_chk237.eq_1 v3279))
theorem k1_off356_inb : ∀ (v3279 : BitVec 32) (k1_hw237 : k1_chk237 v3279), ∀ a, (k1_off356 v3279) a + S1x4096.size a ≤ S16384x4096.size a := fun v3279 k1_hw237 => k1_hw237

def k1_off357 (v3282 : BitVec 32) : Fin 2 → Nat :=
  let c0_i32_2030 : BitVec 32 := 0#32
  ![v3282.toNat, 0]

def k1_chk238 (v3282 : BitVec 32) : Prop :=
  (∀ a, (k1_off357 v3282) a + S1x4096.size a ≤ S16384x4096.size a)
instance k1_chk238.dec : ∀ (v3282 : BitVec 32), Decidable (k1_chk238 v3282) := fun v3282 => decidable_of_iff' _ (Iff.of_eq (k1_chk238.eq_1 v3282))
theorem k1_off357_inb : ∀ (v3282 : BitVec 32) (k1_hw238 : k1_chk238 v3282), ∀ a, (k1_off357 v3282) a + S1x4096.size a ≤ S16384x4096.size a := fun v3282 k1_hw238 => k1_hw238

def k1_off358 (i : grid1.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v3295 : BitVec 32 := Scalar.addi v0 c119_i32
  let v3296 : Index := Scalar.indexCast v3295
  ![v3296.toNat]
def k1_off359 (v3297 : BitVec 32) : Fin 2 → Nat :=
  let c0_i32_2035 : BitVec 32 := 0#32
  ![v3297.toNat, 0]

def k1_chk239 (v3297 : BitVec 32) : Prop :=
  (∀ a, (k1_off359 v3297) a + S1x4096.size a ≤ S16384x4096.size a)
instance k1_chk239.dec : ∀ (v3297 : BitVec 32), Decidable (k1_chk239 v3297) := fun v3297 => decidable_of_iff' _ (Iff.of_eq (k1_chk239.eq_1 v3297))
theorem k1_off359_inb : ∀ (v3297 : BitVec 32) (k1_hw239 : k1_chk239 v3297), ∀ a, (k1_off359 v3297) a + S1x4096.size a ≤ S16384x4096.size a := fun v3297 k1_hw239 => k1_hw239

def k1_off360 (v3300 : BitVec 32) : Fin 2 → Nat :=
  let c0_i32_2039 : BitVec 32 := 0#32
  ![v3300.toNat, 0]

def k1_chk240 (v3300 : BitVec 32) : Prop :=
  (∀ a, (k1_off360 v3300) a + S1x4096.size a ≤ S16384x4096.size a)
instance k1_chk240.dec : ∀ (v3300 : BitVec 32), Decidable (k1_chk240 v3300) := fun v3300 => decidable_of_iff' _ (Iff.of_eq (k1_chk240.eq_1 v3300))
theorem k1_off360_inb : ∀ (v3300 : BitVec 32) (k1_hw240 : k1_chk240 v3300), ∀ a, (k1_off360 v3300) a + S1x4096.size a ≤ S16384x4096.size a := fun v3300 k1_hw240 => k1_hw240

def k1_off361 (i : grid1.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v3313 : BitVec 32 := Scalar.addi v0 c120_i32
  let v3314 : Index := Scalar.indexCast v3313
  ![v3314.toNat]
def k1_off362 (v3315 : BitVec 32) : Fin 2 → Nat :=
  let c0_i32_2044 : BitVec 32 := 0#32
  ![v3315.toNat, 0]

def k1_chk241 (v3315 : BitVec 32) : Prop :=
  (∀ a, (k1_off362 v3315) a + S1x4096.size a ≤ S16384x4096.size a)
instance k1_chk241.dec : ∀ (v3315 : BitVec 32), Decidable (k1_chk241 v3315) := fun v3315 => decidable_of_iff' _ (Iff.of_eq (k1_chk241.eq_1 v3315))
theorem k1_off362_inb : ∀ (v3315 : BitVec 32) (k1_hw241 : k1_chk241 v3315), ∀ a, (k1_off362 v3315) a + S1x4096.size a ≤ S16384x4096.size a := fun v3315 k1_hw241 => k1_hw241

def k1_off363 (v3318 : BitVec 32) : Fin 2 → Nat :=
  let c0_i32_2048 : BitVec 32 := 0#32
  ![v3318.toNat, 0]

def k1_chk242 (v3318 : BitVec 32) : Prop :=
  (∀ a, (k1_off363 v3318) a + S1x4096.size a ≤ S16384x4096.size a)
instance k1_chk242.dec : ∀ (v3318 : BitVec 32), Decidable (k1_chk242 v3318) := fun v3318 => decidable_of_iff' _ (Iff.of_eq (k1_chk242.eq_1 v3318))
theorem k1_off363_inb : ∀ (v3318 : BitVec 32) (k1_hw242 : k1_chk242 v3318), ∀ a, (k1_off363 v3318) a + S1x4096.size a ≤ S16384x4096.size a := fun v3318 k1_hw242 => k1_hw242

def k1_off364 (i : grid1.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v3331 : BitVec 32 := Scalar.addi v0 c121_i32
  let v3332 : Index := Scalar.indexCast v3331
  ![v3332.toNat]
def k1_off365 (v3333 : BitVec 32) : Fin 2 → Nat :=
  let c0_i32_2053 : BitVec 32 := 0#32
  ![v3333.toNat, 0]

def k1_chk243 (v3333 : BitVec 32) : Prop :=
  (∀ a, (k1_off365 v3333) a + S1x4096.size a ≤ S16384x4096.size a)
instance k1_chk243.dec : ∀ (v3333 : BitVec 32), Decidable (k1_chk243 v3333) := fun v3333 => decidable_of_iff' _ (Iff.of_eq (k1_chk243.eq_1 v3333))
theorem k1_off365_inb : ∀ (v3333 : BitVec 32) (k1_hw243 : k1_chk243 v3333), ∀ a, (k1_off365 v3333) a + S1x4096.size a ≤ S16384x4096.size a := fun v3333 k1_hw243 => k1_hw243

def k1_off366 (v3336 : BitVec 32) : Fin 2 → Nat :=
  let c0_i32_2057 : BitVec 32 := 0#32
  ![v3336.toNat, 0]

def k1_chk244 (v3336 : BitVec 32) : Prop :=
  (∀ a, (k1_off366 v3336) a + S1x4096.size a ≤ S16384x4096.size a)
instance k1_chk244.dec : ∀ (v3336 : BitVec 32), Decidable (k1_chk244 v3336) := fun v3336 => decidable_of_iff' _ (Iff.of_eq (k1_chk244.eq_1 v3336))
theorem k1_off366_inb : ∀ (v3336 : BitVec 32) (k1_hw244 : k1_chk244 v3336), ∀ a, (k1_off366 v3336) a + S1x4096.size a ≤ S16384x4096.size a := fun v3336 k1_hw244 => k1_hw244

def k1_off367 (i : grid1.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v3349 : BitVec 32 := Scalar.addi v0 c122_i32
  let v3350 : Index := Scalar.indexCast v3349
  ![v3350.toNat]
def k1_off368 (v3351 : BitVec 32) : Fin 2 → Nat :=
  let c0_i32_2062 : BitVec 32 := 0#32
  ![v3351.toNat, 0]

def k1_chk245 (v3351 : BitVec 32) : Prop :=
  (∀ a, (k1_off368 v3351) a + S1x4096.size a ≤ S16384x4096.size a)
instance k1_chk245.dec : ∀ (v3351 : BitVec 32), Decidable (k1_chk245 v3351) := fun v3351 => decidable_of_iff' _ (Iff.of_eq (k1_chk245.eq_1 v3351))
theorem k1_off368_inb : ∀ (v3351 : BitVec 32) (k1_hw245 : k1_chk245 v3351), ∀ a, (k1_off368 v3351) a + S1x4096.size a ≤ S16384x4096.size a := fun v3351 k1_hw245 => k1_hw245

def k1_off369 (v3354 : BitVec 32) : Fin 2 → Nat :=
  let c0_i32_2066 : BitVec 32 := 0#32
  ![v3354.toNat, 0]

def k1_chk246 (v3354 : BitVec 32) : Prop :=
  (∀ a, (k1_off369 v3354) a + S1x4096.size a ≤ S16384x4096.size a)
instance k1_chk246.dec : ∀ (v3354 : BitVec 32), Decidable (k1_chk246 v3354) := fun v3354 => decidable_of_iff' _ (Iff.of_eq (k1_chk246.eq_1 v3354))
theorem k1_off369_inb : ∀ (v3354 : BitVec 32) (k1_hw246 : k1_chk246 v3354), ∀ a, (k1_off369 v3354) a + S1x4096.size a ≤ S16384x4096.size a := fun v3354 k1_hw246 => k1_hw246

def k1_off370 (i : grid1.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v3367 : BitVec 32 := Scalar.addi v0 c123_i32
  let v3368 : Index := Scalar.indexCast v3367
  ![v3368.toNat]
def k1_off371 (v3369 : BitVec 32) : Fin 2 → Nat :=
  let c0_i32_2071 : BitVec 32 := 0#32
  ![v3369.toNat, 0]

def k1_chk247 (v3369 : BitVec 32) : Prop :=
  (∀ a, (k1_off371 v3369) a + S1x4096.size a ≤ S16384x4096.size a)
instance k1_chk247.dec : ∀ (v3369 : BitVec 32), Decidable (k1_chk247 v3369) := fun v3369 => decidable_of_iff' _ (Iff.of_eq (k1_chk247.eq_1 v3369))
theorem k1_off371_inb : ∀ (v3369 : BitVec 32) (k1_hw247 : k1_chk247 v3369), ∀ a, (k1_off371 v3369) a + S1x4096.size a ≤ S16384x4096.size a := fun v3369 k1_hw247 => k1_hw247

def k1_off372 (v3372 : BitVec 32) : Fin 2 → Nat :=
  let c0_i32_2075 : BitVec 32 := 0#32
  ![v3372.toNat, 0]

def k1_chk248 (v3372 : BitVec 32) : Prop :=
  (∀ a, (k1_off372 v3372) a + S1x4096.size a ≤ S16384x4096.size a)
instance k1_chk248.dec : ∀ (v3372 : BitVec 32), Decidable (k1_chk248 v3372) := fun v3372 => decidable_of_iff' _ (Iff.of_eq (k1_chk248.eq_1 v3372))
theorem k1_off372_inb : ∀ (v3372 : BitVec 32) (k1_hw248 : k1_chk248 v3372), ∀ a, (k1_off372 v3372) a + S1x4096.size a ≤ S16384x4096.size a := fun v3372 k1_hw248 => k1_hw248

def k1_off373 (i : grid1.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v3385 : BitVec 32 := Scalar.addi v0 c124_i32
  let v3386 : Index := Scalar.indexCast v3385
  ![v3386.toNat]
def k1_off374 (v3387 : BitVec 32) : Fin 2 → Nat :=
  let c0_i32_2080 : BitVec 32 := 0#32
  ![v3387.toNat, 0]

def k1_chk249 (v3387 : BitVec 32) : Prop :=
  (∀ a, (k1_off374 v3387) a + S1x4096.size a ≤ S16384x4096.size a)
instance k1_chk249.dec : ∀ (v3387 : BitVec 32), Decidable (k1_chk249 v3387) := fun v3387 => decidable_of_iff' _ (Iff.of_eq (k1_chk249.eq_1 v3387))
theorem k1_off374_inb : ∀ (v3387 : BitVec 32) (k1_hw249 : k1_chk249 v3387), ∀ a, (k1_off374 v3387) a + S1x4096.size a ≤ S16384x4096.size a := fun v3387 k1_hw249 => k1_hw249

def k1_off375 (v3390 : BitVec 32) : Fin 2 → Nat :=
  let c0_i32_2084 : BitVec 32 := 0#32
  ![v3390.toNat, 0]

def k1_chk250 (v3390 : BitVec 32) : Prop :=
  (∀ a, (k1_off375 v3390) a + S1x4096.size a ≤ S16384x4096.size a)
instance k1_chk250.dec : ∀ (v3390 : BitVec 32), Decidable (k1_chk250 v3390) := fun v3390 => decidable_of_iff' _ (Iff.of_eq (k1_chk250.eq_1 v3390))
theorem k1_off375_inb : ∀ (v3390 : BitVec 32) (k1_hw250 : k1_chk250 v3390), ∀ a, (k1_off375 v3390) a + S1x4096.size a ≤ S16384x4096.size a := fun v3390 k1_hw250 => k1_hw250

def k1_off376 (i : grid1.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v3403 : BitVec 32 := Scalar.addi v0 c125_i32
  let v3404 : Index := Scalar.indexCast v3403
  ![v3404.toNat]
def k1_off377 (v3405 : BitVec 32) : Fin 2 → Nat :=
  let c0_i32_2089 : BitVec 32 := 0#32
  ![v3405.toNat, 0]

def k1_chk251 (v3405 : BitVec 32) : Prop :=
  (∀ a, (k1_off377 v3405) a + S1x4096.size a ≤ S16384x4096.size a)
instance k1_chk251.dec : ∀ (v3405 : BitVec 32), Decidable (k1_chk251 v3405) := fun v3405 => decidable_of_iff' _ (Iff.of_eq (k1_chk251.eq_1 v3405))
theorem k1_off377_inb : ∀ (v3405 : BitVec 32) (k1_hw251 : k1_chk251 v3405), ∀ a, (k1_off377 v3405) a + S1x4096.size a ≤ S16384x4096.size a := fun v3405 k1_hw251 => k1_hw251

def k1_off378 (v3408 : BitVec 32) : Fin 2 → Nat :=
  let c0_i32_2093 : BitVec 32 := 0#32
  ![v3408.toNat, 0]

def k1_chk252 (v3408 : BitVec 32) : Prop :=
  (∀ a, (k1_off378 v3408) a + S1x4096.size a ≤ S16384x4096.size a)
instance k1_chk252.dec : ∀ (v3408 : BitVec 32), Decidable (k1_chk252 v3408) := fun v3408 => decidable_of_iff' _ (Iff.of_eq (k1_chk252.eq_1 v3408))
theorem k1_off378_inb : ∀ (v3408 : BitVec 32) (k1_hw252 : k1_chk252 v3408), ∀ a, (k1_off378 v3408) a + S1x4096.size a ≤ S16384x4096.size a := fun v3408 k1_hw252 => k1_hw252

def k1_off379 (i : grid1.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v3421 : BitVec 32 := Scalar.addi v0 c126_i32
  let v3422 : Index := Scalar.indexCast v3421
  ![v3422.toNat]
def k1_off380 (v3423 : BitVec 32) : Fin 2 → Nat :=
  let c0_i32_2098 : BitVec 32 := 0#32
  ![v3423.toNat, 0]

def k1_chk253 (v3423 : BitVec 32) : Prop :=
  (∀ a, (k1_off380 v3423) a + S1x4096.size a ≤ S16384x4096.size a)
instance k1_chk253.dec : ∀ (v3423 : BitVec 32), Decidable (k1_chk253 v3423) := fun v3423 => decidable_of_iff' _ (Iff.of_eq (k1_chk253.eq_1 v3423))
theorem k1_off380_inb : ∀ (v3423 : BitVec 32) (k1_hw253 : k1_chk253 v3423), ∀ a, (k1_off380 v3423) a + S1x4096.size a ≤ S16384x4096.size a := fun v3423 k1_hw253 => k1_hw253

def k1_off381 (v3426 : BitVec 32) : Fin 2 → Nat :=
  let c0_i32_2102 : BitVec 32 := 0#32
  ![v3426.toNat, 0]

def k1_chk254 (v3426 : BitVec 32) : Prop :=
  (∀ a, (k1_off381 v3426) a + S1x4096.size a ≤ S16384x4096.size a)
instance k1_chk254.dec : ∀ (v3426 : BitVec 32), Decidable (k1_chk254 v3426) := fun v3426 => decidable_of_iff' _ (Iff.of_eq (k1_chk254.eq_1 v3426))
theorem k1_off381_inb : ∀ (v3426 : BitVec 32) (k1_hw254 : k1_chk254 v3426), ∀ a, (k1_off381 v3426) a + S1x4096.size a ≤ S16384x4096.size a := fun v3426 k1_hw254 => k1_hw254

def k1_off382 (i : grid1.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v3439 : BitVec 32 := Scalar.addi v0 c127_i32
  let v3440 : Index := Scalar.indexCast v3439
  ![v3440.toNat]
def k1_off383 (v3441 : BitVec 32) : Fin 2 → Nat :=
  let c0_i32_2107 : BitVec 32 := 0#32
  ![v3441.toNat, 0]

def k1_chk255 (v3441 : BitVec 32) : Prop :=
  (∀ a, (k1_off383 v3441) a + S1x4096.size a ≤ S16384x4096.size a)
instance k1_chk255.dec : ∀ (v3441 : BitVec 32), Decidable (k1_chk255 v3441) := fun v3441 => decidable_of_iff' _ (Iff.of_eq (k1_chk255.eq_1 v3441))
theorem k1_off383_inb : ∀ (v3441 : BitVec 32) (k1_hw255 : k1_chk255 v3441), ∀ a, (k1_off383 v3441) a + S1x4096.size a ≤ S16384x4096.size a := fun v3441 k1_hw255 => k1_hw255

def k1_off384 (v3444 : BitVec 32) : Fin 2 → Nat :=
  let c0_i32_2111 : BitVec 32 := 0#32
  ![v3444.toNat, 0]

def k1_chk256 (v3444 : BitVec 32) : Prop :=
  (∀ a, (k1_off384 v3444) a + S1x4096.size a ≤ S16384x4096.size a)
instance k1_chk256.dec : ∀ (v3444 : BitVec 32), Decidable (k1_chk256 v3444) := fun v3444 => decidable_of_iff' _ (Iff.of_eq (k1_chk256.eq_1 v3444))
theorem k1_off384_inb : ∀ (v3444 : BitVec 32) (k1_hw256 : k1_chk256 v3444), ∀ a, (k1_off384 v3444) a + S1x4096.size a ≤ S16384x4096.size a := fun v3444 k1_hw256 => k1_hw256

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  numel1_S1 : S1.numel = 1
  inb_S32_S1_0 : ∀ a, (![0] : Fin 1 → Nat) a + S1.size a ≤ S32.size a
  squeezes_S1_S_ : S1.Squeezes S_
  inb_S128x4096_S1x4096_0_0 : ∀ a, (![0, 0] : Fin 2 → Nat) a + S1x4096.size a ≤ S128x4096.size a
  squeezes_S1x4096_S4096 : S1x4096.Squeezes S4096
  inb_S32_S1_1 : ∀ a, (![1] : Fin 1 → Nat) a + S1.size a ≤ S32.size a
  inb_S128x4096_S1x4096_1_0 : ∀ a, (![1, 0] : Fin 2 → Nat) a + S1x4096.size a ≤ S128x4096.size a
  inb_S32_S1_2 : ∀ a, (![2] : Fin 1 → Nat) a + S1.size a ≤ S32.size a
  inb_S128x4096_S1x4096_2_0 : ∀ a, (![2, 0] : Fin 2 → Nat) a + S1x4096.size a ≤ S128x4096.size a
  inb_S32_S1_3 : ∀ a, (![3] : Fin 1 → Nat) a + S1.size a ≤ S32.size a
  inb_S128x4096_S1x4096_3_0 : ∀ a, (![3, 0] : Fin 2 → Nat) a + S1x4096.size a ≤ S128x4096.size a
  inb_S32_S1_4 : ∀ a, (![4] : Fin 1 → Nat) a + S1.size a ≤ S32.size a
  inb_S128x4096_S1x4096_4_0 : ∀ a, (![4, 0] : Fin 2 → Nat) a + S1x4096.size a ≤ S128x4096.size a
  inb_S32_S1_5 : ∀ a, (![5] : Fin 1 → Nat) a + S1.size a ≤ S32.size a
  inb_S128x4096_S1x4096_5_0 : ∀ a, (![5, 0] : Fin 2 → Nat) a + S1x4096.size a ≤ S128x4096.size a
  inb_S32_S1_6 : ∀ a, (![6] : Fin 1 → Nat) a + S1.size a ≤ S32.size a
  inb_S128x4096_S1x4096_6_0 : ∀ a, (![6, 0] : Fin 2 → Nat) a + S1x4096.size a ≤ S128x4096.size a
  inb_S32_S1_7 : ∀ a, (![7] : Fin 1 → Nat) a + S1.size a ≤ S32.size a
  inb_S128x4096_S1x4096_7_0 : ∀ a, (![7, 0] : Fin 2 → Nat) a + S1x4096.size a ≤ S128x4096.size a
  inb_S32_S1_8 : ∀ a, (![8] : Fin 1 → Nat) a + S1.size a ≤ S32.size a
  inb_S128x4096_S1x4096_8_0 : ∀ a, (![8, 0] : Fin 2 → Nat) a + S1x4096.size a ≤ S128x4096.size a
  inb_S32_S1_9 : ∀ a, (![9] : Fin 1 → Nat) a + S1.size a ≤ S32.size a
  inb_S128x4096_S1x4096_9_0 : ∀ a, (![9, 0] : Fin 2 → Nat) a + S1x4096.size a ≤ S128x4096.size a
  inb_S32_S1_10 : ∀ a, (![10] : Fin 1 → Nat) a + S1.size a ≤ S32.size a
  inb_S128x4096_S1x4096_10_0 : ∀ a, (![10, 0] : Fin 2 → Nat) a + S1x4096.size a ≤ S128x4096.size a
  inb_S32_S1_11 : ∀ a, (![11] : Fin 1 → Nat) a + S1.size a ≤ S32.size a
  inb_S128x4096_S1x4096_11_0 : ∀ a, (![11, 0] : Fin 2 → Nat) a + S1x4096.size a ≤ S128x4096.size a
  inb_S32_S1_12 : ∀ a, (![12] : Fin 1 → Nat) a + S1.size a ≤ S32.size a
  inb_S128x4096_S1x4096_12_0 : ∀ a, (![12, 0] : Fin 2 → Nat) a + S1x4096.size a ≤ S128x4096.size a
  inb_S32_S1_13 : ∀ a, (![13] : Fin 1 → Nat) a + S1.size a ≤ S32.size a
  inb_S128x4096_S1x4096_13_0 : ∀ a, (![13, 0] : Fin 2 → Nat) a + S1x4096.size a ≤ S128x4096.size a
  inb_S32_S1_14 : ∀ a, (![14] : Fin 1 → Nat) a + S1.size a ≤ S32.size a
  inb_S128x4096_S1x4096_14_0 : ∀ a, (![14, 0] : Fin 2 → Nat) a + S1x4096.size a ≤ S128x4096.size a
  inb_S32_S1_15 : ∀ a, (![15] : Fin 1 → Nat) a + S1.size a ≤ S32.size a
  inb_S128x4096_S1x4096_15_0 : ∀ a, (![15, 0] : Fin 2 → Nat) a + S1x4096.size a ≤ S128x4096.size a
  inb_S32_S1_16 : ∀ a, (![16] : Fin 1 → Nat) a + S1.size a ≤ S32.size a
  inb_S128x4096_S1x4096_16_0 : ∀ a, (![16, 0] : Fin 2 → Nat) a + S1x4096.size a ≤ S128x4096.size a
  inb_S32_S1_17 : ∀ a, (![17] : Fin 1 → Nat) a + S1.size a ≤ S32.size a
  inb_S128x4096_S1x4096_17_0 : ∀ a, (![17, 0] : Fin 2 → Nat) a + S1x4096.size a ≤ S128x4096.size a
  inb_S32_S1_18 : ∀ a, (![18] : Fin 1 → Nat) a + S1.size a ≤ S32.size a
  inb_S128x4096_S1x4096_18_0 : ∀ a, (![18, 0] : Fin 2 → Nat) a + S1x4096.size a ≤ S128x4096.size a
  inb_S32_S1_19 : ∀ a, (![19] : Fin 1 → Nat) a + S1.size a ≤ S32.size a
  inb_S128x4096_S1x4096_19_0 : ∀ a, (![19, 0] : Fin 2 → Nat) a + S1x4096.size a ≤ S128x4096.size a
  inb_S32_S1_20 : ∀ a, (![20] : Fin 1 → Nat) a + S1.size a ≤ S32.size a
  inb_S128x4096_S1x4096_20_0 : ∀ a, (![20, 0] : Fin 2 → Nat) a + S1x4096.size a ≤ S128x4096.size a
  inb_S32_S1_21 : ∀ a, (![21] : Fin 1 → Nat) a + S1.size a ≤ S32.size a
  inb_S128x4096_S1x4096_21_0 : ∀ a, (![21, 0] : Fin 2 → Nat) a + S1x4096.size a ≤ S128x4096.size a
  inb_S32_S1_22 : ∀ a, (![22] : Fin 1 → Nat) a + S1.size a ≤ S32.size a
  inb_S128x4096_S1x4096_22_0 : ∀ a, (![22, 0] : Fin 2 → Nat) a + S1x4096.size a ≤ S128x4096.size a
  inb_S32_S1_23 : ∀ a, (![23] : Fin 1 → Nat) a + S1.size a ≤ S32.size a
  inb_S128x4096_S1x4096_23_0 : ∀ a, (![23, 0] : Fin 2 → Nat) a + S1x4096.size a ≤ S128x4096.size a
  inb_S32_S1_24 : ∀ a, (![24] : Fin 1 → Nat) a + S1.size a ≤ S32.size a
  inb_S128x4096_S1x4096_24_0 : ∀ a, (![24, 0] : Fin 2 → Nat) a + S1x4096.size a ≤ S128x4096.size a
  inb_S32_S1_25 : ∀ a, (![25] : Fin 1 → Nat) a + S1.size a ≤ S32.size a
  inb_S128x4096_S1x4096_25_0 : ∀ a, (![25, 0] : Fin 2 → Nat) a + S1x4096.size a ≤ S128x4096.size a
  inb_S32_S1_26 : ∀ a, (![26] : Fin 1 → Nat) a + S1.size a ≤ S32.size a
  inb_S128x4096_S1x4096_26_0 : ∀ a, (![26, 0] : Fin 2 → Nat) a + S1x4096.size a ≤ S128x4096.size a
  inb_S32_S1_27 : ∀ a, (![27] : Fin 1 → Nat) a + S1.size a ≤ S32.size a
  inb_S128x4096_S1x4096_27_0 : ∀ a, (![27, 0] : Fin 2 → Nat) a + S1x4096.size a ≤ S128x4096.size a
  inb_S32_S1_28 : ∀ a, (![28] : Fin 1 → Nat) a + S1.size a ≤ S32.size a
  inb_S128x4096_S1x4096_28_0 : ∀ a, (![28, 0] : Fin 2 → Nat) a + S1x4096.size a ≤ S128x4096.size a
  inb_S32_S1_29 : ∀ a, (![29] : Fin 1 → Nat) a + S1.size a ≤ S32.size a
  inb_S128x4096_S1x4096_29_0 : ∀ a, (![29, 0] : Fin 2 → Nat) a + S1x4096.size a ≤ S128x4096.size a
  inb_S32_S1_30 : ∀ a, (![30] : Fin 1 → Nat) a + S1.size a ≤ S32.size a
  inb_S128x4096_S1x4096_30_0 : ∀ a, (![30, 0] : Fin 2 → Nat) a + S1x4096.size a ≤ S128x4096.size a
  inb_S32_S1_31 : ∀ a, (![31] : Fin 1 → Nat) a + S1.size a ≤ S32.size a
  inb_S128x4096_S1x4096_31_0 : ∀ a, (![31, 0] : Fin 2 → Nat) a + S1x4096.size a ≤ S128x4096.size a
  inb_S16384x4096_S1x4096_0_0 : ∀ a, (![0, 0] : Fin 2 → Nat) a + S1x4096.size a ≤ S16384x4096.size a
  inb_S128x4096_S1x4096_32_0 : ∀ a, (![32, 0] : Fin 2 → Nat) a + S1x4096.size a ≤ S128x4096.size a
  inb_S128x4096_S1x4096_33_0 : ∀ a, (![33, 0] : Fin 2 → Nat) a + S1x4096.size a ≤ S128x4096.size a
  inb_S128x4096_S1x4096_34_0 : ∀ a, (![34, 0] : Fin 2 → Nat) a + S1x4096.size a ≤ S128x4096.size a
  inb_S128x4096_S1x4096_35_0 : ∀ a, (![35, 0] : Fin 2 → Nat) a + S1x4096.size a ≤ S128x4096.size a
  inb_S128x4096_S1x4096_36_0 : ∀ a, (![36, 0] : Fin 2 → Nat) a + S1x4096.size a ≤ S128x4096.size a
  inb_S128x4096_S1x4096_37_0 : ∀ a, (![37, 0] : Fin 2 → Nat) a + S1x4096.size a ≤ S128x4096.size a
  inb_S128x4096_S1x4096_38_0 : ∀ a, (![38, 0] : Fin 2 → Nat) a + S1x4096.size a ≤ S128x4096.size a
  inb_S128x4096_S1x4096_39_0 : ∀ a, (![39, 0] : Fin 2 → Nat) a + S1x4096.size a ≤ S128x4096.size a
  inb_S128x4096_S1x4096_40_0 : ∀ a, (![40, 0] : Fin 2 → Nat) a + S1x4096.size a ≤ S128x4096.size a
  inb_S128x4096_S1x4096_41_0 : ∀ a, (![41, 0] : Fin 2 → Nat) a + S1x4096.size a ≤ S128x4096.size a
  inb_S128x4096_S1x4096_42_0 : ∀ a, (![42, 0] : Fin 2 → Nat) a + S1x4096.size a ≤ S128x4096.size a
  inb_S128x4096_S1x4096_43_0 : ∀ a, (![43, 0] : Fin 2 → Nat) a + S1x4096.size a ≤ S128x4096.size a
  inb_S128x4096_S1x4096_44_0 : ∀ a, (![44, 0] : Fin 2 → Nat) a + S1x4096.size a ≤ S128x4096.size a
  inb_S128x4096_S1x4096_45_0 : ∀ a, (![45, 0] : Fin 2 → Nat) a + S1x4096.size a ≤ S128x4096.size a
  inb_S128x4096_S1x4096_46_0 : ∀ a, (![46, 0] : Fin 2 → Nat) a + S1x4096.size a ≤ S128x4096.size a
  inb_S128x4096_S1x4096_47_0 : ∀ a, (![47, 0] : Fin 2 → Nat) a + S1x4096.size a ≤ S128x4096.size a
  inb_S128x4096_S1x4096_48_0 : ∀ a, (![48, 0] : Fin 2 → Nat) a + S1x4096.size a ≤ S128x4096.size a
  inb_S128x4096_S1x4096_49_0 : ∀ a, (![49, 0] : Fin 2 → Nat) a + S1x4096.size a ≤ S128x4096.size a
  inb_S128x4096_S1x4096_50_0 : ∀ a, (![50, 0] : Fin 2 → Nat) a + S1x4096.size a ≤ S128x4096.size a
  inb_S128x4096_S1x4096_51_0 : ∀ a, (![51, 0] : Fin 2 → Nat) a + S1x4096.size a ≤ S128x4096.size a
  inb_S128x4096_S1x4096_52_0 : ∀ a, (![52, 0] : Fin 2 → Nat) a + S1x4096.size a ≤ S128x4096.size a
  inb_S128x4096_S1x4096_53_0 : ∀ a, (![53, 0] : Fin 2 → Nat) a + S1x4096.size a ≤ S128x4096.size a
  inb_S128x4096_S1x4096_54_0 : ∀ a, (![54, 0] : Fin 2 → Nat) a + S1x4096.size a ≤ S128x4096.size a
  inb_S128x4096_S1x4096_55_0 : ∀ a, (![55, 0] : Fin 2 → Nat) a + S1x4096.size a ≤ S128x4096.size a
  inb_S128x4096_S1x4096_56_0 : ∀ a, (![56, 0] : Fin 2 → Nat) a + S1x4096.size a ≤ S128x4096.size a
  inb_S128x4096_S1x4096_57_0 : ∀ a, (![57, 0] : Fin 2 → Nat) a + S1x4096.size a ≤ S128x4096.size a
  inb_S128x4096_S1x4096_58_0 : ∀ a, (![58, 0] : Fin 2 → Nat) a + S1x4096.size a ≤ S128x4096.size a
  inb_S128x4096_S1x4096_59_0 : ∀ a, (![59, 0] : Fin 2 → Nat) a + S1x4096.size a ≤ S128x4096.size a
  inb_S128x4096_S1x4096_60_0 : ∀ a, (![60, 0] : Fin 2 → Nat) a + S1x4096.size a ≤ S128x4096.size a
  inb_S128x4096_S1x4096_61_0 : ∀ a, (![61, 0] : Fin 2 → Nat) a + S1x4096.size a ≤ S128x4096.size a
  inb_S128x4096_S1x4096_62_0 : ∀ a, (![62, 0] : Fin 2 → Nat) a + S1x4096.size a ≤ S128x4096.size a
  inb_S128x4096_S1x4096_63_0 : ∀ a, (![63, 0] : Fin 2 → Nat) a + S1x4096.size a ≤ S128x4096.size a
  inb_S128x4096_S1x4096_64_0 : ∀ a, (![64, 0] : Fin 2 → Nat) a + S1x4096.size a ≤ S128x4096.size a
  inb_S128x4096_S1x4096_65_0 : ∀ a, (![65, 0] : Fin 2 → Nat) a + S1x4096.size a ≤ S128x4096.size a
  inb_S128x4096_S1x4096_66_0 : ∀ a, (![66, 0] : Fin 2 → Nat) a + S1x4096.size a ≤ S128x4096.size a
  inb_S128x4096_S1x4096_67_0 : ∀ a, (![67, 0] : Fin 2 → Nat) a + S1x4096.size a ≤ S128x4096.size a
  inb_S128x4096_S1x4096_68_0 : ∀ a, (![68, 0] : Fin 2 → Nat) a + S1x4096.size a ≤ S128x4096.size a
  inb_S128x4096_S1x4096_69_0 : ∀ a, (![69, 0] : Fin 2 → Nat) a + S1x4096.size a ≤ S128x4096.size a
  inb_S128x4096_S1x4096_70_0 : ∀ a, (![70, 0] : Fin 2 → Nat) a + S1x4096.size a ≤ S128x4096.size a
  inb_S128x4096_S1x4096_71_0 : ∀ a, (![71, 0] : Fin 2 → Nat) a + S1x4096.size a ≤ S128x4096.size a
  inb_S128x4096_S1x4096_72_0 : ∀ a, (![72, 0] : Fin 2 → Nat) a + S1x4096.size a ≤ S128x4096.size a
  inb_S128x4096_S1x4096_73_0 : ∀ a, (![73, 0] : Fin 2 → Nat) a + S1x4096.size a ≤ S128x4096.size a
  inb_S128x4096_S1x4096_74_0 : ∀ a, (![74, 0] : Fin 2 → Nat) a + S1x4096.size a ≤ S128x4096.size a
  inb_S128x4096_S1x4096_75_0 : ∀ a, (![75, 0] : Fin 2 → Nat) a + S1x4096.size a ≤ S128x4096.size a
  inb_S128x4096_S1x4096_76_0 : ∀ a, (![76, 0] : Fin 2 → Nat) a + S1x4096.size a ≤ S128x4096.size a
  inb_S128x4096_S1x4096_77_0 : ∀ a, (![77, 0] : Fin 2 → Nat) a + S1x4096.size a ≤ S128x4096.size a
  inb_S128x4096_S1x4096_78_0 : ∀ a, (![78, 0] : Fin 2 → Nat) a + S1x4096.size a ≤ S128x4096.size a
  inb_S128x4096_S1x4096_79_0 : ∀ a, (![79, 0] : Fin 2 → Nat) a + S1x4096.size a ≤ S128x4096.size a
  inb_S128x4096_S1x4096_80_0 : ∀ a, (![80, 0] : Fin 2 → Nat) a + S1x4096.size a ≤ S128x4096.size a
  inb_S128x4096_S1x4096_81_0 : ∀ a, (![81, 0] : Fin 2 → Nat) a + S1x4096.size a ≤ S128x4096.size a
  inb_S128x4096_S1x4096_82_0 : ∀ a, (![82, 0] : Fin 2 → Nat) a + S1x4096.size a ≤ S128x4096.size a
  inb_S128x4096_S1x4096_83_0 : ∀ a, (![83, 0] : Fin 2 → Nat) a + S1x4096.size a ≤ S128x4096.size a
  inb_S128x4096_S1x4096_84_0 : ∀ a, (![84, 0] : Fin 2 → Nat) a + S1x4096.size a ≤ S128x4096.size a
  inb_S128x4096_S1x4096_85_0 : ∀ a, (![85, 0] : Fin 2 → Nat) a + S1x4096.size a ≤ S128x4096.size a
  inb_S128x4096_S1x4096_86_0 : ∀ a, (![86, 0] : Fin 2 → Nat) a + S1x4096.size a ≤ S128x4096.size a
  inb_S128x4096_S1x4096_87_0 : ∀ a, (![87, 0] : Fin 2 → Nat) a + S1x4096.size a ≤ S128x4096.size a
  inb_S128x4096_S1x4096_88_0 : ∀ a, (![88, 0] : Fin 2 → Nat) a + S1x4096.size a ≤ S128x4096.size a
  inb_S128x4096_S1x4096_89_0 : ∀ a, (![89, 0] : Fin 2 → Nat) a + S1x4096.size a ≤ S128x4096.size a
  inb_S128x4096_S1x4096_90_0 : ∀ a, (![90, 0] : Fin 2 → Nat) a + S1x4096.size a ≤ S128x4096.size a
  inb_S128x4096_S1x4096_91_0 : ∀ a, (![91, 0] : Fin 2 → Nat) a + S1x4096.size a ≤ S128x4096.size a
  inb_S128x4096_S1x4096_92_0 : ∀ a, (![92, 0] : Fin 2 → Nat) a + S1x4096.size a ≤ S128x4096.size a
  inb_S128x4096_S1x4096_93_0 : ∀ a, (![93, 0] : Fin 2 → Nat) a + S1x4096.size a ≤ S128x4096.size a
  inb_S128x4096_S1x4096_94_0 : ∀ a, (![94, 0] : Fin 2 → Nat) a + S1x4096.size a ≤ S128x4096.size a
  inb_S128x4096_S1x4096_95_0 : ∀ a, (![95, 0] : Fin 2 → Nat) a + S1x4096.size a ≤ S128x4096.size a
  inb_S128x4096_S1x4096_96_0 : ∀ a, (![96, 0] : Fin 2 → Nat) a + S1x4096.size a ≤ S128x4096.size a
  inb_S128x4096_S1x4096_97_0 : ∀ a, (![97, 0] : Fin 2 → Nat) a + S1x4096.size a ≤ S128x4096.size a
  inb_S128x4096_S1x4096_98_0 : ∀ a, (![98, 0] : Fin 2 → Nat) a + S1x4096.size a ≤ S128x4096.size a
  inb_S128x4096_S1x4096_99_0 : ∀ a, (![99, 0] : Fin 2 → Nat) a + S1x4096.size a ≤ S128x4096.size a
  inb_S128x4096_S1x4096_100_0 : ∀ a, (![100, 0] : Fin 2 → Nat) a + S1x4096.size a ≤ S128x4096.size a
  inb_S128x4096_S1x4096_101_0 : ∀ a, (![101, 0] : Fin 2 → Nat) a + S1x4096.size a ≤ S128x4096.size a
  inb_S128x4096_S1x4096_102_0 : ∀ a, (![102, 0] : Fin 2 → Nat) a + S1x4096.size a ≤ S128x4096.size a
  inb_S128x4096_S1x4096_103_0 : ∀ a, (![103, 0] : Fin 2 → Nat) a + S1x4096.size a ≤ S128x4096.size a
  inb_S128x4096_S1x4096_104_0 : ∀ a, (![104, 0] : Fin 2 → Nat) a + S1x4096.size a ≤ S128x4096.size a
  inb_S128x4096_S1x4096_105_0 : ∀ a, (![105, 0] : Fin 2 → Nat) a + S1x4096.size a ≤ S128x4096.size a
  inb_S128x4096_S1x4096_106_0 : ∀ a, (![106, 0] : Fin 2 → Nat) a + S1x4096.size a ≤ S128x4096.size a
  inb_S128x4096_S1x4096_107_0 : ∀ a, (![107, 0] : Fin 2 → Nat) a + S1x4096.size a ≤ S128x4096.size a
  inb_S128x4096_S1x4096_108_0 : ∀ a, (![108, 0] : Fin 2 → Nat) a + S1x4096.size a ≤ S128x4096.size a
  inb_S128x4096_S1x4096_109_0 : ∀ a, (![109, 0] : Fin 2 → Nat) a + S1x4096.size a ≤ S128x4096.size a
  inb_S128x4096_S1x4096_110_0 : ∀ a, (![110, 0] : Fin 2 → Nat) a + S1x4096.size a ≤ S128x4096.size a
  inb_S128x4096_S1x4096_111_0 : ∀ a, (![111, 0] : Fin 2 → Nat) a + S1x4096.size a ≤ S128x4096.size a
  inb_S128x4096_S1x4096_112_0 : ∀ a, (![112, 0] : Fin 2 → Nat) a + S1x4096.size a ≤ S128x4096.size a
  inb_S128x4096_S1x4096_113_0 : ∀ a, (![113, 0] : Fin 2 → Nat) a + S1x4096.size a ≤ S128x4096.size a
  inb_S128x4096_S1x4096_114_0 : ∀ a, (![114, 0] : Fin 2 → Nat) a + S1x4096.size a ≤ S128x4096.size a
  inb_S128x4096_S1x4096_115_0 : ∀ a, (![115, 0] : Fin 2 → Nat) a + S1x4096.size a ≤ S128x4096.size a
  inb_S128x4096_S1x4096_116_0 : ∀ a, (![116, 0] : Fin 2 → Nat) a + S1x4096.size a ≤ S128x4096.size a
  inb_S128x4096_S1x4096_117_0 : ∀ a, (![117, 0] : Fin 2 → Nat) a + S1x4096.size a ≤ S128x4096.size a
  inb_S128x4096_S1x4096_118_0 : ∀ a, (![118, 0] : Fin 2 → Nat) a + S1x4096.size a ≤ S128x4096.size a
  inb_S128x4096_S1x4096_119_0 : ∀ a, (![119, 0] : Fin 2 → Nat) a + S1x4096.size a ≤ S128x4096.size a
  inb_S128x4096_S1x4096_120_0 : ∀ a, (![120, 0] : Fin 2 → Nat) a + S1x4096.size a ≤ S128x4096.size a
  inb_S128x4096_S1x4096_121_0 : ∀ a, (![121, 0] : Fin 2 → Nat) a + S1x4096.size a ≤ S128x4096.size a
  inb_S128x4096_S1x4096_122_0 : ∀ a, (![122, 0] : Fin 2 → Nat) a + S1x4096.size a ≤ S128x4096.size a
  inb_S128x4096_S1x4096_123_0 : ∀ a, (![123, 0] : Fin 2 → Nat) a + S1x4096.size a ≤ S128x4096.size a
  inb_S128x4096_S1x4096_124_0 : ∀ a, (![124, 0] : Fin 2 → Nat) a + S1x4096.size a ≤ S128x4096.size a
  inb_S128x4096_S1x4096_125_0 : ∀ a, (![125, 0] : Fin 2 → Nat) a + S1x4096.size a ≤ S128x4096.size a
  inb_S128x4096_S1x4096_126_0 : ∀ a, (![126, 0] : Fin 2 → Nat) a + S1x4096.size a ≤ S128x4096.size a
  inb_S128x4096_S1x4096_127_0 : ∀ a, (![127, 0] : Fin 2 → Nat) a + S1x4096.size a ≤ S128x4096.size a
  inb_S128x4096_S128x4096_0_0 : ∀ a, (![0, 0] : Fin 2 → Nat) a + S128x4096.size a ≤ S128x4096.size a
  h_S128x4096 : 0 < S128x4096.numel
  inb_S128x4_S128x4_0_0 : ∀ a, (![0, 0] : Fin 2 → Nat) a + S128x4.size a ≤ S128x4.size a
  h_S128x4 : 0 < S128x4.numel
  shapeCasts_S128x4_S128x4 : S128x4.ShapeCasts S128x4
  slices_S128x4_o0_0_S128x1 : S128x4.Slices ![0, 0] S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  broadcasts_S128x1_S128x4096 : S128x1.Broadcasts S128x4096
  transposes_S128x4096_p1_0_S4096x128 : S128x4096.Transposes [1, 0] S4096x128
  inb_S4096x128_S4096x128_0_0 : ∀ a, (![0, 0] : Fin 2 → Nat) a + S4096x128.size a ≤ S4096x128.size a
  h_S4096x128 : 0 < S4096x128.numel
  dot_S16384x16_S16x4_S16384x4_1_0_0_1_n_n_wf : DotDims.WF S16384x16 S16x4 S16384x4 [1] [0] [0] [1] [] []
  hcc1_scratch2 : 8 + S32.numel ≤ 72
  hcc1_scratch3 : 40 + S32.numel ≤ 72
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x16384.size a
  hwx0_0 : ∀ i : grid0.Coords, EltTy.bits .f32 = 32 ∨ (Rect.block (s := S4096x16384) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x4096.size a
  hwx0_1 : ∀ i : grid0.Coords, EltTy.bits .f32 = 32 ∨ (Rect.block (s := S16384x4096) S512x512.size (cc0_transform_1 i) (hinb0_1 i)).WholeWords (EltTy.packing .f32)
  hrank1 : 0 < grid1.rank
  k1_off1_inb : ∀ i : grid1.Coords, ∀ a, (k1_off1 i) a + S1.size a ≤ S16384.size a
  k1_off4_inb : ∀ i : grid1.Coords, ∀ a, (k1_off4 i) a + S1.size a ≤ S16384.size a
  k1_off7_inb : ∀ i : grid1.Coords, ∀ a, (k1_off7 i) a + S1.size a ≤ S16384.size a
  k1_off10_inb : ∀ i : grid1.Coords, ∀ a, (k1_off10 i) a + S1.size a ≤ S16384.size a
  k1_off13_inb : ∀ i : grid1.Coords, ∀ a, (k1_off13 i) a + S1.size a ≤ S16384.size a
  k1_off16_inb : ∀ i : grid1.Coords, ∀ a, (k1_off16 i) a + S1.size a ≤ S16384.size a
  k1_off19_inb : ∀ i : grid1.Coords, ∀ a, (k1_off19 i) a + S1.size a ≤ S16384.size a
  k1_off22_inb : ∀ i : grid1.Coords, ∀ a, (k1_off22 i) a + S1.size a ≤ S16384.size a
  k1_off25_inb : ∀ i : grid1.Coords, ∀ a, (k1_off25 i) a + S1.size a ≤ S16384.size a
  k1_off28_inb : ∀ i : grid1.Coords, ∀ a, (k1_off28 i) a + S1.size a ≤ S16384.size a
  k1_off31_inb : ∀ i : grid1.Coords, ∀ a, (k1_off31 i) a + S1.size a ≤ S16384.size a
  k1_off34_inb : ∀ i : grid1.Coords, ∀ a, (k1_off34 i) a + S1.size a ≤ S16384.size a
  k1_off37_inb : ∀ i : grid1.Coords, ∀ a, (k1_off37 i) a + S1.size a ≤ S16384.size a
  k1_off40_inb : ∀ i : grid1.Coords, ∀ a, (k1_off40 i) a + S1.size a ≤ S16384.size a
  k1_off43_inb : ∀ i : grid1.Coords, ∀ a, (k1_off43 i) a + S1.size a ≤ S16384.size a
  k1_off46_inb : ∀ i : grid1.Coords, ∀ a, (k1_off46 i) a + S1.size a ≤ S16384.size a
  k1_off49_inb : ∀ i : grid1.Coords, ∀ a, (k1_off49 i) a + S1.size a ≤ S16384.size a
  k1_off52_inb : ∀ i : grid1.Coords, ∀ a, (k1_off52 i) a + S1.size a ≤ S16384.size a
  k1_off55_inb : ∀ i : grid1.Coords, ∀ a, (k1_off55 i) a + S1.size a ≤ S16384.size a
  k1_off58_inb : ∀ i : grid1.Coords, ∀ a, (k1_off58 i) a + S1.size a ≤ S16384.size a
  k1_off61_inb : ∀ i : grid1.Coords, ∀ a, (k1_off61 i) a + S1.size a ≤ S16384.size a
  k1_off64_inb : ∀ i : grid1.Coords, ∀ a, (k1_off64 i) a + S1.size a ≤ S16384.size a
  k1_off67_inb : ∀ i : grid1.Coords, ∀ a, (k1_off67 i) a + S1.size a ≤ S16384.size a
  k1_off70_inb : ∀ i : grid1.Coords, ∀ a, (k1_off70 i) a + S1.size a ≤ S16384.size a
  k1_off73_inb : ∀ i : grid1.Coords, ∀ a, (k1_off73 i) a + S1.size a ≤ S16384.size a
  k1_off76_inb : ∀ i : grid1.Coords, ∀ a, (k1_off76 i) a + S1.size a ≤ S16384.size a
  k1_off79_inb : ∀ i : grid1.Coords, ∀ a, (k1_off79 i) a + S1.size a ≤ S16384.size a
  k1_off82_inb : ∀ i : grid1.Coords, ∀ a, (k1_off82 i) a + S1.size a ≤ S16384.size a
  k1_off85_inb : ∀ i : grid1.Coords, ∀ a, (k1_off85 i) a + S1.size a ≤ S16384.size a
  k1_off88_inb : ∀ i : grid1.Coords, ∀ a, (k1_off88 i) a + S1.size a ≤ S16384.size a
  k1_off91_inb : ∀ i : grid1.Coords, ∀ a, (k1_off91 i) a + S1.size a ≤ S16384.size a
  k1_off94_inb : ∀ i : grid1.Coords, ∀ a, (k1_off94 i) a + S1.size a ≤ S16384.size a
  k1_off97_inb : ∀ i : grid1.Coords, ∀ a, (k1_off97 i) a + S1.size a ≤ S16384.size a
  k1_off100_inb : ∀ i : grid1.Coords, ∀ a, (k1_off100 i) a + S1.size a ≤ S16384.size a
  k1_off103_inb : ∀ i : grid1.Coords, ∀ a, (k1_off103 i) a + S1.size a ≤ S16384.size a
  k1_off106_inb : ∀ i : grid1.Coords, ∀ a, (k1_off106 i) a + S1.size a ≤ S16384.size a
  k1_off109_inb : ∀ i : grid1.Coords, ∀ a, (k1_off109 i) a + S1.size a ≤ S16384.size a
  k1_off112_inb : ∀ i : grid1.Coords, ∀ a, (k1_off112 i) a + S1.size a ≤ S16384.size a
  k1_off115_inb : ∀ i : grid1.Coords, ∀ a, (k1_off115 i) a + S1.size a ≤ S16384.size a
  k1_off118_inb : ∀ i : grid1.Coords, ∀ a, (k1_off118 i) a + S1.size a ≤ S16384.size a
  k1_off121_inb : ∀ i : grid1.Coords, ∀ a, (k1_off121 i) a + S1.size a ≤ S16384.size a
  k1_off124_inb : ∀ i : grid1.Coords, ∀ a, (k1_off124 i) a + S1.size a ≤ S16384.size a
  k1_off127_inb : ∀ i : grid1.Coords, ∀ a, (k1_off127 i) a + S1.size a ≤ S16384.size a
  k1_off130_inb : ∀ i : grid1.Coords, ∀ a, (k1_off130 i) a + S1.size a ≤ S16384.size a
  k1_off133_inb : ∀ i : grid1.Coords, ∀ a, (k1_off133 i) a + S1.size a ≤ S16384.size a
  k1_off136_inb : ∀ i : grid1.Coords, ∀ a, (k1_off136 i) a + S1.size a ≤ S16384.size a
  k1_off139_inb : ∀ i : grid1.Coords, ∀ a, (k1_off139 i) a + S1.size a ≤ S16384.size a
  k1_off142_inb : ∀ i : grid1.Coords, ∀ a, (k1_off142 i) a + S1.size a ≤ S16384.size a
  k1_off145_inb : ∀ i : grid1.Coords, ∀ a, (k1_off145 i) a + S1.size a ≤ S16384.size a
  k1_off148_inb : ∀ i : grid1.Coords, ∀ a, (k1_off148 i) a + S1.size a ≤ S16384.size a
  k1_off151_inb : ∀ i : grid1.Coords, ∀ a, (k1_off151 i) a + S1.size a ≤ S16384.size a
  k1_off154_inb : ∀ i : grid1.Coords, ∀ a, (k1_off154 i) a + S1.size a ≤ S16384.size a
  k1_off157_inb : ∀ i : grid1.Coords, ∀ a, (k1_off157 i) a + S1.size a ≤ S16384.size a
  k1_off160_inb : ∀ i : grid1.Coords, ∀ a, (k1_off160 i) a + S1.size a ≤ S16384.size a
  k1_off163_inb : ∀ i : grid1.Coords, ∀ a, (k1_off163 i) a + S1.size a ≤ S16384.size a
  k1_off166_inb : ∀ i : grid1.Coords, ∀ a, (k1_off166 i) a + S1.size a ≤ S16384.size a
  k1_off169_inb : ∀ i : grid1.Coords, ∀ a, (k1_off169 i) a + S1.size a ≤ S16384.size a
  k1_off172_inb : ∀ i : grid1.Coords, ∀ a, (k1_off172 i) a + S1.size a ≤ S16384.size a
  k1_off175_inb : ∀ i : grid1.Coords, ∀ a, (k1_off175 i) a + S1.size a ≤ S16384.size a
  k1_off178_inb : ∀ i : grid1.Coords, ∀ a, (k1_off178 i) a + S1.size a ≤ S16384.size a
  k1_off181_inb : ∀ i : grid1.Coords, ∀ a, (k1_off181 i) a + S1.size a ≤ S16384.size a
  k1_off184_inb : ∀ i : grid1.Coords, ∀ a, (k1_off184 i) a + S1.size a ≤ S16384.size a
  k1_off187_inb : ∀ i : grid1.Coords, ∀ a, (k1_off187 i) a + S1.size a ≤ S16384.size a
  k1_off190_inb : ∀ i : grid1.Coords, ∀ a, (k1_off190 i) a + S1.size a ≤ S16384.size a
  k1_off193_inb : ∀ i : grid1.Coords, ∀ a, (k1_off193 i) a + S1.size a ≤ S16384.size a
  k1_off196_inb : ∀ i : grid1.Coords, ∀ a, (k1_off196 i) a + S1.size a ≤ S16384.size a
  k1_off199_inb : ∀ i : grid1.Coords, ∀ a, (k1_off199 i) a + S1.size a ≤ S16384.size a
  k1_off202_inb : ∀ i : grid1.Coords, ∀ a, (k1_off202 i) a + S1.size a ≤ S16384.size a
  k1_off205_inb : ∀ i : grid1.Coords, ∀ a, (k1_off205 i) a + S1.size a ≤ S16384.size a
  k1_off208_inb : ∀ i : grid1.Coords, ∀ a, (k1_off208 i) a + S1.size a ≤ S16384.size a
  k1_off211_inb : ∀ i : grid1.Coords, ∀ a, (k1_off211 i) a + S1.size a ≤ S16384.size a
  k1_off214_inb : ∀ i : grid1.Coords, ∀ a, (k1_off214 i) a + S1.size a ≤ S16384.size a
  k1_off217_inb : ∀ i : grid1.Coords, ∀ a, (k1_off217 i) a + S1.size a ≤ S16384.size a
  k1_off220_inb : ∀ i : grid1.Coords, ∀ a, (k1_off220 i) a + S1.size a ≤ S16384.size a
  k1_off223_inb : ∀ i : grid1.Coords, ∀ a, (k1_off223 i) a + S1.size a ≤ S16384.size a
  k1_off226_inb : ∀ i : grid1.Coords, ∀ a, (k1_off226 i) a + S1.size a ≤ S16384.size a
  k1_off229_inb : ∀ i : grid1.Coords, ∀ a, (k1_off229 i) a + S1.size a ≤ S16384.size a
  k1_off232_inb : ∀ i : grid1.Coords, ∀ a, (k1_off232 i) a + S1.size a ≤ S16384.size a
  k1_off235_inb : ∀ i : grid1.Coords, ∀ a, (k1_off235 i) a + S1.size a ≤ S16384.size a
  k1_off238_inb : ∀ i : grid1.Coords, ∀ a, (k1_off238 i) a + S1.size a ≤ S16384.size a
  k1_off241_inb : ∀ i : grid1.Coords, ∀ a, (k1_off241 i) a + S1.size a ≤ S16384.size a
  k1_off244_inb : ∀ i : grid1.Coords, ∀ a, (k1_off244 i) a + S1.size a ≤ S16384.size a
  k1_off247_inb : ∀ i : grid1.Coords, ∀ a, (k1_off247 i) a + S1.size a ≤ S16384.size a
  k1_off250_inb : ∀ i : grid1.Coords, ∀ a, (k1_off250 i) a + S1.size a ≤ S16384.size a
  k1_off253_inb : ∀ i : grid1.Coords, ∀ a, (k1_off253 i) a + S1.size a ≤ S16384.size a
  k1_off256_inb : ∀ i : grid1.Coords, ∀ a, (k1_off256 i) a + S1.size a ≤ S16384.size a
  k1_off259_inb : ∀ i : grid1.Coords, ∀ a, (k1_off259 i) a + S1.size a ≤ S16384.size a
  k1_off262_inb : ∀ i : grid1.Coords, ∀ a, (k1_off262 i) a + S1.size a ≤ S16384.size a
  k1_off265_inb : ∀ i : grid1.Coords, ∀ a, (k1_off265 i) a + S1.size a ≤ S16384.size a
  k1_off268_inb : ∀ i : grid1.Coords, ∀ a, (k1_off268 i) a + S1.size a ≤ S16384.size a
  k1_off271_inb : ∀ i : grid1.Coords, ∀ a, (k1_off271 i) a + S1.size a ≤ S16384.size a
  k1_off274_inb : ∀ i : grid1.Coords, ∀ a, (k1_off274 i) a + S1.size a ≤ S16384.size a
  k1_off277_inb : ∀ i : grid1.Coords, ∀ a, (k1_off277 i) a + S1.size a ≤ S16384.size a
  k1_off280_inb : ∀ i : grid1.Coords, ∀ a, (k1_off280 i) a + S1.size a ≤ S16384.size a
  k1_off283_inb : ∀ i : grid1.Coords, ∀ a, (k1_off283 i) a + S1.size a ≤ S16384.size a
  k1_off286_inb : ∀ i : grid1.Coords, ∀ a, (k1_off286 i) a + S1.size a ≤ S16384.size a
  k1_off289_inb : ∀ i : grid1.Coords, ∀ a, (k1_off289 i) a + S1.size a ≤ S16384.size a
  k1_off292_inb : ∀ i : grid1.Coords, ∀ a, (k1_off292 i) a + S1.size a ≤ S16384.size a
  k1_off295_inb : ∀ i : grid1.Coords, ∀ a, (k1_off295 i) a + S1.size a ≤ S16384.size a
  k1_off298_inb : ∀ i : grid1.Coords, ∀ a, (k1_off298 i) a + S1.size a ≤ S16384.size a
  k1_off301_inb : ∀ i : grid1.Coords, ∀ a, (k1_off301 i) a + S1.size a ≤ S16384.size a
  k1_off304_inb : ∀ i : grid1.Coords, ∀ a, (k1_off304 i) a + S1.size a ≤ S16384.size a
  k1_off307_inb : ∀ i : grid1.Coords, ∀ a, (k1_off307 i) a + S1.size a ≤ S16384.size a
  k1_off310_inb : ∀ i : grid1.Coords, ∀ a, (k1_off310 i) a + S1.size a ≤ S16384.size a
  k1_off313_inb : ∀ i : grid1.Coords, ∀ a, (k1_off313 i) a + S1.size a ≤ S16384.size a
  k1_off316_inb : ∀ i : grid1.Coords, ∀ a, (k1_off316 i) a + S1.size a ≤ S16384.size a
  k1_off319_inb : ∀ i : grid1.Coords, ∀ a, (k1_off319 i) a + S1.size a ≤ S16384.size a
  k1_off322_inb : ∀ i : grid1.Coords, ∀ a, (k1_off322 i) a + S1.size a ≤ S16384.size a
  k1_off325_inb : ∀ i : grid1.Coords, ∀ a, (k1_off325 i) a + S1.size a ≤ S16384.size a
  k1_off328_inb : ∀ i : grid1.Coords, ∀ a, (k1_off328 i) a + S1.size a ≤ S16384.size a
  k1_off331_inb : ∀ i : grid1.Coords, ∀ a, (k1_off331 i) a + S1.size a ≤ S16384.size a
  k1_off334_inb : ∀ i : grid1.Coords, ∀ a, (k1_off334 i) a + S1.size a ≤ S16384.size a
  k1_off337_inb : ∀ i : grid1.Coords, ∀ a, (k1_off337 i) a + S1.size a ≤ S16384.size a
  k1_off340_inb : ∀ i : grid1.Coords, ∀ a, (k1_off340 i) a + S1.size a ≤ S16384.size a
  k1_off343_inb : ∀ i : grid1.Coords, ∀ a, (k1_off343 i) a + S1.size a ≤ S16384.size a
  k1_off346_inb : ∀ i : grid1.Coords, ∀ a, (k1_off346 i) a + S1.size a ≤ S16384.size a
  k1_off349_inb : ∀ i : grid1.Coords, ∀ a, (k1_off349 i) a + S1.size a ≤ S16384.size a
  k1_off352_inb : ∀ i : grid1.Coords, ∀ a, (k1_off352 i) a + S1.size a ≤ S16384.size a
  k1_off355_inb : ∀ i : grid1.Coords, ∀ a, (k1_off355 i) a + S1.size a ≤ S16384.size a
  k1_off358_inb : ∀ i : grid1.Coords, ∀ a, (k1_off358 i) a + S1.size a ≤ S16384.size a
  k1_off361_inb : ∀ i : grid1.Coords, ∀ a, (k1_off361 i) a + S1.size a ≤ S16384.size a
  k1_off364_inb : ∀ i : grid1.Coords, ∀ a, (k1_off364 i) a + S1.size a ≤ S16384.size a
  k1_off367_inb : ∀ i : grid1.Coords, ∀ a, (k1_off367 i) a + S1.size a ≤ S16384.size a
  k1_off370_inb : ∀ i : grid1.Coords, ∀ a, (k1_off370 i) a + S1.size a ≤ S16384.size a
  k1_off373_inb : ∀ i : grid1.Coords, ∀ a, (k1_off373 i) a + S1.size a ≤ S16384.size a
  k1_off376_inb : ∀ i : grid1.Coords, ∀ a, (k1_off376 i) a + S1.size a ≤ S16384.size a
  k1_off379_inb : ∀ i : grid1.Coords, ∀ a, (k1_off379 i) a + S1.size a ≤ S16384.size a
  k1_off382_inb : ∀ i : grid1.Coords, ∀ a, (k1_off382 i) a + S1.size a ≤ S16384.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S128x4.size a ≤ S16384x4.size a
  hwx1_0 : ∀ i : grid1.Coords, EltTy.bits .f32 = 32 ∨ (Rect.block (s := S16384x4) S128x4.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S4096x128.size a ≤ S4096x16384.size a
  hwx1_1 : ∀ i : grid1.Coords, EltTy.bits .f32 = 32 ∨ (Rect.block (s := S4096x16384) S4096x128.size (cc1_transform_2 i) (hinb1_1 i)).WholeWords (EltTy.packing .f32)

variable [Facts₀]

abbrev cc1_scratch2 : DmaSems sig S32 := SemArray.consecutive 8 S32 hcc1_scratch2
abbrev cc1_scratch3 : DmaSems sig S32 := SemArray.consecutive 40 S32 hcc1_scratch3
def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v11) S128x4.size reads1_0 false false 2 stage1_0 sem1_0 nbuf1_0 hstage1_0

abbrev spec1_1 : Pipeline.WinSpec sig grid1.rank :=
  Pipeline.WinSpec.ofSpec (Memref.whole main_v13) S4096x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))

class Facts : Prop extends Facts₀ where
  harr1 : ∀ w, (spec1 w).arr.IsWhole

variable [Facts]
-- ==== ReferenceIdeal.lean ====
abbrev S4096x16384 : Shape := ⟨2, ![4096, 16384]⟩
abbrev S16384x16 : Shape := ⟨2, ![16384, 16]⟩
abbrev S16384 : Shape := ⟨1, ![16384]⟩
abbrev S16x4 : Shape := ⟨2, ![16, 4]⟩
abbrev S_ : Shape := ⟨0, ![]⟩
abbrev S16384x1 : Shape := ⟨2, ![16384, 1]⟩
abbrev S16384x4 : Shape := ⟨2, ![16384, 4]⟩
abbrev S1x16384 : Shape := ⟨2, ![1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x16, .f32⟩
  | .hbm, ⟨2, _⟩ => ⟨S16384, .i32⟩
  | .hbm, ⟨3, _⟩ => ⟨S16384, .i32⟩
  | .hbm, ⟨4, _⟩ => ⟨S16x4, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x16, .f32⟩
  | .hbm, ⟨18, _⟩ => ⟨S16384x16, .f32⟩
  | .hbm, ⟨19, _⟩ => ⟨S16384x4, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S4096x16384, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S4096x16384, .f32⟩
  | .hbm, ⟨38, _⟩ => ⟨S16384x1, .f32⟩
  | .hbm, ⟨39, _⟩ => ⟨S16384, .f32⟩
  | .hbm, ⟨40, _⟩ => ⟨S16384x1, .f32⟩
  | .hbm, ⟨41, _⟩ => ⟨S16384, .f32⟩
  | .hbm, ⟨42, _⟩ => ⟨S1x16384, .f32⟩
  | .hbm, ⟨43, _⟩ => ⟨S4096x16384, .f32⟩
  | .hbm, ⟨44, _⟩ => ⟨S4096x16384, .f32⟩
  | .hbm, ⟨45, _⟩ => ⟨S1x16384, .f32⟩
  | .hbm, ⟨46, _⟩ => ⟨S4096x16384, .f32⟩
  | .hbm, ⟨47, _⟩ => ⟨S4096x16384, .f32⟩
  | .hbm, ⟨48, _⟩ => ⟨S16384x1, .f32⟩
  | .hbm, ⟨49, _⟩ => ⟨S16384, .f32⟩
  | .hbm, ⟨50, _⟩ => ⟨S1x16384, .f32⟩
  | .hbm, ⟨51, _⟩ => ⟨S4096x16384, .f32⟩
  | .hbm, ⟨52, _⟩ => ⟨S4096x16384, .f32⟩
  | .hbm, ⟨53, _⟩ => ⟨S4096x16384, .f32⟩
  | .hbm, ⟨54, _⟩ => ⟨S16384x1, .f32⟩
  | .hbm, ⟨55, _⟩ => ⟨S16384, .f32⟩
  | .hbm, ⟨56, _⟩ => ⟨S4096x16384, .f32⟩
  | .hbm, ⟨57, _⟩ => ⟨S1x16384, .f32⟩
  | .hbm, ⟨58, _⟩ => ⟨S4096x16384, .f32⟩
  | .hbm, ⟨59, _⟩ => ⟨S4096x16384, .f32⟩
  | .hbm, ⟨60, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  slices_S16384x4_S16384x1_0_0 : S16384x4.Slices ![0, 0] S16384x1
  shapeCasts_S16384x1_S16384 : S16384x1.ShapeCasts S16384
  slices_S16384x4_S16384x1_0_1 : S16384x4.Slices ![0, 1] S16384x1
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  slices_S16384x4_S16384x1_0_2 : S16384x4.Slices ![0, 2] S16384x1
  slices_S16384x4_S16384x1_0_3 : S16384x4.Slices ![0, 3] S16384x1
  dot_S16384x16_S16x4_S16384x4_1_0_0_1_n_n_wf : DotDims.WF S16384x16 S16x4 S16384x4 [1] [0] [0] [1] [] []
  gather_S4096x16384_S16384x1_S4096x16384_0_1_n_n_1_1_40961_wf : GatherDims.WF S4096x16384 S16384x1 S4096x16384 [0] [1] [] [1] [] 1 ![4096, 1]

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def gather_S4096x16384_S16384x1_S4096x16384_0_1_n_n_1_1_40961 : GatherDims S4096x16384 S16384x1 S4096x16384 where
  offsetDims := [0]
  collapsedSliceDims := [1]
  operandBatchingDims := []
  startIndicesBatchingDims := []
  startIndexMap := [1]
  indexVectorDim := 1
  sliceSizes := ![4096, 1]
  wf := gather_S4096x16384_S16384x1_S4096x16384_0_1_n_n_1_1_40961_wf

class Facts : Prop extends Facts₀ where

variable [Facts]
-- ==== Proof.PreFacts.lean ====
/-
  The index range, read out of the precondition.

  The precondition is a conjunction of four "for all entries" statements, each folded to one truth
  word by conjunction. The last two say, of every entry v of the two index vectors, that
  0 ≤ v and v < 16384 with v read as a SIGNED 32-bit integer. A word whose signed reading is
  nonnegative has its top bit clear, so its signed and unsigned readings agree; hence its unsigned
  reading is below 16384 as well. That is the statement proved here, at every position of both
  index vectors.
-/
import proofs.«418221_j52063593562999_1_alg».proof.Pre_finite_inputs
import proofs.«418221_j52063593562999_1_alg».proof.Proof.Gen.Pre_finite_inputs
import Idealize.ShloMosaic.Lib.ReduceAll
import Idealize.ShloMosaic.Lib.ValueIdx

namespace Cert.PreFacts

open Idealize.ShloMosaic

/-- One word: if its signed reading lies in [0, 16384), so does its unsigned reading.
    The signed reading of v is v.toNat when 2 · v.toNat < 2³², and v.toNat − 2³² otherwise; the second
    case is negative, which the lower bound excludes. -/
theorem word_lt (v : BitVec 32) (h0 : IntOp.cmpi .sge v 0#32 = 1#1) (h1 : IntOp.cmpi .slt v 16384#32 = 1#1) :
    v.toNat < 16384 := by
  rw [IntOp.cmpi_sge] at h0
  rw [IntOp.cmpi_slt] at h1
  have e0 : (0#32 : BitVec 32).toInt = 0 := by decide
  have e1 : (16384#32 : BitVec 32).toInt = 16384 := by decide
  rw [e0] at h0
  rw [e1] at h1
  rw [BitVec.toInt_eq_toNat_cond] at h0 h1
  have := v.isLt
  split at h0 <;> omega

/-- Under the precondition every entry of both index vectors, read unsigned, is below 16384.
    The scalar truth word is a conjunction of four folds; the third and fourth are the folds over
    the two index vectors. A fold by conjunction that equals 1 had 1 at every position, and the
    entry at a position is itself the conjunction of the two signed comparisons against the
    constants 0 and 16384 (each constant spread over the whole vector). -/
theorem idx_lt {F : FTy → Type} [FloatOps F] [Cert.Pre_finite_inputs.Facts]
    (x : FVec F Cert.Pre_finite_inputs.S4096x16384 .f32) (w : FVec F Cert.Pre_finite_inputs.S16384x16 .f32)
    (a b : IVec Cert.Pre_finite_inputs.S16384 32)
    (h : Cert.Pre_finite_inputs.fn (F := F) x w a b = fun _ => 1#1) :
    ∀ j : Cert.Pre_finite_inputs.S16384.Idx, (a j).toNat < 16384 ∧ (b j).toNat < 16384 := by
  -- the rank-0 shape has exactly one index
  haveI : Subsingleton Cert.Pre_finite_inputs.S_.Idx := ⟨fun p q => funext fun d => d.elim0⟩
  have h0 := congrFun h ValueIdx.ix0
  dsimp only [Cert.Pre_finite_inputs.fn, Cert.Pre_finite_inputs.fn_part1] at h0
  -- ((x finite ∧ weights finite) ∧ a in range) ∧ b in range
  obtain ⟨h123, hb⟩ := IntOp.andi_eq_one.1 h0
  obtain ⟨_, ha⟩ := IntOp.andi_eq_one.1 h123
  intro j
  have ha' := Host.reduce_andi_all _ _ _ _ _ ha j
  have hb' := Host.reduce_andi_all _ _ _ _ _ hb j
  obtain ⟨ha0, ha1⟩ := IntOp.andi_eq_one.1 ha'
  obtain ⟨hb0, hb1⟩ := IntOp.andi_eq_one.1 hb'
  exact ⟨word_lt _ ha0 ha1, word_lt _ hb0 hb1⟩

end Cert.PreFacts
-- ==== Proof.RefRun.lean ====
/-
  The reference program's run. The program is a straight line of 57 host operations over the four argument arrays
  x : [4096, 16384], w : [16384, 16], a, b : [16384] (32-bit words):

    k    = softmax(w, along each row) · G          (G the constant [16, 4] table; k : [16384, 4])
    a'   = a + 16384 where a < 0 (signed), else a   (and b' from b likewise)
    xa   = the columns of x named by a' (a gather along axis 1), xb likewise from b'
    out  = ((k₀ + k₁ · xa) + k₂ · xb) + k₃ · (xa · xb)

  where kⱼ is column j of k laid along the rows of a [4096, 16384] array. `kOf` is the first line as a function of w,
  `valK` the remaining lines as a function of k, x, a, b, and `val` their composition. `run`: every weakly fair execution
  of the program terminates with the result array at `val` of the arguments' launch contents and the arguments unchanged.
-/
import proofs.«418221_j52063593562999_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The coefficient array: each row of `w` less its maximum, exponentiated, divided by the row's sum of exponentials
    (the softmax of the row), then contracted with the constant table along the 16 gates. -/
def kOf (w : FVec F S16384x16 .f32) : FVec F S16384x4 .f32 :=
  let e : FVec F S16384x16 .f32 :=
    Host.exp (subf w (broadcastInDim S16384x16 ![0, 1] bcast_S16384x1_S16384x16_0_1
      (broadcastInDim S16384x1 ![0] bcast_S16384_S16384x1_0
        (maximumf (broadcastInDim S16384 ![] bcast_S_S16384 (constant S_ .f32 0xFF800000#32))
          (Host.reduce FloatOps.maximumf w (constant S_ .f32 0xFF800000#32) reducesTo_S16384x16_S16384_d1 h_S_)))))
  Host.dotGeneral dot_S16384x16_S16x4_S16384x4_1_0_0_1_n_n none
    (Host.divf e (broadcastInDim S16384x16 ![0, 1] bcast_S16384x1_S16384x16_0_1
      (broadcastInDim S16384x1 ![0] bcast_S16384_S16384x1_0
        (Host.reduceAdd e (constant S_ .f32 0x00000000#32) reducesTo_S16384x16_S16384_d1 h_S_))))
    (fun i => FloatOps.ofBits .f32 (lit0 (S16x4.rowMajor i)))

/-- An index array made non-negative (16384 added to a word that is negative as a signed number) and laid as a
    [16384, 1] array of one-coordinate start indices. -/
def normIdx (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 16384#32))) i)

/-- The columns of `x` that the index array names, one per output column. -/
def cols (x : FVec F S4096x16384 .f32) (i : IVec S16384 32) : FVec F S4096x16384 .f32 :=
  Host.gather gather_S4096x16384_S16384x1_S4096x16384_0_1_n_n_1_1_40961 x (normIdx i)

/-- A [16384] array laid along every row of a [4096, 16384] array. -/
def rows (v : FVec F S16384 .f32) : FVec F S4096x16384 .f32 :=
  broadcastInDim S4096x16384 ![0, 1] bcast_S1x16384_S4096x16384_0_1 (broadcastInDim S1x16384 ![1] bcast_S16384_S1x16384_1 v)

/-- The result as a function of the coefficient array and the other three arguments. -/
def valK (kk : FVec F S16384x4 .f32) (x : FVec F S4096x16384 .f32) (a b : IVec S16384 32) : FVec F S4096x16384 .f32 :=
  addf
    (addf
      (addf (rows (shapeCast S16384 (extractStridedSlice S16384x1 ![0, 0] kk slices_S16384x4_S16384x1_0_0) shapeCasts_S16384x1_S16384))
        (mulf (rows (shapeCast S16384 (extractStridedSlice S16384x1 ![0, 1] kk slices_S16384x4_S16384x1_0_1) shapeCasts_S16384x1_S16384))
          (cols x a)))
      (mulf (rows (shapeCast S16384 (extractStridedSlice S16384x1 ![0, 2] kk slices_S16384x4_S16384x1_0_2) shapeCasts_S16384x1_S16384))
        (cols x b)))
    (mulf (rows (shapeCast S16384 (extractStridedSlice S16384x1 ![0, 3] kk slices_S16384x4_S16384x1_0_3) shapeCasts_S16384x1_S16384))
      (mulf (cols x a) (cols x b)))

/-- The whole program's result as a function of its four arguments. -/
def val (x : FVec F S4096x16384 .f32) (w : FVec F S16384x16 .f32) (a b : IVec S16384 32) : FVec F S4096x16384 .f32 :=
  valK (kOf w) x a b

theorem val_eq (x : FVec F S4096x16384 .f32) (w : FVec F S16384x16 .f32) (a b : IVec S16384 32) :
    val x w a b = valK (kOf w) x a b := rfl

/-- The program's 57 operations, in order. -/
abbrev ops : List (HloOp τ sig (Elt F)) :=
  [
    nullary main_cst (fun i => FloatOps.ofBits .f32 (lit0 (S16x4.rowMajor i))),
    nullary main_cst_0 (constant S_ .f32 0xFF800000#32),
    binary main_arg1 main_cst_0 main_v0 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_1 (constant S_ .f32 0xFF800000#32),
    unary main_cst_1 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x16 ![0, 1] bcast_S16384x1_S16384x16_0_1 : (⟨S16384x1, .f32⟩ : BufTy).Contents (Elt F) → (⟨S16384x16, .f32⟩ : BufTy).Contents (Elt F)),
    binary main_arg1 main_v4 main_v5 (subf : (⟨S16384x16, .f32⟩ : BufTy).Contents (Elt F) → (⟨S16384x16, .f32⟩ : BufTy).Contents (Elt F) → (⟨S16384x16, .f32⟩ : BufTy).Contents (Elt F)),
    unary main_v5 main_v6 (Host.exp : (⟨S16384x16, .f32⟩ : BufTy).Contents (Elt F) → (⟨S16384x16, .f32⟩ : BufTy).Contents (Elt F)),
    nullary main_cst_2 (constant S_ .f32 0x00000000#32),
    binary main_v6 main_cst_2 main_v7 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x16 ![0, 1] bcast_S16384x1_S16384x16_0_1 : (⟨S16384x1, .f32⟩ : BufTy).Contents (Elt F) → (⟨S16384x16, .f32⟩ : BufTy).Contents (Elt F)),
    binary main_v6 main_v9 main_v10 (Host.divf : (⟨S16384x16, .f32⟩ : BufTy).Contents (Elt F) → (⟨S16384x16, .f32⟩ : BufTy).Contents (Elt F) → (⟨S16384x16, .f32⟩ : BufTy).Contents (Elt F)),
    binary main_v10 main_cst main_v11 ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)),
    nullary main_c (constantI S_ 32 0#32),
    unary main_c main_v12 (broadcastInDim S16384 ![] bcast_S_S16384 : (⟨S_, .i32⟩ : BufTy).Contents (Elt F) → (⟨S16384, .i32⟩ : BufTy).Contents (Elt F)),
    binary main_arg2 main_v12 main_v13 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v14 (broadcastInDim S16384 ![] bcast_S_S16384 : (⟨S_, .i32⟩ : BufTy).Contents (Elt F) → (⟨S16384, .i32⟩ : BufTy).Contents (Elt F)),
    binary main_arg2 main_v14 main_v15 (addi : (⟨S16384, .i32⟩ : BufTy).Contents (Elt F) → (⟨S16384, .i32⟩ : BufTy).Contents (Elt F) → (⟨S16384, .i32⟩ : BufTy).Contents (Elt F)),
    ternary main_v13 main_v15 main_arg2 main_v16 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v16 main_v17 (broadcastInDim S16384x1 ![0] bcast_S16384_S16384x1_0 : (⟨S16384, .i32⟩ : BufTy).Contents (Elt F) → (⟨S16384x1, .i32⟩ : BufTy).Contents (Elt F)),
    binary main_arg0 main_v17 main_v18 ((fun x i => Host.gather gather_S4096x16384_S16384x1_S4096x16384_0_1_n_n_1_1_40961 x i) : (⟨S4096x16384, .f32⟩ : BufTy).Contents (Elt F) → (⟨S16384x1, .i32⟩ : BufTy).Contents (Elt F) → (⟨S4096x16384, .f32⟩ : BufTy).Contents (Elt F)),
    nullary main_c_4 (constantI S_ 32 0#32),
    unary main_c_4 main_v19 (broadcastInDim S16384 ![] bcast_S_S16384 : (⟨S_, .i32⟩ : BufTy).Contents (Elt F) → (⟨S16384, .i32⟩ : BufTy).Contents (Elt F)),
    binary main_arg3 main_v19 main_v20 (cmpi .slt : (⟨S16384, .i32⟩ : BufTy).Contents (Elt F) → (⟨S16384, .i32⟩ : BufTy).Contents (Elt F) → (⟨S16384, .i1⟩ : BufTy).Contents (Elt F)),
    nullary main_c_5 (constantI S_ 32 16384#32),
    unary main_c_5 main_v21 (broadcastInDim S16384 ![] bcast_S_S16384 : (⟨S_, .i32⟩ : BufTy).Contents (Elt F) → (⟨S16384, .i32⟩ : BufTy).Contents (Elt F)),
    binary main_arg3 main_v21 main_v22 (addi : (⟨S16384, .i32⟩ : BufTy).Contents (Elt F) → (⟨S16384, .i32⟩ : BufTy).Contents (Elt F) → (⟨S16384, .i32⟩ : BufTy).Contents (Elt F)),
    ternary main_v20 main_v22 main_arg3 main_v23 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v23 main_v24 (broadcastInDim S16384x1 ![0] bcast_S16384_S16384x1_0 : (⟨S16384, .i32⟩ : BufTy).Contents (Elt F) → (⟨S16384x1, .i32⟩ : BufTy).Contents (Elt F)),
    binary main_arg0 main_v24 main_v25 ((fun x i => Host.gather gather_S4096x16384_S16384x1_S4096x16384_0_1_n_n_1_1_40961 x i) : (⟨S4096x16384, .f32⟩ : BufTy).Contents (Elt F) → (⟨S16384x1, .i32⟩ : BufTy).Contents (Elt F) → (⟨S4096x16384, .f32⟩ : BufTy).Contents (Elt F)),
    unary main_v11 main_v26 ((extractStridedSlice S16384x1 ![0, 0] · slices_S16384x4_S16384x1_0_0) : (⟨S16384x4, .f32⟩ : BufTy).Contents (Elt F) → (⟨S16384x1, .f32⟩ : BufTy).Contents (Elt F)),
    reshape main_v26 main_v27 rfl shapeCasts_S16384x1_S16384,
    unary main_v11 main_v28 ((extractStridedSlice S16384x1 ![0, 1] · slices_S16384x4_S16384x1_0_1) : (⟨S16384x4, .f32⟩ : BufTy).Contents (Elt F) → (⟨S16384x1, .f32⟩ : BufTy).Contents (Elt F)),
    reshape main_v28 main_v29 rfl shapeCasts_S16384x1_S16384,
    unary main_v29 main_v30 (broadcastInDim S1x16384 ![1] bcast_S16384_S1x16384_1 : (⟨S16384, .f32⟩ : BufTy).Contents (Elt F) → (⟨S1x16384, .f32⟩ : BufTy).Contents (Elt F)),
    unary main_v30 main_v31 (broadcastInDim S4096x16384 ![0, 1] bcast_S1x16384_S4096x16384_0_1 : (⟨S1x16384, .f32⟩ : BufTy).Contents (Elt F) → (⟨S4096x16384, .f32⟩ : BufTy).Contents (Elt F)),
    binary main_v31 main_v18 main_v32 (mulf : (⟨S4096x16384, .f32⟩ : BufTy).Contents (Elt F) → (⟨S4096x16384, .f32⟩ : BufTy).Contents (Elt F) → (⟨S4096x16384, .f32⟩ : BufTy).Contents (Elt F)),
    unary main_v27 main_v33 (broadcastInDim S1x16384 ![1] bcast_S16384_S1x16384_1 : (⟨S16384, .f32⟩ : BufTy).Contents (Elt F) → (⟨S1x16384, .f32⟩ : BufTy).Contents (Elt F)),
    unary main_v33 main_v34 (broadcastInDim S4096x16384 ![0, 1] bcast_S1x16384_S4096x16384_0_1 : (⟨S1x16384, .f32⟩ : BufTy).Contents (Elt F) → (⟨S4096x16384, .f32⟩ : BufTy).Contents (Elt F)),
    binary main_v34 main_v32 main_v35 (addf : (⟨S4096x16384, .f32⟩ : BufTy).Contents (Elt F) → (⟨S4096x16384, .f32⟩ : BufTy).Contents (Elt F) → (⟨S4096x16384, .f32⟩ : BufTy).Contents (Elt F)),
    unary main_v11 main_v36 ((extractStridedSlice S16384x1 ![0, 2] · slices_S16384x4_S16384x1_0_2) : (⟨S16384x4, .f32⟩ : BufTy).Contents (Elt F) → (⟨S16384x1, .f32⟩ : BufTy).Contents (Elt F)),
    reshape main_v36 main_v37 rfl shapeCasts_S16384x1_S16384,
    unary main_v37 main_v38 (broadcastInDim S1x16384 ![1] bcast_S16384_S1x16384_1 : (⟨S16384, .f32⟩ : BufTy).Contents (Elt F) → (⟨S1x16384, .f32⟩ : BufTy).Contents (Elt F)),
    unary main_v38 main_v39 (broadcastInDim S4096x16384 ![0, 1] bcast_S1x16384_S4096x16384_0_1 : (⟨S1x16384, .f32⟩ : BufTy).Contents (Elt F) → (⟨S4096x16384, .f32⟩ : BufTy).Contents (Elt F)),
    binary main_v39 main_v25 main_v40 (mulf : (⟨S4096x16384, .f32⟩ : BufTy).Contents (Elt F) → (⟨S4096x16384, .f32⟩ : BufTy).Contents (Elt F) → (⟨S4096x16384, .f32⟩ : BufTy).Contents (Elt F)),
    binary main_v35 main_v40 main_v41 (addf : (⟨S4096x16384, .f32⟩ : BufTy).Contents (Elt F) → (⟨S4096x16384, .f32⟩ : BufTy).Contents (Elt F) → (⟨S4096x16384, .f32⟩ : BufTy).Contents (Elt F)),
    unary main_v11 main_v42 ((extractStridedSlice S16384x1 ![0, 3] · slices_S16384x4_S16384x1_0_3) : (⟨S16384x4, .f32⟩ : BufTy).Contents (Elt F) → (⟨S16384x1, .f32⟩ : BufTy).Contents (Elt F)),
    reshape main_v42 main_v43 rfl shapeCasts_S16384x1_S16384,
    binary main_v18 main_v25 main_v44 (mulf : (⟨S4096x16384, .f32⟩ : BufTy).Contents (Elt F) → (⟨S4096x16384, .f32⟩ : BufTy).Contents (Elt F) → (⟨S4096x16384, .f32⟩ : BufTy).Contents (Elt F)),
    unary main_v43 main_v45 (broadcastInDim S1x16384 ![1] bcast_S16384_S1x16384_1 : (⟨S16384, .f32⟩ : BufTy).Contents (Elt F) → (⟨S1x16384, .f32⟩ : BufTy).Contents (Elt F)),
    unary main_v45 main_v46 (broadcastInDim S4096x16384 ![0, 1] bcast_S1x16384_S4096x16384_0_1 : (⟨S1x16384, .f32⟩ : BufTy).Contents (Elt F) → (⟨S4096x16384, .f32⟩ : BufTy).Contents (Elt F)),
    binary main_v46 main_v44 main_v47 (mulf : (⟨S4096x16384, .f32⟩ : BufTy).Contents (Elt F) → (⟨S4096x16384, .f32⟩ : BufTy).Contents (Elt F) → (⟨S4096x16384, .f32⟩ : BufTy).Contents (Elt F)),
    binary main_v41 main_v47 main_v48 (addf : (⟨S4096x16384, .f32⟩ : BufTy).Contents (Elt F) → (⟨S4096x16384, .f32⟩ : BufTy).Contents (Elt F) → (⟨S4096x16384, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

/-- What the result array holds after the operations, from any contents. -/
theorem after_v48 (V : Valuation τ sig (Elt F)) :
    after (ops (F := F)) V (Proc.devRef .tc main_v48)
      = val (V (Proc.devRef .tc main_arg0)) (V (Proc.devRef .tc main_arg1)) (V (Proc.devRef .tc main_arg2)) (V (Proc.devRef .tc main_arg3)) := by
  after_results_simp
  rfl

/-- On every device, from any memory with zero counters: every weakly fair execution of the program terminates with
    the result array at `val` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v48) = val (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v48).trans (after_v48 _),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.Spec.lean ====
/-
  What both programs compute, as one function of the argument arrays, index by index:

    out[n, y] = k[y,0] + k[y,1]·x[n, a[y]] + k[y,2]·x[n, b[y]] + k[y,3]·(x[n, a[y]]·x[n, b[y]])

  with the sums and products grouped as both programs group them. `k` is the [16384, 4] array of the four multilinear
  coefficients of each output column (the softmax of the gate logits times the gate table), which both programs compute
  by the same operations and which is carried here as an argument. An index word names a column of `x` by its unsigned
  value; the words are below 16384 by the precondition, and `col` is total so that the function needs no hypothesis.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 16384]⟩
abbrev SK : Shape := ⟨2, ![16384, 4]⟩
abbrev SI : Shape := ⟨1, ![16384]⟩

/-- The column of `x` an index word names. -/
def col (w : BitVec 32) : Fin 16384 := ⟨w.toNat % 16384, Nat.mod_lt _ (by decide)⟩

theorem col_val (w : BitVec 32) (h : w.toNat < 16384) : (col w).val = w.toNat := Nat.mod_eq_of_lt h

/-- The result at row `n` and column `y`. -/
def out (kk : FVec Ideal SK .f32) (x : FVec Ideal SX .f32) (a b : IVec SI 32) : FVec Ideal SX .f32 := fun i =>
  let n : Fin 4096 := i 0
  let y : Fin 16384 := i 1
  let xa := x (ix2 n (col (a (ix1 y))))
  let xb := x (ix2 n (col (b (ix1 y))))
  ((kk (ix2 y (0 : Fin 4)) + kk (ix2 y (1 : Fin 4)) * xa) + kk (ix2 y (2 : Fin 4)) * xb) + kk (ix2 y (3 : Fin 4)) * (xa * xb)

theorem out_apply (kk : FVec Ideal SK .f32) (x : FVec Ideal SX .f32) (a b : IVec SI 32) (n : Fin 4096) (y : Fin 16384) :
    out kk x a b (ix2 n y)
      = ((kk (ix2 y (0 : Fin 4)) + kk (ix2 y (1 : Fin 4)) * x (ix2 n (col (a (ix1 y))))) + kk (ix2 y (2 : Fin 4)) * x (ix2 n (col (b (ix1 y)))))
        + kk (ix2 y (3 : Fin 4)) * (x (ix2 n (col (a (ix1 y)))) * x (ix2 n (col (b (ix1 y))))) := rfl

end Cert.Spec

end
-- ==== Proof.RefRead.lean ====
/-
  The reference's result read at one index: it is the specification.

  After the coefficient array k : [16384, 4] the reference does four things, and each is read here at a row n and a
  column y of the result:

    * an index word below 16384 is not negative as a signed number, so the normalisation "add 16384 where negative"
      leaves it as it is;
    * the gather along axis 1 keeps axis 0 whole and collapses axis 1: its element (n, y) is x at row n and at the
      column the y-th start index names, and an in-range start index is not moved by the clamp into [0, 16383];
    * column c of k, reshaped to [16384], laid as a [1, 16384] row and repeated down the 4096 rows, holds k[y, c]
      at (n, y);
    * the sums and products are taken element by element.

  Put together, element (n, y) is ((k[y,0] + k[y,1]·x[n,a[y]]) + k[y,2]·x[n,b[y]]) + k[y,3]·(x[n,a[y]]·x[n,b[y]]),
  which is the specification's value there. The coefficient array stays an arbitrary array throughout.
-/
import proofs.«418221_j52063593562999_1_alg».proof.Proof.Gen.ReferenceIdeal
import proofs.«418221_j52063593562999_1_alg».proof.Proof.Spec
import proofs.«418221_j52063593562999_1_alg».proof.Proof.RefRun
import Idealize.ShloMosaic.Lib.ValueIdx
import Idealize.ShloMosaic.Lib.Pipeline.Value

noncomputable section

namespace Cert.ReferenceIdeal.RefRead

open Idealize.ShloMosaic Idealize.ShloMosaic.ValueIdx
open Cert.ReferenceIdeal Cert.ReferenceIdeal.Facts₀

/-! ## Index words below 16384 -/

/-- A word below 16384 is not negative as a signed number. -/
theorem not_slt_zero (w : BitVec 32) (h : w.toNat < 16384) : IntOp.cmpi .slt w 0#32 = 0#1 := by
  have hs : w.slt 0#32 = false := by
    have h0 : (0 : Int) ≤ w.toInt := by
      rw [BitVec.toInt_eq_toNat_cond]; split <;> omega
    simp only [BitVec.slt, BitVec.toInt_zero, decide_eq_false_iff_not, not_lt]
    exact h0
  show BitVec.ofBool (w.slt 0#32) = 0#1
  rw [hs]; rfl

/-- Where the index word is below 16384, "the word plus a constant where the word is negative, else the word" is
    the word. -/
theorem norm_apply (a z c : IVec S16384 32) (hz : ∀ j, z j = 0#32) (j : S16384.Idx) (h : (a j).toNat < 16384) :
    select (cmpi .slt a z) (addi a c) a j = a j := by
  rw [select_apply]
  show Scalar.select (IntOp.cmpi .slt (a j) (z j)) _ _ = _
  rw [hz, not_slt_zero _ h, select_zero]

/-- A word below 16384 read as a signed number is its unsigned value. -/
theorem toInt_toNat (w : BitVec 32) (h : w.toNat < 16384) : w.toInt.toNat = w.toNat := by
  rw [BitVec.toInt_eq_toNat_cond]; split <;> omega

/-! ## The gather along axis 1

Operand [4096, 16384], start indices [16384, 1], result [4096, 16384]: result axis 0 is the one offset axis and reads
operand axis 0 whole (slice size 4096); operand axis 1 is collapsed (slice size 1) and is the one axis a start index
names; the index vector lies along axis 1 of the start indices, so result axis 1 is the batch axis and reads start
index row y. -/

section
variable [Facts₀]

/-- Operand axis 0 is not named by a start index. -/
theorem zero_not_mem_map : ¬ (0 : Fin 2) ∈ gather_S4096x16384_S16384x1_S4096x16384_0_1_n_n_1_1_40961.startIndexMap := by
  show ¬ (0 : Fin 2) ∈ ([1] : List (Fin 2)); decide
/-- Operand axis 1 is named by the start index. -/
theorem one_mem_map : (1 : Fin 2) ∈ gather_S4096x16384_S16384x1_S4096x16384_0_1_n_n_1_1_40961.startIndexMap := by
  show (1 : Fin 2) ∈ ([1] : List (Fin 2)); decide
/-- Operand axis 0 is kept (neither collapsed nor batching). -/
theorem zero_mem_kept : (0 : Fin 2) ∈ GatherDims.sKept gather_S4096x16384_S16384x1_S4096x16384_0_1_n_n_1_1_40961 :=
  (GatherDims.mem_sKept _ _).2 ⟨by show ¬ (0 : Fin 2) ∈ ([1] : List (Fin 2)); decide, List.not_mem_nil⟩
/-- Operand axis 1 is collapsed. -/
theorem one_not_mem_kept : ¬ (1 : Fin 2) ∈ GatherDims.sKept gather_S4096x16384_S16384x1_S4096x16384_0_1_n_n_1_1_40961 :=
  fun h => ((GatherDims.mem_sKept _ _).1 h).1 (by show (1 : Fin 2) ∈ ([1] : List (Fin 2)); decide)

/-- On operand axis 0 the gather reads the result's row coordinate: no start, no batch coordinate, the offset `n`. -/
theorem gather_axis0 (idx : IVec S16384x1 32) (n : Fin 4096) (y : Fin 16384) :
    (GatherDims.operandIdx gather_S4096x16384_S16384x1_S4096x16384_0_1_n_n_1_1_40961 (ix2 n y) idx (0 : Fin 2)).val = n.val := by
  show GatherDims.start _ (ix2 n y) idx 0 + GatherDims.batchCoord _ (ix2 n y) 0 + GatherDims.offCoord _ (ix2 n y) 0 = _
  rw [GatherDims.batchCoord_eq_zero _ _ _ List.not_mem_nil]
  unfold GatherDims.start
  rw [dif_neg zero_not_mem_map]
  unfold GatherDims.offCoord
  rw [dif_pos zero_mem_kept]
  simp only [Nat.zero_add]
  rfl

/-- On operand axis 1 the gather reads start index row `y`, signed and clamped into [0, 16383]: no batch coordinate,
    no offset. -/
theorem gather_axis1 (idx : IVec S16384x1 32) (n : Fin 4096) (y : Fin 16384) :
    (GatherDims.operandIdx gather_S4096x16384_S16384x1_S4096x16384_0_1_n_n_1_1_40961 (ix2 n y) idx (1 : Fin 2)).val
      = min (idx (ix2 y (0 : Fin 1))).toInt.toNat 16383 := by
  show GatherDims.start _ (ix2 n y) idx 1 + GatherDims.batchCoord _ (ix2 n y) 1 + GatherDims.offCoord _ (ix2 n y) 1 = _
  rw [GatherDims.batchCoord_eq_zero _ _ _ List.not_mem_nil,
    GatherDims.offCoord_eq_zero _ _ _ one_not_mem_kept]
  simp only [Nat.add_zero]
  unfold GatherDims.start
  rw [dif_pos one_mem_map]
  have hsi : GatherDims.siIdx gather_S4096x16384_S16384x1_S4096x16384_0_1_n_n_1_1_40961 (ix2 n y)
      ⟨List.idxOf (1 : Fin 2) gather_S4096x16384_S16384x1_S4096x16384_0_1_n_n_1_1_40961.startIndexMap,
        List.idxOf_lt_length_iff.2 one_mem_map⟩ = ix2 y (0 : Fin 1) := by
    funext b; refine Fin.ext ?_
    match b with
    | ⟨0, _⟩ => rfl
    | ⟨1, _⟩ => rfl
  rw [hsi]
  rfl

/-- THE GATHER AT `(n, y)`: the operand at row `n` and at the column start index `y` names, when that word is in
    range. -/
theorem gather_apply {α : Type} (x : S4096x16384.Idx → α) (idx : IVec S16384x1 32) (n : Fin 4096) (y : Fin 16384)
    (h : (idx (ix2 y (0 : Fin 1))).toNat < 16384) :
    Host.gather gather_S4096x16384_S16384x1_S4096x16384_0_1_n_n_1_1_40961 x idx (ix2 n y)
      = x (ix2 n ⟨(idx (ix2 y (0 : Fin 1))).toNat, h⟩) := by
  unfold Host.gather
  refine congrArg x (funext fun a => Fin.ext ?_)
  match a with
  | ⟨0, _⟩ => exact gather_axis0 idx n y
  | ⟨1, _⟩ => exact (gather_axis1 idx n y).trans (by rw [toInt_toNat _ h]; exact Nat.min_eq_left (by omega))

end

/-! ## Layouts read at an index -/

/-- A [16384] array laid as a [16384, 1] column holds, at row `y`, its element `y`. -/
theorem col_bcast_apply {α : Type} (h : S16384.BroadcastsInDim S16384x1 ![0]) (v : S16384.Idx → α) (y : Fin 16384) :
    broadcastInDim S16384x1 ![0] h v (ix2 y (0 : Fin 1)) = v (ix1 y) :=
  broadcastInDim_apply _ h v _ _ (fun a => by match a with | ⟨0, _⟩ => rfl)

/-- Column `o` of a [16384, 4] array, reshaped to [16384], laid as a [1, 16384] row and repeated down 4096 rows, holds
    at `(n, y)` the array's element `(y, o)`. -/
theorem coef_apply {α : Type} (o : Nat) (ho : o < 4) (hs : S16384x4.Slices ![0, o] S16384x1) (hc : S16384x1.ShapeCasts S16384)
    (hb1 : S16384.BroadcastsInDim S1x16384 ![1]) (hb2 : S1x16384.BroadcastsInDim S4096x16384 ![0, 1])
    (kk : S16384x4.Idx → α) (n : Fin 4096) (y : Fin 16384) :
    broadcastInDim S4096x16384 ![0, 1] hb2 (broadcastInDim S1x16384 ![1] hb1
      (shapeCast S16384 (extractStridedSlice S16384x1 ![0, o] kk hs) hc)) (ix2 n y) = kk (ix2 y (⟨o, ho⟩ : Fin 4)) := by
  refine (broadcastInDim_apply _ hb2 _ (ix2 n y) (ix2 (0 : Fin 1) y) (fun a => by match a with | ⟨0, _⟩ => rfl | ⟨1, _⟩ => rfl)).trans ?_
  refine (broadcastInDim_apply _ hb1 _ (ix2 (0 : Fin 1) y) (ix1 y) (fun a => by match a with | ⟨0, _⟩ => rfl)).trans ?_
  refine (shapeCast_apply _ hc (ix1 y) (ix2 y (0 : Fin 1)) (by
    rw [Shape.rowMajor_val_two, Shape.rowMajor_val_one]; show y.val * 1 + 0 = y.val; omega)).trans ?_
  exact extractStridedSlice_apply _ kk hs (ix2 y (0 : Fin 1)) (ix2 y (⟨o, ho⟩ : Fin 4)) (fun a => by
    match a with
    | ⟨0, _⟩ => show y.val = 0 + y.val; omega
    | ⟨1, _⟩ => show o = o + 0; rfl)

/-! ## The reference's pieces, and the whole -/

/-- The normalised index column at row `y` is the index word itself when the word is in range. -/
theorem normIdx_apply (i : IVec S16384 32) (y : Fin 16384) (h : (i (ix1 y)).toNat < 16384) :
    RefRun.normIdx i (ix2 y (0 : Fin 1)) = i (ix1 y) := by
  unfold RefRun.normIdx
  rw [col_bcast_apply]
  exact norm_apply i _ _ (fun _ => rfl) (ix1 y) h

/-- The gathered columns at `(n, y)`: `x` at row `n` and the column the index word names. -/
theorem cols_apply (x : FVec Ideal S4096x16384 .f32) (i : IVec S16384 32) (n : Fin 4096) (y : Fin 16384)
    (h : (i (ix1 y)).toNat < 16384) :
    RefRun.cols (F := Ideal) x i (ix2 n y) = x (ix2 n (Cert.Spec.col (i (ix1 y)))) := by
  unfold RefRun.cols
  rw [gather_apply x _ n y (by rw [normIdx_apply i y h]; exact h)]
  refine congrArg (fun c : Fin 16384 => x (ix2 n c)) (Fin.ext ?_)
  show (RefRun.normIdx i (ix2 y (0 : Fin 1))).toNat = (Cert.Spec.col (i (ix1 y))).val
  rw [normIdx_apply i y h, Cert.Spec.col_val _ h]

/-- Column `o` of the coefficient array laid along the rows, at `(n, y)`: the coefficient `kk[y, o]`. -/
theorem rows_coef_apply (o : Nat) (ho : o < 4) (hs : S16384x4.Slices ![0, o] S16384x1) (hc : S16384x1.ShapeCasts S16384)
    (kk : FVec Ideal S16384x4 .f32) (n : Fin 4096) (y : Fin 16384) :
    RefRun.rows (F := Ideal) (shapeCast S16384 (extractStridedSlice S16384x1 ![0, o] kk hs) hc) (ix2 n y)
      = kk (ix2 y (⟨o, ho⟩ : Fin 4)) := by
  unfold RefRun.rows
  exact coef_apply o ho hs hc _ _ kk n y

/-- The reference's result, as a function of an arbitrary coefficient array, is the specification. -/
theorem valK_eq (kk : FVec Ideal S16384x4 .f32) (x : FVec Ideal S4096x16384 .f32) (a b : IVec S16384 32)
    (ha : ∀ j, (a j).toNat < 16384) (hb : ∀ j, (b j).toNat < 16384) :
    RefRun.valK (F := Ideal) kk x a b = Cert.Spec.out kk x a b := by
  funext i
  obtain ⟨n, y, rfl⟩ : ∃ (n : Fin 4096) (y : Fin 16384), i = ix2 n y := ⟨i 0, i 1, eq_ix2 i⟩
  rw [Cert.Spec.out_apply]
  unfold RefRun.valK
  rw [addf_apply, addf_apply, addf_apply, mulf_apply, mulf_apply, mulf_apply, mulf_apply,
    rows_coef_apply 0 (by omega), rows_coef_apply 1 (by omega), rows_coef_apply 2 (by omega), rows_coef_apply 3 (by omega),
    cols_apply x a n y (ha _), cols_apply x b n y (hb _)]
  rfl

/-- The reference's result is the specification at the reference's own coefficient array. -/
theorem val_eq (x : FVec Ideal S4096x16384 .f32) (w : FVec Ideal S16384x16 .f32) (a b : IVec S16384 32)
    (ha : ∀ j, (a j).toNat < 16384) (hb : ∀ j, (b j).toNat < 16384) :
    Cert.ReferenceIdeal.RefRun.val (F := Ideal) x w a b
      = Cert.Spec.out (Cert.ReferenceIdeal.RefRun.kOf (F := Ideal) w) x a b :=
  valK_eq _ x a b ha hb

end Cert.ReferenceIdeal.RefRead

end
-- ==== Proof.Region0.lean ====
/-
  Region 0: the tiled transpose.

  The region walks an 8 × 32 grid. At grid point (i, j) it reads the 512 × 512 block (i, j) of the [4096, 16384]
  input array, transposes that block, and writes the result to block (j, i) of the [16384, 4096] output array. This
  module states what the body does to one pair of blocks, packages that as the region's proof data (the arrays as the
  region finds them, each window's buffer after the body at every point, an invariant that the body never touches),
  proves the body meets that description at every grid point, and concludes that after the last point the output array
  is the transpose of the input array as the region found it.
-/
import proofs.«418221_j52063593562999_1_alg».proof.Proof.Gen.KernelIdeal.Launch
import proofs.«418221_j52063593562999_1_alg».proof.Proof.Gen.KernelIdeal.Skeleton
import proofs.«418221_j52063593562999_1_alg».proof.Proof.Gen.KernelIdeal.Points
import Idealize.ShloMosaic.Lib.Pipeline.FrameBody
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.Region0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user resources: the machine's own, paired with the transfer counters that the other region's copies draw on.
    This region uses neither half. -/
abbrev UU : Type := UR sig nD τ × Counters

local notation "𝕄" => MT nD τ sig Unit (Elt F) ℕ UU ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose input array is the
    entry contents and whose body leaves the input block in place: the window is never idle and never cut, so a
    point that does not fetch has the same block index as the one before it. -/
theorem before0_0_of {c : Dev nD} (dat : Dat τ (Elt F) Unit ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes: the whole 512 × 512 buffer. -/
abbrev r0_0 : Rect S512x512 := Rect.unit (s := S512x512) ![0, 0] S512x512.size inb_S512x512_S512x512_0_0

/-! ## What the body leaves in the output window's buffer -/

/-- The output buffer after the body, from the input block: one store of the transposed block over the whole buffer. -/
def out0_1 (x0 : Vec F S512x512 .f32) : Vec F S512x512 .f32 :=
  View.canon [⟨r0_0, k0_pay1 (View.ld x0 r0_0)⟩]

/-- The store's rectangle is the whole buffer, so every index of the buffer lies in it. -/
theorem cover0_1 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-! ## The body's triple -/

set_option maxHeartbeats 1000000 in
/-- The body on whole staging buffers, the input's holding `x0` and the output's holding anything, runs to a state where
    the input's still holds `x0` and the output's holds `out0_1 x0`. It loads the input buffer, loads the output buffer
    (a value it never uses), and stores the transpose over the output buffer. -/
theorem sound_kernel0 (c : Dev nD) (E : Set ℕ) (i : grid0.Coords) (arg2 : Memref sig .tc .vmem S512x512 .f32) (harg2 : arg2.IsWhole) (arg3 : Memref sig .tc .vmem S512x512 .f32) (harg3 : arg3.IsWhole)
    (x0 : Vec F S512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The proof data of the region on core `c`: the arrays as the region finds them; after the body at point `t` the input
    buffer at its block and the output buffer at the transposed input block; the invariant is the scoped memory the
    body does not use and the generator register, both untouched; nothing owed; full shares. -/
def dat0 (c : Dev nD) : Dat τ (Elt F) Unit ℕ UU ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The value: what the region leaves in the output array -/

open Idealize.ShloMosaic.ValueIdx

theorem zero_off : (![0, 0] : Fin 2 → Nat) = fun _ => 0 := funext fun a => by fin_cases a <;> rfl

/-- The transpose of the input array as the region finds it: entry (r, s) of the [16384, 4096] array is entry (s, r)
    of the [4096, 16384] one. -/
def transposed (c : Dev nD) : S16384x4096.Idx → Elt F .f32 := fun i => V c main_arg0 (ix2 (i 1) (i 0))

/-- The stored block is the loaded block with its two coordinates exchanged. -/
theorem stored_block_apply (x0 : Vec F S512x512 .f32) (j : S512x512.Idx) : k0_pay1 x0 j = x0 (ix2 (j 1) (j 0)) := by
  unfold k0_pay1
  exact transpose_apply _ _ _ j _ (fun b => by fin_cases b <;> rfl)

/-- The two windows' block indices over the grid: point number `t` of the 8 × 32 grid is (t / 32, t mod 32); the input
    window is at block (t / 32, t mod 32) and the output window at block (t mod 32, t / 32). -/
theorem block_indices : ∀ t : Fin cfg0.N,
    win0_0.index t (0 : Fin 2) = t.val / 32 ∧ win0_0.index t (1 : Fin 2) = t.val % 32
    ∧ win0_1.index t (0 : Fin 2) = t.val % 32 ∧ win0_1.index t (1 : Fin 2) = t.val / 32 :=
  (by decide +kernel : ∀ t : Fin grid0.N, _)

/-- What point `t` writes back is block `t` of the transposed input array. -/
theorem flushed0_1_eq (c : Dev nD) (t : Fin cfg0.N) :
    (dat0 V c).flushed 1 t = ((cfg0.win 1).blk t).view.read (Elt F) (transposed V c) := by
  show (cfg0.win 1).cut (grid0.coords t) ((dat0 V c).after 1 t) = _
  rw [after0_1]
  unfold out0_1
  rw [View.canon_unit_zero zero_off]
  simp only [View.ld_unit_zero (S := S512x512) zero_off]
  obtain ⟨e0, e1, e2, e3⟩ := block_indices t
  funext j
  show k0_pay1 (iblk0 V c 0 t) j = transposed V c (((cfg0.win 1).blk t).view.emb j)
  refine (stored_block_apply _ j).trans ?_
  show V c main_arg0 (((cfg0.win 0).blk t).view.emb (ix2 (j 1) (j 0)))
      = V c main_arg0 (ix2 ((((cfg0.win 1).blk t).view.emb j) 1) ((((cfg0.win 1).blk t).view.emb j) 0))
  refine congrArg (V c main_arg0) ?_
  funext a; apply Fin.ext
  match a with
  | ⟨0, _⟩ => show win0_0.index t (0 : Fin 2) * 512 + 1 * (j 1).val = win0_1.index t (1 : Fin 2) * 512 + 1 * (j 1).val; omega
  | ⟨1, _⟩ => show win0_0.index t (1 : Fin 2) * 512 + 1 * (j 0).val = win0_1.index t (0 : Fin 2) * 512 + 1 * (j 0).val; omega

/-- An index of the output array is in point `t`'s block exactly when each coordinate is in the block's range on its axis. -/
theorem mem_out_block (t : Fin cfg0.N) (i : S16384x4096.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v12).slice (win0_1.rect t)).set ↔ _
  rw [View.set_slice_whole, Rect.mem_set_unit]
  exact Iff.rfl

/-- Every entry (r, s) of the output array is written back by some point: the one at grid position (s / 512, r / 512),
    whose output block is (r / 512, s / 512). -/
theorem out_blocks_cover (i : S16384x4096.Idx) : ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 256 := N_0
  have hlt : (i 1).val / 512 * 32 + (i 0).val / 512 < cfg0.N := by rw [hN]; omega
  obtain ⟨e0, e1, e2, e3⟩ := block_indices ⟨_, hlt⟩
  have e2' : win0_1.index ⟨_, hlt⟩ (0 : Fin 2) = ((i 1).val / 512 * 32 + (i 0).val / 512) % 32 := e2
  have e3' : win0_1.index ⟨_, hlt⟩ (1 : Fin 2) = ((i 1).val / 512 * 32 + (i 0).val / 512) / 32 := e3
  refine ⟨⟨_, hlt⟩, flush0_1 _, ?_⟩
  rw [mem_out_block]
  intro a
  match a with
  | ⟨0, _⟩ => show win0_1.index ⟨_, hlt⟩ (0 : Fin 2) * 512 ≤ (i 0).val ∧ (i 0).val < win0_1.index ⟨_, hlt⟩ (0 : Fin 2) * 512 + 512; omega
  | ⟨1, _⟩ => show win0_1.index ⟨_, hlt⟩ (1 : Fin 2) * 512 ≤ (i 1).val ∧ (i 1).val < win0_1.index ⟨_, hlt⟩ (1 : Fin 2) * 512 + 512; omega

/-- After the region, the output array is the transpose of the input array as the region found it. -/
theorem final0 (c : Dev nD) : (dat0 V c).arrAt 1 cfg0.N = fun i => V c main_arg0 (ix2 (i 1) (i 0)) :=
  (dat0 V c).arrAt_eq_of_cover 1 (transposed V c) (fun t _ => flushed0_1_eq V c t) out_blocks_cover

end Cert.KernelIdeal.Region0

end
-- ==== Proof.GatherBase.lean ====
/-
  The gather kernel's operands and the shapes its body's resources take. The kernel copies, for each of the 128 output
  columns of a grid point, one row of the transposed input into row r of a scratch buffer; so each scratch buffer is
  held row by row while the copies fly, the transposed array is held as one read share per semaphore cell (two copies
  may read the same row at once), and each of the 64 cells is held at zero between a copy's wait and the next start.
  `gath` is what a scratch buffer holds once its 128 copies have landed: row r is the row of the transposed array that
  the table's word at 128·i + r names.
-/
import proofs.«418221_j52063593562999_1_alg».proof.Proof.Gen.KernelIdeal.Skeleton
import proofs.«418221_j52063593562999_1_alg».proof.Proof.Spec
import Idealize.ShloMosaic.Lib.Tactic
import Idealize.ShloMosaic.Lib.Pipeline.Kit

noncomputable section

namespace Cert.KernelIdeal.Gather

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline cells' rounds beside the counters the copies' invariants draw on. -/
abbrev UU : Type := UR sig nD τ × Counters

local notation "𝕄" => MT nD τ sig Unit (Elt F) ℕ UU ℕ

/-- A memref's buffer on core `c`: its contents type, and the buffer held at share `q` with contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f

/-- The transposed array, the two index tables, the two scratch buffers. -/
abbrev XT : Memref sig .tc .hbm S16384x4096 .f32 := Memref.whole main_v12
abbrev TA : Memref sig .tc .smem S16384 .i32 := Memref.whole main_arg2
abbrev TB : Memref sig .tc .smem S16384 .i32 := Memref.whole main_arg3
abbrev SA : Memref sig .tc .vmem S128x4096 .f32 := Memref.whole cc1_scratch0
abbrev SB : Memref sig .tc .vmem S128x4096 .f32 := Memref.whole cc1_scratch1

/-- A row index below 16384 names a whole row of the transposed array. -/
theorem row_inb (w : BitVec 32) (h : w.toNat < 16384) :
    ∀ a : Fin 2, (![w.toNat, 0] : Fin 2 → Nat) a + S1x4096.size a ≤ S16384x4096.size a := by
  intro a; fin_cases a
  · show w.toNat + 1 ≤ 16384; omega
  · show 0 + 4096 ≤ 4096; omega

/-- Row `r` of a scratch buffer, as the body slices it. -/
abbrev rowM (S : Memref sig .tc .vmem S128x4096 .f32) (r : Nat) (h : ∀ a, (![r, 0] : Fin 2 → Nat) a + S1x4096.size a ≤ S128x4096.size a) : Memref sig .tc .vmem S4096 .f32 :=
  (S.slice (Rect.unit (s := S128x4096) ![r, 0] S1x4096.size h) (fun _ => rfl)).squeeze S4096 squeezes_S1x4096_S4096

/-- Row `w` of the transposed array, as the body slices it. -/
abbrev xrowM (w : BitVec 32) (h : ∀ a, (![w.toNat, 0] : Fin 2 → Nat) a + S1x4096.size a ≤ S16384x4096.size a) : Memref sig .tc .hbm S4096 .f32 :=
  (XT.slice (Rect.unit (s := S16384x4096) ![w.toNat, 0] S1x4096.size h) (fun _ => rfl)).squeeze S4096 squeezes_S1x4096_S4096

/-- Row `r` of scratch `S` held by exactly its own elements, the buffer's contents there `f`'s. -/
abbrev rowPt (c : Dev nD) (S : Memref sig .tc .vmem S128x4096 .f32) (r : Nat) (h : ∀ a, (![r, 0] : Fin 2 → Nat) a + S1x4096.size a ≤ S128x4096.size a)
    (f : Bf (F := F) c S) : sProp 𝕄 :=
  (rowM S r h).view.loc (c : Thread nD τ) ↦[(rowM S r h).view.set]{fullShare} (show Bf (F := F) c (rowM S r h) from f)

/-- The 128 rows of a scratch buffer, each held by its own elements at `f`'s contents. -/
abbrev rowsAt (c : Dev nD) (S : Memref sig .tc .vmem S128x4096 .f32) (f : Bf (F := F) c S) : sProp 𝕄 :=
  iprop(rowPt c S 0 (by decide) f ∗ rowPt c S 1 (by decide) f ∗ rowPt c S 2 (by decide) f ∗ rowPt c S 3 (by decide) f ∗ rowPt c S 4 (by decide) f ∗ rowPt c S 5 (by decide) f ∗ rowPt c S 6 (by decide) f ∗ rowPt c S 7 (by decide) f ∗ rowPt c S 8 (by decide) f ∗ rowPt c S 9 (by decide) f ∗ rowPt c S 10 (by decide) f ∗ rowPt c S 11 (by decide) f ∗ rowPt c S 12 (by decide) f ∗ rowPt c S 13 (by decide) f ∗ rowPt c S 14 (by decide) f ∗ rowPt c S 15 (by decide) f ∗ rowPt c S 16 (by decide) f ∗ rowPt c S 17 (by decide) f ∗ rowPt c S 18 (by decide) f ∗ rowPt c S 19 (by decide) f ∗ rowPt c S 20 (by decide) f ∗ rowPt c S 21 (by decide) f ∗ rowPt c S 22 (by decide) f ∗ rowPt c S 23 (by decide) f ∗ rowPt c S 24 (by decide) f ∗ rowPt c S 25 (by decide) f ∗ rowPt c S 26 (by decide) f ∗ rowPt c S 27 (by decide) f ∗ rowPt c S 28 (by decide) f ∗ rowPt c S 29 (by decide) f ∗ rowPt c S 30 (by decide) f ∗ rowPt c S 31 (by decide) f ∗ rowPt c S 32 (by decide) f ∗ rowPt c S 33 (by decide) f ∗ rowPt c S 34 (by decide) f ∗ rowPt c S 35 (by decide) f ∗ rowPt c S 36 (by decide) f ∗ rowPt c S 37 (by decide) f ∗ rowPt c S 38 (by decide) f ∗ rowPt c S 39 (by decide) f ∗ rowPt c S 40 (by decide) f ∗ rowPt c S 41 (by decide) f ∗ rowPt c S 42 (by decide) f ∗ rowPt c S 43 (by decide) f ∗ rowPt c S 44 (by decide) f ∗ rowPt c S 45 (by decide) f ∗ rowPt c S 46 (by decide) f ∗ rowPt c S 47 (by decide) f ∗ rowPt c S 48 (by decide) f ∗ rowPt c S 49 (by decide) f ∗ rowPt c S 50 (by decide) f ∗ rowPt c S 51 (by decide) f ∗ rowPt c S 52 (by decide) f ∗ rowPt c S 53 (by decide) f ∗ rowPt c S 54 (by decide) f ∗ rowPt c S 55 (by decide) f ∗ rowPt c S 56 (by decide) f ∗ rowPt c S 57 (by decide) f ∗ rowPt c S 58 (by decide) f ∗ rowPt c S 59 (by decide) f ∗ rowPt c S 60 (by decide) f ∗ rowPt c S 61 (by decide) f ∗ rowPt c S 62 (by decide) f ∗ rowPt c S 63 (by decide) f ∗ rowPt c S 64 (by decide) f ∗ rowPt c S 65 (by decide) f ∗ rowPt c S 66 (by decide) f ∗ rowPt c S 67 (by decide) f ∗ rowPt c S 68 (by decide) f ∗ rowPt c S 69 (by decide) f ∗ rowPt c S 70 (by decide) f ∗ rowPt c S 71 (by decide) f ∗ rowPt c S 72 (by decide) f ∗ rowPt c S 73 (by decide) f ∗ rowPt c S 74 (by decide) f ∗ rowPt c S 75 (by decide) f ∗ rowPt c S 76 (by decide) f ∗ rowPt c S 77 (by decide) f ∗ rowPt c S 78 (by decide) f ∗ rowPt c S 79 (by decide) f ∗ rowPt c S 80 (by decide) f ∗ rowPt c S 81 (by decide) f ∗ rowPt c S 82 (by decide) f ∗ rowPt c S 83 (by decide) f ∗ rowPt c S 84 (by decide) f ∗ rowPt c S 85 (by decide) f ∗ rowPt c S 86 (by decide) f ∗ rowPt c S 87 (by decide) f ∗ rowPt c S 88 (by decide) f ∗ rowPt c S 89 (by decide) f ∗ rowPt c S 90 (by decide) f ∗ rowPt c S 91 (by decide) f ∗ rowPt c S 92 (by decide) f ∗ rowPt c S 93 (by decide) f ∗ rowPt c S 94 (by decide) f ∗ rowPt c S 95 (by decide) f ∗ rowPt c S 96 (by decide) f ∗ rowPt c S 97 (by decide) f ∗ rowPt c S 98 (by decide) f ∗ rowPt c S 99 (by decide) f ∗ rowPt c S 100 (by decide) f ∗ rowPt c S 101 (by decide) f ∗ rowPt c S 102 (by decide) f ∗ rowPt c S 103 (by decide) f ∗ rowPt c S 104 (by decide) f ∗ rowPt c S 105 (by decide) f ∗ rowPt c S 106 (by decide) f ∗ rowPt c S 107 (by decide) f ∗ rowPt c S 108 (by decide) f ∗ rowPt c S 109 (by decide) f ∗ rowPt c S 110 (by decide) f ∗ rowPt c S 111 (by decide) f ∗ rowPt c S 112 (by decide) f ∗ rowPt c S 113 (by decide) f ∗ rowPt c S 114 (by decide) f ∗ rowPt c S 115 (by decide) f ∗ rowPt c S 116 (by decide) f ∗ rowPt c S 117 (by decide) f ∗ rowPt c S 118 (by decide) f ∗ rowPt c S 119 (by decide) f ∗ rowPt c S 120 (by decide) f ∗ rowPt c S 121 (by decide) f ∗ rowPt c S 122 (by decide) f ∗ rowPt c S 123 (by decide) f ∗ rowPt c S 124 (by decide) f ∗ rowPt c S 125 (by decide) f ∗ rowPt c S 126 (by decide) f ∗ rowPt c S 127 (by decide) f)

/-- What a scratch buffer holds once the point's 128 copies out of the transposed array `fx` have landed, the rows
    named by the table `ft`: row r is row `ft (128·i + r)` of `fx`. -/
def gath (i : grid1.Coords) (ft : S16384.Idx → BitVec 32) (fx : S16384x4096.Idx → Elt F .f32) : S128x4096.Idx → Elt F .f32 :=
  fun j => fx (ValueIdx.ix2 (Cert.Spec.col (ft (ValueIdx.ix1 (⟨(128 * (i 0).val + (j 0).val) % 16384, Nat.mod_lt _ (by decide)⟩ : Fin 16384)))) (j 1))

/-- The 64 semaphore cells of the kernel's own, each at zero. -/
abbrev sems0 (c : Dev nD) : sProp 𝕄 :=
  iprop(semVal ((c : Thread nD τ), SemLoc.dma (8 : DmaSem sig)) 0 ∗ semVal ((c : Thread nD τ), SemLoc.dma (9 : DmaSem sig)) 0 ∗ semVal ((c : Thread nD τ), SemLoc.dma (10 : DmaSem sig)) 0 ∗ semVal ((c : Thread nD τ), SemLoc.dma (11 : DmaSem sig)) 0 ∗ semVal ((c : Thread nD τ), SemLoc.dma (12 : DmaSem sig)) 0 ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0 ∗ semVal ((c : Thread nD τ), SemLoc.dma (17 : DmaSem sig)) 0 ∗ semVal ((c : Thread nD τ), SemLoc.dma (18 : DmaSem sig)) 0 ∗ semVal ((c : Thread nD τ), SemLoc.dma (19 : DmaSem sig)) 0 ∗ semVal ((c : Thread nD τ), SemLoc.dma (20 : DmaSem sig)) 0 ∗ semVal ((c : Thread nD τ), SemLoc.dma (21 : DmaSem sig)) 0 ∗ semVal ((c : Thread nD τ), SemLoc.dma (22 : DmaSem sig)) 0 ∗ semVal ((c : Thread nD τ), SemLoc.dma (23 : DmaSem sig)) 0 ∗ semVal ((c : Thread nD τ), SemLoc.dma (24 : DmaSem sig)) 0 ∗ semVal ((c : Thread nD τ), SemLoc.dma (25 : DmaSem sig)) 0 ∗ semVal ((c : Thread nD τ), SemLoc.dma (26 : DmaSem sig)) 0 ∗ semVal ((c : Thread nD τ), SemLoc.dma (27 : DmaSem sig)) 0 ∗ semVal ((c : Thread nD τ), SemLoc.dma (28 : DmaSem sig)) 0 ∗ semVal ((c : Thread nD τ), SemLoc.dma (29 : DmaSem sig)) 0 ∗ semVal ((c : Thread nD τ), SemLoc.dma (30 : DmaSem sig)) 0 ∗ semVal ((c : Thread nD τ), SemLoc.dma (31 : DmaSem sig)) 0 ∗ semVal ((c : Thread nD τ), SemLoc.dma (32 : DmaSem sig)) 0 ∗ semVal ((c : Thread nD τ), SemLoc.dma (33 : DmaSem sig)) 0 ∗ semVal ((c : Thread nD τ), SemLoc.dma (34 : DmaSem sig)) 0 ∗ semVal ((c : Thread nD τ), SemLoc.dma (35 : DmaSem sig)) 0 ∗ semVal ((c : Thread nD τ), SemLoc.dma (36 : DmaSem sig)) 0 ∗ semVal ((c : Thread nD τ), SemLoc.dma (37 : DmaSem sig)) 0 ∗ semVal ((c : Thread nD τ), SemLoc.dma (38 : DmaSem sig)) 0 ∗ semVal ((c : Thread nD τ), SemLoc.dma (39 : DmaSem sig)) 0 ∗ semVal ((c : Thread nD τ), SemLoc.dma (40 : DmaSem sig)) 0 ∗ semVal ((c : Thread nD τ), SemLoc.dma (41 : DmaSem sig)) 0 ∗ semVal ((c : Thread nD τ), SemLoc.dma (42 : DmaSem sig)) 0 ∗ semVal ((c : Thread nD τ), SemLoc.dma (43 : DmaSem sig)) 0 ∗ semVal ((c : Thread nD τ), SemLoc.dma (44 : DmaSem sig)) 0 ∗ semVal ((c : Thread nD τ), SemLoc.dma (45 : DmaSem sig)) 0 ∗ semVal ((c : Thread nD τ), SemLoc.dma (46 : DmaSem sig)) 0 ∗ semVal ((c : Thread nD τ), SemLoc.dma (47 : DmaSem sig)) 0 ∗ semVal ((c : Thread nD τ), SemLoc.dma (48 : DmaSem sig)) 0 ∗ semVal ((c : Thread nD τ), SemLoc.dma (49 : DmaSem sig)) 0 ∗ semVal ((c : Thread nD τ), SemLoc.dma (50 : DmaSem sig)) 0 ∗ semVal ((c : Thread nD τ), SemLoc.dma (51 : DmaSem sig)) 0 ∗ semVal ((c : Thread nD τ), SemLoc.dma (52 : DmaSem sig)) 0 ∗ semVal ((c : Thread nD τ), SemLoc.dma (53 : DmaSem sig)) 0 ∗ semVal ((c : Thread nD τ), SemLoc.dma (54 : DmaSem sig)) 0 ∗ semVal ((c : Thread nD τ), SemLoc.dma (55 : DmaSem sig)) 0 ∗ semVal ((c : Thread nD τ), SemLoc.dma (56 : DmaSem sig)) 0 ∗ semVal ((c : Thread nD τ), SemLoc.dma (57 : DmaSem sig)) 0 ∗ semVal ((c : Thread nD τ), SemLoc.dma (58 : DmaSem sig)) 0 ∗ semVal ((c : Thread nD τ), SemLoc.dma (59 : DmaSem sig)) 0 ∗ semVal ((c : Thread nD τ), SemLoc.dma (60 : DmaSem sig)) 0 ∗ semVal ((c : Thread nD τ), SemLoc.dma (61 : DmaSem sig)) 0 ∗ semVal ((c : Thread nD τ), SemLoc.dma (62 : DmaSem sig)) 0 ∗ semVal ((c : Thread nD τ), SemLoc.dma (63 : DmaSem sig)) 0 ∗ semVal ((c : Thread nD τ), SemLoc.dma (64 : DmaSem sig)) 0 ∗ semVal ((c : Thread nD τ), SemLoc.dma (65 : DmaSem sig)) 0 ∗ semVal ((c : Thread nD τ), SemLoc.dma (66 : DmaSem sig)) 0 ∗ semVal ((c : Thread nD τ), SemLoc.dma (67 : DmaSem sig)) 0 ∗ semVal ((c : Thread nD τ), SemLoc.dma (68 : DmaSem sig)) 0 ∗ semVal ((c : Thread nD τ), SemLoc.dma (69 : DmaSem sig)) 0 ∗ semVal ((c : Thread nD τ), SemLoc.dma (70 : DmaSem sig)) 0 ∗ semVal ((c : Thread nD τ), SemLoc.dma (71 : DmaSem sig)) 0)

/-- The transposed array as one read share per cell. -/
abbrev xtoks (c : Dev nD) (fx : Bf (F := F) c XT) : sProp 𝕄 :=
  iprop(pt c XT (Transfers.shareTokN fullShare 8) fx ∗ pt c XT (Transfers.shareTokN fullShare 9) fx ∗ pt c XT (Transfers.shareTokN fullShare 10) fx ∗ pt c XT (Transfers.shareTokN fullShare 11) fx ∗ pt c XT (Transfers.shareTokN fullShare 12) fx ∗ pt c XT (Transfers.shareTokN fullShare 13) fx ∗ pt c XT (Transfers.shareTokN fullShare 14) fx ∗ pt c XT (Transfers.shareTokN fullShare 15) fx ∗ pt c XT (Transfers.shareTokN fullShare 16) fx ∗ pt c XT (Transfers.shareTokN fullShare 17) fx ∗ pt c XT (Transfers.shareTokN fullShare 18) fx ∗ pt c XT (Transfers.shareTokN fullShare 19) fx ∗ pt c XT (Transfers.shareTokN fullShare 20) fx ∗ pt c XT (Transfers.shareTokN fullShare 21) fx ∗ pt c XT (Transfers.shareTokN fullShare 22) fx ∗ pt c XT (Transfers.shareTokN fullShare 23) fx ∗ pt c XT (Transfers.shareTokN fullShare 24) fx ∗ pt c XT (Transfers.shareTokN fullShare 25) fx ∗ pt c XT (Transfers.shareTokN fullShare 26) fx ∗ pt c XT (Transfers.shareTokN fullShare 27) fx ∗ pt c XT (Transfers.shareTokN fullShare 28) fx ∗ pt c XT (Transfers.shareTokN fullShare 29) fx ∗ pt c XT (Transfers.shareTokN fullShare 30) fx ∗ pt c XT (Transfers.shareTokN fullShare 31) fx ∗ pt c XT (Transfers.shareTokN fullShare 32) fx ∗ pt c XT (Transfers.shareTokN fullShare 33) fx ∗ pt c XT (Transfers.shareTokN fullShare 34) fx ∗ pt c XT (Transfers.shareTokN fullShare 35) fx ∗ pt c XT (Transfers.shareTokN fullShare 36) fx ∗ pt c XT (Transfers.shareTokN fullShare 37) fx ∗ pt c XT (Transfers.shareTokN fullShare 38) fx ∗ pt c XT (Transfers.shareTokN fullShare 39) fx ∗ pt c XT (Transfers.shareTokN fullShare 40) fx ∗ pt c XT (Transfers.shareTokN fullShare 41) fx ∗ pt c XT (Transfers.shareTokN fullShare 42) fx ∗ pt c XT (Transfers.shareTokN fullShare 43) fx ∗ pt c XT (Transfers.shareTokN fullShare 44) fx ∗ pt c XT (Transfers.shareTokN fullShare 45) fx ∗ pt c XT (Transfers.shareTokN fullShare 46) fx ∗ pt c XT (Transfers.shareTokN fullShare 47) fx ∗ pt c XT (Transfers.shareTokN fullShare 48) fx ∗ pt c XT (Transfers.shareTokN fullShare 49) fx ∗ pt c XT (Transfers.shareTokN fullShare 50) fx ∗ pt c XT (Transfers.shareTokN fullShare 51) fx ∗ pt c XT (Transfers.shareTokN fullShare 52) fx ∗ pt c XT (Transfers.shareTokN fullShare 53) fx ∗ pt c XT (Transfers.shareTokN fullShare 54) fx ∗ pt c XT (Transfers.shareTokN fullShare 55) fx ∗ pt c XT (Transfers.shareTokN fullShare 56) fx ∗ pt c XT (Transfers.shareTokN fullShare 57) fx ∗ pt c XT (Transfers.shareTokN fullShare 58) fx ∗ pt c XT (Transfers.shareTokN fullShare 59) fx ∗ pt c XT (Transfers.shareTokN fullShare 60) fx ∗ pt c XT (Transfers.shareTokN fullShare 61) fx ∗ pt c XT (Transfers.shareTokN fullShare 62) fx ∗ pt c XT (Transfers.shareTokN fullShare 63) fx ∗ pt c XT (Transfers.shareTokN fullShare 64) fx ∗ pt c XT (Transfers.shareTokN fullShare 65) fx ∗ pt c XT (Transfers.shareTokN fullShare 66) fx ∗ pt c XT (Transfers.shareTokN fullShare 67) fx ∗ pt c XT (Transfers.shareTokN fullShare 68) fx ∗ pt c XT (Transfers.shareTokN fullShare 69) fx ∗ pt c XT (Transfers.shareTokN fullShare 70) fx ∗ pt c XT (Transfers.shareTokN fullShare 71) fx)

/-- What the body leaves in the output block's staging buffer: the combination of the two gathered buffers with the
    coefficient block, transposed. -/
def outBlk (i : grid1.Coords) (fa fb : S16384.Idx → BitVec 32) (fx : S16384x4096.Idx → Elt F .f32) (kb : Vec F S128x4 .f32) : Vec F S4096x128 .f32 :=
  k1_pay1 (gath i fa fx) (gath i fb fx) kb

end Cert.KernelIdeal.Gather

end
-- ==== Proof.Rows.lean ====
/-
  Rows of the gather kernel's buffers. Each scratch buffer is a [128, 4096] array whose 128 rows are unit rectangles
  differing only in their offset along the first axis: they are pairwise disjoint and cover the buffer, so the buffer
  held whole is the same as its rows each held by its own elements. The word a copy reads off an index table sits at
  offset 128·i + r (no wrap-around: i, r < 128). A row filled whole by the copy of row w of the transposed array holds,
  at column z, that array's element (w, z), which is what the gathered contents name at (r, z).
-/
import proofs.«418221_j52063593562999_1_alg».proof.Proof.GatherBase
import Idealize.ShloMosaic.Lib.Ring
import Mathlib.Data.Fintype.Basic

noncomputable section

namespace Cert.KernelIdeal.Gather

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A scratch buffer as its 128 rows -/

theorem ent_of_eq {P Q : sProp 𝕄} (e : P = Q) : P ⊢ Q := e ▸ .rfl

/-- Row `b` lies inside the buffer. -/
theorem row_inb128 (b : Fin 128) : ∀ a, (![b.val, 0] : Fin 2 → Nat) a + S1x4096.size a ≤ S128x4096.size a := by
  intro a; fin_cases a
  · show b.val + 1 ≤ 128; omega
  · show 0 + 4096 ≤ 4096; omega

/-- A row's elements are the buffer's elements under the row's rectangle. -/
theorem rowM_set (S : Memref sig .tc .vmem S128x4096 .f32) (r : Nat)
    (h : ∀ a, (![r, 0] : Fin 2 → Nat) a + S1x4096.size a ≤ S128x4096.size a) :
    (rowM S r h).view.set = (Rect.unit (s := S128x4096) ![r, 0] S1x4096.size h).set.map S.view.emb :=
  (View.set_reshape (v := S.view.slice _) _).trans (View.set_slice S.view _)

/-- The elements of row `b`, among the buffer's. -/
abbrev rowSet (S : Memref sig .tc .vmem S128x4096 .f32) (b : Fin 128) : Finset S.view.ty.Idx :=
  (rowM S b.val (row_inb128 b)).view.set

/-- Two different rows share no element: their rectangles differ in the first coordinate. -/
theorem rows_disjoint (S : Memref sig .tc .vmem S128x4096 .f32) (b b' : Fin 128) (hne : b ≠ b') :
    Disjoint (rowSet S b) (rowSet S b') := by
  unfold rowSet
  rw [rowM_set, rowM_set]
  exact (Finset.disjoint_map _).mpr
    (Ring.lead_disjoint (s := S128x4096) (NB := 128) (0 : Fin 2) 1 (fun b => ![b.val, 0]) S1x4096.size row_inb128
      (fun b => by show b.val = 1 * b.val; omega) rfl b b' hne)

/-- The rows cover a whole buffer: every element has a first coordinate below 128. -/
theorem rows_cover (S : Memref sig .tc .vmem S128x4096 .f32) (hS : S.IsWhole) :
    Finset.univ.biUnion (rowSet S) = Finset.univ := by
  ext j
  simp only [Finset.mem_biUnion, Finset.mem_univ, true_and, iff_true]
  have hj : j ∈ S.view.set := hS.set_eq_univ ▸ Finset.mem_univ j
  obtain ⟨x, -, rfl⟩ := Finset.mem_map.mp hj
  have hc := Ring.lead_cover (s := S128x4096) (NB := 128) (0 : Fin 2) 1 (fun b => ![b.val, 0]) S1x4096.size row_inb128
      (fun b => by show b.val = 1 * b.val; omega)
      (fun b a ha => by fin_cases a; · exact absurd rfl ha
                        · rfl)
      rfl
      (fun a ha => by fin_cases a; · exact absurd rfl ha
                      · rfl)
      (by decide)
  have hx : x ∈ Finset.univ.biUnion (fun b : Fin 128 => (Rect.unit (s := S128x4096) ![b.val, 0] S1x4096.size (row_inb128 b)).set) := by
    rw [hc]; exact Finset.mem_univ x
  obtain ⟨b, -, hb⟩ := Finset.mem_biUnion.mp hx
  refine ⟨b, ?_⟩
  unfold rowSet
  rw [rowM_set]; exact Finset.mem_map_of_mem _ hb

/-- A whole scratch buffer held at `f` is its 128 rows, each held by its own elements at `f`. -/
theorem rows_eq (c : Dev nD) (S : Memref sig .tc .vmem S128x4096 .f32) (hS : S.IsWhole) (f : Bf (F := F) c S) :
    (pt c S fullShare f : sProp 𝕄) = rowsAt c S f := by
  have e1 := Ring.pointsTo_blocks (ℓ := S.view.loc (c : Thread nD τ)) (Ix := Unit) (Val := Elt F) (Name := ℕ) (U := UU) (Lvl := ℕ) (q := fullShare)
    (rowSet S) (rows_disjoint S) (rows_cover S hS) f
  have e2 := bigSep_univ_eq_bigSepL (List.finRange 128) (List.toFinset_finRange 128).symm (List.nodup_finRange 128)
    (fun b : Fin 128 => ((S.view.loc (c : Thread nD τ)) ↦[rowSet S b]{fullShare} f : sProp 𝕄))
  refine e1.trans (e2.trans ?_)
  rfl

/-- The buffer held whole gives its rows, -/
theorem rows_split (c : Dev nD) (S : Memref sig .tc .vmem S128x4096 .f32) (hS : S.IsWhole) (f : Bf (F := F) c S) :
    (pt c S fullShare f : sProp 𝕄) ⊢ rowsAt c S f :=
  ent_of_eq (rows_eq c S hS f)

/-- and the rows, all at one contents, give the buffer back whole. -/
theorem rows_join (c : Dev nD) (S : Memref sig .tc .vmem S128x4096 .f32) (hS : S.IsWhole) (f : Bf (F := F) c S) :
    (rowsAt c S f : sProp 𝕄) ⊢ pt c S fullShare f :=
  ent_of_eq (rows_eq c S hS f).symm

/-! ## The word a copy reads off its index table -/

/-- The offset the body computes for row `r` of grid point `i`, as a number: 128·i + r (nothing wraps, since
    i < 128 and r < 128). -/
theorem off_val (i : grid1.Coords) (r : Nat) (hr : r < 128) :
    (Scalar.indexCast (Scalar.addi (Scalar.muli (BitVec.ofNat 32 (i 0).val) 128#32) (BitVec.ofNat 32 r))).toNat = 128 * (i 0).val + r := by
  have hi : (i 0).val < 128 := (i 0).isLt
  generalize (i 0).val = n at hi ⊢
  unfold Scalar.indexCast Scalar.addi Scalar.muli IntOp.addi IntOp.muli
  simp only [BitVec.toNat_add, BitVec.toNat_mul, BitVec.toNat_ofNat]
  omega

/-- A one-word load from a table at that offset reads the table, through its view, at index 128·i + r. -/
theorem word_read (c : Dev nD) (T : Memref sig .tc .smem S16384 .i32) (i : grid1.Coords) (r : Nat) (hr : r < 128) (ft : Bf (F := F) c T) (off : Fin 1 → Nat)
    (hoff : off 0 = (Scalar.indexCast (Scalar.addi (Scalar.muli (BitVec.ofNat 32 (i 0).val) 128#32) (BitVec.ofNat 32 r))).toNat)
    (inb : ∀ a, off a + S1.size a ≤ S16384.size a) (h1 : 0 < S1.numel) :
    View.readAt (Elt F) T.view (Rect.unit (s := S16384) off S1.size inb).toLoadRect ft (Shape.Idx.first h1)
      = T.view.read (Elt F) ft (ValueIdx.ix1 (⟨(128 * (i 0).val + r) % 16384, Nat.mod_lt _ (by decide)⟩ : Fin 16384)) := by
  rw [View.readAt_apply]
  congr 1
  funext a
  apply Fin.ext
  fin_cases a
  show off 0 + 1 * 0 = (128 * (i 0).val + r) % 16384
  have hi : (i 0).val < 128 := (i 0).isLt
  rw [hoff, off_val i r hr]
  omega

/-- For the two tables of the kernel, each a whole buffer, the view reads the contents themselves. -/
theorem word_read_A (c : Dev nD) (i : grid1.Coords) (r : Nat) (hr : r < 128) (ft : Bf (F := F) c TA) (off : Fin 1 → Nat)
    (hoff : off 0 = (Scalar.indexCast (Scalar.addi (Scalar.muli (BitVec.ofNat 32 (i 0).val) 128#32) (BitVec.ofNat 32 r))).toNat)
    (inb : ∀ a, off a + S1.size a ≤ S16384.size a) (h1 : 0 < S1.numel) :
    View.readAt (Elt F) TA.view (Rect.unit (s := S16384) off S1.size inb).toLoadRect ft (Shape.Idx.first h1)
      = ft (ValueIdx.ix1 (⟨(128 * (i 0).val + r) % 16384, Nat.mod_lt _ (by decide)⟩ : Fin 16384)) :=
  word_read c TA i r hr ft off hoff inb h1

theorem word_read_B (c : Dev nD) (i : grid1.Coords) (r : Nat) (hr : r < 128) (ft : Bf (F := F) c TB) (off : Fin 1 → Nat)
    (hoff : off 0 = (Scalar.indexCast (Scalar.addi (Scalar.muli (BitVec.ofNat 32 (i 0).val) 128#32) (BitVec.ofNat 32 r))).toNat)
    (inb : ∀ a, off a + S1.size a ≤ S16384.size a) (h1 : 0 < S1.numel) :
    View.readAt (Elt F) TB.view (Rect.unit (s := S16384) off S1.size inb).toLoadRect ft (Shape.Idx.first h1)
      = ft (ValueIdx.ix1 (⟨(128 * (i 0).val + r) % 16384, Nat.mod_lt _ (by decide)⟩ : Fin 16384)) :=
  word_read c TB i r hr ft off hoff inb h1

/-! ## A row once its copy has landed -/

/-- Where column `z` of the row cut out at offset `k` sits in an [N, 4096] array: at (k, z). -/
theorem unit_row_emb {N : Nat} (k : Nat) (hk : k < N)
    (inb : ∀ a, (![k, 0] : Fin 2 → Nat) a + S1x4096.size a ≤ (⟨2, ![N, 4096]⟩ : Shape).size a) (z : S4096.Idx) :
    (Rect.unit (s := ⟨2, ![N, 4096]⟩) ![k, 0] S1x4096.size inb).emb (Shape.reshapeEquiv squeezes_S1x4096_S4096.numel_eq z)
      = ValueIdx.ix2 (⟨k, hk⟩ : Fin N) (z 0) := by
  rw [Shape.reshapeEquiv_cons_one]
  funext a
  apply Fin.ext
  rw [Rect.emb_apply]
  fin_cases a
  · show k + 1 * 0 = k
    omega
  · show 0 + 1 * (z 0).val = (z 0).val
    omega

/-- A row filled whole by a payload `p` is the row held at any contents `g` of the scratch buffer that read `p`
    through the row: what the row held before does not matter on the row's own elements. -/
theorem row_settle_core (c : Dev nD) (S : Memref sig .tc .vmem S128x4096 .f32) (r : Nat)
    (h : ∀ a, (![r, 0] : Fin 2 → Nat) a + S1x4096.size a ≤ S128x4096.size a)
    (f0 : Bf (F := F) c (rowM S r h)) (p : S4096.Idx → Elt F .f32) (g : Bf (F := F) c S)
    (hg : ∀ z : S4096.Idx, (rowM S r h).view.read (Elt F) (show Bf (F := F) c (rowM S r h) from g) z = p z) :
    ((rowM S r h).view.loc (c : Thread nD τ) ↦[(rowM S r h).view.set]{fullShare} (rowM S r h).view.writes (Elt F) f0 [⟨Rect.whole S4096, p⟩] : sProp 𝕄)
      ⊢ rowPt c S r h g := by
  refine ent_of_eq (pointsTo_congr fun j hj => ?_)
  obtain ⟨z, -, rfl⟩ := Finset.mem_map.mp hj
  rw [← View.write_univ_eq_writes_whole, View.writes_nil, View.write_emb_of_mem _ _ (Finset.mem_univ _), ← hg z,
    View.read_apply, cast_cast, cast_eq]

/-- Row `r` of the first scratch buffer, filled by the copy of row `w` of the transposed array, holds the gathered
    contents: column z of the payload is the array at (w, z), and `w` is the table's word at 128·i + r, a column
    number below 16384, so that is what `gath` names at (r, z). -/
theorem row_settle_A (c : Dev nD) (i : grid1.Coords) (r : Nat) (hr : r < 128)
    (h : ∀ a, (![r, 0] : Fin 2 → Nat) a + S1x4096.size a ≤ S128x4096.size a)
    (f0 : Bf (F := F) c (rowM SA r h)) (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ((rowM SA r h).view.loc (c : Thread nD τ) ↦[(rowM SA r h).view.set]{fullShare} (rowM SA r h).view.writes (Elt F) f0 [⟨Rect.whole S4096, ReadAs.same.apply (View.read (Elt F) (xrowM w hw).view fx)⟩] : sProp 𝕄)
      ⊢ rowPt c SA r h (gath i ft fx) := by
  refine row_settle_core c SA r h f0 _ (gath i ft fx) fun z => ?_
  rw [View.read_apply]
  have e1 : (rowM SA r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

/-- The same for the second scratch buffer. -/
theorem row_settle_B (c : Dev nD) (i : grid1.Coords) (r : Nat) (hr : r < 128)
    (h : ∀ a, (![r, 0] : Fin 2 → Nat) a + S1x4096.size a ≤ S128x4096.size a)
    (f0 : Bf (F := F) c (rowM SB r h)) (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ((rowM SB r h).view.loc (c : Thread nD τ) ↦[(rowM SB r h).view.set]{fullShare} (rowM SB r h).view.writes (Elt F) f0 [⟨Rect.whole S4096, ReadAs.same.apply (View.read (Elt F) (xrowM w hw).view fx)⟩] : sProp 𝕄)
      ⊢ rowPt c SB r h (gath i ft fx) := by
  refine row_settle_core c SB r h f0 _ (gath i ft fx) fun z => ?_
  rw [View.read_apply]
  have e1 : (rowM SB r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

/-! ## The same pointwise: the gathered contents read through a row are the copy's payload -/

/-- Through row `r` of the first scratch buffer, the gathered contents at column z are the transposed array at (w, z):
    the payload of the copy of its row `w`. -/
theorem row_point_A (c : Dev nD) (i : grid1.Coords) (r : Nat) (hr : r < 128)
    (h : ∀ a, (![r, 0] : Fin 2 → Nat) a + S1x4096.size a ≤ S128x4096.size a)
    (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ∀ z : S4096.Idx, (rowM SA r h).view.read (Elt F) (show Bf (F := F) c (rowM SA r h) from gath i ft fx) z
      = ReadAs.same.apply (View.read (Elt F) (xrowM w hw).view fx) z := by
  intro z
  rw [View.read_apply]
  have e1 : (rowM SA r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

/-- The same through row `r` of the second scratch buffer. -/
theorem row_point_B (c : Dev nD) (i : grid1.Coords) (r : Nat) (hr : r < 128)
    (h : ∀ a, (![r, 0] : Fin 2 → Nat) a + S1x4096.size a ≤ S128x4096.size a)
    (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ∀ z : S4096.Idx, (rowM SB r h).view.read (Elt F) (show Bf (F := F) c (rowM SB r h) from gath i ft fx) z
      = ReadAs.same.apply (View.read (Elt F) (xrowM w hw).view fx) z := by
  intro z
  rw [View.read_apply]
  have e1 : (rowM SB r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

end Cert.KernelIdeal.Gather

end
-- ==== Proof.Body1.lean ====
/-
  The gather kernel's body, run once at symbolic operands: for each of the 128 rows of the point it reads the two
  row indices off the SMEM tables, checks them against the 16384 rows of the transposed array (the range the
  precondition gives), copies row a[r] of that array into row r of the first scratch and row b[r] into row r of the
  second, 32 rows at a time, each copy on a semaphore cell of its own and waited for before the next 32 start; then
  it loads the two scratch buffers and the coefficient block, combines them and stores the transposed result.
  While the copies fly each scratch buffer is held row by row (a copy takes its own row), the transposed array as one
  read share per semaphore cell (two copies may read one row), each cell at zero between a wait and the next start;
  once all have landed every row is rewritten to the gathered contents (`gath`) and the rows are joined to the buffer.
-/
import proofs.«418221_j52063593562999_1_alg».proof.Proof.Rows
import Idealize.ShloMosaic.Lib.Pipeline.FrameBody
import Idealize.ShloMosaic.Lib.Pipeline.Value

noncomputable section

namespace Cert.KernelIdeal.Gather

open Cert.KernelIdeal Cert.KernelIdeal.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The store's offset, the origin. -/
theorem zero_off2 : (![0, 0] : Fin 2 → Nat) = fun _ => 0 := funext fun a => by fin_cases a <;> rfl

set_option maxHeartbeats 16000000 in
/-- From the two tables (every word below 16384), the transposed array as its 64 read shares, the coefficient block's
    staging buffer at `kb`, the output block's at anything, the two scratch buffers at anything, the 64 cells at zero
    and the core owing nothing: the body runs to its return with the tables, the array and the coefficient block as
    they were, the output block's buffer at `outBlk`, the scratch buffers at something, the cells at zero. -/
theorem kernelRun (c : Dev nD) (i : grid1.Coords)
    (M4 : Memref sig .tc .vmem S128x4 .f32) (h4 : M4.IsWhole) (M5 : Memref sig .tc .vmem S4096x128 .f32) (h5 : M5.IsWhole)
    (fa : Bf (F := F) c TA) (fb : Bf (F := F) c TB) (fx : Bf (F := F) c XT) (kb : Vec F S128x4 .f32)
    (ha : ∀ j, (fa j).toNat < 16384) (hb : ∀ j, (fb j).toNat < 16384)
    (qa qb : PosShare TreeShare) (f6 : Bf (F := F) c SA) (f7 : Bf (F := F) c SB) (W0 : Waits sig Unit) (Q : PUnit → sProp 𝕄) :
    iprop(pt c TA qa fa ∗ pt c TB qb fb ∗ xtoks c fx ∗ owns (c : Thread nD τ) M4 fullShare kb
        ∗ (∃ d, owns (c : Thread nD τ) M5 fullShare d)
        ∗ pt c SA fullShare f6 ∗ pt c SB fullShare f7 ∗ sems0 c ∗ owes (c : Thread nD τ) 0 W0
        ∗ (iprop(pt c TA qa fa ∗ pt c TB qb fb ∗ xtoks c fx ∗ owns (c : Thread nD τ) M4 fullShare kb
              ∗ owns (c : Thread nD τ) M5 fullShare (outBlk i fa fb fx kb)
              ∗ (∃ f, pt c SA fullShare f) ∗ (∃ f, pt c SB fullShare f) ∗ sems0 c ∗ ∃ W', owes (c : Thread nD τ) 0 W') -∗ Q ⟨⟩))
      ⊢ wp frame (wpE (defs₀ (F := F)) Variants.none c none) Set.univ
          (cc1__gather_kernel i TA (Memref.isWhole_whole _) TB (Memref.isWhole_whole _) XT (Memref.isWhole_whole _) M4 h4 M5 h5
            SA (Memref.isWhole_whole _) SB (Memref.isWhole_whole _) cc1_scratch2 cc1_scratch3) Q := by
  unfold owns
  iintro ⟨HTA, HTB, ⟨HX8, HX9, HX10, HX11, HX12, HX13, HX14, HX15, HX16, HX17, HX18, HX19, HX20, HX21, HX22, HX23, HX24, HX25, HX26, HX27, HX28, HX29, HX30, HX31, HX32, HX33, HX34, HX35, HX36, HX37, HX38, HX39, HX40, HX41, HX42, HX43, HX44, HX45, HX46, HX47, HX48, HX49, HX50, HX51, HX52, HX53, HX54, HX55, HX56, HX57, HX58, HX59, HX60, HX61, HX62, HX63, HX64, HX65, HX66, HX67, HX68, HX69, HX70, HX71⟩, ⟨%f4, %hf4, H4⟩, ⟨%d5, %f5, -, H5⟩, H6, H7, ⟨Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hd35, Hd36, Hd37, Hd38, Hd39, Hd40, Hd41, Hd42, Hd43, Hd44, Hd45, Hd46, Hd47, Hd48, Hd49, Hd50, Hd51, Hd52, Hd53, Hd54, Hd55, Hd56, Hd57, Hd58, Hd59, Hd60, Hd61, Hd62, Hd63, Hd64, Hd65, Hd66, Hd67, Hd68, Hd69, Hd70, Hd71⟩, HO, Hk⟩
  subst hf4
  -- each scratch buffer row by row: a copy takes its own row and leaves the others
  ihave HA := (rows_split c SA (Memref.isWhole_whole _) f6) $$ H6
  icases HA with ⟨HA0, HA1, HA2, HA3, HA4, HA5, HA6, HA7, HA8, HA9, HA10, HA11, HA12, HA13, HA14, HA15, HA16, HA17, HA18, HA19, HA20, HA21, HA22, HA23, HA24, HA25, HA26, HA27, HA28, HA29, HA30, HA31, HA32, HA33, HA34, HA35, HA36, HA37, HA38, HA39, HA40, HA41, HA42, HA43, HA44, HA45, HA46, HA47, HA48, HA49, HA50, HA51, HA52, HA53, HA54, HA55, HA56, HA57, HA58, HA59, HA60, HA61, HA62, HA63, HA64, HA65, HA66, HA67, HA68, HA69, HA70, HA71, HA72, HA73, HA74, HA75, HA76, HA77, HA78, HA79, HA80, HA81, HA82, HA83, HA84, HA85, HA86, HA87, HA88, HA89, HA90, HA91, HA92, HA93, HA94, HA95, HA96, HA97, HA98, HA99, HA100, HA101, HA102, HA103, HA104, HA105, HA106, HA107, HA108, HA109, HA110, HA111, HA112, HA113, HA114, HA115, HA116, HA117, HA118, HA119, HA120, HA121, HA122, HA123, HA124, HA125, HA126, HA127⟩
  ihave HB := (rows_split c SB (Memref.isWhole_whole _) f7) $$ H7
  icases HB with ⟨HB0, HB1, HB2, HB3, HB4, HB5, HB6, HB7, HB8, HB9, HB10, HB11, HB12, HB13, HB14, HB15, HB16, HB17, HB18, HB19, HB20, HB21, HB22, HB23, HB24, HB25, HB26, HB27, HB28, HB29, HB30, HB31, HB32, HB33, HB34, HB35, HB36, HB37, HB38, HB39, HB40, HB41, HB42, HB43, HB44, HB45, HB46, HB47, HB48, HB49, HB50, HB51, HB52, HB53, HB54, HB55, HB56, HB57, HB58, HB59, HB60, HB61, HB62, HB63, HB64, HB65, HB66, HB67, HB68, HB69, HB70, HB71, HB72, HB73, HB74, HB75, HB76, HB77, HB78, HB79, HB80, HB81, HB82, HB83, HB84, HB85, HB86, HB87, HB88, HB89, HB90, HB91, HB92, HB93, HB94, HB95, HB96, HB97, HB98, HB99, HB100, HB101, HB102, HB103, HB104, HB105, HB106, HB107, HB108, HB109, HB110, HB111, HB112, HB113, HB114, HB115, HB116, HB117, HB118, HB119, HB120, HB121, HB122, HB123, HB124, HB125, HB126, HB127⟩
  -- the 256 table reads and range checks, the 256 copies and their waits
  sl_exec_parts! (disch := first | exact row_inb _ (ha _) | exact row_inb _ (hb _))
  -- every row has landed: row r of the first scratch is the row of the transposed array that a[128·i + r] names
  ihave HA0 := (row_settle_core c SA 0 _ _ _ (gath i fa fx) (by exact row_point_A c i 0 (by decide) _ fa fx _ _ (word_read_A c i 0 (by decide) fa (k1_off1 i) rfl _ _) (ha _))) $$ HA0
  ihave HA1 := (row_settle_core c SA 1 _ _ _ (gath i fa fx) (by exact row_point_A c i 1 (by decide) _ fa fx _ _ (word_read_A c i 1 (by decide) fa (k1_off4 i) rfl _ _) (ha _))) $$ HA1
  ihave HA2 := (row_settle_core c SA 2 _ _ _ (gath i fa fx) (by exact row_point_A c i 2 (by decide) _ fa fx _ _ (word_read_A c i 2 (by decide) fa (k1_off7 i) rfl _ _) (ha _))) $$ HA2
  ihave HA3 := (row_settle_core c SA 3 _ _ _ (gath i fa fx) (by exact row_point_A c i 3 (by decide) _ fa fx _ _ (word_read_A c i 3 (by decide) fa (k1_off10 i) rfl _ _) (ha _))) $$ HA3
  ihave HA4 := (row_settle_core c SA 4 _ _ _ (gath i fa fx) (by exact row_point_A c i 4 (by decide) _ fa fx _ _ (word_read_A c i 4 (by decide) fa (k1_off13 i) rfl _ _) (ha _))) $$ HA4
  ihave HA5 := (row_settle_core c SA 5 _ _ _ (gath i fa fx) (by exact row_point_A c i 5 (by decide) _ fa fx _ _ (word_read_A c i 5 (by decide) fa (k1_off16 i) rfl _ _) (ha _))) $$ HA5
  ihave HA6 := (row_settle_core c SA 6 _ _ _ (gath i fa fx) (by exact row_point_A c i 6 (by decide) _ fa fx _ _ (word_read_A c i 6 (by decide) fa (k1_off19 i) rfl _ _) (ha _))) $$ HA6
  ihave HA7 := (row_settle_core c SA 7 _ _ _ (gath i fa fx) (by exact row_point_A c i 7 (by decide) _ fa fx _ _ (word_read_A c i 7 (by decide) fa (k1_off22 i) rfl _ _) (ha _))) $$ HA7
  ihave HA8 := (row_settle_core c SA 8 _ _ _ (gath i fa fx) (by exact row_point_A c i 8 (by decide) _ fa fx _ _ (word_read_A c i 8 (by decide) fa (k1_off25 i) rfl _ _) (ha _))) $$ HA8
  ihave HA9 := (row_settle_core c SA 9 _ _ _ (gath i fa fx) (by exact row_point_A c i 9 (by decide) _ fa fx _ _ (word_read_A c i 9 (by decide) fa (k1_off28 i) rfl _ _) (ha _))) $$ HA9
  ihave HA10 := (row_settle_core c SA 10 _ _ _ (gath i fa fx) (by exact row_point_A c i 10 (by decide) _ fa fx _ _ (word_read_A c i 10 (by decide) fa (k1_off31 i) rfl _ _) (ha _))) $$ HA10
  ihave HA11 := (row_settle_core c SA 11 _ _ _ (gath i fa fx) (by exact row_point_A c i 11 (by decide) _ fa fx _ _ (word_read_A c i 11 (by decide) fa (k1_off34 i) rfl _ _) (ha _))) $$ HA11
  ihave HA12 := (row_settle_core c SA 12 _ _ _ (gath i fa fx) (by exact row_point_A c i 12 (by decide) _ fa fx _ _ (word_read_A c i 12 (by decide) fa (k1_off37 i) rfl _ _) (ha _))) $$ HA12
  ihave HA13 := (row_settle_core c SA 13 _ _ _ (gath i fa fx) (by exact row_point_A c i 13 (by decide) _ fa fx _ _ (word_read_A c i 13 (by decide) fa (k1_off40 i) rfl _ _) (ha _))) $$ HA13
  ihave HA14 := (row_settle_core c SA 14 _ _ _ (gath i fa fx) (by exact row_point_A c i 14 (by decide) _ fa fx _ _ (word_read_A c i 14 (by decide) fa (k1_off43 i) rfl _ _) (ha _))) $$ HA14
  ihave HA15 := (row_settle_core c SA 15 _ _ _ (gath i fa fx) (by exact row_point_A c i 15 (by decide) _ fa fx _ _ (word_read_A c i 15 (by decide) fa (k1_off46 i) rfl _ _) (ha _))) $$ HA15
  ihave HA16 := (row_settle_core c SA 16 _ _ _ (gath i fa fx) (by exact row_point_A c i 16 (by decide) _ fa fx _ _ (word_read_A c i 16 (by decide) fa (k1_off49 i) rfl _ _) (ha _))) $$ HA16
  ihave HA17 := (row_settle_core c SA 17 _ _ _ (gath i fa fx) (by exact row_point_A c i 17 (by decide) _ fa fx _ _ (word_read_A c i 17 (by decide) fa (k1_off52 i) rfl _ _) (ha _))) $$ HA17
  ihave HA18 := (row_settle_core c SA 18 _ _ _ (gath i fa fx) (by exact row_point_A c i 18 (by decide) _ fa fx _ _ (word_read_A c i 18 (by decide) fa (k1_off55 i) rfl _ _) (ha _))) $$ HA18
  ihave HA19 := (row_settle_core c SA 19 _ _ _ (gath i fa fx) (by exact row_point_A c i 19 (by decide) _ fa fx _ _ (word_read_A c i 19 (by decide) fa (k1_off58 i) rfl _ _) (ha _))) $$ HA19
  ihave HA20 := (row_settle_core c SA 20 _ _ _ (gath i fa fx) (by exact row_point_A c i 20 (by decide) _ fa fx _ _ (word_read_A c i 20 (by decide) fa (k1_off61 i) rfl _ _) (ha _))) $$ HA20
  ihave HA21 := (row_settle_core c SA 21 _ _ _ (gath i fa fx) (by exact row_point_A c i 21 (by decide) _ fa fx _ _ (word_read_A c i 21 (by decide) fa (k1_off64 i) rfl _ _) (ha _))) $$ HA21
  ihave HA22 := (row_settle_core c SA 22 _ _ _ (gath i fa fx) (by exact row_point_A c i 22 (by decide) _ fa fx _ _ (word_read_A c i 22 (by decide) fa (k1_off67 i) rfl _ _) (ha _))) $$ HA22
  ihave HA23 := (row_settle_core c SA 23 _ _ _ (gath i fa fx) (by exact row_point_A c i 23 (by decide) _ fa fx _ _ (word_read_A c i 23 (by decide) fa (k1_off70 i) rfl _ _) (ha _))) $$ HA23
  ihave HA24 := (row_settle_core c SA 24 _ _ _ (gath i fa fx) (by exact row_point_A c i 24 (by decide) _ fa fx _ _ (word_read_A c i 24 (by decide) fa (k1_off73 i) rfl _ _) (ha _))) $$ HA24
  ihave HA25 := (row_settle_core c SA 25 _ _ _ (gath i fa fx) (by exact row_point_A c i 25 (by decide) _ fa fx _ _ (word_read_A c i 25 (by decide) fa (k1_off76 i) rfl _ _) (ha _))) $$ HA25
  ihave HA26 := (row_settle_core c SA 26 _ _ _ (gath i fa fx) (by exact row_point_A c i 26 (by decide) _ fa fx _ _ (word_read_A c i 26 (by decide) fa (k1_off79 i) rfl _ _) (ha _))) $$ HA26
  ihave HA27 := (row_settle_core c SA 27 _ _ _ (gath i fa fx) (by exact row_point_A c i 27 (by decide) _ fa fx _ _ (word_read_A c i 27 (by decide) fa (k1_off82 i) rfl _ _) (ha _))) $$ HA27
  ihave HA28 := (row_settle_core c SA 28 _ _ _ (gath i fa fx) (by exact row_point_A c i 28 (by decide) _ fa fx _ _ (word_read_A c i 28 (by decide) fa (k1_off85 i) rfl _ _) (ha _))) $$ HA28
  ihave HA29 := (row_settle_core c SA 29 _ _ _ (gath i fa fx) (by exact row_point_A c i 29 (by decide) _ fa fx _ _ (word_read_A c i 29 (by decide) fa (k1_off88 i) rfl _ _) (ha _))) $$ HA29
  ihave HA30 := (row_settle_core c SA 30 _ _ _ (gath i fa fx) (by exact row_point_A c i 30 (by decide) _ fa fx _ _ (word_read_A c i 30 (by decide) fa (k1_off91 i) rfl _ _) (ha _))) $$ HA30
  ihave HA31 := (row_settle_core c SA 31 _ _ _ (gath i fa fx) (by exact row_point_A c i 31 (by decide) _ fa fx _ _ (word_read_A c i 31 (by decide) fa (k1_off94 i) rfl _ _) (ha _))) $$ HA31
  ihave HA32 := (row_settle_core c SA 32 _ _ _ (gath i fa fx) (by exact row_point_A c i 32 (by decide) _ fa fx _ _ (word_read_A c i 32 (by decide) fa (k1_off97 i) rfl _ _) (ha _))) $$ HA32
  ihave HA33 := (row_settle_core c SA 33 _ _ _ (gath i fa fx) (by exact row_point_A c i 33 (by decide) _ fa fx _ _ (word_read_A c i 33 (by decide) fa (k1_off100 i) rfl _ _) (ha _))) $$ HA33
  ihave HA34 := (row_settle_core c SA 34 _ _ _ (gath i fa fx) (by exact row_point_A c i 34 (by decide) _ fa fx _ _ (word_read_A c i 34 (by decide) fa (k1_off103 i) rfl _ _) (ha _))) $$ HA34
  ihave HA35 := (row_settle_core c SA 35 _ _ _ (gath i fa fx) (by exact row_point_A c i 35 (by decide) _ fa fx _ _ (word_read_A c i 35 (by decide) fa (k1_off106 i) rfl _ _) (ha _))) $$ HA35
  ihave HA36 := (row_settle_core c SA 36 _ _ _ (gath i fa fx) (by exact row_point_A c i 36 (by decide) _ fa fx _ _ (word_read_A c i 36 (by decide) fa (k1_off109 i) rfl _ _) (ha _))) $$ HA36
  ihave HA37 := (row_settle_core c SA 37 _ _ _ (gath i fa fx) (by exact row_point_A c i 37 (by decide) _ fa fx _ _ (word_read_A c i 37 (by decide) fa (k1_off112 i) rfl _ _) (ha _))) $$ HA37
  ihave HA38 := (row_settle_core c SA 38 _ _ _ (gath i fa fx) (by exact row_point_A c i 38 (by decide) _ fa fx _ _ (word_read_A c i 38 (by decide) fa (k1_off115 i) rfl _ _) (ha _))) $$ HA38
  ihave HA39 := (row_settle_core c SA 39 _ _ _ (gath i fa fx) (by exact row_point_A c i 39 (by decide) _ fa fx _ _ (word_read_A c i 39 (by decide) fa (k1_off118 i) rfl _ _) (ha _))) $$ HA39
  ihave HA40 := (row_settle_core c SA 40 _ _ _ (gath i fa fx) (by exact row_point_A c i 40 (by decide) _ fa fx _ _ (word_read_A c i 40 (by decide) fa (k1_off121 i) rfl _ _) (ha _))) $$ HA40
  ihave HA41 := (row_settle_core c SA 41 _ _ _ (gath i fa fx) (by exact row_point_A c i 41 (by decide) _ fa fx _ _ (word_read_A c i 41 (by decide) fa (k1_off124 i) rfl _ _) (ha _))) $$ HA41
  ihave HA42 := (row_settle_core c SA 42 _ _ _ (gath i fa fx) (by exact row_point_A c i 42 (by decide) _ fa fx _ _ (word_read_A c i 42 (by decide) fa (k1_off127 i) rfl _ _) (ha _))) $$ HA42
  ihave HA43 := (row_settle_core c SA 43 _ _ _ (gath i fa fx) (by exact row_point_A c i 43 (by decide) _ fa fx _ _ (word_read_A c i 43 (by decide) fa (k1_off130 i) rfl _ _) (ha _))) $$ HA43
  ihave HA44 := (row_settle_core c SA 44 _ _ _ (gath i fa fx) (by exact row_point_A c i 44 (by decide) _ fa fx _ _ (word_read_A c i 44 (by decide) fa (k1_off133 i) rfl _ _) (ha _))) $$ HA44
  ihave HA45 := (row_settle_core c SA 45 _ _ _ (gath i fa fx) (by exact row_point_A c i 45 (by decide) _ fa fx _ _ (word_read_A c i 45 (by decide) fa (k1_off136 i) rfl _ _) (ha _))) $$ HA45
  ihave HA46 := (row_settle_core c SA 46 _ _ _ (gath i fa fx) (by exact row_point_A c i 46 (by decide) _ fa fx _ _ (word_read_A c i 46 (by decide) fa (k1_off139 i) rfl _ _) (ha _))) $$ HA46
  ihave HA47 := (row_settle_core c SA 47 _ _ _ (gath i fa fx) (by exact row_point_A c i 47 (by decide) _ fa fx _ _ (word_read_A c i 47 (by decide) fa (k1_off142 i) rfl _ _) (ha _))) $$ HA47
  ihave HA48 := (row_settle_core c SA 48 _ _ _ (gath i fa fx) (by exact row_point_A c i 48 (by decide) _ fa fx _ _ (word_read_A c i 48 (by decide) fa (k1_off145 i) rfl _ _) (ha _))) $$ HA48
  ihave HA49 := (row_settle_core c SA 49 _ _ _ (gath i fa fx) (by exact row_point_A c i 49 (by decide) _ fa fx _ _ (word_read_A c i 49 (by decide) fa (k1_off148 i) rfl _ _) (ha _))) $$ HA49
  ihave HA50 := (row_settle_core c SA 50 _ _ _ (gath i fa fx) (by exact row_point_A c i 50 (by decide) _ fa fx _ _ (word_read_A c i 50 (by decide) fa (k1_off151 i) rfl _ _) (ha _))) $$ HA50
  ihave HA51 := (row_settle_core c SA 51 _ _ _ (gath i fa fx) (by exact row_point_A c i 51 (by decide) _ fa fx _ _ (word_read_A c i 51 (by decide) fa (k1_off154 i) rfl _ _) (ha _))) $$ HA51
  ihave HA52 := (row_settle_core c SA 52 _ _ _ (gath i fa fx) (by exact row_point_A c i 52 (by decide) _ fa fx _ _ (word_read_A c i 52 (by decide) fa (k1_off157 i) rfl _ _) (ha _))) $$ HA52
  ihave HA53 := (row_settle_core c SA 53 _ _ _ (gath i fa fx) (by exact row_point_A c i 53 (by decide) _ fa fx _ _ (word_read_A c i 53 (by decide) fa (k1_off160 i) rfl _ _) (ha _))) $$ HA53
  ihave HA54 := (row_settle_core c SA 54 _ _ _ (gath i fa fx) (by exact row_point_A c i 54 (by decide) _ fa fx _ _ (word_read_A c i 54 (by decide) fa (k1_off163 i) rfl _ _) (ha _))) $$ HA54
  ihave HA55 := (row_settle_core c SA 55 _ _ _ (gath i fa fx) (by exact row_point_A c i 55 (by decide) _ fa fx _ _ (word_read_A c i 55 (by decide) fa (k1_off166 i) rfl _ _) (ha _))) $$ HA55
  ihave HA56 := (row_settle_core c SA 56 _ _ _ (gath i fa fx) (by exact row_point_A c i 56 (by decide) _ fa fx _ _ (word_read_A c i 56 (by decide) fa (k1_off169 i) rfl _ _) (ha _))) $$ HA56
  ihave HA57 := (row_settle_core c SA 57 _ _ _ (gath i fa fx) (by exact row_point_A c i 57 (by decide) _ fa fx _ _ (word_read_A c i 57 (by decide) fa (k1_off172 i) rfl _ _) (ha _))) $$ HA57
  ihave HA58 := (row_settle_core c SA 58 _ _ _ (gath i fa fx) (by exact row_point_A c i 58 (by decide) _ fa fx _ _ (word_read_A c i 58 (by decide) fa (k1_off175 i) rfl _ _) (ha _))) $$ HA58
  ihave HA59 := (row_settle_core c SA 59 _ _ _ (gath i fa fx) (by exact row_point_A c i 59 (by decide) _ fa fx _ _ (word_read_A c i 59 (by decide) fa (k1_off178 i) rfl _ _) (ha _))) $$ HA59
  ihave HA60 := (row_settle_core c SA 60 _ _ _ (gath i fa fx) (by exact row_point_A c i 60 (by decide) _ fa fx _ _ (word_read_A c i 60 (by decide) fa (k1_off181 i) rfl _ _) (ha _))) $$ HA60
  ihave HA61 := (row_settle_core c SA 61 _ _ _ (gath i fa fx) (by exact row_point_A c i 61 (by decide) _ fa fx _ _ (word_read_A c i 61 (by decide) fa (k1_off184 i) rfl _ _) (ha _))) $$ HA61
  ihave HA62 := (row_settle_core c SA 62 _ _ _ (gath i fa fx) (by exact row_point_A c i 62 (by decide) _ fa fx _ _ (word_read_A c i 62 (by decide) fa (k1_off187 i) rfl _ _) (ha _))) $$ HA62
  ihave HA63 := (row_settle_core c SA 63 _ _ _ (gath i fa fx) (by exact row_point_A c i 63 (by decide) _ fa fx _ _ (word_read_A c i 63 (by decide) fa (k1_off190 i) rfl _ _) (ha _))) $$ HA63
  ihave HA64 := (row_settle_core c SA 64 _ _ _ (gath i fa fx) (by exact row_point_A c i 64 (by decide) _ fa fx _ _ (word_read_A c i 64 (by decide) fa (k1_off193 i) rfl _ _) (ha _))) $$ HA64
  ihave HA65 := (row_settle_core c SA 65 _ _ _ (gath i fa fx) (by exact row_point_A c i 65 (by decide) _ fa fx _ _ (word_read_A c i 65 (by decide) fa (k1_off196 i) rfl _ _) (ha _))) $$ HA65
  ihave HA66 := (row_settle_core c SA 66 _ _ _ (gath i fa fx) (by exact row_point_A c i 66 (by decide) _ fa fx _ _ (word_read_A c i 66 (by decide) fa (k1_off199 i) rfl _ _) (ha _))) $$ HA66
  ihave HA67 := (row_settle_core c SA 67 _ _ _ (gath i fa fx) (by exact row_point_A c i 67 (by decide) _ fa fx _ _ (word_read_A c i 67 (by decide) fa (k1_off202 i) rfl _ _) (ha _))) $$ HA67
  ihave HA68 := (row_settle_core c SA 68 _ _ _ (gath i fa fx) (by exact row_point_A c i 68 (by decide) _ fa fx _ _ (word_read_A c i 68 (by decide) fa (k1_off205 i) rfl _ _) (ha _))) $$ HA68
  ihave HA69 := (row_settle_core c SA 69 _ _ _ (gath i fa fx) (by exact row_point_A c i 69 (by decide) _ fa fx _ _ (word_read_A c i 69 (by decide) fa (k1_off208 i) rfl _ _) (ha _))) $$ HA69
  ihave HA70 := (row_settle_core c SA 70 _ _ _ (gath i fa fx) (by exact row_point_A c i 70 (by decide) _ fa fx _ _ (word_read_A c i 70 (by decide) fa (k1_off211 i) rfl _ _) (ha _))) $$ HA70
  ihave HA71 := (row_settle_core c SA 71 _ _ _ (gath i fa fx) (by exact row_point_A c i 71 (by decide) _ fa fx _ _ (word_read_A c i 71 (by decide) fa (k1_off214 i) rfl _ _) (ha _))) $$ HA71
  ihave HA72 := (row_settle_core c SA 72 _ _ _ (gath i fa fx) (by exact row_point_A c i 72 (by decide) _ fa fx _ _ (word_read_A c i 72 (by decide) fa (k1_off217 i) rfl _ _) (ha _))) $$ HA72
  ihave HA73 := (row_settle_core c SA 73 _ _ _ (gath i fa fx) (by exact row_point_A c i 73 (by decide) _ fa fx _ _ (word_read_A c i 73 (by decide) fa (k1_off220 i) rfl _ _) (ha _))) $$ HA73
  ihave HA74 := (row_settle_core c SA 74 _ _ _ (gath i fa fx) (by exact row_point_A c i 74 (by decide) _ fa fx _ _ (word_read_A c i 74 (by decide) fa (k1_off223 i) rfl _ _) (ha _))) $$ HA74
  ihave HA75 := (row_settle_core c SA 75 _ _ _ (gath i fa fx) (by exact row_point_A c i 75 (by decide) _ fa fx _ _ (word_read_A c i 75 (by decide) fa (k1_off226 i) rfl _ _) (ha _))) $$ HA75
  ihave HA76 := (row_settle_core c SA 76 _ _ _ (gath i fa fx) (by exact row_point_A c i 76 (by decide) _ fa fx _ _ (word_read_A c i 76 (by decide) fa (k1_off229 i) rfl _ _) (ha _))) $$ HA76
  ihave HA77 := (row_settle_core c SA 77 _ _ _ (gath i fa fx) (by exact row_point_A c i 77 (by decide) _ fa fx _ _ (word_read_A c i 77 (by decide) fa (k1_off232 i) rfl _ _) (ha _))) $$ HA77
  ihave HA78 := (row_settle_core c SA 78 _ _ _ (gath i fa fx) (by exact row_point_A c i 78 (by decide) _ fa fx _ _ (word_read_A c i 78 (by decide) fa (k1_off235 i) rfl _ _) (ha _))) $$ HA78
  ihave HA79 := (row_settle_core c SA 79 _ _ _ (gath i fa fx) (by exact row_point_A c i 79 (by decide) _ fa fx _ _ (word_read_A c i 79 (by decide) fa (k1_off238 i) rfl _ _) (ha _))) $$ HA79
  ihave HA80 := (row_settle_core c SA 80 _ _ _ (gath i fa fx) (by exact row_point_A c i 80 (by decide) _ fa fx _ _ (word_read_A c i 80 (by decide) fa (k1_off241 i) rfl _ _) (ha _))) $$ HA80
  ihave HA81 := (row_settle_core c SA 81 _ _ _ (gath i fa fx) (by exact row_point_A c i 81 (by decide) _ fa fx _ _ (word_read_A c i 81 (by decide) fa (k1_off244 i) rfl _ _) (ha _))) $$ HA81
  ihave HA82 := (row_settle_core c SA 82 _ _ _ (gath i fa fx) (by exact row_point_A c i 82 (by decide) _ fa fx _ _ (word_read_A c i 82 (by decide) fa (k1_off247 i) rfl _ _) (ha _))) $$ HA82
  ihave HA83 := (row_settle_core c SA 83 _ _ _ (gath i fa fx) (by exact row_point_A c i 83 (by decide) _ fa fx _ _ (word_read_A c i 83 (by decide) fa (k1_off250 i) rfl _ _) (ha _))) $$ HA83
  ihave HA84 := (row_settle_core c SA 84 _ _ _ (gath i fa fx) (by exact row_point_A c i 84 (by decide) _ fa fx _ _ (word_read_A c i 84 (by decide) fa (k1_off253 i) rfl _ _) (ha _))) $$ HA84
  ihave HA85 := (row_settle_core c SA 85 _ _ _ (gath i fa fx) (by exact row_point_A c i 85 (by decide) _ fa fx _ _ (word_read_A c i 85 (by decide) fa (k1_off256 i) rfl _ _) (ha _))) $$ HA85
  ihave HA86 := (row_settle_core c SA 86 _ _ _ (gath i fa fx) (by exact row_point_A c i 86 (by decide) _ fa fx _ _ (word_read_A c i 86 (by decide) fa (k1_off259 i) rfl _ _) (ha _))) $$ HA86
  ihave HA87 := (row_settle_core c SA 87 _ _ _ (gath i fa fx) (by exact row_point_A c i 87 (by decide) _ fa fx _ _ (word_read_A c i 87 (by decide) fa (k1_off262 i) rfl _ _) (ha _))) $$ HA87
  ihave HA88 := (row_settle_core c SA 88 _ _ _ (gath i fa fx) (by exact row_point_A c i 88 (by decide) _ fa fx _ _ (word_read_A c i 88 (by decide) fa (k1_off265 i) rfl _ _) (ha _))) $$ HA88
  ihave HA89 := (row_settle_core c SA 89 _ _ _ (gath i fa fx) (by exact row_point_A c i 89 (by decide) _ fa fx _ _ (word_read_A c i 89 (by decide) fa (k1_off268 i) rfl _ _) (ha _))) $$ HA89
  ihave HA90 := (row_settle_core c SA 90 _ _ _ (gath i fa fx) (by exact row_point_A c i 90 (by decide) _ fa fx _ _ (word_read_A c i 90 (by decide) fa (k1_off271 i) rfl _ _) (ha _))) $$ HA90
  ihave HA91 := (row_settle_core c SA 91 _ _ _ (gath i fa fx) (by exact row_point_A c i 91 (by decide) _ fa fx _ _ (word_read_A c i 91 (by decide) fa (k1_off274 i) rfl _ _) (ha _))) $$ HA91
  ihave HA92 := (row_settle_core c SA 92 _ _ _ (gath i fa fx) (by exact row_point_A c i 92 (by decide) _ fa fx _ _ (word_read_A c i 92 (by decide) fa (k1_off277 i) rfl _ _) (ha _))) $$ HA92
  ihave HA93 := (row_settle_core c SA 93 _ _ _ (gath i fa fx) (by exact row_point_A c i 93 (by decide) _ fa fx _ _ (word_read_A c i 93 (by decide) fa (k1_off280 i) rfl _ _) (ha _))) $$ HA93
  ihave HA94 := (row_settle_core c SA 94 _ _ _ (gath i fa fx) (by exact row_point_A c i 94 (by decide) _ fa fx _ _ (word_read_A c i 94 (by decide) fa (k1_off283 i) rfl _ _) (ha _))) $$ HA94
  ihave HA95 := (row_settle_core c SA 95 _ _ _ (gath i fa fx) (by exact row_point_A c i 95 (by decide) _ fa fx _ _ (word_read_A c i 95 (by decide) fa (k1_off286 i) rfl _ _) (ha _))) $$ HA95
  ihave HA96 := (row_settle_core c SA 96 _ _ _ (gath i fa fx) (by exact row_point_A c i 96 (by decide) _ fa fx _ _ (word_read_A c i 96 (by decide) fa (k1_off289 i) rfl _ _) (ha _))) $$ HA96
  ihave HA97 := (row_settle_core c SA 97 _ _ _ (gath i fa fx) (by exact row_point_A c i 97 (by decide) _ fa fx _ _ (word_read_A c i 97 (by decide) fa (k1_off292 i) rfl _ _) (ha _))) $$ HA97
  ihave HA98 := (row_settle_core c SA 98 _ _ _ (gath i fa fx) (by exact row_point_A c i 98 (by decide) _ fa fx _ _ (word_read_A c i 98 (by decide) fa (k1_off295 i) rfl _ _) (ha _))) $$ HA98
  ihave HA99 := (row_settle_core c SA 99 _ _ _ (gath i fa fx) (by exact row_point_A c i 99 (by decide) _ fa fx _ _ (word_read_A c i 99 (by decide) fa (k1_off298 i) rfl _ _) (ha _))) $$ HA99
  ihave HA100 := (row_settle_core c SA 100 _ _ _ (gath i fa fx) (by exact row_point_A c i 100 (by decide) _ fa fx _ _ (word_read_A c i 100 (by decide) fa (k1_off301 i) rfl _ _) (ha _))) $$ HA100
  ihave HA101 := (row_settle_core c SA 101 _ _ _ (gath i fa fx) (by exact row_point_A c i 101 (by decide) _ fa fx _ _ (word_read_A c i 101 (by decide) fa (k1_off304 i) rfl _ _) (ha _))) $$ HA101
  ihave HA102 := (row_settle_core c SA 102 _ _ _ (gath i fa fx) (by exact row_point_A c i 102 (by decide) _ fa fx _ _ (word_read_A c i 102 (by decide) fa (k1_off307 i) rfl _ _) (ha _))) $$ HA102
  ihave HA103 := (row_settle_core c SA 103 _ _ _ (gath i fa fx) (by exact row_point_A c i 103 (by decide) _ fa fx _ _ (word_read_A c i 103 (by decide) fa (k1_off310 i) rfl _ _) (ha _))) $$ HA103
  ihave HA104 := (row_settle_core c SA 104 _ _ _ (gath i fa fx) (by exact row_point_A c i 104 (by decide) _ fa fx _ _ (word_read_A c i 104 (by decide) fa (k1_off313 i) rfl _ _) (ha _))) $$ HA104
  ihave HA105 := (row_settle_core c SA 105 _ _ _ (gath i fa fx) (by exact row_point_A c i 105 (by decide) _ fa fx _ _ (word_read_A c i 105 (by decide) fa (k1_off316 i) rfl _ _) (ha _))) $$ HA105
  ihave HA106 := (row_settle_core c SA 106 _ _ _ (gath i fa fx) (by exact row_point_A c i 106 (by decide) _ fa fx _ _ (word_read_A c i 106 (by decide) fa (k1_off319 i) rfl _ _) (ha _))) $$ HA106
  ihave HA107 := (row_settle_core c SA 107 _ _ _ (gath i fa fx) (by exact row_point_A c i 107 (by decide) _ fa fx _ _ (word_read_A c i 107 (by decide) fa (k1_off322 i) rfl _ _) (ha _))) $$ HA107
  ihave HA108 := (row_settle_core c SA 108 _ _ _ (gath i fa fx) (by exact row_point_A c i 108 (by decide) _ fa fx _ _ (word_read_A c i 108 (by decide) fa (k1_off325 i) rfl _ _) (ha _))) $$ HA108
  ihave HA109 := (row_settle_core c SA 109 _ _ _ (gath i fa fx) (by exact row_point_A c i 109 (by decide) _ fa fx _ _ (word_read_A c i 109 (by decide) fa (k1_off328 i) rfl _ _) (ha _))) $$ HA109
  ihave HA110 := (row_settle_core c SA 110 _ _ _ (gath i fa fx) (by exact row_point_A c i 110 (by decide) _ fa fx _ _ (word_read_A c i 110 (by decide) fa (k1_off331 i) rfl _ _) (ha _))) $$ HA110
  ihave HA111 := (row_settle_core c SA 111 _ _ _ (gath i fa fx) (by exact row_point_A c i 111 (by decide) _ fa fx _ _ (word_read_A c i 111 (by decide) fa (k1_off334 i) rfl _ _) (ha _))) $$ HA111
  ihave HA112 := (row_settle_core c SA 112 _ _ _ (gath i fa fx) (by exact row_point_A c i 112 (by decide) _ fa fx _ _ (word_read_A c i 112 (by decide) fa (k1_off337 i) rfl _ _) (ha _))) $$ HA112
  ihave HA113 := (row_settle_core c SA 113 _ _ _ (gath i fa fx) (by exact row_point_A c i 113 (by decide) _ fa fx _ _ (word_read_A c i 113 (by decide) fa (k1_off340 i) rfl _ _) (ha _))) $$ HA113
  ihave HA114 := (row_settle_core c SA 114 _ _ _ (gath i fa fx) (by exact row_point_A c i 114 (by decide) _ fa fx _ _ (word_read_A c i 114 (by decide) fa (k1_off343 i) rfl _ _) (ha _))) $$ HA114
  ihave HA115 := (row_settle_core c SA 115 _ _ _ (gath i fa fx) (by exact row_point_A c i 115 (by decide) _ fa fx _ _ (word_read_A c i 115 (by decide) fa (k1_off346 i) rfl _ _) (ha _))) $$ HA115
  ihave HA116 := (row_settle_core c SA 116 _ _ _ (gath i fa fx) (by exact row_point_A c i 116 (by decide) _ fa fx _ _ (word_read_A c i 116 (by decide) fa (k1_off349 i) rfl _ _) (ha _))) $$ HA116
  ihave HA117 := (row_settle_core c SA 117 _ _ _ (gath i fa fx) (by exact row_point_A c i 117 (by decide) _ fa fx _ _ (word_read_A c i 117 (by decide) fa (k1_off352 i) rfl _ _) (ha _))) $$ HA117
  ihave HA118 := (row_settle_core c SA 118 _ _ _ (gath i fa fx) (by exact row_point_A c i 118 (by decide) _ fa fx _ _ (word_read_A c i 118 (by decide) fa (k1_off355 i) rfl _ _) (ha _))) $$ HA118
  ihave HA119 := (row_settle_core c SA 119 _ _ _ (gath i fa fx) (by exact row_point_A c i 119 (by decide) _ fa fx _ _ (word_read_A c i 119 (by decide) fa (k1_off358 i) rfl _ _) (ha _))) $$ HA119
  ihave HA120 := (row_settle_core c SA 120 _ _ _ (gath i fa fx) (by exact row_point_A c i 120 (by decide) _ fa fx _ _ (word_read_A c i 120 (by decide) fa (k1_off361 i) rfl _ _) (ha _))) $$ HA120
  ihave HA121 := (row_settle_core c SA 121 _ _ _ (gath i fa fx) (by exact row_point_A c i 121 (by decide) _ fa fx _ _ (word_read_A c i 121 (by decide) fa (k1_off364 i) rfl _ _) (ha _))) $$ HA121
  ihave HA122 := (row_settle_core c SA 122 _ _ _ (gath i fa fx) (by exact row_point_A c i 122 (by decide) _ fa fx _ _ (word_read_A c i 122 (by decide) fa (k1_off367 i) rfl _ _) (ha _))) $$ HA122
  ihave HA123 := (row_settle_core c SA 123 _ _ _ (gath i fa fx) (by exact row_point_A c i 123 (by decide) _ fa fx _ _ (word_read_A c i 123 (by decide) fa (k1_off370 i) rfl _ _) (ha _))) $$ HA123
  ihave HA124 := (row_settle_core c SA 124 _ _ _ (gath i fa fx) (by exact row_point_A c i 124 (by decide) _ fa fx _ _ (word_read_A c i 124 (by decide) fa (k1_off373 i) rfl _ _) (ha _))) $$ HA124
  ihave HA125 := (row_settle_core c SA 125 _ _ _ (gath i fa fx) (by exact row_point_A c i 125 (by decide) _ fa fx _ _ (word_read_A c i 125 (by decide) fa (k1_off376 i) rfl _ _) (ha _))) $$ HA125
  ihave HA126 := (row_settle_core c SA 126 _ _ _ (gath i fa fx) (by exact row_point_A c i 126 (by decide) _ fa fx _ _ (word_read_A c i 126 (by decide) fa (k1_off379 i) rfl _ _) (ha _))) $$ HA126
  ihave HA127 := (row_settle_core c SA 127 _ _ _ (gath i fa fx) (by exact row_point_A c i 127 (by decide) _ fa fx _ _ (word_read_A c i 127 (by decide) fa (k1_off382 i) rfl _ _) (ha _))) $$ HA127
  -- and row r of the second the row that b[128·i + r] names
  ihave HB0 := (row_settle_core c SB 0 _ _ _ (gath i fb fx) (by exact row_point_B c i 0 (by decide) _ fb fx _ _ (word_read_B c i 0 (by decide) fb (k1_off1 i) rfl _ _) (hb _))) $$ HB0
  ihave HB1 := (row_settle_core c SB 1 _ _ _ (gath i fb fx) (by exact row_point_B c i 1 (by decide) _ fb fx _ _ (word_read_B c i 1 (by decide) fb (k1_off4 i) rfl _ _) (hb _))) $$ HB1
  ihave HB2 := (row_settle_core c SB 2 _ _ _ (gath i fb fx) (by exact row_point_B c i 2 (by decide) _ fb fx _ _ (word_read_B c i 2 (by decide) fb (k1_off7 i) rfl _ _) (hb _))) $$ HB2
  ihave HB3 := (row_settle_core c SB 3 _ _ _ (gath i fb fx) (by exact row_point_B c i 3 (by decide) _ fb fx _ _ (word_read_B c i 3 (by decide) fb (k1_off10 i) rfl _ _) (hb _))) $$ HB3
  ihave HB4 := (row_settle_core c SB 4 _ _ _ (gath i fb fx) (by exact row_point_B c i 4 (by decide) _ fb fx _ _ (word_read_B c i 4 (by decide) fb (k1_off13 i) rfl _ _) (hb _))) $$ HB4
  ihave HB5 := (row_settle_core c SB 5 _ _ _ (gath i fb fx) (by exact row_point_B c i 5 (by decide) _ fb fx _ _ (word_read_B c i 5 (by decide) fb (k1_off16 i) rfl _ _) (hb _))) $$ HB5
  ihave HB6 := (row_settle_core c SB 6 _ _ _ (gath i fb fx) (by exact row_point_B c i 6 (by decide) _ fb fx _ _ (word_read_B c i 6 (by decide) fb (k1_off19 i) rfl _ _) (hb _))) $$ HB6
  ihave HB7 := (row_settle_core c SB 7 _ _ _ (gath i fb fx) (by exact row_point_B c i 7 (by decide) _ fb fx _ _ (word_read_B c i 7 (by decide) fb (k1_off22 i) rfl _ _) (hb _))) $$ HB7
  ihave HB8 := (row_settle_core c SB 8 _ _ _ (gath i fb fx) (by exact row_point_B c i 8 (by decide) _ fb fx _ _ (word_read_B c i 8 (by decide) fb (k1_off25 i) rfl _ _) (hb _))) $$ HB8
  ihave HB9 := (row_settle_core c SB 9 _ _ _ (gath i fb fx) (by exact row_point_B c i 9 (by decide) _ fb fx _ _ (word_read_B c i 9 (by decide) fb (k1_off28 i) rfl _ _) (hb _))) $$ HB9
  ihave HB10 := (row_settle_core c SB 10 _ _ _ (gath i fb fx) (by exact row_point_B c i 10 (by decide) _ fb fx _ _ (word_read_B c i 10 (by decide) fb (k1_off31 i) rfl _ _) (hb _))) $$ HB10
  ihave HB11 := (row_settle_core c SB 11 _ _ _ (gath i fb fx) (by exact row_point_B c i 11 (by decide) _ fb fx _ _ (word_read_B c i 11 (by decide) fb (k1_off34 i) rfl _ _) (hb _))) $$ HB11
  ihave HB12 := (row_settle_core c SB 12 _ _ _ (gath i fb fx) (by exact row_point_B c i 12 (by decide) _ fb fx _ _ (word_read_B c i 12 (by decide) fb (k1_off37 i) rfl _ _) (hb _))) $$ HB12
  ihave HB13 := (row_settle_core c SB 13 _ _ _ (gath i fb fx) (by exact row_point_B c i 13 (by decide) _ fb fx _ _ (word_read_B c i 13 (by decide) fb (k1_off40 i) rfl _ _) (hb _))) $$ HB13
  ihave HB14 := (row_settle_core c SB 14 _ _ _ (gath i fb fx) (by exact row_point_B c i 14 (by decide) _ fb fx _ _ (word_read_B c i 14 (by decide) fb (k1_off43 i) rfl _ _) (hb _))) $$ HB14
  ihave HB15 := (row_settle_core c SB 15 _ _ _ (gath i fb fx) (by exact row_point_B c i 15 (by decide) _ fb fx _ _ (word_read_B c i 15 (by decide) fb (k1_off46 i) rfl _ _) (hb _))) $$ HB15
  ihave HB16 := (row_settle_core c SB 16 _ _ _ (gath i fb fx) (by exact row_point_B c i 16 (by decide) _ fb fx _ _ (word_read_B c i 16 (by decide) fb (k1_off49 i) rfl _ _) (hb _))) $$ HB16
  ihave HB17 := (row_settle_core c SB 17 _ _ _ (gath i fb fx) (by exact row_point_B c i 17 (by decide) _ fb fx _ _ (word_read_B c i 17 (by decide) fb (k1_off52 i) rfl _ _) (hb _))) $$ HB17
  ihave HB18 := (row_settle_core c SB 18 _ _ _ (gath i fb fx) (by exact row_point_B c i 18 (by decide) _ fb fx _ _ (word_read_B c i 18 (by decide) fb (k1_off55 i) rfl _ _) (hb _))) $$ HB18
  ihave HB19 := (row_settle_core c SB 19 _ _ _ (gath i fb fx) (by exact row_point_B c i 19 (by decide) _ fb fx _ _ (word_read_B c i 19 (by decide) fb (k1_off58 i) rfl _ _) (hb _))) $$ HB19
  ihave HB20 := (row_settle_core c SB 20 _ _ _ (gath i fb fx) (by exact row_point_B c i 20 (by decide) _ fb fx _ _ (word_read_B c i 20 (by decide) fb (k1_off61 i) rfl _ _) (hb _))) $$ HB20
  ihave HB21 := (row_settle_core c SB 21 _ _ _ (gath i fb fx) (by exact row_point_B c i 21 (by decide) _ fb fx _ _ (word_read_B c i 21 (by decide) fb (k1_off64 i) rfl _ _) (hb _))) $$ HB21
  ihave HB22 := (row_settle_core c SB 22 _ _ _ (gath i fb fx) (by exact row_point_B c i 22 (by decide) _ fb fx _ _ (word_read_B c i 22 (by decide) fb (k1_off67 i) rfl _ _) (hb _))) $$ HB22
  ihave HB23 := (row_settle_core c SB 23 _ _ _ (gath i fb fx) (by exact row_point_B c i 23 (by decide) _ fb fx _ _ (word_read_B c i 23 (by decide) fb (k1_off70 i) rfl _ _) (hb _))) $$ HB23
  ihave HB24 := (row_settle_core c SB 24 _ _ _ (gath i fb fx) (by exact row_point_B c i 24 (by decide) _ fb fx _ _ (word_read_B c i 24 (by decide) fb (k1_off73 i) rfl _ _) (hb _))) $$ HB24
  ihave HB25 := (row_settle_core c SB 25 _ _ _ (gath i fb fx) (by exact row_point_B c i 25 (by decide) _ fb fx _ _ (word_read_B c i 25 (by decide) fb (k1_off76 i) rfl _ _) (hb _))) $$ HB25
  ihave HB26 := (row_settle_core c SB 26 _ _ _ (gath i fb fx) (by exact row_point_B c i 26 (by decide) _ fb fx _ _ (word_read_B c i 26 (by decide) fb (k1_off79 i) rfl _ _) (hb _))) $$ HB26
  ihave HB27 := (row_settle_core c SB 27 _ _ _ (gath i fb fx) (by exact row_point_B c i 27 (by decide) _ fb fx _ _ (word_read_B c i 27 (by decide) fb (k1_off82 i) rfl _ _) (hb _))) $$ HB27
  ihave HB28 := (row_settle_core c SB 28 _ _ _ (gath i fb fx) (by exact row_point_B c i 28 (by decide) _ fb fx _ _ (word_read_B c i 28 (by decide) fb (k1_off85 i) rfl _ _) (hb _))) $$ HB28
  ihave HB29 := (row_settle_core c SB 29 _ _ _ (gath i fb fx) (by exact row_point_B c i 29 (by decide) _ fb fx _ _ (word_read_B c i 29 (by decide) fb (k1_off88 i) rfl _ _) (hb _))) $$ HB29
  ihave HB30 := (row_settle_core c SB 30 _ _ _ (gath i fb fx) (by exact row_point_B c i 30 (by decide) _ fb fx _ _ (word_read_B c i 30 (by decide) fb (k1_off91 i) rfl _ _) (hb _))) $$ HB30
  ihave HB31 := (row_settle_core c SB 31 _ _ _ (gath i fb fx) (by exact row_point_B c i 31 (by decide) _ fb fx _ _ (word_read_B c i 31 (by decide) fb (k1_off94 i) rfl _ _) (hb _))) $$ HB31
  ihave HB32 := (row_settle_core c SB 32 _ _ _ (gath i fb fx) (by exact row_point_B c i 32 (by decide) _ fb fx _ _ (word_read_B c i 32 (by decide) fb (k1_off97 i) rfl _ _) (hb _))) $$ HB32
  ihave HB33 := (row_settle_core c SB 33 _ _ _ (gath i fb fx) (by exact row_point_B c i 33 (by decide) _ fb fx _ _ (word_read_B c i 33 (by decide) fb (k1_off100 i) rfl _ _) (hb _))) $$ HB33
  ihave HB34 := (row_settle_core c SB 34 _ _ _ (gath i fb fx) (by exact row_point_B c i 34 (by decide) _ fb fx _ _ (word_read_B c i 34 (by decide) fb (k1_off103 i) rfl _ _) (hb _))) $$ HB34
  ihave HB35 := (row_settle_core c SB 35 _ _ _ (gath i fb fx) (by exact row_point_B c i 35 (by decide) _ fb fx _ _ (word_read_B c i 35 (by decide) fb (k1_off106 i) rfl _ _) (hb _))) $$ HB35
  ihave HB36 := (row_settle_core c SB 36 _ _ _ (gath i fb fx) (by exact row_point_B c i 36 (by decide) _ fb fx _ _ (word_read_B c i 36 (by decide) fb (k1_off109 i) rfl _ _) (hb _))) $$ HB36
  ihave HB37 := (row_settle_core c SB 37 _ _ _ (gath i fb fx) (by exact row_point_B c i 37 (by decide) _ fb fx _ _ (word_read_B c i 37 (by decide) fb (k1_off112 i) rfl _ _) (hb _))) $$ HB37
  ihave HB38 := (row_settle_core c SB 38 _ _ _ (gath i fb fx) (by exact row_point_B c i 38 (by decide) _ fb fx _ _ (word_read_B c i 38 (by decide) fb (k1_off115 i) rfl _ _) (hb _))) $$ HB38
  ihave HB39 := (row_settle_core c SB 39 _ _ _ (gath i fb fx) (by exact row_point_B c i 39 (by decide) _ fb fx _ _ (word_read_B c i 39 (by decide) fb (k1_off118 i) rfl _ _) (hb _))) $$ HB39
  ihave HB40 := (row_settle_core c SB 40 _ _ _ (gath i fb fx) (by exact row_point_B c i 40 (by decide) _ fb fx _ _ (word_read_B c i 40 (by decide) fb (k1_off121 i) rfl _ _) (hb _))) $$ HB40
  ihave HB41 := (row_settle_core c SB 41 _ _ _ (gath i fb fx) (by exact row_point_B c i 41 (by decide) _ fb fx _ _ (word_read_B c i 41 (by decide) fb (k1_off124 i) rfl _ _) (hb _))) $$ HB41
  ihave HB42 := (row_settle_core c SB 42 _ _ _ (gath i fb fx) (by exact row_point_B c i 42 (by decide) _ fb fx _ _ (word_read_B c i 42 (by decide) fb (k1_off127 i) rfl _ _) (hb _))) $$ HB42
  ihave HB43 := (row_settle_core c SB 43 _ _ _ (gath i fb fx) (by exact row_point_B c i 43 (by decide) _ fb fx _ _ (word_read_B c i 43 (by decide) fb (k1_off130 i) rfl _ _) (hb _))) $$ HB43
  ihave HB44 := (row_settle_core c SB 44 _ _ _ (gath i fb fx) (by exact row_point_B c i 44 (by decide) _ fb fx _ _ (word_read_B c i 44 (by decide) fb (k1_off133 i) rfl _ _) (hb _))) $$ HB44
  ihave HB45 := (row_settle_core c SB 45 _ _ _ (gath i fb fx) (by exact row_point_B c i 45 (by decide) _ fb fx _ _ (word_read_B c i 45 (by decide) fb (k1_off136 i) rfl _ _) (hb _))) $$ HB45
  ihave HB46 := (row_settle_core c SB 46 _ _ _ (gath i fb fx) (by exact row_point_B c i 46 (by decide) _ fb fx _ _ (word_read_B c i 46 (by decide) fb (k1_off139 i) rfl _ _) (hb _))) $$ HB46
  ihave HB47 := (row_settle_core c SB 47 _ _ _ (gath i fb fx) (by exact row_point_B c i 47 (by decide) _ fb fx _ _ (word_read_B c i 47 (by decide) fb (k1_off142 i) rfl _ _) (hb _))) $$ HB47
  ihave HB48 := (row_settle_core c SB 48 _ _ _ (gath i fb fx) (by exact row_point_B c i 48 (by decide) _ fb fx _ _ (word_read_B c i 48 (by decide) fb (k1_off145 i) rfl _ _) (hb _))) $$ HB48
  ihave HB49 := (row_settle_core c SB 49 _ _ _ (gath i fb fx) (by exact row_point_B c i 49 (by decide) _ fb fx _ _ (word_read_B c i 49 (by decide) fb (k1_off148 i) rfl _ _) (hb _))) $$ HB49
  ihave HB50 := (row_settle_core c SB 50 _ _ _ (gath i fb fx) (by exact row_point_B c i 50 (by decide) _ fb fx _ _ (word_read_B c i 50 (by decide) fb (k1_off151 i) rfl _ _) (hb _))) $$ HB50
  ihave HB51 := (row_settle_core c SB 51 _ _ _ (gath i fb fx) (by exact row_point_B c i 51 (by decide) _ fb fx _ _ (word_read_B c i 51 (by decide) fb (k1_off154 i) rfl _ _) (hb _))) $$ HB51
  ihave HB52 := (row_settle_core c SB 52 _ _ _ (gath i fb fx) (by exact row_point_B c i 52 (by decide) _ fb fx _ _ (word_read_B c i 52 (by decide) fb (k1_off157 i) rfl _ _) (hb _))) $$ HB52
  ihave HB53 := (row_settle_core c SB 53 _ _ _ (gath i fb fx) (by exact row_point_B c i 53 (by decide) _ fb fx _ _ (word_read_B c i 53 (by decide) fb (k1_off160 i) rfl _ _) (hb _))) $$ HB53
  ihave HB54 := (row_settle_core c SB 54 _ _ _ (gath i fb fx) (by exact row_point_B c i 54 (by decide) _ fb fx _ _ (word_read_B c i 54 (by decide) fb (k1_off163 i) rfl _ _) (hb _))) $$ HB54
  ihave HB55 := (row_settle_core c SB 55 _ _ _ (gath i fb fx) (by exact row_point_B c i 55 (by decide) _ fb fx _ _ (word_read_B c i 55 (by decide) fb (k1_off166 i) rfl _ _) (hb _))) $$ HB55
  ihave HB56 := (row_settle_core c SB 56 _ _ _ (gath i fb fx) (by exact row_point_B c i 56 (by decide) _ fb fx _ _ (word_read_B c i 56 (by decide) fb (k1_off169 i) rfl _ _) (hb _))) $$ HB56
  ihave HB57 := (row_settle_core c SB 57 _ _ _ (gath i fb fx) (by exact row_point_B c i 57 (by decide) _ fb fx _ _ (word_read_B c i 57 (by decide) fb (k1_off172 i) rfl _ _) (hb _))) $$ HB57
  ihave HB58 := (row_settle_core c SB 58 _ _ _ (gath i fb fx) (by exact row_point_B c i 58 (by decide) _ fb fx _ _ (word_read_B c i 58 (by decide) fb (k1_off175 i) rfl _ _) (hb _))) $$ HB58
  ihave HB59 := (row_settle_core c SB 59 _ _ _ (gath i fb fx) (by exact row_point_B c i 59 (by decide) _ fb fx _ _ (word_read_B c i 59 (by decide) fb (k1_off178 i) rfl _ _) (hb _))) $$ HB59
  ihave HB60 := (row_settle_core c SB 60 _ _ _ (gath i fb fx) (by exact row_point_B c i 60 (by decide) _ fb fx _ _ (word_read_B c i 60 (by decide) fb (k1_off181 i) rfl _ _) (hb _))) $$ HB60
  ihave HB61 := (row_settle_core c SB 61 _ _ _ (gath i fb fx) (by exact row_point_B c i 61 (by decide) _ fb fx _ _ (word_read_B c i 61 (by decide) fb (k1_off184 i) rfl _ _) (hb _))) $$ HB61
  ihave HB62 := (row_settle_core c SB 62 _ _ _ (gath i fb fx) (by exact row_point_B c i 62 (by decide) _ fb fx _ _ (word_read_B c i 62 (by decide) fb (k1_off187 i) rfl _ _) (hb _))) $$ HB62
  ihave HB63 := (row_settle_core c SB 63 _ _ _ (gath i fb fx) (by exact row_point_B c i 63 (by decide) _ fb fx _ _ (word_read_B c i 63 (by decide) fb (k1_off190 i) rfl _ _) (hb _))) $$ HB63
  ihave HB64 := (row_settle_core c SB 64 _ _ _ (gath i fb fx) (by exact row_point_B c i 64 (by decide) _ fb fx _ _ (word_read_B c i 64 (by decide) fb (k1_off193 i) rfl _ _) (hb _))) $$ HB64
  ihave HB65 := (row_settle_core c SB 65 _ _ _ (gath i fb fx) (by exact row_point_B c i 65 (by decide) _ fb fx _ _ (word_read_B c i 65 (by decide) fb (k1_off196 i) rfl _ _) (hb _))) $$ HB65
  ihave HB66 := (row_settle_core c SB 66 _ _ _ (gath i fb fx) (by exact row_point_B c i 66 (by decide) _ fb fx _ _ (word_read_B c i 66 (by decide) fb (k1_off199 i) rfl _ _) (hb _))) $$ HB66
  ihave HB67 := (row_settle_core c SB 67 _ _ _ (gath i fb fx) (by exact row_point_B c i 67 (by decide) _ fb fx _ _ (word_read_B c i 67 (by decide) fb (k1_off202 i) rfl _ _) (hb _))) $$ HB67
  ihave HB68 := (row_settle_core c SB 68 _ _ _ (gath i fb fx) (by exact row_point_B c i 68 (by decide) _ fb fx _ _ (word_read_B c i 68 (by decide) fb (k1_off205 i) rfl _ _) (hb _))) $$ HB68
  ihave HB69 := (row_settle_core c SB 69 _ _ _ (gath i fb fx) (by exact row_point_B c i 69 (by decide) _ fb fx _ _ (word_read_B c i 69 (by decide) fb (k1_off208 i) rfl _ _) (hb _))) $$ HB69
  ihave HB70 := (row_settle_core c SB 70 _ _ _ (gath i fb fx) (by exact row_point_B c i 70 (by decide) _ fb fx _ _ (word_read_B c i 70 (by decide) fb (k1_off211 i) rfl _ _) (hb _))) $$ HB70
  ihave HB71 := (row_settle_core c SB 71 _ _ _ (gath i fb fx) (by exact row_point_B c i 71 (by decide) _ fb fx _ _ (word_read_B c i 71 (by decide) fb (k1_off214 i) rfl _ _) (hb _))) $$ HB71
  ihave HB72 := (row_settle_core c SB 72 _ _ _ (gath i fb fx) (by exact row_point_B c i 72 (by decide) _ fb fx _ _ (word_read_B c i 72 (by decide) fb (k1_off217 i) rfl _ _) (hb _))) $$ HB72
  ihave HB73 := (row_settle_core c SB 73 _ _ _ (gath i fb fx) (by exact row_point_B c i 73 (by decide) _ fb fx _ _ (word_read_B c i 73 (by decide) fb (k1_off220 i) rfl _ _) (hb _))) $$ HB73
  ihave HB74 := (row_settle_core c SB 74 _ _ _ (gath i fb fx) (by exact row_point_B c i 74 (by decide) _ fb fx _ _ (word_read_B c i 74 (by decide) fb (k1_off223 i) rfl _ _) (hb _))) $$ HB74
  ihave HB75 := (row_settle_core c SB 75 _ _ _ (gath i fb fx) (by exact row_point_B c i 75 (by decide) _ fb fx _ _ (word_read_B c i 75 (by decide) fb (k1_off226 i) rfl _ _) (hb _))) $$ HB75
  ihave HB76 := (row_settle_core c SB 76 _ _ _ (gath i fb fx) (by exact row_point_B c i 76 (by decide) _ fb fx _ _ (word_read_B c i 76 (by decide) fb (k1_off229 i) rfl _ _) (hb _))) $$ HB76
  ihave HB77 := (row_settle_core c SB 77 _ _ _ (gath i fb fx) (by exact row_point_B c i 77 (by decide) _ fb fx _ _ (word_read_B c i 77 (by decide) fb (k1_off232 i) rfl _ _) (hb _))) $$ HB77
  ihave HB78 := (row_settle_core c SB 78 _ _ _ (gath i fb fx) (by exact row_point_B c i 78 (by decide) _ fb fx _ _ (word_read_B c i 78 (by decide) fb (k1_off235 i) rfl _ _) (hb _))) $$ HB78
  ihave HB79 := (row_settle_core c SB 79 _ _ _ (gath i fb fx) (by exact row_point_B c i 79 (by decide) _ fb fx _ _ (word_read_B c i 79 (by decide) fb (k1_off238 i) rfl _ _) (hb _))) $$ HB79
  ihave HB80 := (row_settle_core c SB 80 _ _ _ (gath i fb fx) (by exact row_point_B c i 80 (by decide) _ fb fx _ _ (word_read_B c i 80 (by decide) fb (k1_off241 i) rfl _ _) (hb _))) $$ HB80
  ihave HB81 := (row_settle_core c SB 81 _ _ _ (gath i fb fx) (by exact row_point_B c i 81 (by decide) _ fb fx _ _ (word_read_B c i 81 (by decide) fb (k1_off244 i) rfl _ _) (hb _))) $$ HB81
  ihave HB82 := (row_settle_core c SB 82 _ _ _ (gath i fb fx) (by exact row_point_B c i 82 (by decide) _ fb fx _ _ (word_read_B c i 82 (by decide) fb (k1_off247 i) rfl _ _) (hb _))) $$ HB82
  ihave HB83 := (row_settle_core c SB 83 _ _ _ (gath i fb fx) (by exact row_point_B c i 83 (by decide) _ fb fx _ _ (word_read_B c i 83 (by decide) fb (k1_off250 i) rfl _ _) (hb _))) $$ HB83
  ihave HB84 := (row_settle_core c SB 84 _ _ _ (gath i fb fx) (by exact row_point_B c i 84 (by decide) _ fb fx _ _ (word_read_B c i 84 (by decide) fb (k1_off253 i) rfl _ _) (hb _))) $$ HB84
  ihave HB85 := (row_settle_core c SB 85 _ _ _ (gath i fb fx) (by exact row_point_B c i 85 (by decide) _ fb fx _ _ (word_read_B c i 85 (by decide) fb (k1_off256 i) rfl _ _) (hb _))) $$ HB85
  ihave HB86 := (row_settle_core c SB 86 _ _ _ (gath i fb fx) (by exact row_point_B c i 86 (by decide) _ fb fx _ _ (word_read_B c i 86 (by decide) fb (k1_off259 i) rfl _ _) (hb _))) $$ HB86
  ihave HB87 := (row_settle_core c SB 87 _ _ _ (gath i fb fx) (by exact row_point_B c i 87 (by decide) _ fb fx _ _ (word_read_B c i 87 (by decide) fb (k1_off262 i) rfl _ _) (hb _))) $$ HB87
  ihave HB88 := (row_settle_core c SB 88 _ _ _ (gath i fb fx) (by exact row_point_B c i 88 (by decide) _ fb fx _ _ (word_read_B c i 88 (by decide) fb (k1_off265 i) rfl _ _) (hb _))) $$ HB88
  ihave HB89 := (row_settle_core c SB 89 _ _ _ (gath i fb fx) (by exact row_point_B c i 89 (by decide) _ fb fx _ _ (word_read_B c i 89 (by decide) fb (k1_off268 i) rfl _ _) (hb _))) $$ HB89
  ihave HB90 := (row_settle_core c SB 90 _ _ _ (gath i fb fx) (by exact row_point_B c i 90 (by decide) _ fb fx _ _ (word_read_B c i 90 (by decide) fb (k1_off271 i) rfl _ _) (hb _))) $$ HB90
  ihave HB91 := (row_settle_core c SB 91 _ _ _ (gath i fb fx) (by exact row_point_B c i 91 (by decide) _ fb fx _ _ (word_read_B c i 91 (by decide) fb (k1_off274 i) rfl _ _) (hb _))) $$ HB91
  ihave HB92 := (row_settle_core c SB 92 _ _ _ (gath i fb fx) (by exact row_point_B c i 92 (by decide) _ fb fx _ _ (word_read_B c i 92 (by decide) fb (k1_off277 i) rfl _ _) (hb _))) $$ HB92
  ihave HB93 := (row_settle_core c SB 93 _ _ _ (gath i fb fx) (by exact row_point_B c i 93 (by decide) _ fb fx _ _ (word_read_B c i 93 (by decide) fb (k1_off280 i) rfl _ _) (hb _))) $$ HB93
  ihave HB94 := (row_settle_core c SB 94 _ _ _ (gath i fb fx) (by exact row_point_B c i 94 (by decide) _ fb fx _ _ (word_read_B c i 94 (by decide) fb (k1_off283 i) rfl _ _) (hb _))) $$ HB94
  ihave HB95 := (row_settle_core c SB 95 _ _ _ (gath i fb fx) (by exact row_point_B c i 95 (by decide) _ fb fx _ _ (word_read_B c i 95 (by decide) fb (k1_off286 i) rfl _ _) (hb _))) $$ HB95
  ihave HB96 := (row_settle_core c SB 96 _ _ _ (gath i fb fx) (by exact row_point_B c i 96 (by decide) _ fb fx _ _ (word_read_B c i 96 (by decide) fb (k1_off289 i) rfl _ _) (hb _))) $$ HB96
  ihave HB97 := (row_settle_core c SB 97 _ _ _ (gath i fb fx) (by exact row_point_B c i 97 (by decide) _ fb fx _ _ (word_read_B c i 97 (by decide) fb (k1_off292 i) rfl _ _) (hb _))) $$ HB97
  ihave HB98 := (row_settle_core c SB 98 _ _ _ (gath i fb fx) (by exact row_point_B c i 98 (by decide) _ fb fx _ _ (word_read_B c i 98 (by decide) fb (k1_off295 i) rfl _ _) (hb _))) $$ HB98
  ihave HB99 := (row_settle_core c SB 99 _ _ _ (gath i fb fx) (by exact row_point_B c i 99 (by decide) _ fb fx _ _ (word_read_B c i 99 (by decide) fb (k1_off298 i) rfl _ _) (hb _))) $$ HB99
  ihave HB100 := (row_settle_core c SB 100 _ _ _ (gath i fb fx) (by exact row_point_B c i 100 (by decide) _ fb fx _ _ (word_read_B c i 100 (by decide) fb (k1_off301 i) rfl _ _) (hb _))) $$ HB100
  ihave HB101 := (row_settle_core c SB 101 _ _ _ (gath i fb fx) (by exact row_point_B c i 101 (by decide) _ fb fx _ _ (word_read_B c i 101 (by decide) fb (k1_off304 i) rfl _ _) (hb _))) $$ HB101
  ihave HB102 := (row_settle_core c SB 102 _ _ _ (gath i fb fx) (by exact row_point_B c i 102 (by decide) _ fb fx _ _ (word_read_B c i 102 (by decide) fb (k1_off307 i) rfl _ _) (hb _))) $$ HB102
  ihave HB103 := (row_settle_core c SB 103 _ _ _ (gath i fb fx) (by exact row_point_B c i 103 (by decide) _ fb fx _ _ (word_read_B c i 103 (by decide) fb (k1_off310 i) rfl _ _) (hb _))) $$ HB103
  ihave HB104 := (row_settle_core c SB 104 _ _ _ (gath i fb fx) (by exact row_point_B c i 104 (by decide) _ fb fx _ _ (word_read_B c i 104 (by decide) fb (k1_off313 i) rfl _ _) (hb _))) $$ HB104
  ihave HB105 := (row_settle_core c SB 105 _ _ _ (gath i fb fx) (by exact row_point_B c i 105 (by decide) _ fb fx _ _ (word_read_B c i 105 (by decide) fb (k1_off316 i) rfl _ _) (hb _))) $$ HB105
  ihave HB106 := (row_settle_core c SB 106 _ _ _ (gath i fb fx) (by exact row_point_B c i 106 (by decide) _ fb fx _ _ (word_read_B c i 106 (by decide) fb (k1_off319 i) rfl _ _) (hb _))) $$ HB106
  ihave HB107 := (row_settle_core c SB 107 _ _ _ (gath i fb fx) (by exact row_point_B c i 107 (by decide) _ fb fx _ _ (word_read_B c i 107 (by decide) fb (k1_off322 i) rfl _ _) (hb _))) $$ HB107
  ihave HB108 := (row_settle_core c SB 108 _ _ _ (gath i fb fx) (by exact row_point_B c i 108 (by decide) _ fb fx _ _ (word_read_B c i 108 (by decide) fb (k1_off325 i) rfl _ _) (hb _))) $$ HB108
  ihave HB109 := (row_settle_core c SB 109 _ _ _ (gath i fb fx) (by exact row_point_B c i 109 (by decide) _ fb fx _ _ (word_read_B c i 109 (by decide) fb (k1_off328 i) rfl _ _) (hb _))) $$ HB109
  ihave HB110 := (row_settle_core c SB 110 _ _ _ (gath i fb fx) (by exact row_point_B c i 110 (by decide) _ fb fx _ _ (word_read_B c i 110 (by decide) fb (k1_off331 i) rfl _ _) (hb _))) $$ HB110
  ihave HB111 := (row_settle_core c SB 111 _ _ _ (gath i fb fx) (by exact row_point_B c i 111 (by decide) _ fb fx _ _ (word_read_B c i 111 (by decide) fb (k1_off334 i) rfl _ _) (hb _))) $$ HB111
  ihave HB112 := (row_settle_core c SB 112 _ _ _ (gath i fb fx) (by exact row_point_B c i 112 (by decide) _ fb fx _ _ (word_read_B c i 112 (by decide) fb (k1_off337 i) rfl _ _) (hb _))) $$ HB112
  ihave HB113 := (row_settle_core c SB 113 _ _ _ (gath i fb fx) (by exact row_point_B c i 113 (by decide) _ fb fx _ _ (word_read_B c i 113 (by decide) fb (k1_off340 i) rfl _ _) (hb _))) $$ HB113
  ihave HB114 := (row_settle_core c SB 114 _ _ _ (gath i fb fx) (by exact row_point_B c i 114 (by decide) _ fb fx _ _ (word_read_B c i 114 (by decide) fb (k1_off343 i) rfl _ _) (hb _))) $$ HB114
  ihave HB115 := (row_settle_core c SB 115 _ _ _ (gath i fb fx) (by exact row_point_B c i 115 (by decide) _ fb fx _ _ (word_read_B c i 115 (by decide) fb (k1_off346 i) rfl _ _) (hb _))) $$ HB115
  ihave HB116 := (row_settle_core c SB 116 _ _ _ (gath i fb fx) (by exact row_point_B c i 116 (by decide) _ fb fx _ _ (word_read_B c i 116 (by decide) fb (k1_off349 i) rfl _ _) (hb _))) $$ HB116
  ihave HB117 := (row_settle_core c SB 117 _ _ _ (gath i fb fx) (by exact row_point_B c i 117 (by decide) _ fb fx _ _ (word_read_B c i 117 (by decide) fb (k1_off352 i) rfl _ _) (hb _))) $$ HB117
  ihave HB118 := (row_settle_core c SB 118 _ _ _ (gath i fb fx) (by exact row_point_B c i 118 (by decide) _ fb fx _ _ (word_read_B c i 118 (by decide) fb (k1_off355 i) rfl _ _) (hb _))) $$ HB118
  ihave HB119 := (row_settle_core c SB 119 _ _ _ (gath i fb fx) (by exact row_point_B c i 119 (by decide) _ fb fx _ _ (word_read_B c i 119 (by decide) fb (k1_off358 i) rfl _ _) (hb _))) $$ HB119
  ihave HB120 := (row_settle_core c SB 120 _ _ _ (gath i fb fx) (by exact row_point_B c i 120 (by decide) _ fb fx _ _ (word_read_B c i 120 (by decide) fb (k1_off361 i) rfl _ _) (hb _))) $$ HB120
  ihave HB121 := (row_settle_core c SB 121 _ _ _ (gath i fb fx) (by exact row_point_B c i 121 (by decide) _ fb fx _ _ (word_read_B c i 121 (by decide) fb (k1_off364 i) rfl _ _) (hb _))) $$ HB121
  ihave HB122 := (row_settle_core c SB 122 _ _ _ (gath i fb fx) (by exact row_point_B c i 122 (by decide) _ fb fx _ _ (word_read_B c i 122 (by decide) fb (k1_off367 i) rfl _ _) (hb _))) $$ HB122
  ihave HB123 := (row_settle_core c SB 123 _ _ _ (gath i fb fx) (by exact row_point_B c i 123 (by decide) _ fb fx _ _ (word_read_B c i 123 (by decide) fb (k1_off370 i) rfl _ _) (hb _))) $$ HB123
  ihave HB124 := (row_settle_core c SB 124 _ _ _ (gath i fb fx) (by exact row_point_B c i 124 (by decide) _ fb fx _ _ (word_read_B c i 124 (by decide) fb (k1_off373 i) rfl _ _) (hb _))) $$ HB124
  ihave HB125 := (row_settle_core c SB 125 _ _ _ (gath i fb fx) (by exact row_point_B c i 125 (by decide) _ fb fx _ _ (word_read_B c i 125 (by decide) fb (k1_off376 i) rfl _ _) (hb _))) $$ HB125
  ihave HB126 := (row_settle_core c SB 126 _ _ _ (gath i fb fx) (by exact row_point_B c i 126 (by decide) _ fb fx _ _ (word_read_B c i 126 (by decide) fb (k1_off379 i) rfl _ _) (hb _))) $$ HB126
  ihave HB127 := (row_settle_core c SB 127 _ _ _ (gath i fb fx) (by exact row_point_B c i 127 (by decide) _ fb fx _ _ (word_read_B c i 127 (by decide) fb (k1_off382 i) rfl _ _) (hb _))) $$ HB127
  -- the rows are the buffers again, at the gathered contents
  ihave H6 := (rows_join c SA (Memref.isWhole_whole _) (gath i fa fx)) $$ [HA0 HA1 HA2 HA3 HA4 HA5 HA6 HA7 HA8 HA9 HA10 HA11 HA12 HA13 HA14 HA15 HA16 HA17 HA18 HA19 HA20 HA21 HA22 HA23 HA24 HA25 HA26 HA27 HA28 HA29 HA30 HA31 HA32 HA33 HA34 HA35 HA36 HA37 HA38 HA39 HA40 HA41 HA42 HA43 HA44 HA45 HA46 HA47 HA48 HA49 HA50 HA51 HA52 HA53 HA54 HA55 HA56 HA57 HA58 HA59 HA60 HA61 HA62 HA63 HA64 HA65 HA66 HA67 HA68 HA69 HA70 HA71 HA72 HA73 HA74 HA75 HA76 HA77 HA78 HA79 HA80 HA81 HA82 HA83 HA84 HA85 HA86 HA87 HA88 HA89 HA90 HA91 HA92 HA93 HA94 HA95 HA96 HA97 HA98 HA99 HA100 HA101 HA102 HA103 HA104 HA105 HA106 HA107 HA108 HA109 HA110 HA111 HA112 HA113 HA114 HA115 HA116 HA117 HA118 HA119 HA120 HA121 HA122 HA123 HA124 HA125 HA126 HA127]
  · unfold rowsAt
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HA12]; · iexact HA12
    isplitl [HA13]; · iexact HA13
    isplitl [HA14]; · iexact HA14
    isplitl [HA15]; · iexact HA15
    isplitl [HA16]; · iexact HA16
    isplitl [HA17]; · iexact HA17
    isplitl [HA18]; · iexact HA18
    isplitl [HA19]; · iexact HA19
    isplitl [HA20]; · iexact HA20
    isplitl [HA21]; · iexact HA21
    isplitl [HA22]; · iexact HA22
    isplitl [HA23]; · iexact HA23
    isplitl [HA24]; · iexact HA24
    isplitl [HA25]; · iexact HA25
    isplitl [HA26]; · iexact HA26
    isplitl [HA27]; · iexact HA27
    isplitl [HA28]; · iexact HA28
    isplitl [HA29]; · iexact HA29
    isplitl [HA30]; · iexact HA30
    isplitl [HA31]; · iexact HA31
    isplitl [HA32]; · iexact HA32
    isplitl [HA33]; · iexact HA33
    isplitl [HA34]; · iexact HA34
    isplitl [HA35]; · iexact HA35
    isplitl [HA36]; · iexact HA36
    isplitl [HA37]; · iexact HA37
    isplitl [HA38]; · iexact HA38
    isplitl [HA39]; · iexact HA39
    isplitl [HA40]; · iexact HA40
    isplitl [HA41]; · iexact HA41
    isplitl [HA42]; · iexact HA42
    isplitl [HA43]; · iexact HA43
    isplitl [HA44]; · iexact HA44
    isplitl [HA45]; · iexact HA45
    isplitl [HA46]; · iexact HA46
    isplitl [HA47]; · iexact HA47
    isplitl [HA48]; · iexact HA48
    isplitl [HA49]; · iexact HA49
    isplitl [HA50]; · iexact HA50
    isplitl [HA51]; · iexact HA51
    isplitl [HA52]; · iexact HA52
    isplitl [HA53]; · iexact HA53
    isplitl [HA54]; · iexact HA54
    isplitl [HA55]; · iexact HA55
    isplitl [HA56]; · iexact HA56
    isplitl [HA57]; · iexact HA57
    isplitl [HA58]; · iexact HA58
    isplitl [HA59]; · iexact HA59
    isplitl [HA60]; · iexact HA60
    isplitl [HA61]; · iexact HA61
    isplitl [HA62]; · iexact HA62
    isplitl [HA63]; · iexact HA63
    isplitl [HA64]; · iexact HA64
    isplitl [HA65]; · iexact HA65
    isplitl [HA66]; · iexact HA66
    isplitl [HA67]; · iexact HA67
    isplitl [HA68]; · iexact HA68
    isplitl [HA69]; · iexact HA69
    isplitl [HA70]; · iexact HA70
    isplitl [HA71]; · iexact HA71
    isplitl [HA72]; · iexact HA72
    isplitl [HA73]; · iexact HA73
    isplitl [HA74]; · iexact HA74
    isplitl [HA75]; · iexact HA75
    isplitl [HA76]; · iexact HA76
    isplitl [HA77]; · iexact HA77
    isplitl [HA78]; · iexact HA78
    isplitl [HA79]; · iexact HA79
    isplitl [HA80]; · iexact HA80
    isplitl [HA81]; · iexact HA81
    isplitl [HA82]; · iexact HA82
    isplitl [HA83]; · iexact HA83
    isplitl [HA84]; · iexact HA84
    isplitl [HA85]; · iexact HA85
    isplitl [HA86]; · iexact HA86
    isplitl [HA87]; · iexact HA87
    isplitl [HA88]; · iexact HA88
    isplitl [HA89]; · iexact HA89
    isplitl [HA90]; · iexact HA90
    isplitl [HA91]; · iexact HA91
    isplitl [HA92]; · iexact HA92
    isplitl [HA93]; · iexact HA93
    isplitl [HA94]; · iexact HA94
    isplitl [HA95]; · iexact HA95
    isplitl [HA96]; · iexact HA96
    isplitl [HA97]; · iexact HA97
    isplitl [HA98]; · iexact HA98
    isplitl [HA99]; · iexact HA99
    isplitl [HA100]; · iexact HA100
    isplitl [HA101]; · iexact HA101
    isplitl [HA102]; · iexact HA102
    isplitl [HA103]; · iexact HA103
    isplitl [HA104]; · iexact HA104
    isplitl [HA105]; · iexact HA105
    isplitl [HA106]; · iexact HA106
    isplitl [HA107]; · iexact HA107
    isplitl [HA108]; · iexact HA108
    isplitl [HA109]; · iexact HA109
    isplitl [HA110]; · iexact HA110
    isplitl [HA111]; · iexact HA111
    isplitl [HA112]; · iexact HA112
    isplitl [HA113]; · iexact HA113
    isplitl [HA114]; · iexact HA114
    isplitl [HA115]; · iexact HA115
    isplitl [HA116]; · iexact HA116
    isplitl [HA117]; · iexact HA117
    isplitl [HA118]; · iexact HA118
    isplitl [HA119]; · iexact HA119
    isplitl [HA120]; · iexact HA120
    isplitl [HA121]; · iexact HA121
    isplitl [HA122]; · iexact HA122
    isplitl [HA123]; · iexact HA123
    isplitl [HA124]; · iexact HA124
    isplitl [HA125]; · iexact HA125
    isplitl [HA126]; · iexact HA126
    iexact HA127
  ihave H7 := (rows_join c SB (Memref.isWhole_whole _) (gath i fb fx)) $$ [HB0 HB1 HB2 HB3 HB4 HB5 HB6 HB7 HB8 HB9 HB10 HB11 HB12 HB13 HB14 HB15 HB16 HB17 HB18 HB19 HB20 HB21 HB22 HB23 HB24 HB25 HB26 HB27 HB28 HB29 HB30 HB31 HB32 HB33 HB34 HB35 HB36 HB37 HB38 HB39 HB40 HB41 HB42 HB43 HB44 HB45 HB46 HB47 HB48 HB49 HB50 HB51 HB52 HB53 HB54 HB55 HB56 HB57 HB58 HB59 HB60 HB61 HB62 HB63 HB64 HB65 HB66 HB67 HB68 HB69 HB70 HB71 HB72 HB73 HB74 HB75 HB76 HB77 HB78 HB79 HB80 HB81 HB82 HB83 HB84 HB85 HB86 HB87 HB88 HB89 HB90 HB91 HB92 HB93 HB94 HB95 HB96 HB97 HB98 HB99 HB100 HB101 HB102 HB103 HB104 HB105 HB106 HB107 HB108 HB109 HB110 HB111 HB112 HB113 HB114 HB115 HB116 HB117 HB118 HB119 HB120 HB121 HB122 HB123 HB124 HB125 HB126 HB127]
  · unfold rowsAt
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [HB14]; · iexact HB14
    isplitl [HB15]; · iexact HB15
    isplitl [HB16]; · iexact HB16
    isplitl [HB17]; · iexact HB17
    isplitl [HB18]; · iexact HB18
    isplitl [HB19]; · iexact HB19
    isplitl [HB20]; · iexact HB20
    isplitl [HB21]; · iexact HB21
    isplitl [HB22]; · iexact HB22
    isplitl [HB23]; · iexact HB23
    isplitl [HB24]; · iexact HB24
    isplitl [HB25]; · iexact HB25
    isplitl [HB26]; · iexact HB26
    isplitl [HB27]; · iexact HB27
    isplitl [HB28]; · iexact HB28
    isplitl [HB29]; · iexact HB29
    isplitl [HB30]; · iexact HB30
    isplitl [HB31]; · iexact HB31
    isplitl [HB32]; · iexact HB32
    isplitl [HB33]; · iexact HB33
    isplitl [HB34]; · iexact HB34
    isplitl [HB35]; · iexact HB35
    isplitl [HB36]; · iexact HB36
    isplitl [HB37]; · iexact HB37
    isplitl [HB38]; · iexact HB38
    isplitl [HB39]; · iexact HB39
    isplitl [HB40]; · iexact HB40
    isplitl [HB41]; · iexact HB41
    isplitl [HB42]; · iexact HB42
    isplitl [HB43]; · iexact HB43
    isplitl [HB44]; · iexact HB44
    isplitl [HB45]; · iexact HB45
    isplitl [HB46]; · iexact HB46
    isplitl [HB47]; · iexact HB47
    isplitl [HB48]; · iexact HB48
    isplitl [HB49]; · iexact HB49
    isplitl [HB50]; · iexact HB50
    isplitl [HB51]; · iexact HB51
    isplitl [HB52]; · iexact HB52
    isplitl [HB53]; · iexact HB53
    isplitl [HB54]; · iexact HB54
    isplitl [HB55]; · iexact HB55
    isplitl [HB56]; · iexact HB56
    isplitl [HB57]; · iexact HB57
    isplitl [HB58]; · iexact HB58
    isplitl [HB59]; · iexact HB59
    isplitl [HB60]; · iexact HB60
    isplitl [HB61]; · iexact HB61
    isplitl [HB62]; · iexact HB62
    isplitl [HB63]; · iexact HB63
    isplitl [HB64]; · iexact HB64
    isplitl [HB65]; · iexact HB65
    isplitl [HB66]; · iexact HB66
    isplitl [HB67]; · iexact HB67
    isplitl [HB68]; · iexact HB68
    isplitl [HB69]; · iexact HB69
    isplitl [HB70]; · iexact HB70
    isplitl [HB71]; · iexact HB71
    isplitl [HB72]; · iexact HB72
    isplitl [HB73]; · iexact HB73
    isplitl [HB74]; · iexact HB74
    isplitl [HB75]; · iexact HB75
    isplitl [HB76]; · iexact HB76
    isplitl [HB77]; · iexact HB77
    isplitl [HB78]; · iexact HB78
    isplitl [HB79]; · iexact HB79
    isplitl [HB80]; · iexact HB80
    isplitl [HB81]; · iexact HB81
    isplitl [HB82]; · iexact HB82
    isplitl [HB83]; · iexact HB83
    isplitl [HB84]; · iexact HB84
    isplitl [HB85]; · iexact HB85
    isplitl [HB86]; · iexact HB86
    isplitl [HB87]; · iexact HB87
    isplitl [HB88]; · iexact HB88
    isplitl [HB89]; · iexact HB89
    isplitl [HB90]; · iexact HB90
    isplitl [HB91]; · iexact HB91
    isplitl [HB92]; · iexact HB92
    isplitl [HB93]; · iexact HB93
    isplitl [HB94]; · iexact HB94
    isplitl [HB95]; · iexact HB95
    isplitl [HB96]; · iexact HB96
    isplitl [HB97]; · iexact HB97
    isplitl [HB98]; · iexact HB98
    isplitl [HB99]; · iexact HB99
    isplitl [HB100]; · iexact HB100
    isplitl [HB101]; · iexact HB101
    isplitl [HB102]; · iexact HB102
    isplitl [HB103]; · iexact HB103
    isplitl [HB104]; · iexact HB104
    isplitl [HB105]; · iexact HB105
    isplitl [HB106]; · iexact HB106
    isplitl [HB107]; · iexact HB107
    isplitl [HB108]; · iexact HB108
    isplitl [HB109]; · iexact HB109
    isplitl [HB110]; · iexact HB110
    isplitl [HB111]; · iexact HB111
    isplitl [HB112]; · iexact HB112
    isplitl [HB113]; · iexact HB113
    isplitl [HB114]; · iexact HB114
    isplitl [HB115]; · iexact HB115
    isplitl [HB116]; · iexact HB116
    isplitl [HB117]; · iexact HB117
    isplitl [HB118]; · iexact HB118
    isplitl [HB119]; · iexact HB119
    isplitl [HB120]; · iexact HB120
    isplitl [HB121]; · iexact HB121
    isplitl [HB122]; · iexact HB122
    isplitl [HB123]; · iexact HB123
    isplitl [HB124]; · iexact HB124
    isplitl [HB125]; · iexact HB125
    isplitl [HB126]; · iexact HB126
    iexact HB127
  -- the loads, the combination, the store
  sl_exec!
  sl_step
  iapply Hk
  isplitl [HTA]; · iexact HTA
  isplitl [HTB]; · iexact HTB
  isplitl [HX8 HX9 HX10 HX11 HX12 HX13 HX14 HX15 HX16 HX17 HX18 HX19 HX20 HX21 HX22 HX23 HX24 HX25 HX26 HX27 HX28 HX29 HX30 HX31 HX32 HX33 HX34 HX35 HX36 HX37 HX38 HX39 HX40 HX41 HX42 HX43 HX44 HX45 HX46 HX47 HX48 HX49 HX50 HX51 HX52 HX53 HX54 HX55 HX56 HX57 HX58 HX59 HX60 HX61 HX62 HX63 HX64 HX65 HX66 HX67 HX68 HX69 HX70 HX71]
  · unfold xtoks
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    isplitl [HX15]; · iexact HX15
    isplitl [HX16]; · iexact HX16
    isplitl [HX17]; · iexact HX17
    isplitl [HX18]; · iexact HX18
    isplitl [HX19]; · iexact HX19
    isplitl [HX20]; · iexact HX20
    isplitl [HX21]; · iexact HX21
    isplitl [HX22]; · iexact HX22
    isplitl [HX23]; · iexact HX23
    isplitl [HX24]; · iexact HX24
    isplitl [HX25]; · iexact HX25
    isplitl [HX26]; · iexact HX26
    isplitl [HX27]; · iexact HX27
    isplitl [HX28]; · iexact HX28
    isplitl [HX29]; · iexact HX29
    isplitl [HX30]; · iexact HX30
    isplitl [HX31]; · iexact HX31
    isplitl [HX32]; · iexact HX32
    isplitl [HX33]; · iexact HX33
    isplitl [HX34]; · iexact HX34
    isplitl [HX35]; · iexact HX35
    isplitl [HX36]; · iexact HX36
    isplitl [HX37]; · iexact HX37
    isplitl [HX38]; · iexact HX38
    isplitl [HX39]; · iexact HX39
    isplitl [HX40]; · iexact HX40
    isplitl [HX41]; · iexact HX41
    isplitl [HX42]; · iexact HX42
    isplitl [HX43]; · iexact HX43
    isplitl [HX44]; · iexact HX44
    isplitl [HX45]; · iexact HX45
    isplitl [HX46]; · iexact HX46
    isplitl [HX47]; · iexact HX47
    isplitl [HX48]; · iexact HX48
    isplitl [HX49]; · iexact HX49
    isplitl [HX50]; · iexact HX50
    isplitl [HX51]; · iexact HX51
    isplitl [HX52]; · iexact HX52
    isplitl [HX53]; · iexact HX53
    isplitl [HX54]; · iexact HX54
    isplitl [HX55]; · iexact HX55
    isplitl [HX56]; · iexact HX56
    isplitl [HX57]; · iexact HX57
    isplitl [HX58]; · iexact HX58
    isplitl [HX59]; · iexact HX59
    isplitl [HX60]; · iexact HX60
    isplitl [HX61]; · iexact HX61
    isplitl [HX62]; · iexact HX62
    isplitl [HX63]; · iexact HX63
    isplitl [HX64]; · iexact HX64
    isplitl [HX65]; · iexact HX65
    isplitl [HX66]; · iexact HX66
    isplitl [HX67]; · iexact HX67
    isplitl [HX68]; · iexact HX68
    isplitl [HX69]; · iexact HX69
    isplitl [HX70]; · iexact HX70
    iexact HX71
  isplitl [H4]
  · iexists f4; isplitr; · ipureintro; rfl
    iexact H4
  isplitl [H5]
  · iexists _; isplitr
    swap; · iexact H5
    ipureintro
    sl_unfold_run_names
    refine (View.read_writes_eq_canon _ _ _ (fun y => View.cover_of_tiled [⟨_, _⟩] S4096x128.size (by rfl) y)).trans ?_
    rw [View.canon_unit_zero zero_off2]
    unfold outBlk
    simp only [View.readAt_eq_ld, View.ld_unit_zero (S := S128x4096) zero_off2, View.ld_unit_zero (S := S128x4) zero_off2]
    rfl
  isplitl [H6]; · iexists _; iexact H6
  isplitl [H7]; · iexists _; iexact H7
  isplitl [Hd8 Hd9 Hd10 Hd11 Hd12 Hd13 Hd14 Hd15 Hd16 Hd17 Hd18 Hd19 Hd20 Hd21 Hd22 Hd23 Hd24 Hd25 Hd26 Hd27 Hd28 Hd29 Hd30 Hd31 Hd32 Hd33 Hd34 Hd35 Hd36 Hd37 Hd38 Hd39 Hd40 Hd41 Hd42 Hd43 Hd44 Hd45 Hd46 Hd47 Hd48 Hd49 Hd50 Hd51 Hd52 Hd53 Hd54 Hd55 Hd56 Hd57 Hd58 Hd59 Hd60 Hd61 Hd62 Hd63 Hd64 Hd65 Hd66 Hd67 Hd68 Hd69 Hd70 Hd71]
  · unfold sems0
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    isplitl [Hd31]; · iexact Hd31
    isplitl [Hd32]; · iexact Hd32
    isplitl [Hd33]; · iexact Hd33
    isplitl [Hd34]; · iexact Hd34
    isplitl [Hd35]; · iexact Hd35
    isplitl [Hd36]; · iexact Hd36
    isplitl [Hd37]; · iexact Hd37
    isplitl [Hd38]; · iexact Hd38
    isplitl [Hd39]; · iexact Hd39
    isplitl [Hd40]; · iexact Hd40
    isplitl [Hd41]; · iexact Hd41
    isplitl [Hd42]; · iexact Hd42
    isplitl [Hd43]; · iexact Hd43
    isplitl [Hd44]; · iexact Hd44
    isplitl [Hd45]; · iexact Hd45
    isplitl [Hd46]; · iexact Hd46
    isplitl [Hd47]; · iexact Hd47
    isplitl [Hd48]; · iexact Hd48
    isplitl [Hd49]; · iexact Hd49
    isplitl [Hd50]; · iexact Hd50
    isplitl [Hd51]; · iexact Hd51
    isplitl [Hd52]; · iexact Hd52
    isplitl [Hd53]; · iexact Hd53
    isplitl [Hd54]; · iexact Hd54
    isplitl [Hd55]; · iexact Hd55
    isplitl [Hd56]; · iexact Hd56
    isplitl [Hd57]; · iexact Hd57
    isplitl [Hd58]; · iexact Hd58
    isplitl [Hd59]; · iexact Hd59
    isplitl [Hd60]; · iexact Hd60
    isplitl [Hd61]; · iexact Hd61
    isplitl [Hd62]; · iexact Hd62
    isplitl [Hd63]; · iexact Hd63
    isplitl [Hd64]; · iexact Hd64
    isplitl [Hd65]; · iexact Hd65
    isplitl [Hd66]; · iexact Hd66
    isplitl [Hd67]; · iexact Hd67
    isplitl [Hd68]; · iexact Hd68
    isplitl [Hd69]; · iexact Hd69
    isplitl [Hd70]; · iexact Hd70
    iexact Hd71
  iexists _; iexact HO

end Cert.KernelIdeal.Gather

end
-- ==== Proof.Region1.lean ====
/-
  Region 1: the gather.

  The region walks 128 grid points. At point t it is handed block t (128 rows of 4 coefficients) of the coefficient
  array and produces block t (all 4096 rows of 128 consecutive columns) of the result. For each of the block's 128
  columns the body looks up two row numbers in two prefetched tables, copies those two rows of the transposed input
  into two scratch buffers, and combines the gathered rows with the coefficients. This module names the tables'
  contents as the region finds them, states what the body leaves in the result's buffer at every point, packages that
  as the region's proof data with the invariant the body relies on (the scoped memory it uses as scratch, the tables,
  the transposed array whole, and the body's own 64 semaphore cells at zero), and proves the body meets the
  description at every point.
-/
import proofs.«418221_j52063593562999_1_alg».proof.Proof.Gen.KernelIdeal.Launch
import proofs.«418221_j52063593562999_1_alg».proof.Proof.Gen.KernelIdeal.Skeleton
import proofs.«418221_j52063593562999_1_alg».proof.Proof.GatherBase
import proofs.«418221_j52063593562999_1_alg».proof.Proof.Body1
import Idealize.ShloMosaic.Lib.Pipeline.FrameBody
import Idealize.ShloMosaic.Lib.Pipeline.Kit
import Idealize.ShloMosaic.Lib.Pipeline.Value
import Idealize.ShloMosaic.Lib.Transfers
import Idealize.ShloMosaic.Lib.ValueIdx
import Idealize.ShloMosaic.Lib.Tactic
import Mathlib.Tactic.Convert

set_option maxRecDepth 16384

noncomputable section

namespace Cert.KernelIdeal.Region1

open Cert.KernelIdeal Cert.KernelIdeal.Gen Cert.KernelIdeal.Gather
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's own semaphore cells -/

/-- The body's 64 semaphore cells: the two arrays of 32 occupy the pool's numbers 8 to 71, after the eight cells the
    two regions' windows stage on. -/
abbrev osem : Fin 64 → SemLoc sig := fun k => .dma ⟨k.val + 8, by have := k.isLt; show k.val + 8 < 72; omega⟩

/-- They are scoped, pairwise distinct, and none is a cell a window of this region stages on. -/
theorem ownSemFacts : Pipeline.OwnSemFacts spec1 osem := by decide

omit [FloatOps F] in
/-- The 64 cells at zero, listed in order. -/
theorem ownSems0_eq (c : Dev nD) :
    (Pipeline.ownSems0 (Ix := Unit) (Name := ℕ) (U := UU) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)

/-! ## The tables' contents and the pipeline at them -/

-- the buffer contents when the region is entered
variable (V : (c : Dev nD) → (b : Ref sig .tc) → Buf (Elt F) ((c : Thread nD τ).loc b))

/-- The two tables' contents when the region is entered (there is one device: device 0's). -/
def tbl : pre1.Contents (Elt F) := fun j => V (0 : Dev nD) (pre1.ref j)

/-- On every device the tables hold those contents. -/
theorem V_pre (c : Dev nD) (j : Fin 2) : V c (pre1.ref j) = tbl V j := by
  obtain rfl : c = 0 := Subsingleton.elim _ _; rfl

/-- The tables' contents as admissible contents (no window's index map reads a table, so the side condition is
    empty), and the pipeline at them. -/
abbrev adm : (pcfg1 (F := F)).Adm := ⟨tbl V, by show ok1 (tbl V); unfold ok1; trivial⟩
abbrev cfgM : Pipeline.Cfg sig Λ₀ := cfg1 (adm V)

/-- The two tables held whole, table by table. -/
theorem tables_eq (c : Dev nD) :
    (Pipeline.prefHeld (Ix := Unit) (Name := ℕ) (U := UU) (Lvl := ℕ) pre1 c (fun _ => fullShare) (tbl V) : sProp 𝕄)
      = iprop(pt c TA fullShare (tbl V 0) ∗ pt c TB fullShare (tbl V 1)) := by
  unfold Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk1 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec1 w))

/-- The coefficient window's current buffer holds its block at every point, for any proof data whose coefficient array
    is the entry contents and whose body leaves the block in place: the window is never idle and never cut, so a point
    that does not fetch has the same block index as the one before it. -/
theorem before1_0_of {c : Dev nD} (dat : Dat τ (Elt F) Unit ℕ UU ℕ (cfgM V) c) (hA : dat.A 0 = V c (Pipeline.arrRef spec1 0))
    (hafter : ∀ t, dat.after 0 t = iblk1 V c 0 t) (t : Fin (cfgM V).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The region's invariant -/

/-- What the body relies on between points, beyond its two windows: the scoped memory that is no staging buffer of this
    region (among it the two scratch buffers the copies fill) with the generator register; the two tables whole; the
    transposed array whole at the contents the region finds, which the copies read; and the body's 64 cells at zero. -/
def Φ1 (c : Dev nD) : sProp 𝕄 :=
  iprop(Pipeline.ΦA spec1 c
    ∗ Pipeline.prefHeld (Ix := Unit) (Name := ℕ) (U := UU) (Lvl := ℕ) pre1 c (fun _ => fullShare) (tbl V)
    ∗ pt c XT fullShare (V c main_v12) ∗ sems0 c)

/-! ## What the body leaves in the result window's buffer -/

/-- The one rectangle the body stores through: the whole 4096 × 128 buffer. -/
abbrev r1_1 : Rect S4096x128 := Rect.unit (s := S4096x128) ![0, 0] S4096x128.size inb_S4096x128_S4096x128_0_0

theorem zero_off : (![0, 0] : Fin 2 → Nat) = fun _ => 0 := funext fun a => by fin_cases a <;> rfl

/-- The result buffer after the body at point `t`: one store over the whole buffer of the combination of the rows the two
    tables name at the point's 128 columns with the point's coefficient block. -/
def out1_1 (c : Dev nD) (t : Fin (cfgM V).N) : Vec F S4096x128 .f32 :=
  View.canon [⟨r1_1, outBlk (grid1.coords t) (tbl V 0) (tbl V 1) (V c main_v12) (iblk1 V c 0 t)⟩]

/-- One store over the whole buffer leaves exactly its payload. -/
theorem out1_1_eq (c : Dev nD) (t : Fin (cfgM V).N) :
    out1_1 V c t = outBlk (grid1.coords t) (tbl V 0) (tbl V 1) (V c main_v12) (iblk1 V c 0 t) := by
  unfold out1_1
  exact View.canon_unit_zero zero_off _ _

/-- The store's rectangle is the whole buffer, so every index of the buffer lies in it. -/
theorem cover1_1 (p0 : Vec F S4096x128 .f32) (y : S4096x128.Idx) :
    ∃ pc ∈ ([⟨r1_1, p0⟩] : List (View.Piece (Elt F) S4096x128 .f32)), y ∈ pc.1.set :=
  View.cover_of_tiled [⟨r1_1, p0⟩] S4096x128.size (by rfl) y

/-! ## The region's proof data -/

/-- The proof data of the region on core `c`: the arrays as the region finds them; after the body at point `t` the
    coefficient buffer at its block and the result buffer at the combination above; the invariant; nothing owed; full
    shares. -/
def dat1 (c : Dev nD) : Dat τ (Elt F) Unit ℕ UU ℕ (cfgM V) c where
  A w := V c (Pipeline.arrRef spec1 w)
  after w t := match w with
    | ⟨0, _⟩ => iblk1 V c 0 t
    | ⟨1, _⟩ => out1_1 V c t
  Φ _ := Φ1 V c
  q _ := fullShare
  owed _ := 0

/-- The proof data's arrays are the entry contents. -/
theorem A_eq1 (c : Dev nD) (w : Fin (cfgM V).W) : (dat1 V c).A w = V c (Pipeline.arrRef spec1 w) := by
  dsimp only [dat1]

/-- What the body leaves, window by window. -/
theorem after1_0 (c : Dev nD) (t : Fin (cfgM V).N) : (dat1 V c).after 0 t = iblk1 V c 0 t := by dsimp only [dat1]; try rfl
theorem after1_1 (c : Dev nD) (t : Fin (cfgM V).N) : (dat1 V c).after 1 t = out1_1 V c t := by dsimp only [dat1]; try rfl

/-- The coefficient window's current buffer holds its block at every point. -/
theorem before1_0 (c : Dev nD) (t : Fin (cfgM V).N) (d) : (dat1 V c).before 0 t d = iblk1 V c 0 t :=
  before1_0_of V (dat1 V c) (A_eq1 V c 0) (after1_0 V c) t d

/-! ## The transposed array as read shares -/

/-- The read shares of the transposed array the body does not take: what is left of the full share once 72 shares are
    split off it, and the first eight of those (the body's cells are numbers 8 to 71, and it takes the share of each
    cell's number). -/
abbrev xrest (c : Dev nD) (fx : Bf (F := F) c XT) : sProp 𝕄 :=
  iprop(pt c XT (Transfers.shareDrop fullShare 72) fx ∗ pt c XT (Transfers.shareTokN fullShare 0) fx ∗ pt c XT (Transfers.shareTokN fullShare 1) fx ∗ pt c XT (Transfers.shareTokN fullShare 2) fx ∗ pt c XT (Transfers.shareTokN fullShare 3) fx ∗ pt c XT (Transfers.shareTokN fullShare 4) fx ∗ pt c XT (Transfers.shareTokN fullShare 5) fx ∗ pt c XT (Transfers.shareTokN fullShare 6) fx ∗ pt c XT (Transfers.shareTokN fullShare 7) fx)

omit [FloatOps F] in
/-- The transposed array whole is what is left after 72 shares are split off, then the 72 shares in order: the first eight,
    then the 64 the body takes. -/
theorem xt_chain (c : Dev nD) (fx : Bf (F := F) c XT) :
    (pt c XT fullShare fx : sProp 𝕄)
      ⊣⊢ iprop(pt c XT (Transfers.shareDrop fullShare 72) fx ∗ pt c XT (Transfers.shareTokN fullShare 0) fx ∗ pt c XT (Transfers.shareTokN fullShare 1) fx ∗ pt c XT (Transfers.shareTokN fullShare 2) fx ∗ pt c XT (Transfers.shareTokN fullShare 3) fx ∗ pt c XT (Transfers.shareTokN fullShare 4) fx ∗ pt c XT (Transfers.shareTokN fullShare 5) fx ∗ pt c XT (Transfers.shareTokN fullShare 6) fx ∗ pt c XT (Transfers.shareTokN fullShare 7) fx ∗ xtoks c fx) := by
  have h := Transfers.pointsTo_toks_range (Ix := Unit) (Name := ℕ) (U := UU) (Lvl := ℕ) (Val := Elt F)
    (ℓ := XT.view.loc (c : Thread nD τ)) (S := Finset.univ) (f := fx) fullShare 72
  rw [bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] (by decide) (by decide)] at h
  exact h

omit [FloatOps F] in
/-- The transposed array whole is the shares the body takes together with those it does not. -/
theorem xt_shares (c : Dev nD) (fx : Bf (F := F) c XT) :
    (pt c XT fullShare fx : sProp 𝕄) ⊣⊢ iprop(xrest c fx ∗ xtoks c fx) := by
  have h := xt_chain c fx
  constructor
  · refine h.1.trans ?_
    iintro ⟨Hd, H0, H1, H2, H3, H4, H5, H6, H7, Hx⟩
    isplitr [Hx]
    · isplitl [Hd]; · iexact Hd
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact Hx
  · refine BIBase.Entails.trans ?_ h.2
    iintro ⟨⟨Hd, H0, H1, H2, H3, H4, H5, H6, H7⟩, Hx⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hx

/-! ## The body obligation, at a generic point -/

/-- The current staging memref of each window at point `t`. -/
abbrev st1_0 (t : Fin (cfgM V).N) : Memref sig .tc .vmem S128x4 .f32 := spec1_0.stage ((cfgM V).slots t 0)
abbrev hst1_0 (t : Fin (cfgM V).N) : (st1_0 V t).IsWhole := hstage1_0 (((cfgM V).slots t 0).cast nbuf1_0)
abbrev st1_1 (t : Fin (cfgM V).N) : Memref sig .tc .vmem S4096x128 .f32 := spec1_1.stage ((cfgM V).slots t 1)
abbrev hst1_1 (t : Fin (cfgM V).N) : (st1_1 V t).IsWhole := hstage1_1 (((cfgM V).slots t 1).cast nbuf1_1)

/-- The body at point `t`, on what the pipeline calls it with. -/
abbrev bodyAt1 (t : Fin (cfgM V).N) : Prog (TpuEff nD τ sig (Elt F) Λ₀ .tc) PUnit :=
  cc1__gather_kernel (grid1.coords t) TA (Memref.isWhole_whole _) TB (Memref.isWhole_whole _) XT (Memref.isWhole_whole _)
    (st1_0 V t) (hst1_0 V t) (st1_1 V t) (hst1_1 V t) SA (Memref.isWhole_whole _) SB (Memref.isWhole_whole _) cc1_scratch2 cc1_scratch3

/-- What the body is called with at point `t`, the windows one by one, -/
def bodyPre1 (c : Dev nD) (t : Fin (cfgM V).N) : sProp 𝕄 :=
  iprop((dat1 V c).Φ t.castSucc ∗ (dat1 V c).owesAt () t.castSucc
    ∗ (∃ d, owns (c : Thread nD τ) (st1_0 V t) fullShare ((dat1 V c).before 0 t d))
    ∗ (∃ d, owns (c : Thread nD τ) (st1_1 V t) fullShare ((dat1 V c).before 1 t d)))

/-- and what it returns. -/
def bodyPost1 (c : Dev nD) (t : Fin (cfgM V).N) : sProp 𝕄 :=
  iprop((dat1 V c).Φ t.succ ∗ (dat1 V c).owesAt () t.succ
    ∗ owns (c : Thread nD τ) (st1_0 V t) fullShare ((dat1 V c).after 0 t)
    ∗ owns (c : Thread nD τ) (st1_1 V t) fullShare ((dat1 V c).after 1 t))

/-- The body at any point. The coefficient buffer holds its block; the invariant yields the two tables, the two scratch
    buffers, the cells, and the transposed array, which is split into the shares the copies read through; the body's
    triple applies; afterwards the shares are joined back into the whole array and the invariant is put together
    again, the scratch buffers at whatever the copies left. -/
theorem sound_body1 (hidx : ∀ j : S16384.Idx, (tbl V 0 j).toNat < 16384 ∧ (tbl V 1 j).toNat < 16384) (c : Dev nD) (t : Fin (cfgM V).N) :
    bodyPre1 V c t ⊢ wp frame (wpE (defs₀ (F := F)) Variants.none c none) Set.univ (bodyAt1 V t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, out1_1_eq]
  rw [show (dat1 V c).Φ t.castSucc = Φ1 V c from rfl]
  unfold Φ1 Pipeline.ΦA; rw [tables_eq, scopedRest1_eq]
  unfold Dat.owesAt Pipeline.owesWithin
  rw [show (dat1 V c).owed t.castSucc = 0 from rfl]
  iintro ⟨⟨⟨⟨S0, S1, S2, S3, ⟨%f6, H6⟩, ⟨%f7, H7⟩⟩, Hr⟩, ⟨HTA, HTB⟩, HX, Hsems⟩, ⟨%W, %hW, HO⟩, ⟨%d0, H0⟩, ⟨%d1, H1⟩⟩
  ihave HX' := (xt_shares c (V c main_v12)).1 $$ HX
  icases HX' with ⟨Hxr, Hxt⟩
  iapply (kernelRun c (grid1.coords t) (st1_0 V t) (hst1_0 V t) (st1_1 V t) (hst1_1 V t) (tbl V 0) (tbl V 1) (V c main_v12) (iblk1 V c 0 t)
    (fun j => (hidx j).1) (fun j => (hidx j).2) fullShare fullShare f6 f7 W _)
  isplitl [HTA]; · iexact HTA
  isplitl [HTB]; · iexact HTB
  isplitl [Hxt]; · iexact Hxt
  isplitl [H0]; · iexact H0
  isplitl [H1]; · iexists _; iexact H1
  isplitl [H6]; · iexact H6
  isplitl [H7]; · iexact H7
  isplitl [Hsems]; · iexact Hsems
  isplitl [HO]; · iexact HO
  iintro ⟨HTA, HTB, Hxt, H0, H1, ⟨%g6, H6⟩, ⟨%g7, H7⟩, Hsems, ⟨%W', HO⟩⟩
  isplitl [S0 S1 S2 S3 H6 H7 Hr HTA HTB Hxr Hxt Hsems]
  · isplitl [S0 S1 S2 S3 H6 H7 Hr]
    · isplitl [S0 S1 S2 S3 H6 H7]
      · isplitl [S0]; · iexact S0
        isplitl [S1]; · iexact S1
        isplitl [S2]; · iexact S2
        isplitl [S3]; · iexact S3
        isplitl [H6]; · iexists g6; iexact H6
        iexists g7; iexact H7
      iexact Hr
    isplitl [HTA HTB]
    · isplitl [HTA]; · iexact HTA
      iexact HTB
    isplitl [Hxr Hxt]
    · iapply (xt_shares c (V c main_v12)).2
      isplitl [Hxr]; · iexact Hxr
      iexact Hxt
    iexact Hsems
  isplitl [HO]
  · iexists W'; isplitr; · ipureintro; exact fun _ _ => Or.inl trivial
    iexact HO
  isplitl [H0]; · iexact H0
  iexact H1

/-- The body obligation, at every point, for tables whose every word names a row of the transposed array. -/
theorem body_obligation1 (hidx : ∀ j : S16384.Idx, (tbl V 0 j).toNat < 16384 ∧ (tbl V 1 j).toNat < 16384) (c : Dev nD) :
    BodyObligation (dat1 (F := F) V c) (defs₀ (F := F)) Variants.none () Set.univ := fun t => by
  rw [bigSep_W1, bigSep_W1]
  -- the obligation, window by window, is the statement above: no window of this region is ever idle, the staging
  -- memrefs and the body's call are the ones named there; compared piece by piece
  have h := sound_body1 V hidx c t
  unfold bodyPre1 bodyPost1 bodyAt1 at h
  convert h using 7 <;> rfl

end Cert.KernelIdeal.Region1

end
-- ==== Proof.Run.lean ====
/-
  The kernel program's run, from the launch to the return: the host stretch that computes the coefficient array, the
  transpose region, the gather region. Between two items a core holds every unscoped buffer at a named valuation:
  the launch memory, then what the host stretch computes, then the transposed array in place, then the result in
  place. Each region is entered from that state — its windows' arrays split out of the unscoped buffers, what its
  body needs routed into its invariant — and left at the next. The run's post names the result array and says the
  four argument arrays end as launched; the frame claim forgets the first.
-/
import proofs.«418221_j52063593562999_1_alg».proof.Proof.Region0
import proofs.«418221_j52063593562999_1_alg».proof.Proof.Region1
import proofs.«418221_j52063593562999_1_alg».proof.Proof.Gen.KernelIdeal.Regions
import Idealize.ShloMosaic.Lib.Pipeline.RegionsLoop

noncomputable section

namespace Cert.KernelIdeal.Run

open Cert.KernelIdeal Cert.KernelIdeal.Gen Cert.KernelIdeal.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The pipeline library's algebra is the left component of the certificate's. -/
abbrev EP : Emb (UR sig nD τ) (MT nD τ sig Unit (Elt F) ℕ UU ℕ) := embL

variable (m : (ℓ : Loc nD τ sig) → Buf (Elt F) ℓ) (ρ : Dev nD → PrngReg)

/-! ## The buffers' contents at the boundaries -/

/-- When the transpose region is entered: the host stretch has run. -/
abbrev VR1 : (c : Dev nD) → (b : Ref sig .tc) → Buf (Elt F) ((c : Thread nD τ).loc b) := fun c b => V1 m c b

/-- What the transpose region leaves in its result array. -/
def T12 (c : Dev nD) : Buf (Elt F) ((c : Thread nD τ).loc main_v12) := (Region0.dat0 (VR1 m) c).arrAt 1 cfg0.N

/-- The regions' results as far as the gather region's entry: the transposed array. -/
def outs2 : Outs (F := F) := fun _ => Function.update (fun r c => m ((c : Thread nD τ).loc r)) main_v12 (T12 m)

/-- When the gather region is entered. -/
abbrev VR2 : (c : Dev nD) → (b : Ref sig .tc) → Buf (Elt F) ((c : Thread nD τ).loc b) := fun c b => V2 m (outs2 m) c b

/-- What the gather region leaves in its result array. -/
def O13 (c : Dev nD) : Buf (Elt F) ((c : Thread nD τ).loc main_v13) := (Region1.dat1 (VR2 m) c).arrAt 1 (Region1.cfgM (VR2 m)).N

/-- The regions' results: the transposed array (which the gather region leaves as it found it) and the result. -/
def outs : Outs (F := F) := fun _ =>
  Function.update (Function.update (fun r c => m ((c : Thread nD τ).loc r)) main_v13 (O13 m)) main_v12 (T12 m)

theorem outs_v12 (J : ℕ) (c : Dev nD) : outs m J main_v12 c = T12 m c := by
  unfold outs; rw [Function.update_self]
theorem outs2_v12 (J : ℕ) (c : Dev nD) : outs2 m J main_v12 c = T12 m c := by
  unfold outs2; rw [Function.update_self]
theorem outs_v13 (J : ℕ) (c : Dev nD) : outs m J main_v13 c = O13 m c := by
  unfold outs; rw [Function.update_of_ne (by decide : main_v13 ≠ main_v12), Function.update_self]

/-- The gather region's entry contents do not depend on its own result. -/
theorem V2_outs (c : Dev nD) : V2 m (outs m) c = V2 m (outs2 m) c := by
  unfold V2; rw [outs_v12, outs2_v12]

/-- After the gather region. -/
abbrev VR3 : (c : Dev nD) → (b : Ref sig .tc) → Buf (Elt F) ((c : Thread nD τ).loc b) := fun c b => V3 m (outs m) c b

theorem VR2_v12 (c : Dev nD) : VR2 m c main_v12 = T12 m c := by
  show V2 m (outs2 m) c (Proc.devRef .tc main_v12) = _
  unfold V2; rw [Function.update_self, outs2_v12]
theorem VR3_v12 (c : Dev nD) : VR3 m c main_v12 = T12 m c := by
  show V3 m (outs m) c (Proc.devRef .tc main_v12) = _
  unfold V3; rw [Function.update_self, outs_v12]
theorem VR3_v13 (c : Dev nD) : VR3 m c main_v13 = O13 m c := by
  show V3 m (outs m) c (Proc.devRef .tc main_v13) = _
  unfold V3
  rw [Function.update_of_ne (StableHlo.devRef_ne_of_ne (by decide : main_v13 ≠ main_v12)), Function.update_self, outs_v13]

/-! ## The proof data family -/

/-- The prefetched tables' admissible contents: the transpose has none; the gather's are the two index arrays. -/
abbrev adm : (p : Fin 2) → (pcfgs (F := F) p).Adm
  | ⟨0, _⟩ => cfg0.toPCfg_adm
  | ⟨1, _⟩ => Region1.adm (VR2 m)

/-- Each pipeline's proof data at its region's entry contents. -/
def pdats : (p : Fin 2) → (c : Dev nD) → Dat τ (Elt F) Unit ℕ UU ℕ (Pipeline.pin (pcfgs (F := F)) (adm m) p) c
  | ⟨0, _⟩ => fun c => Region0.dat0 (VR1 m) c
  | ⟨1, _⟩ => fun c => Region1.dat1 (VR2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core's debts, none. -/
abbrev R (c : Dev nD) : sProp 𝕄 := iprop((∃ r, prngReg c r) ∗ ∃ W, owes (c : Thread nD τ) (0 : CellTallies nD τ sig Unit) W)

/-! ## The transpose region as a segment -/

theorem hF0 (c : Dev nD) (w : Fin cfg0.W) : (Region0.dat0 (VR1 m) c).arrAt w cfg0.N = V2 m (outs m) c (Pipeline.arrRef spec0 w) := by
  match w with
  | ⟨0, _⟩ =>
    refine ((Region0.dat0 (VR1 m) c).arrAt_in 0 rfl _).trans ((Region0.A_eq0 (VR1 m) c 0).trans ?_)
    exact (V2_of m (outs m) c main_arg0 (by decide)).symm
  | ⟨1, _⟩ =>
    show _ = V2 m (outs m) c (Proc.devRef .tc main_v12)
    unfold V2; rw [Function.update_self, outs_v12]; rfl

theorem hrest0 (c : Dev nD) : ∀ b, b ∉ Finset.univ.image (Pipeline.arrRef spec0) → V2 m (outs m) c b = V1 m c b := fun b hb =>
  V2_of m (outs m) c b (by
    intro h
    rcases List.mem_singleton.mp h with rfl
    exact hb (Finset.mem_image.mpr ⟨1, Finset.mem_univ _, rfl⟩))

set_option backward.isDefEq.respectTransparency.types false in
/-- The transpose region: entered with every unscoped buffer as the host stretch left it, left with the transposed
    array in place; its arrays split out of the unscoped buffers and put back; the generator register into the
    invariant and out; nothing owed; no semaphore of the kernel's own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Region0.body_obligation0 (VR1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UU) (Lvl := ℕ) spec0 c (VR1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UU) (Lvl := ℕ)
      (launch0 (F := F)).win (launch0 (F := F)).arr_whole c (pdats m) ((pdats m 0 c).share_full fun _ => rfl)
      (VR1 m c) (fun b => V2 m (outs m) c b) ((pdats m 0 c).arrAt · cfg0.N) (hF0 m c) (fun b hb => hrest0 m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The gather region as a segment -/

/-- The unscoped buffers that bypass the gather region: neither a window's array, nor a table, nor the transposed
    array (which its body's copies read, so it goes through the invariant). -/
abbrev Z1 (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg1) ↦{fullShare} V main_arg1) ∗ (((c : Thread nD τ).loc main_cst) ↦{fullShare} V main_cst) ∗ (((c : Thread nD τ).loc main_cst_0) ↦{fullShare} V main_cst_0) ∗ (((c : Thread nD τ).loc main_v0) ↦{fullShare} V main_v0) ∗ (((c : Thread nD τ).loc main_cst_1) ↦{fullShare} V main_cst_1) ∗ (((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_cst_2) ↦{fullShare} V main_cst_2) ∗ (((c : Thread nD τ).loc main_v7) ↦{fullShare} V main_v7) ∗ (((c : Thread nD τ).loc main_v8) ↦{fullShare} V main_v8) ∗ (((c : Thread nD τ).loc main_v9) ↦{fullShare} V main_v9) ∗ (((c : Thread nD τ).loc main_v10) ↦{fullShare} V main_v10))

theorem restP1_split (c : Dev nD) (V : (b : Ref sig .tc) → Buf (Elt F) ((c : Thread nD τ).loc b)) :
    (Pipeline.unscopedRestP (Ix := Unit) (Name := ℕ) (U := UU) (Lvl := ℕ) pre1 spec1 c V : sProp 𝕄)
      ⊣⊢ iprop(Z1 c V ∗ pt c XT fullShare (V main_v12)) := by
  rw [unscopedRestP1_eq]
  constructor
  · iintro ⟨H0, H1, H2, H3, H4, H5, H6, H7, H8, H9, H10, H11, H12, H13, H14, H15, H16, Hx⟩
    isplitr [Hx]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iexact Hx
  · iintro ⟨⟨H0, H1, H2, H3, H4, H5, H6, H7, H8, H9, H10, H11, H12, H13, H14, H15, H16⟩, Hx⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact Hx

theorem tbl_eq (c : Dev nD) : (fun k => VR2 m c (pre1.ref k)) = Region1.tbl (VR2 m) := by
  obtain rfl : c = 0 := Subsingleton.elim _ _; rfl

theorem hF1 (c : Dev nD) (w : Fin (Region1.cfgM (VR2 m)).W) :
    (Region1.dat1 (VR2 m) c).arrAt w (Region1.cfgM (VR2 m)).N = V3 m (outs m) c (Pipeline.arrRef spec1 w) := by
  match w with
  | ⟨0, _⟩ =>
    refine ((Region1.dat1 (VR2 m) c).arrAt_in 0 rfl _).trans ((Region1.A_eq1 (VR2 m) c 0).trans ?_)
    show V2 m (outs2 m) c (Proc.devRef .tc main_v11) = V3 m (outs m) c (Proc.devRef .tc main_v11)
    rw [← V2_outs]; exact (V3_of m (outs m) c main_v11 (by decide)).symm
  | ⟨1, _⟩ => exact (VR3_v13 m c).symm

theorem hrest1 (c : Dev nD) : ∀ b, b ∉ Finset.univ.image (Pipeline.arrRef spec1) → VR3 m c b = VR2 m c b := fun b hb => by
  by_cases h12 : b = main_v12
  · subst h12; rw [VR3_v12, VR2_v12]
  · show V3 m (outs m) c b = V2 m (outs2 m) c b
    rw [← V2_outs]
    refine V3_of m (outs m) c b ?_
    intro h
    rcases List.mem_cons.mp h with rfl | h
    · exact hb (Finset.mem_image.mpr ⟨1, Finset.mem_univ _, rfl⟩)
    · exact h12 (List.mem_singleton.mp h)

set_option backward.isDefEq.respectTransparency.types false in
/-- The gather region: entered with the transposed array in place, left with the result in place. Out of the
    unscoped buffers come its two windows' arrays, its two tables, and the transposed array, which goes into the
    invariant with the generator register and the kernel's 64 cells; the rest bypasses it. -/
def reg1 (hidx : ∀ j, (Region1.tbl (VR2 m) 0 j).toNat < 16384 ∧ (Region1.tbl (VR2 m) 1 j).toNat < 16384) : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 64
  osem := Region1.osem
  ho := Region1.ownSemFacts
  hbody c := (Region1.body_obligation1 (VR2 m) hidx c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop((∃ r, prngReg c r) ∗ pt c XT fullShare (VR2 m c main_v12) ∗ sems0 c)
  Y c := iprop((∃ r, prngReg c r) ∗ Pipeline.prefHeld (Ix := Unit) (Name := ℕ) (U := UU) (Lvl := ℕ) pre1 c (fun _ => fullShare) (Region1.tbl (VR2 m))
    ∗ pt c XT fullShare (VR2 m c main_v12))
  Z c := Z1 c (VR2 m c)
  hentry c := by
    rw [Region1.ownSems0_eq, V2_outs]
    have hsplit := Pipeline.arrays_of_unscopedBufs (p := 1) (pcfgs (F := F)) (adm m) (pdats m) (launch1 (F := F)).win (launch1 (F := F)).arr_whole c
      ((pdats m 1 c).share_full fun _ => rfl) (VR2 m c) fun _ => rfl
    rw [Pipeline.unscopedBufs_held, show (Pipeline.pin (pcfgs (F := F)) (adm m) 1).spec = spec1 from rfl, Pipeline.unscopedRest_split preFacts1, tbl_eq] at hsplit
    iintro ⟨⟨Hub, Hp, HO⟩, Hos, -⟩
    ihave H := hsplit $$ Hub
    icases H with ⟨Ha, Ht, Hrest⟩
    ihave Hrest' := (restP1_split c (VR2 m c)).1 $$ Hrest
    icases Hrest' with ⟨Hz, Hx⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hx Hos]
    · isplitl [Hp]; · iexact Hp
      isplitl [Hx]; · iexact Hx
      iexact Hos
    iexact Hz
  hin c := by
    rw [show (pdats m 1 c).Φ 0 = Region1.Φ1 (VR2 m) c from rfl]; unfold Region1.Φ1 Pipeline.ΦA
    iintro ⟨⟨Hp, Hx, Hos⟩, Ht, Hr⟩
    isplitl [Hr Hp]
    · isplitl [Hr]; · iexact Hr
      iexact Hp
    isplitl [Ht]; · iexact Ht
    isplitl [Hx]; · iexact Hx
    iexact Hos
  hout c := by
    rw [Region1.ownSems0_eq, show (pdats m 1 c).Φ (Fin.last _) = Region1.Φ1 (VR2 m) c from rfl]; unfold Region1.Φ1 Pipeline.ΦA
    iintro ⟨⟨Hr, Hp⟩, Ht, Hx, Hos⟩
    isplitl [Hp Ht Hx]
    · isplitl [Hp]; · iexact Hp
      isplitl [Ht]; · iexact Ht
      iexact Hx
    isplitl [Hos]; · iexact Hos
    iexact Hr
  hexit c := by
    have hjoin := Pipeline.unscopedBufs_of_arrays (p := 1) (pcfgs (F := F)) (adm m) (Ix := Unit) (Name := ℕ) (U := UU) (Lvl := ℕ)
      (launch1 (F := F)).win (launch1 (F := F)).arr_whole c (pdats m) ((pdats m 1 c).share_full fun _ => rfl)
      (VR2 m c) (VR3 m c) ((pdats m 1 c).arrAt · (Region1.cfgM (VR2 m)).N) (hF1 m c) (hrest1 m c)
    rw [Pipeline.unscopedBufs_held, show (Pipeline.pin (pcfgs (F := F)) (adm m) 1).spec = spec1 from rfl, Pipeline.unscopedRest_split preFacts1, tbl_eq] at hjoin
    iintro ⟨Ha, HO, ⟨Hp, Ht, Hx⟩, Hz⟩
    ihave Hrest := (restP1_split c (VR2 m c)).2 $$ [Hz Hx]
    · isplitl [Hz]; · iexact Hz
      iexact Hx
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The launch -/

/-- The launch element: the pipeline library's at the staging cells; no counter yet. -/
def u₀ : UU := (initOf (Pipeline.cells (Pipeline.pin (pcfgs (F := F)) (adm m)) (cellOf_inj (adm m))) (Pipeline.launchToks (Pipeline.pin (pcfgs (F := F)) (adm m)) (cellOf_inj (adm m))), 1)

/-- @main's three items as segments. -/
abbrev segsAt (hidx : ∀ j, (Region1.tbl (VR2 m) 0 j).toNat < 16384 ∧ (Region1.tbl (VR2 m) 1 j).toNat < 16384) (c : Dev nD) : List (Pipeline.Seg (pcfgs (F := F)) (adm m) (pdats m) () defs₀ 𝒱₀ L lv) :=
  [.host (seg0 m 𝒱₀ L lv (fun _ => R)), .region (reg0 m), .region (reg1 m hidx)]

set_option backward.isDefEq.respectTransparency.types false in
/-- At the compiled mesh, from any memory with zero counters whose index tables hold row numbers: every weakly fair
    execution of @main terminates, nothing faulting, and every final state holds the result array at what the gather
    region leaves and each argument array as launched. -/
theorem run_main (hidx : ∀ j, (Region1.tbl (VR2 m) 0 j).toNat < 16384 ∧ (Region1.tbl (VR2 m) 1 j).toNat < 16384) : θ_run defs (onTc (τ := τ) (main (F := F))) ⟨m, fun _ => 0, ρ⟩ (fun r => ∀ c : Dev nD,
      r.2.mem ((c.tc : Thread nD τ).loc main_v13) = O13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) (adm m) (pdats m) () (cellOf_inj (adm m)) EP defs₀ 𝒱₀ L lv m ρ main
    (segsAt m hidx)
    (fun c Q => by
      rewrite [main_chain c, Pipeline.Seg.run_eq_chain,
        show (segsAt m hidx c).map Pipeline.Seg.prog = [
          StableHlo.seq hostOps0,
          Prog.lift (.customCall (Pipeline.entry 0) ()),
          Prog.lift (.customCall (Pipeline.entry 1) ()) ] from rfl]
      exact .rfl)
    (fun c => by simp only [segsAt, Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V3 m (outs m) c) ∗ ∃ r, prngReg c r))
    (hch := fun c => ⟨.rfl, .rfl, .rfl, by
      show iprop(StableHlo.held (c : Thread nD τ) (Pipeline.ucRefs τ sig) (V3 m (outs m) c) ∗ R c)
        ⊢ iprop((StableHlo.held (c : Thread nD τ) (Pipeline.ucRefs τ sig) (V3 m (outs m) c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := ?_)
    (QY := fun c s => s.mem ((c.tc : Thread nD τ).loc main_v13) = O13 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v13) (Finset.mem_filter.mpr ⟨StableHlo.devRef_mem_tcRefs main_v13, by decide⟩)).trans (VR3_v13 m c),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c)⟩
    · iexact HSI

end Cert.KernelIdeal.Run

end
-- ==== Proof.KChain.lean ====
/-
  The kernel program's coefficient array is the reference's. The kernel program begins with the same 16 host operations
  as the reference: each row of the weights less its maximum, exponentiated, divided by the row's sum (the softmax of the
  row), then contracted with the constant [16, 4] table. What those operations leave in the coefficient buffer, from a
  launch memory, is therefore the reference's function `kOf` of the launch contents of the weights. The two programs
  state the operations over their own copies of the constant table and of the contraction's dimension record; the copies
  are equal (the table entry by entry, the record field by field), and with them the two composed terms agree.
-/
import proofs.«418221_j52063593562999_1_alg».proof.Proof.Gen.KernelIdeal.Regions
import proofs.«418221_j52063593562999_1_alg».proof.Proof.RefRun

noncomputable section

namespace Cert.KernelIdeal.KChain

open Cert.KernelIdeal Cert.KernelIdeal.Gen Idealize.ShloMosaic Idealize.ShloMosaic.TcCoe Idealize.SL.Sem Idealize.ShloMosaic.StableHlo

variable {F : FTy → Type} [FloatOps F]

/-- The two copies of the constant table agree at each of the 64 positions. -/
theorem lit0_apply : ∀ i : Fin 64, Cert.KernelIdeal.lit0 i = Cert.ReferenceIdeal.lit0 i := by decide

/-- The two copies of the constant table are one function. -/
theorem lit0_eq : Cert.KernelIdeal.lit0 = Cert.ReferenceIdeal.lit0 := funext lit0_apply

/-- The two copies of the contraction's dimension record (rows of the softmax against rows of the table) are equal. -/
theorem dot_eq :
    Cert.KernelIdeal.dot_S16384x16_S16x4_S16384x4_1_0_0_1_n_n = Cert.ReferenceIdeal.dot_S16384x16_S16x4_S16384x4_1_0_0_1_n_n := rfl

/-- After the kernel program's 16 host operations, from launch memory `m`, the coefficient buffer of core `c` holds
    the reference's coefficient function of the weights' launch contents. -/
theorem V1_v11 (m : (ℓ : Loc nD τ sig) → Buf (Elt F) ℓ) (c : Dev nD) :
    V1 m c (Proc.devRef .tc main_v11) = Cert.ReferenceIdeal.RefRun.kOf (F := F) (m ((c.tc : Thread nD τ).loc main_arg1)) := by
  show StableHlo.after hostOps0 (fun b => m (c, b)) (Proc.devRef .tc main_v11) = _
  after_results
  rw [lit0_eq, dot_eq]
  rfl

end Cert.KernelIdeal.KChain

end
-- ==== Proof.Value1.lean ====
/-
  Region 1: what the gather leaves in its output array.

  At grid point t the body holds two [128, 4096] buffers, whose row r is the row of the transposed input that the
  first (second) index table names at position 128·t + r, and the [128, 4] block of coefficients of output columns
  128·t … 128·t + 127. It combines them row by row as ((k0 + k1·a) + k2·b) + k3·(a·b), transposes the result to
  [4096, 128], and that block is written back as columns 128·t … 128·t + 127 of the [4096, 16384] result. This module
  reads the block at an index, then the whole result array index by index, and finally identifies it with the shared
  specification when the gathered array is the transpose of the input.
-/
import proofs.«418221_j52063593562999_1_alg».proof.Proof.GatherBase
import Idealize.ShloMosaic.Lib.Pipeline.Value
import Idealize.ShloMosaic.Lib.ValueIdx
import Idealize.ShloMosaic.PureOps.Ideal

set_option maxRecDepth 16384

noncomputable section

namespace Cert.KernelIdeal.Value1

open Cert.KernelIdeal.Gen Cert.KernelIdeal.Gather
open Idealize.ShloMosaic Idealize.ShloMosaic.TcCoe
open Idealize.ShloMosaic.Pipeline (Dat Cfg Window)

/-! ## The block at an index -/

/-- A column of the coefficient block, spread along the rows of a [128, 4096] array: at (r, n) it is the block's entry
    (r, cc), whatever n. The block is first cast to its own shape, then column `cc` is cut out as a [128, 1] array, then
    that is repeated along the second axis. -/
theorem coef_col {α : Type} (kb : S128x4.Idx → α) (off : Fin 2 → Nat) (cc : Fin 4) (h0 : off 0 = 0) (h1 : off 1 = cc.val)
    (hc : S128x4.ShapeCasts S128x4) (hs : S128x4.Slices off S128x1) (hb : S128x1.Broadcasts S128x4096) (r : Fin 128) (n : Fin 4096) :
    broadcastTo S128x4096 (extractStridedSlice S128x1 off (shapeCast S128x4 kb hc) hs) hb (ValueIdx.ix2 r n) = kb (ValueIdx.ix2 r cc) := by
  rw [shapeCast_self]
  refine (broadcastTo_apply _ hb (ValueIdx.ix2 r n) (ValueIdx.ix2 r (0 : Fin 1)) (fun a => ?_)).trans ?_
  · fin_cases a <;> rfl
  refine extractStridedSlice_apply off kb hs (ValueIdx.ix2 r (0 : Fin 1)) (ValueIdx.ix2 r cc) (fun a => ?_)
  fin_cases a
  · show r.val = off 0 + r.val; omega
  · show cc.val = off 1 + 0; omega

/-- The body's result at column r of the block and row n: the four coefficients of row r of the coefficient block
    combined with the two gathered buffers' entries (r, n). -/
theorem pay_apply (a b : Vec Ideal S128x4096 .f32) (kb : Vec Ideal S128x4 .f32) (n : Fin 4096) (r : Fin 128) :
    k1_pay1 (F := Ideal) a b kb (ValueIdx.ix2 n r)
      = ((kb (ValueIdx.ix2 r (0 : Fin 4)) + kb (ValueIdx.ix2 r (1 : Fin 4)) * a (ValueIdx.ix2 r n)) + kb (ValueIdx.ix2 r (2 : Fin 4)) * b (ValueIdx.ix2 r n))
        + kb (ValueIdx.ix2 r (3 : Fin 4)) * (a (ValueIdx.ix2 r n) * b (ValueIdx.ix2 r n)) := by
  unfold k1_pay1
  refine (transpose_apply _ _ _ (ValueIdx.ix2 n r) (ValueIdx.ix2 r n) (fun b => by fin_cases b <;> rfl)).trans ?_
  simp only [ValueIdx.addf_apply, ValueIdx.mulf_apply]
  rw [coef_col kb ![0, 0] 0 rfl rfl, coef_col kb ![0, 1] 1 rfl rfl, coef_col kb ![0, 2] 2 rfl rfl, coef_col kb ![0, 3] 3 rfl rfl]

/-- The output block at an index. -/
theorem outBlk_apply (i : grid1.Coords) (fa fb : S16384.Idx → BitVec 32) (fx : S16384x4096.Idx → Elt Ideal .f32) (kb : Vec Ideal S128x4 .f32)
    (n : Fin 4096) (r : Fin 128) :
    outBlk (F := Ideal) i fa fb fx kb (ValueIdx.ix2 n r)
      = ((kb (ValueIdx.ix2 r (0 : Fin 4)) + kb (ValueIdx.ix2 r (1 : Fin 4)) * gath i fa fx (ValueIdx.ix2 r n)) + kb (ValueIdx.ix2 r (2 : Fin 4)) * gath i fb fx (ValueIdx.ix2 r n))
        + kb (ValueIdx.ix2 r (3 : Fin 4)) * (gath i fa fx (ValueIdx.ix2 r n) * gath i fb fx (ValueIdx.ix2 r n)) := by
  unfold outBlk
  exact pay_apply _ _ kb n r

/-! ## The pipeline's structure, at any admissible contents of the tables -/

open Idealize.ShloMosaic.ValueIdx (eq_ix2)

variable (a : (pcfg1 (F := Ideal)).Adm)

/-- The windows' block indices are the printed index maps at the grid point, whatever the tables hold. -/
theorem index0 (t : Fin (cfg1 a).N) : ((cfg1 a).win 0).index t = cc1_transform_1 (grid1.coords t) := rfl
theorem index1 (t : Fin (cfg1 a).N) : ((cfg1 a).win 1).index t = cc1_transform_2 (grid1.coords t) := rfl

/-- Over the 128 points: point t is at grid coordinate t; the coefficient window is at block (t, 0) and the result
    window at block (0, t). -/
theorem transform_facts : ∀ t : Fin grid1.N,
    ((grid1.coords t) 0).val = t.val
    ∧ cc1_transform_1 (grid1.coords t) (0 : Fin 2) = t.val ∧ cc1_transform_1 (grid1.coords t) (1 : Fin 2) = 0
    ∧ cc1_transform_2 (grid1.coords t) (0 : Fin 2) = 0 ∧ cc1_transform_2 (grid1.coords t) (1 : Fin 2) = t.val :=
  by decide +kernel

/-- The result window is written back at every point: its block index moves at every step. -/
theorem flush_all : ∀ t : Fin grid1.N, Pipeline.Window.flushOf grid1 true cc1_transform_2 t = true := by decide +kernel

theorem flush1 (t : Fin (cfg1 a).N) : ((cfg1 a).win 1).flush t = true := flush_all t

theorem N1 : (cfg1 a).N = 128 := (by decide : grid1.N = 128)

/-! ## From the blocks to the array -/

theorem zero_off : (![0, 0] : Fin 2 → Nat) = fun _ => 0 := funext fun a => by fin_cases a <;> rfl

/-- The result array, index by index: at row n and column y, the four coefficients of column y combined with the
    entries, in column n, of the two rows of `fx` that the tables name at y. -/
def result (kk : S16384x4.Idx → Elt Ideal .f32) (fa fb : S16384.Idx → BitVec 32) (fx : S16384x4096.Idx → Elt Ideal .f32) :
    S4096x16384.Idx → Elt Ideal .f32 := fun i =>
  ((kk (ValueIdx.ix2 (i 1) (0 : Fin 4)) + kk (ValueIdx.ix2 (i 1) (1 : Fin 4)) * fx (ValueIdx.ix2 (Cert.Spec.col (fa (ValueIdx.ix1 (i 1)))) (i 0)))
      + kk (ValueIdx.ix2 (i 1) (2 : Fin 4)) * fx (ValueIdx.ix2 (Cert.Spec.col (fb (ValueIdx.ix1 (i 1)))) (i 0)))
    + kk (ValueIdx.ix2 (i 1) (3 : Fin 4)) * (fx (ValueIdx.ix2 (Cert.Spec.col (fa (ValueIdx.ix1 (i 1)))) (i 0)) * fx (ValueIdx.ix2 (Cert.Spec.col (fb (ValueIdx.ix1 (i 1)))) (i 0)))

/-- Row r of a gathered buffer at grid coordinate i is the row of `fx` named by the table at y = 128·i + r, when that is
    below 16384. -/
theorem gath_apply (i : grid1.Coords) (ft : S16384.Idx → BitVec 32) (fx : S16384x4096.Idx → Elt Ideal .f32)
    (r : Fin 128) (n : Fin 4096) (y : Fin 16384) (hy : y.val = 128 * (i 0).val + r.val) :
    gath i ft fx (ValueIdx.ix2 r n) = fx (ValueIdx.ix2 (Cert.Spec.col (ft (ValueIdx.ix1 y))) n) := by
  unfold gath
  have hlt : y.val < 16384 := y.isLt
  have e : (⟨(128 * (i 0).val + r.val) % 16384, Nat.mod_lt _ (by decide)⟩ : Fin 16384) = y :=
    Fin.ext (by show (128 * (i 0).val + r.val) % 16384 = y.val; omega)
  show fx (ValueIdx.ix2 (Cert.Spec.col (ft (ValueIdx.ix1 (⟨(128 * (i 0).val + r.val) % 16384, Nat.mod_lt _ (by decide)⟩ : Fin 16384)))) n) = _
  rw [e]

/-- The output block at grid coordinate i, at its index j = (n, r), is the result array at (n, y) for y = 128·i + r,
    when the coefficient block's row r is the coefficient array's row y. -/
theorem block_eq (i : grid1.Coords) (fa fb : S16384.Idx → BitVec 32) (fx : S16384x4096.Idx → Elt Ideal .f32)
    (kk : S16384x4.Idx → Elt Ideal .f32) (kb : Vec Ideal S128x4 .f32) (j : S4096x128.Idx) (y : Fin 16384)
    (hy : y.val = 128 * (i 0).val + (j 1).val) (hk : ∀ cc : Fin 4, kb (ValueIdx.ix2 (j 1) cc) = kk (ValueIdx.ix2 y cc)) :
    outBlk (F := Ideal) i fa fb fx kb j = result kk fa fb fx (ValueIdx.ix2 (j 0) y) := by
  obtain ⟨n, r, rfl⟩ : ∃ (n : Fin 4096) (r : Fin 128), j = ValueIdx.ix2 n r := ⟨j 0, j 1, eq_ix2 j⟩
  rw [outBlk_apply, gath_apply i fa fx r n y hy, gath_apply i fb fx r n y hy, hk 0, hk 1, hk 2, hk 3]
  rfl

section Array

variable (c : Dev nD) (dat : Dat τ (Elt Ideal) Unit ℕ Cert.KernelIdeal.Gather.UU ℕ (cfg1 a) c)
  (kk : S16384x4.Idx → Elt Ideal .f32) (fa fb : S16384.Idx → BitVec 32) (fx : S16384x4096.Idx → Elt Ideal .f32)
  (kblk : Fin (cfg1 a).N → Vec Ideal S128x4 .f32)

/-- What point t writes back is block t of the result array, when the body leaves there the output block built from a
    coefficient block whose row r is row 128·t + r of the coefficient array. -/
theorem flushed1_eq
    (hk : ∀ (t : Fin (cfg1 a).N) (r : Fin 128) (cc : Fin 4) (y : Fin 16384), y.val = 128 * t.val + r.val →
      kblk t (ValueIdx.ix2 r cc) = kk (ValueIdx.ix2 y cc))
    (hafter1 : ∀ t : Fin (cfg1 a).N, dat.after 1 t = View.canon [⟨Rect.unit (s := S4096x128) ![0, 0] S4096x128.size inb_S4096x128_S4096x128_0_0,
      outBlk (F := Ideal) (grid1.coords t) fa fb fx (kblk t)⟩])
    (t : Fin (cfg1 a).N) :
    dat.flushed 1 t = (((cfg1 a).win 1).blk t).view.read (Elt Ideal) (result kk fa fb fx) := by
  show ((cfg1 a).win 1).cut ((cfg1 a).grid.coords t) (dat.after 1 t) = _
  rw [hafter1]
  rw [View.canon_unit_zero zero_off]
  obtain ⟨g0, -, -, f0, f1⟩ := transform_facts t
  have ht : t.val < 128 := lt_of_lt_of_eq t.isLt (N1 a)
  refine funext fun (j : S4096x128.Idx) => ?_
  have hj1 : (j 1).val < 128 := (j 1).isLt
  show outBlk (F := Ideal) (grid1.coords t) fa fb fx (kblk t) j = result kk fa fb fx ((((cfg1 a).win 1).blk t).view.emb j)
  refine (block_eq (grid1.coords t) fa fb fx kk (kblk t) j ⟨128 * t.val + (j 1).val, by omega⟩
    (by show 128 * t.val + (j 1).val = 128 * ((grid1.coords t) 0).val + (j 1).val; omega)
    (fun cc => hk t (j 1) cc _ rfl)).trans ?_
  refine congrArg (result kk fa fb fx) ?_
  funext ax; apply Fin.ext
  match ax with
  | ⟨0, _⟩ => show (j 0).val = ((cfg1 a).win 1).index t (0 : Fin 2) * 4096 + 1 * (j 0).val; rw [index1]; omega
  | ⟨1, _⟩ => show 128 * t.val + (j 1).val = ((cfg1 a).win 1).index t (1 : Fin 2) * 128 + 1 * (j 1).val; rw [index1]; omega

/-- An index of the result array is in point t's block exactly when each coordinate is in the block's range on its axis. -/
theorem mem_blk1 (t : Fin (cfg1 a).N) (i : S4096x16384.Idx) :
    i ∈ (((cfg1 a).win 1).blk t).view.set ↔ ∀ ax : Fin 2, ((cfg1 a).win 1).index t ax * S4096x128.size ax ≤ (i ax).val
      ∧ (i ax).val < ((cfg1 a).win 1).index t ax * S4096x128.size ax + S4096x128.size ax := by
  show i ∈ ((View.whole main_v13).slice (((cfg1 a).win 1).rect t)).set ↔ _
  have h : ((View.whole main_v13).slice (((cfg1 a).win 1).rect t)).set = (((cfg1 a).win 1).rect t).set :=
    View.set_slice_whole main_v13 _
  refine (Finset.ext_iff.mp h i).trans ?_
  exact Rect.mem_set_unit

/-- Every entry (n, y) of the result array is written back by point y / 128, at column y mod 128 of its block. -/
theorem cover1 (i : S4096x16384.Idx) : ∃ t : Fin (cfg1 a).N, ((cfg1 a).win 1).flush t = true ∧ i ∈ (((cfg1 a).win 1).blk t).view.set := by
  have hi0 : (i 0).val < 4096 := (i 0).isLt
  have hi1 : (i 1).val < 16384 := (i 1).isLt
  have hlt : (i 1).val / 128 < (cfg1 a).N := by rw [N1]; omega
  obtain ⟨-, -, -, f0, f1⟩ := transform_facts ⟨_, hlt⟩
  have f1' : cc1_transform_2 (grid1.coords ⟨_, hlt⟩) (1 : Fin 2) = (i 1).val / 128 := f1
  refine ⟨⟨_, hlt⟩, flush1 a _, ?_⟩
  rw [mem_blk1]
  intro ax
  match ax with
  | ⟨0, _⟩ =>
    show ((cfg1 a).win 1).index ⟨_, hlt⟩ (0 : Fin 2) * 4096 ≤ (i 0).val ∧ (i 0).val < ((cfg1 a).win 1).index ⟨_, hlt⟩ (0 : Fin 2) * 4096 + 4096
    rw [index1]; omega
  | ⟨1, _⟩ =>
    show ((cfg1 a).win 1).index ⟨_, hlt⟩ (1 : Fin 2) * 128 ≤ (i 1).val ∧ (i 1).val < ((cfg1 a).win 1).index ⟨_, hlt⟩ (1 : Fin 2) * 128 + 128
    rw [index1]; omega

/-- After the region the result array is `result`, for any proof data whose body leaves the output block at every point,
    the coefficient block given as any family whose row r at point t is row 128·t + r of the coefficient array. -/
theorem final1_of_blocks
    (hk : ∀ (t : Fin (cfg1 a).N) (r : Fin 128) (cc : Fin 4) (y : Fin 16384), y.val = 128 * t.val + r.val →
      kblk t (ValueIdx.ix2 r cc) = kk (ValueIdx.ix2 y cc))
    (hafter1 : ∀ t : Fin (cfg1 a).N, dat.after 1 t = View.canon [⟨Rect.unit (s := S4096x128) ![0, 0] S4096x128.size inb_S4096x128_S4096x128_0_0,
      outBlk (F := Ideal) (grid1.coords t) fa fb fx (kblk t)⟩]) :
    dat.arrAt 1 (cfg1 a).N = result kk fa fb fx :=
  dat.arrAt_eq_of_cover 1 (result kk fa fb fx) (fun t _ => flushed1_eq a c dat kk fa fb fx kblk hk hafter1 t) (cover1 a)

/-- The coefficient window's block at point t, read off the coefficient array, has as row r the array's row 128·t + r. -/
theorem coef_block (t : Fin (cfg1 a).N) (r : Fin 128) (cc : Fin 4) (y : Fin 16384) (hy : y.val = 128 * t.val + r.val) :
    ((((cfg1 a).win 0).blk t).view.read (Elt Ideal) kk : Vec Ideal S128x4 .f32) (ValueIdx.ix2 r cc) = kk (ValueIdx.ix2 y cc) := by
  obtain ⟨-, k0, k1, -, -⟩ := transform_facts t
  show kk ((((cfg1 a).win 0).blk t).view.emb (ValueIdx.ix2 r cc)) = kk (ValueIdx.ix2 y cc)
  refine congrArg kk ?_
  funext ax; apply Fin.ext
  match ax with
  | ⟨0, _⟩ => show ((cfg1 a).win 0).index t (0 : Fin 2) * 128 + 1 * r.val = y.val; rw [index0]; omega
  | ⟨1, _⟩ => show ((cfg1 a).win 0).index t (1 : Fin 2) * 4 + 1 * cc.val = cc.val; rw [index0]; omega

/-- The same with the coefficient block read off the coefficient array through the coefficient window, and the result
    array written out index by index. -/
theorem final1_of
    (hafter1 : ∀ t : Fin (cfg1 a).N, dat.after 1 t = View.canon [⟨Rect.unit (s := S4096x128) ![0, 0] S4096x128.size inb_S4096x128_S4096x128_0_0,
      outBlk (F := Ideal) (grid1.coords t) fa fb fx ((((cfg1 a).win 0).blk t).view.read (Elt Ideal) kk)⟩]) :
    dat.arrAt 1 (cfg1 a).N = fun i : S4096x16384.Idx =>
      ((kk (ValueIdx.ix2 (i 1) (0 : Fin 4)) + kk (ValueIdx.ix2 (i 1) (1 : Fin 4)) * fx (ValueIdx.ix2 (Cert.Spec.col (fa (ValueIdx.ix1 (i 1)))) (i 0)))
          + kk (ValueIdx.ix2 (i 1) (2 : Fin 4)) * fx (ValueIdx.ix2 (Cert.Spec.col (fb (ValueIdx.ix1 (i 1)))) (i 0)))
        + kk (ValueIdx.ix2 (i 1) (3 : Fin 4)) * (fx (ValueIdx.ix2 (Cert.Spec.col (fa (ValueIdx.ix1 (i 1)))) (i 0)) * fx (ValueIdx.ix2 (Cert.Spec.col (fb (ValueIdx.ix1 (i 1)))) (i 0))) :=
  final1_of_blocks a c dat kk fa fb fx (fun t => (((cfg1 a).win 0).blk t).view.read (Elt Ideal) kk) (coef_block a kk) hafter1

end Array

/-! ## The result array and the shared specification -/

/-- When the gathered array is the transpose of x, the result array is the specification's function of the
    coefficients, x and the two tables. -/
theorem result_of_transposed (kk : S16384x4.Idx → Elt Ideal .f32) (fa fb : S16384.Idx → BitVec 32) (x : S4096x16384.Idx → Elt Ideal .f32) :
    result kk fa fb (fun i => x (ValueIdx.ix2 (i 1) (i 0))) = Cert.Spec.out kk x fa fb := by
  funext i
  obtain ⟨n, y, rfl⟩ : ∃ (n : Fin 4096) (y : Fin 16384), i = ValueIdx.ix2 n y := ⟨i 0, i 1, eq_ix2 i⟩
  rw [Cert.Spec.out_apply]
  rfl

end Cert.KernelIdeal.Value1

end
-- ==== Proof.ValueRun.lean ====
/-
  The kernel program's result array is the specification. The gather region leaves, at row n and column y of the result,
  the four coefficients of column y combined with the entries, in column n, of the two rows of the transposed array that
  the index tables name at y. When the region is entered the coefficient array is what the host stretch computed, which
  is the reference's coefficient function of the launched weights; the tables are the launched index arrays, which no
  earlier item writes; and the transposed array is what the transpose region left, the transpose of the launched input.
  With these the result array is the shared specification's function of the launched arguments.
-/
import proofs.«418221_j52063593562999_1_alg».proof.Proof.Run
import proofs.«418221_j52063593562999_1_alg».proof.Proof.KChain
import proofs.«418221_j52063593562999_1_alg».proof.Proof.Value1

noncomputable section

namespace Cert.KernelIdeal.ValueRun

open Cert.KernelIdeal Cert.KernelIdeal.Gen Cert.KernelIdeal.Gather
open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ)

/-- An array the regions before the gather leave alone is, when the gather is entered, as launched. -/
theorem VR2_of_launch (c : Dev nD) (r : Ref sig .tc) (h2 : r ∉ ([main_v12] : List (Ref sig .tc))) (h1 : r ∉ hostOps0_W) :
    Run.VR2 m c r = m ((c.tc : Thread nD τ).loc r) :=
  (V2_of m (Run.outs2 m) c r h2).trans (V1_of m c r h1)

/-- The coefficient array the gather finds is the reference's coefficient function of the launched weights. -/
theorem kk_eq (c : Dev nD) :
    Run.VR2 m c main_v11 = Cert.ReferenceIdeal.RefRun.kOf (F := F) (m ((c.tc : Thread nD τ).loc main_arg1)) :=
  (V2_of m (Run.outs2 m) c main_v11 (by decide)).trans (KChain.V1_v11 m c)

/-- The two index tables the gather finds are the launched index arrays. -/
theorem tbl0_eq (c : Dev nD) : Region1.tbl (Run.VR2 m) 0 = m ((c.tc : Thread nD τ).loc main_arg2) := by
  obtain rfl : c = 0 := Subsingleton.elim _ _
  exact VR2_of_launch m 0 main_arg2 (by decide) (by decide)
theorem tbl1_eq (c : Dev nD) : Region1.tbl (Run.VR2 m) 1 = m ((c.tc : Thread nD τ).loc main_arg3) := by
  obtain rfl : c = 0 := Subsingleton.elim _ _
  exact VR2_of_launch m 0 main_arg3 (by decide) (by decide)

/-- The array the gather reads rows of is the transpose of the launched input. -/
theorem fx_eq (c : Dev nD) :
    Run.VR2 m c main_v12 = fun i => m ((c.tc : Thread nD τ).loc main_arg0) (ix2 (i 1) (i 0)) := by
  refine (Run.VR2_v12 m c).trans ((Region0.final0 (Run.VR1 m) c).trans ?_)
  rw [show Run.VR1 m c main_arg0 = m ((c.tc : Thread nD τ).loc main_arg0) from V1_of m c main_arg0 (by decide)]

/-- What the gather region leaves in the result array is the specification's function of the reference's coefficient
    function of the launched weights, the launched input, and the two launched index arrays. -/
theorem O13_eq (m : (ℓ : Loc nD τ sig) → Buf (Elt Ideal) ℓ) (c : Dev nD) :
    Cert.KernelIdeal.Run.O13 (F := Ideal) m c
      = Cert.Spec.out (Cert.ReferenceIdeal.RefRun.kOf (F := Ideal) (m ((c.tc : Thread nD τ).loc main_arg1)))
          (m ((c.tc : Thread nD τ).loc main_arg0)) (m ((c.tc : Thread nD τ).loc main_arg2)) (m ((c.tc : Thread nD τ).loc main_arg3)) := by
  refine (Value1.final1_of (Region1.adm (Run.VR2 m)) c (Region1.dat1 (Run.VR2 m) c) (Run.VR2 m c main_v11)
    (Region1.tbl (Run.VR2 m) 0) (Region1.tbl (Run.VR2 m) 1) (Run.VR2 m c main_v12) (fun t => Region1.after1_1 (Run.VR2 m) c t)).trans ?_
  rw [kk_eq, tbl0_eq m c, tbl1_eq m c, fx_eq]
  exact Value1.result_of_transposed _ _ _ _

end Cert.KernelIdeal.ValueRun

end
-- ==== Proof.Bits.Region0.lean ====
/-
  Region 0: the tiled transpose.

  The region walks an 8 × 32 grid. At grid point (i, j) it reads the 512 × 512 block (i, j) of the [4096, 16384]
  input array, transposes that block, and writes the result to block (j, i) of the [16384, 4096] output array. This
  module states what the body does to one pair of blocks, packages that as the region's proof data (the arrays as the
  region finds them, each window's buffer after the body at every point, an invariant that the body never touches),
  proves the body meets that description at every grid point, and concludes that after the last point the output array
  is the transpose of the input array as the region found it.
-/
import proofs.«418221_j52063593562999_1_alg».proof.Proof.Gen.Kernel.Launch
import proofs.«418221_j52063593562999_1_alg».proof.Proof.Gen.Kernel.Skeleton
import proofs.«418221_j52063593562999_1_alg».proof.Proof.Gen.Kernel.Points
import Idealize.ShloMosaic.Lib.Pipeline.FrameBody
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.Region0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The user resources: the machine's own, paired with the transfer counters that the other region's copies draw on.
    This region uses neither half. -/
abbrev UU : Type := UR sig nD τ × Counters

local notation "𝕄" => MT nD τ sig Unit (Elt F) ℕ UU ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose input array is the
    entry contents and whose body leaves the input block in place: the window is never idle and never cut, so a
    point that does not fetch has the same block index as the one before it. -/
theorem before0_0_of {c : Dev nD} (dat : Dat τ (Elt F) Unit ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle the body reads and writes: the whole 512 × 512 buffer. -/
abbrev r0_0 : Rect S512x512 := Rect.unit (s := S512x512) ![0, 0] S512x512.size inb_S512x512_S512x512_0_0

/-! ## What the body leaves in the output window's buffer -/

/-- The output buffer after the body, from the input block: one store of the transposed block over the whole buffer. -/
def out0_1 (x0 : Vec F S512x512 .f32) : Vec F S512x512 .f32 :=
  View.canon [⟨r0_0, k0_pay1 (View.ld x0 r0_0)⟩]

/-- The store's rectangle is the whole buffer, so every index of the buffer lies in it. -/
theorem cover0_1 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-! ## The body's triple -/

set_option maxHeartbeats 1000000 in
/-- The body on whole staging buffers, the input's holding `x0` and the output's holding anything, runs to a state where
    the input's still holds `x0` and the output's holds `out0_1 x0`. It loads the input buffer, loads the output buffer
    (a value it never uses), and stores the transpose over the output buffer. -/
theorem sound_kernel0 (c : Dev nD) (E : Set ℕ) (i : grid0.Coords) (arg2 : Memref sig .tc .vmem S512x512 .f32) (harg2 : arg2.IsWhole) (arg3 : Memref sig .tc .vmem S512x512 .f32) (harg3 : arg3.IsWhole)
    (x0 : Vec F S512x512 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__transpose_kernel i arg2 harg2 arg3 harg3) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The region's proof data -/

/-- The proof data of the region on core `c`: the arrays as the region finds them; after the body at point `t` the input
    buffer at its block and the output buffer at the transposed input block; the invariant is the scoped memory the
    body does not use and the generator register, both untouched; nothing owed; full shares. -/
def dat0 (c : Dev nD) : Dat τ (Elt F) Unit ℕ UU ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The value: what the region leaves in the output array -/

open Idealize.ShloMosaic.ValueIdx

theorem zero_off : (![0, 0] : Fin 2 → Nat) = fun _ => 0 := funext fun a => by fin_cases a <;> rfl

/-- The transpose of the input array as the region finds it: entry (r, s) of the [16384, 4096] array is entry (s, r)
    of the [4096, 16384] one. -/
def transposed (c : Dev nD) : S16384x4096.Idx → Elt F .f32 := fun i => V c main_arg0 (ix2 (i 1) (i 0))

/-- The stored block is the loaded block with its two coordinates exchanged. -/
theorem stored_block_apply (x0 : Vec F S512x512 .f32) (j : S512x512.Idx) : k0_pay1 x0 j = x0 (ix2 (j 1) (j 0)) := by
  unfold k0_pay1
  exact transpose_apply _ _ _ j _ (fun b => by fin_cases b <;> rfl)

/-- The two windows' block indices over the grid: point number `t` of the 8 × 32 grid is (t / 32, t mod 32); the input
    window is at block (t / 32, t mod 32) and the output window at block (t mod 32, t / 32). -/
theorem block_indices : ∀ t : Fin cfg0.N,
    win0_0.index t (0 : Fin 2) = t.val / 32 ∧ win0_0.index t (1 : Fin 2) = t.val % 32
    ∧ win0_1.index t (0 : Fin 2) = t.val % 32 ∧ win0_1.index t (1 : Fin 2) = t.val / 32 :=
  (by decide +kernel : ∀ t : Fin grid0.N, _)

/-- What point `t` writes back is block `t` of the transposed input array. -/
theorem flushed0_1_eq (c : Dev nD) (t : Fin cfg0.N) :
    (dat0 V c).flushed 1 t = ((cfg0.win 1).blk t).view.read (Elt F) (transposed V c) := by
  show (cfg0.win 1).cut (grid0.coords t) ((dat0 V c).after 1 t) = _
  rw [after0_1]
  unfold out0_1
  rw [View.canon_unit_zero zero_off]
  simp only [View.ld_unit_zero (S := S512x512) zero_off]
  obtain ⟨e0, e1, e2, e3⟩ := block_indices t
  funext j
  show k0_pay1 (iblk0 V c 0 t) j = transposed V c (((cfg0.win 1).blk t).view.emb j)
  refine (stored_block_apply _ j).trans ?_
  show V c main_arg0 (((cfg0.win 0).blk t).view.emb (ix2 (j 1) (j 0)))
      = V c main_arg0 (ix2 ((((cfg0.win 1).blk t).view.emb j) 1) ((((cfg0.win 1).blk t).view.emb j) 0))
  refine congrArg (V c main_arg0) ?_
  funext a; apply Fin.ext
  match a with
  | ⟨0, _⟩ => show win0_0.index t (0 : Fin 2) * 512 + 1 * (j 1).val = win0_1.index t (1 : Fin 2) * 512 + 1 * (j 1).val; omega
  | ⟨1, _⟩ => show win0_0.index t (1 : Fin 2) * 512 + 1 * (j 0).val = win0_1.index t (0 : Fin 2) * 512 + 1 * (j 0).val; omega

/-- An index of the output array is in point `t`'s block exactly when each coordinate is in the block's range on its axis. -/
theorem mem_out_block (t : Fin cfg0.N) (i : S16384x4096.Idx) :
    i ∈ ((cfg0.win 1).blk t).view.set ↔ ∀ a : Fin 2, win0_1.index t a * S512x512.size a ≤ (i a).val ∧ (i a).val < win0_1.index t a * S512x512.size a + S512x512.size a := by
  show i ∈ ((View.whole main_v12).slice (win0_1.rect t)).set ↔ _
  rw [View.set_slice_whole, Rect.mem_set_unit]
  exact Iff.rfl

/-- Every entry (r, s) of the output array is written back by some point: the one at grid position (s / 512, r / 512),
    whose output block is (r / 512, s / 512). -/
theorem out_blocks_cover (i : S16384x4096.Idx) : ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 256 := N_0
  have hlt : (i 1).val / 512 * 32 + (i 0).val / 512 < cfg0.N := by rw [hN]; omega
  obtain ⟨e0, e1, e2, e3⟩ := block_indices ⟨_, hlt⟩
  have e2' : win0_1.index ⟨_, hlt⟩ (0 : Fin 2) = ((i 1).val / 512 * 32 + (i 0).val / 512) % 32 := e2
  have e3' : win0_1.index ⟨_, hlt⟩ (1 : Fin 2) = ((i 1).val / 512 * 32 + (i 0).val / 512) / 32 := e3
  refine ⟨⟨_, hlt⟩, flush0_1 _, ?_⟩
  rw [mem_out_block]
  intro a
  match a with
  | ⟨0, _⟩ => show win0_1.index ⟨_, hlt⟩ (0 : Fin 2) * 512 ≤ (i 0).val ∧ (i 0).val < win0_1.index ⟨_, hlt⟩ (0 : Fin 2) * 512 + 512; omega
  | ⟨1, _⟩ => show win0_1.index ⟨_, hlt⟩ (1 : Fin 2) * 512 ≤ (i 1).val ∧ (i 1).val < win0_1.index ⟨_, hlt⟩ (1 : Fin 2) * 512 + 512; omega

/-- After the region, the output array is the transpose of the input array as the region found it. -/
theorem final0 (c : Dev nD) : (dat0 V c).arrAt 1 cfg0.N = fun i => V c main_arg0 (ix2 (i 1) (i 0)) :=
  (dat0 V c).arrAt_eq_of_cover 1 (transposed V c) (fun t _ => flushed0_1_eq V c t) out_blocks_cover

end Cert.Kernel.Region0

end
-- ==== Proof.Bits.GatherBase.lean ====
/-
  The gather kernel's operands and the shapes its body's resources take. The kernel copies, for each of the 128 output
  columns of a grid point, one row of the transposed input into row r of a scratch buffer; so each scratch buffer is
  held row by row while the copies fly, the transposed array is held as one read share per semaphore cell (two copies
  may read the same row at once), and each of the 64 cells is held at zero between a copy's wait and the next start.
  `gath` is what a scratch buffer holds once its 128 copies have landed: row r is the row of the transposed array that
  the table's word at 128·i + r names.
-/
import proofs.«418221_j52063593562999_1_alg».proof.Proof.Gen.Kernel.Skeleton
import proofs.«418221_j52063593562999_1_alg».proof.Proof.Spec
import Idealize.ShloMosaic.Lib.Tactic
import Idealize.ShloMosaic.Lib.Pipeline.Kit

noncomputable section

namespace Cert.Kernel.Gather

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline cells' rounds beside the counters the copies' invariants draw on. -/
abbrev UU : Type := UR sig nD τ × Counters

local notation "𝕄" => MT nD τ sig Unit (Elt F) ℕ UU ℕ

/-- A memref's buffer on core `c`: its contents type, and the buffer held at share `q` with contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f

/-- The transposed array, the two index tables, the two scratch buffers. -/
abbrev XT : Memref sig .tc .hbm S16384x4096 .f32 := Memref.whole main_v12
abbrev TA : Memref sig .tc .smem S16384 .i32 := Memref.whole main_arg2
abbrev TB : Memref sig .tc .smem S16384 .i32 := Memref.whole main_arg3
abbrev SA : Memref sig .tc .vmem S128x4096 .f32 := Memref.whole cc1_scratch0
abbrev SB : Memref sig .tc .vmem S128x4096 .f32 := Memref.whole cc1_scratch1

/-- A row index below 16384 names a whole row of the transposed array. -/
theorem row_inb (w : BitVec 32) (h : w.toNat < 16384) :
    ∀ a : Fin 2, (![w.toNat, 0] : Fin 2 → Nat) a + S1x4096.size a ≤ S16384x4096.size a := by
  intro a; fin_cases a
  · show w.toNat + 1 ≤ 16384; omega
  · show 0 + 4096 ≤ 4096; omega

/-- Row `r` of a scratch buffer, as the body slices it. -/
abbrev rowM (S : Memref sig .tc .vmem S128x4096 .f32) (r : Nat) (h : ∀ a, (![r, 0] : Fin 2 → Nat) a + S1x4096.size a ≤ S128x4096.size a) : Memref sig .tc .vmem S4096 .f32 :=
  (S.slice (Rect.unit (s := S128x4096) ![r, 0] S1x4096.size h) (fun _ => rfl)).squeeze S4096 squeezes_S1x4096_S4096

/-- Row `w` of the transposed array, as the body slices it. -/
abbrev xrowM (w : BitVec 32) (h : ∀ a, (![w.toNat, 0] : Fin 2 → Nat) a + S1x4096.size a ≤ S16384x4096.size a) : Memref sig .tc .hbm S4096 .f32 :=
  (XT.slice (Rect.unit (s := S16384x4096) ![w.toNat, 0] S1x4096.size h) (fun _ => rfl)).squeeze S4096 squeezes_S1x4096_S4096

/-- Row `r` of scratch `S` held by exactly its own elements, the buffer's contents there `f`'s. -/
abbrev rowPt (c : Dev nD) (S : Memref sig .tc .vmem S128x4096 .f32) (r : Nat) (h : ∀ a, (![r, 0] : Fin 2 → Nat) a + S1x4096.size a ≤ S128x4096.size a)
    (f : Bf (F := F) c S) : sProp 𝕄 :=
  (rowM S r h).view.loc (c : Thread nD τ) ↦[(rowM S r h).view.set]{fullShare} (show Bf (F := F) c (rowM S r h) from f)

/-- The 128 rows of a scratch buffer, each held by its own elements at `f`'s contents. -/
abbrev rowsAt (c : Dev nD) (S : Memref sig .tc .vmem S128x4096 .f32) (f : Bf (F := F) c S) : sProp 𝕄 :=
  iprop(rowPt c S 0 (by decide) f ∗ rowPt c S 1 (by decide) f ∗ rowPt c S 2 (by decide) f ∗ rowPt c S 3 (by decide) f ∗ rowPt c S 4 (by decide) f ∗ rowPt c S 5 (by decide) f ∗ rowPt c S 6 (by decide) f ∗ rowPt c S 7 (by decide) f ∗ rowPt c S 8 (by decide) f ∗ rowPt c S 9 (by decide) f ∗ rowPt c S 10 (by decide) f ∗ rowPt c S 11 (by decide) f ∗ rowPt c S 12 (by decide) f ∗ rowPt c S 13 (by decide) f ∗ rowPt c S 14 (by decide) f ∗ rowPt c S 15 (by decide) f ∗ rowPt c S 16 (by decide) f ∗ rowPt c S 17 (by decide) f ∗ rowPt c S 18 (by decide) f ∗ rowPt c S 19 (by decide) f ∗ rowPt c S 20 (by decide) f ∗ rowPt c S 21 (by decide) f ∗ rowPt c S 22 (by decide) f ∗ rowPt c S 23 (by decide) f ∗ rowPt c S 24 (by decide) f ∗ rowPt c S 25 (by decide) f ∗ rowPt c S 26 (by decide) f ∗ rowPt c S 27 (by decide) f ∗ rowPt c S 28 (by decide) f ∗ rowPt c S 29 (by decide) f ∗ rowPt c S 30 (by decide) f ∗ rowPt c S 31 (by decide) f ∗ rowPt c S 32 (by decide) f ∗ rowPt c S 33 (by decide) f ∗ rowPt c S 34 (by decide) f ∗ rowPt c S 35 (by decide) f ∗ rowPt c S 36 (by decide) f ∗ rowPt c S 37 (by decide) f ∗ rowPt c S 38 (by decide) f ∗ rowPt c S 39 (by decide) f ∗ rowPt c S 40 (by decide) f ∗ rowPt c S 41 (by decide) f ∗ rowPt c S 42 (by decide) f ∗ rowPt c S 43 (by decide) f ∗ rowPt c S 44 (by decide) f ∗ rowPt c S 45 (by decide) f ∗ rowPt c S 46 (by decide) f ∗ rowPt c S 47 (by decide) f ∗ rowPt c S 48 (by decide) f ∗ rowPt c S 49 (by decide) f ∗ rowPt c S 50 (by decide) f ∗ rowPt c S 51 (by decide) f ∗ rowPt c S 52 (by decide) f ∗ rowPt c S 53 (by decide) f ∗ rowPt c S 54 (by decide) f ∗ rowPt c S 55 (by decide) f ∗ rowPt c S 56 (by decide) f ∗ rowPt c S 57 (by decide) f ∗ rowPt c S 58 (by decide) f ∗ rowPt c S 59 (by decide) f ∗ rowPt c S 60 (by decide) f ∗ rowPt c S 61 (by decide) f ∗ rowPt c S 62 (by decide) f ∗ rowPt c S 63 (by decide) f ∗ rowPt c S 64 (by decide) f ∗ rowPt c S 65 (by decide) f ∗ rowPt c S 66 (by decide) f ∗ rowPt c S 67 (by decide) f ∗ rowPt c S 68 (by decide) f ∗ rowPt c S 69 (by decide) f ∗ rowPt c S 70 (by decide) f ∗ rowPt c S 71 (by decide) f ∗ rowPt c S 72 (by decide) f ∗ rowPt c S 73 (by decide) f ∗ rowPt c S 74 (by decide) f ∗ rowPt c S 75 (by decide) f ∗ rowPt c S 76 (by decide) f ∗ rowPt c S 77 (by decide) f ∗ rowPt c S 78 (by decide) f ∗ rowPt c S 79 (by decide) f ∗ rowPt c S 80 (by decide) f ∗ rowPt c S 81 (by decide) f ∗ rowPt c S 82 (by decide) f ∗ rowPt c S 83 (by decide) f ∗ rowPt c S 84 (by decide) f ∗ rowPt c S 85 (by decide) f ∗ rowPt c S 86 (by decide) f ∗ rowPt c S 87 (by decide) f ∗ rowPt c S 88 (by decide) f ∗ rowPt c S 89 (by decide) f ∗ rowPt c S 90 (by decide) f ∗ rowPt c S 91 (by decide) f ∗ rowPt c S 92 (by decide) f ∗ rowPt c S 93 (by decide) f ∗ rowPt c S 94 (by decide) f ∗ rowPt c S 95 (by decide) f ∗ rowPt c S 96 (by decide) f ∗ rowPt c S 97 (by decide) f ∗ rowPt c S 98 (by decide) f ∗ rowPt c S 99 (by decide) f ∗ rowPt c S 100 (by decide) f ∗ rowPt c S 101 (by decide) f ∗ rowPt c S 102 (by decide) f ∗ rowPt c S 103 (by decide) f ∗ rowPt c S 104 (by decide) f ∗ rowPt c S 105 (by decide) f ∗ rowPt c S 106 (by decide) f ∗ rowPt c S 107 (by decide) f ∗ rowPt c S 108 (by decide) f ∗ rowPt c S 109 (by decide) f ∗ rowPt c S 110 (by decide) f ∗ rowPt c S 111 (by decide) f ∗ rowPt c S 112 (by decide) f ∗ rowPt c S 113 (by decide) f ∗ rowPt c S 114 (by decide) f ∗ rowPt c S 115 (by decide) f ∗ rowPt c S 116 (by decide) f ∗ rowPt c S 117 (by decide) f ∗ rowPt c S 118 (by decide) f ∗ rowPt c S 119 (by decide) f ∗ rowPt c S 120 (by decide) f ∗ rowPt c S 121 (by decide) f ∗ rowPt c S 122 (by decide) f ∗ rowPt c S 123 (by decide) f ∗ rowPt c S 124 (by decide) f ∗ rowPt c S 125 (by decide) f ∗ rowPt c S 126 (by decide) f ∗ rowPt c S 127 (by decide) f)

/-- What a scratch buffer holds once the point's 128 copies out of the transposed array `fx` have landed, the rows
    named by the table `ft`: row r is row `ft (128·i + r)` of `fx`. -/
def gath (i : grid1.Coords) (ft : S16384.Idx → BitVec 32) (fx : S16384x4096.Idx → Elt F .f32) : S128x4096.Idx → Elt F .f32 :=
  fun j => fx (ValueIdx.ix2 (Cert.Spec.col (ft (ValueIdx.ix1 (⟨(128 * (i 0).val + (j 0).val) % 16384, Nat.mod_lt _ (by decide)⟩ : Fin 16384)))) (j 1))

/-- The 64 semaphore cells of the kernel's own, each at zero. -/
abbrev sems0 (c : Dev nD) : sProp 𝕄 :=
  iprop(semVal ((c : Thread nD τ), SemLoc.dma (8 : DmaSem sig)) 0 ∗ semVal ((c : Thread nD τ), SemLoc.dma (9 : DmaSem sig)) 0 ∗ semVal ((c : Thread nD τ), SemLoc.dma (10 : DmaSem sig)) 0 ∗ semVal ((c : Thread nD τ), SemLoc.dma (11 : DmaSem sig)) 0 ∗ semVal ((c : Thread nD τ), SemLoc.dma (12 : DmaSem sig)) 0 ∗ semVal ((c : Thread nD τ), SemLoc.dma (13 : DmaSem sig)) 0 ∗ semVal ((c : Thread nD τ), SemLoc.dma (14 : DmaSem sig)) 0 ∗ semVal ((c : Thread nD τ), SemLoc.dma (15 : DmaSem sig)) 0 ∗ semVal ((c : Thread nD τ), SemLoc.dma (16 : DmaSem sig)) 0 ∗ semVal ((c : Thread nD τ), SemLoc.dma (17 : DmaSem sig)) 0 ∗ semVal ((c : Thread nD τ), SemLoc.dma (18 : DmaSem sig)) 0 ∗ semVal ((c : Thread nD τ), SemLoc.dma (19 : DmaSem sig)) 0 ∗ semVal ((c : Thread nD τ), SemLoc.dma (20 : DmaSem sig)) 0 ∗ semVal ((c : Thread nD τ), SemLoc.dma (21 : DmaSem sig)) 0 ∗ semVal ((c : Thread nD τ), SemLoc.dma (22 : DmaSem sig)) 0 ∗ semVal ((c : Thread nD τ), SemLoc.dma (23 : DmaSem sig)) 0 ∗ semVal ((c : Thread nD τ), SemLoc.dma (24 : DmaSem sig)) 0 ∗ semVal ((c : Thread nD τ), SemLoc.dma (25 : DmaSem sig)) 0 ∗ semVal ((c : Thread nD τ), SemLoc.dma (26 : DmaSem sig)) 0 ∗ semVal ((c : Thread nD τ), SemLoc.dma (27 : DmaSem sig)) 0 ∗ semVal ((c : Thread nD τ), SemLoc.dma (28 : DmaSem sig)) 0 ∗ semVal ((c : Thread nD τ), SemLoc.dma (29 : DmaSem sig)) 0 ∗ semVal ((c : Thread nD τ), SemLoc.dma (30 : DmaSem sig)) 0 ∗ semVal ((c : Thread nD τ), SemLoc.dma (31 : DmaSem sig)) 0 ∗ semVal ((c : Thread nD τ), SemLoc.dma (32 : DmaSem sig)) 0 ∗ semVal ((c : Thread nD τ), SemLoc.dma (33 : DmaSem sig)) 0 ∗ semVal ((c : Thread nD τ), SemLoc.dma (34 : DmaSem sig)) 0 ∗ semVal ((c : Thread nD τ), SemLoc.dma (35 : DmaSem sig)) 0 ∗ semVal ((c : Thread nD τ), SemLoc.dma (36 : DmaSem sig)) 0 ∗ semVal ((c : Thread nD τ), SemLoc.dma (37 : DmaSem sig)) 0 ∗ semVal ((c : Thread nD τ), SemLoc.dma (38 : DmaSem sig)) 0 ∗ semVal ((c : Thread nD τ), SemLoc.dma (39 : DmaSem sig)) 0 ∗ semVal ((c : Thread nD τ), SemLoc.dma (40 : DmaSem sig)) 0 ∗ semVal ((c : Thread nD τ), SemLoc.dma (41 : DmaSem sig)) 0 ∗ semVal ((c : Thread nD τ), SemLoc.dma (42 : DmaSem sig)) 0 ∗ semVal ((c : Thread nD τ), SemLoc.dma (43 : DmaSem sig)) 0 ∗ semVal ((c : Thread nD τ), SemLoc.dma (44 : DmaSem sig)) 0 ∗ semVal ((c : Thread nD τ), SemLoc.dma (45 : DmaSem sig)) 0 ∗ semVal ((c : Thread nD τ), SemLoc.dma (46 : DmaSem sig)) 0 ∗ semVal ((c : Thread nD τ), SemLoc.dma (47 : DmaSem sig)) 0 ∗ semVal ((c : Thread nD τ), SemLoc.dma (48 : DmaSem sig)) 0 ∗ semVal ((c : Thread nD τ), SemLoc.dma (49 : DmaSem sig)) 0 ∗ semVal ((c : Thread nD τ), SemLoc.dma (50 : DmaSem sig)) 0 ∗ semVal ((c : Thread nD τ), SemLoc.dma (51 : DmaSem sig)) 0 ∗ semVal ((c : Thread nD τ), SemLoc.dma (52 : DmaSem sig)) 0 ∗ semVal ((c : Thread nD τ), SemLoc.dma (53 : DmaSem sig)) 0 ∗ semVal ((c : Thread nD τ), SemLoc.dma (54 : DmaSem sig)) 0 ∗ semVal ((c : Thread nD τ), SemLoc.dma (55 : DmaSem sig)) 0 ∗ semVal ((c : Thread nD τ), SemLoc.dma (56 : DmaSem sig)) 0 ∗ semVal ((c : Thread nD τ), SemLoc.dma (57 : DmaSem sig)) 0 ∗ semVal ((c : Thread nD τ), SemLoc.dma (58 : DmaSem sig)) 0 ∗ semVal ((c : Thread nD τ), SemLoc.dma (59 : DmaSem sig)) 0 ∗ semVal ((c : Thread nD τ), SemLoc.dma (60 : DmaSem sig)) 0 ∗ semVal ((c : Thread nD τ), SemLoc.dma (61 : DmaSem sig)) 0 ∗ semVal ((c : Thread nD τ), SemLoc.dma (62 : DmaSem sig)) 0 ∗ semVal ((c : Thread nD τ), SemLoc.dma (63 : DmaSem sig)) 0 ∗ semVal ((c : Thread nD τ), SemLoc.dma (64 : DmaSem sig)) 0 ∗ semVal ((c : Thread nD τ), SemLoc.dma (65 : DmaSem sig)) 0 ∗ semVal ((c : Thread nD τ), SemLoc.dma (66 : DmaSem sig)) 0 ∗ semVal ((c : Thread nD τ), SemLoc.dma (67 : DmaSem sig)) 0 ∗ semVal ((c : Thread nD τ), SemLoc.dma (68 : DmaSem sig)) 0 ∗ semVal ((c : Thread nD τ), SemLoc.dma (69 : DmaSem sig)) 0 ∗ semVal ((c : Thread nD τ), SemLoc.dma (70 : DmaSem sig)) 0 ∗ semVal ((c : Thread nD τ), SemLoc.dma (71 : DmaSem sig)) 0)

/-- The transposed array as one read share per cell. -/
abbrev xtoks (c : Dev nD) (fx : Bf (F := F) c XT) : sProp 𝕄 :=
  iprop(pt c XT (Transfers.shareTokN fullShare 8) fx ∗ pt c XT (Transfers.shareTokN fullShare 9) fx ∗ pt c XT (Transfers.shareTokN fullShare 10) fx ∗ pt c XT (Transfers.shareTokN fullShare 11) fx ∗ pt c XT (Transfers.shareTokN fullShare 12) fx ∗ pt c XT (Transfers.shareTokN fullShare 13) fx ∗ pt c XT (Transfers.shareTokN fullShare 14) fx ∗ pt c XT (Transfers.shareTokN fullShare 15) fx ∗ pt c XT (Transfers.shareTokN fullShare 16) fx ∗ pt c XT (Transfers.shareTokN fullShare 17) fx ∗ pt c XT (Transfers.shareTokN fullShare 18) fx ∗ pt c XT (Transfers.shareTokN fullShare 19) fx ∗ pt c XT (Transfers.shareTokN fullShare 20) fx ∗ pt c XT (Transfers.shareTokN fullShare 21) fx ∗ pt c XT (Transfers.shareTokN fullShare 22) fx ∗ pt c XT (Transfers.shareTokN fullShare 23) fx ∗ pt c XT (Transfers.shareTokN fullShare 24) fx ∗ pt c XT (Transfers.shareTokN fullShare 25) fx ∗ pt c XT (Transfers.shareTokN fullShare 26) fx ∗ pt c XT (Transfers.shareTokN fullShare 27) fx ∗ pt c XT (Transfers.shareTokN fullShare 28) fx ∗ pt c XT (Transfers.shareTokN fullShare 29) fx ∗ pt c XT (Transfers.shareTokN fullShare 30) fx ∗ pt c XT (Transfers.shareTokN fullShare 31) fx ∗ pt c XT (Transfers.shareTokN fullShare 32) fx ∗ pt c XT (Transfers.shareTokN fullShare 33) fx ∗ pt c XT (Transfers.shareTokN fullShare 34) fx ∗ pt c XT (Transfers.shareTokN fullShare 35) fx ∗ pt c XT (Transfers.shareTokN fullShare 36) fx ∗ pt c XT (Transfers.shareTokN fullShare 37) fx ∗ pt c XT (Transfers.shareTokN fullShare 38) fx ∗ pt c XT (Transfers.shareTokN fullShare 39) fx ∗ pt c XT (Transfers.shareTokN fullShare 40) fx ∗ pt c XT (Transfers.shareTokN fullShare 41) fx ∗ pt c XT (Transfers.shareTokN fullShare 42) fx ∗ pt c XT (Transfers.shareTokN fullShare 43) fx ∗ pt c XT (Transfers.shareTokN fullShare 44) fx ∗ pt c XT (Transfers.shareTokN fullShare 45) fx ∗ pt c XT (Transfers.shareTokN fullShare 46) fx ∗ pt c XT (Transfers.shareTokN fullShare 47) fx ∗ pt c XT (Transfers.shareTokN fullShare 48) fx ∗ pt c XT (Transfers.shareTokN fullShare 49) fx ∗ pt c XT (Transfers.shareTokN fullShare 50) fx ∗ pt c XT (Transfers.shareTokN fullShare 51) fx ∗ pt c XT (Transfers.shareTokN fullShare 52) fx ∗ pt c XT (Transfers.shareTokN fullShare 53) fx ∗ pt c XT (Transfers.shareTokN fullShare 54) fx ∗ pt c XT (Transfers.shareTokN fullShare 55) fx ∗ pt c XT (Transfers.shareTokN fullShare 56) fx ∗ pt c XT (Transfers.shareTokN fullShare 57) fx ∗ pt c XT (Transfers.shareTokN fullShare 58) fx ∗ pt c XT (Transfers.shareTokN fullShare 59) fx ∗ pt c XT (Transfers.shareTokN fullShare 60) fx ∗ pt c XT (Transfers.shareTokN fullShare 61) fx ∗ pt c XT (Transfers.shareTokN fullShare 62) fx ∗ pt c XT (Transfers.shareTokN fullShare 63) fx ∗ pt c XT (Transfers.shareTokN fullShare 64) fx ∗ pt c XT (Transfers.shareTokN fullShare 65) fx ∗ pt c XT (Transfers.shareTokN fullShare 66) fx ∗ pt c XT (Transfers.shareTokN fullShare 67) fx ∗ pt c XT (Transfers.shareTokN fullShare 68) fx ∗ pt c XT (Transfers.shareTokN fullShare 69) fx ∗ pt c XT (Transfers.shareTokN fullShare 70) fx ∗ pt c XT (Transfers.shareTokN fullShare 71) fx)

/-- What the body leaves in the output block's staging buffer: the combination of the two gathered buffers with the
    coefficient block, transposed. -/
def outBlk (i : grid1.Coords) (fa fb : S16384.Idx → BitVec 32) (fx : S16384x4096.Idx → Elt F .f32) (kb : Vec F S128x4 .f32) : Vec F S4096x128 .f32 :=
  k1_pay1 (gath i fa fx) (gath i fb fx) kb

end Cert.Kernel.Gather

end
-- ==== Proof.Bits.Rows.lean ====
/-
  Rows of the gather kernel's buffers. Each scratch buffer is a [128, 4096] array whose 128 rows are unit rectangles
  differing only in their offset along the first axis: they are pairwise disjoint and cover the buffer, so the buffer
  held whole is the same as its rows each held by its own elements. The word a copy reads off an index table sits at
  offset 128·i + r (no wrap-around: i, r < 128). A row filled whole by the copy of row w of the transposed array holds,
  at column z, that array's element (w, z), which is what the gathered contents name at (r, z).
-/
import proofs.«418221_j52063593562999_1_alg».proof.Proof.Bits.GatherBase
import Idealize.ShloMosaic.Lib.Ring
import Mathlib.Data.Fintype.Basic

noncomputable section

namespace Cert.Kernel.Gather

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A scratch buffer as its 128 rows -/

theorem ent_of_eq {P Q : sProp 𝕄} (e : P = Q) : P ⊢ Q := e ▸ .rfl

/-- Row `b` lies inside the buffer. -/
theorem row_inb128 (b : Fin 128) : ∀ a, (![b.val, 0] : Fin 2 → Nat) a + S1x4096.size a ≤ S128x4096.size a := by
  intro a; fin_cases a
  · show b.val + 1 ≤ 128; omega
  · show 0 + 4096 ≤ 4096; omega

/-- A row's elements are the buffer's elements under the row's rectangle. -/
theorem rowM_set (S : Memref sig .tc .vmem S128x4096 .f32) (r : Nat)
    (h : ∀ a, (![r, 0] : Fin 2 → Nat) a + S1x4096.size a ≤ S128x4096.size a) :
    (rowM S r h).view.set = (Rect.unit (s := S128x4096) ![r, 0] S1x4096.size h).set.map S.view.emb :=
  (View.set_reshape (v := S.view.slice _) _).trans (View.set_slice S.view _)

/-- The elements of row `b`, among the buffer's. -/
abbrev rowSet (S : Memref sig .tc .vmem S128x4096 .f32) (b : Fin 128) : Finset S.view.ty.Idx :=
  (rowM S b.val (row_inb128 b)).view.set

/-- Two different rows share no element: their rectangles differ in the first coordinate. -/
theorem rows_disjoint (S : Memref sig .tc .vmem S128x4096 .f32) (b b' : Fin 128) (hne : b ≠ b') :
    Disjoint (rowSet S b) (rowSet S b') := by
  unfold rowSet
  rw [rowM_set, rowM_set]
  exact (Finset.disjoint_map _).mpr
    (Ring.lead_disjoint (s := S128x4096) (NB := 128) (0 : Fin 2) 1 (fun b => ![b.val, 0]) S1x4096.size row_inb128
      (fun b => by show b.val = 1 * b.val; omega) rfl b b' hne)

/-- The rows cover a whole buffer: every element has a first coordinate below 128. -/
theorem rows_cover (S : Memref sig .tc .vmem S128x4096 .f32) (hS : S.IsWhole) :
    Finset.univ.biUnion (rowSet S) = Finset.univ := by
  ext j
  simp only [Finset.mem_biUnion, Finset.mem_univ, true_and, iff_true]
  have hj : j ∈ S.view.set := hS.set_eq_univ ▸ Finset.mem_univ j
  obtain ⟨x, -, rfl⟩ := Finset.mem_map.mp hj
  have hc := Ring.lead_cover (s := S128x4096) (NB := 128) (0 : Fin 2) 1 (fun b => ![b.val, 0]) S1x4096.size row_inb128
      (fun b => by show b.val = 1 * b.val; omega)
      (fun b a ha => by fin_cases a; · exact absurd rfl ha
                        · rfl)
      rfl
      (fun a ha => by fin_cases a; · exact absurd rfl ha
                      · rfl)
      (by decide)
  have hx : x ∈ Finset.univ.biUnion (fun b : Fin 128 => (Rect.unit (s := S128x4096) ![b.val, 0] S1x4096.size (row_inb128 b)).set) := by
    rw [hc]; exact Finset.mem_univ x
  obtain ⟨b, -, hb⟩ := Finset.mem_biUnion.mp hx
  refine ⟨b, ?_⟩
  unfold rowSet
  rw [rowM_set]; exact Finset.mem_map_of_mem _ hb

/-- A whole scratch buffer held at `f` is its 128 rows, each held by its own elements at `f`. -/
theorem rows_eq (c : Dev nD) (S : Memref sig .tc .vmem S128x4096 .f32) (hS : S.IsWhole) (f : Bf (F := F) c S) :
    (pt c S fullShare f : sProp 𝕄) = rowsAt c S f := by
  have e1 := Ring.pointsTo_blocks (ℓ := S.view.loc (c : Thread nD τ)) (Ix := Unit) (Val := Elt F) (Name := ℕ) (U := UU) (Lvl := ℕ) (q := fullShare)
    (rowSet S) (rows_disjoint S) (rows_cover S hS) f
  have e2 := bigSep_univ_eq_bigSepL (List.finRange 128) (List.toFinset_finRange 128).symm (List.nodup_finRange 128)
    (fun b : Fin 128 => ((S.view.loc (c : Thread nD τ)) ↦[rowSet S b]{fullShare} f : sProp 𝕄))
  refine e1.trans (e2.trans ?_)
  rfl

/-- The buffer held whole gives its rows, -/
theorem rows_split (c : Dev nD) (S : Memref sig .tc .vmem S128x4096 .f32) (hS : S.IsWhole) (f : Bf (F := F) c S) :
    (pt c S fullShare f : sProp 𝕄) ⊢ rowsAt c S f :=
  ent_of_eq (rows_eq c S hS f)

/-- and the rows, all at one contents, give the buffer back whole. -/
theorem rows_join (c : Dev nD) (S : Memref sig .tc .vmem S128x4096 .f32) (hS : S.IsWhole) (f : Bf (F := F) c S) :
    (rowsAt c S f : sProp 𝕄) ⊢ pt c S fullShare f :=
  ent_of_eq (rows_eq c S hS f).symm

/-! ## The word a copy reads off its index table -/

/-- The offset the body computes for row `r` of grid point `i`, as a number: 128·i + r (nothing wraps, since
    i < 128 and r < 128). -/
theorem off_val (i : grid1.Coords) (r : Nat) (hr : r < 128) :
    (Scalar.indexCast (Scalar.addi (Scalar.muli (BitVec.ofNat 32 (i 0).val) 128#32) (BitVec.ofNat 32 r))).toNat = 128 * (i 0).val + r := by
  have hi : (i 0).val < 128 := (i 0).isLt
  generalize (i 0).val = n at hi ⊢
  unfold Scalar.indexCast Scalar.addi Scalar.muli IntOp.addi IntOp.muli
  simp only [BitVec.toNat_add, BitVec.toNat_mul, BitVec.toNat_ofNat]
  omega

/-- A one-word load from a table at that offset reads the table, through its view, at index 128·i + r. -/
theorem word_read (c : Dev nD) (T : Memref sig .tc .smem S16384 .i32) (i : grid1.Coords) (r : Nat) (hr : r < 128) (ft : Bf (F := F) c T) (off : Fin 1 → Nat)
    (hoff : off 0 = (Scalar.indexCast (Scalar.addi (Scalar.muli (BitVec.ofNat 32 (i 0).val) 128#32) (BitVec.ofNat 32 r))).toNat)
    (inb : ∀ a, off a + S1.size a ≤ S16384.size a) (h1 : 0 < S1.numel) :
    View.readAt (Elt F) T.view (Rect.unit (s := S16384) off S1.size inb).toLoadRect ft (Shape.Idx.first h1)
      = T.view.read (Elt F) ft (ValueIdx.ix1 (⟨(128 * (i 0).val + r) % 16384, Nat.mod_lt _ (by decide)⟩ : Fin 16384)) := by
  rw [View.readAt_apply]
  congr 1
  funext a
  apply Fin.ext
  fin_cases a
  show off 0 + 1 * 0 = (128 * (i 0).val + r) % 16384
  have hi : (i 0).val < 128 := (i 0).isLt
  rw [hoff, off_val i r hr]
  omega

/-- For the two tables of the kernel, each a whole buffer, the view reads the contents themselves. -/
theorem word_read_A (c : Dev nD) (i : grid1.Coords) (r : Nat) (hr : r < 128) (ft : Bf (F := F) c TA) (off : Fin 1 → Nat)
    (hoff : off 0 = (Scalar.indexCast (Scalar.addi (Scalar.muli (BitVec.ofNat 32 (i 0).val) 128#32) (BitVec.ofNat 32 r))).toNat)
    (inb : ∀ a, off a + S1.size a ≤ S16384.size a) (h1 : 0 < S1.numel) :
    View.readAt (Elt F) TA.view (Rect.unit (s := S16384) off S1.size inb).toLoadRect ft (Shape.Idx.first h1)
      = ft (ValueIdx.ix1 (⟨(128 * (i 0).val + r) % 16384, Nat.mod_lt _ (by decide)⟩ : Fin 16384)) :=
  word_read c TA i r hr ft off hoff inb h1

theorem word_read_B (c : Dev nD) (i : grid1.Coords) (r : Nat) (hr : r < 128) (ft : Bf (F := F) c TB) (off : Fin 1 → Nat)
    (hoff : off 0 = (Scalar.indexCast (Scalar.addi (Scalar.muli (BitVec.ofNat 32 (i 0).val) 128#32) (BitVec.ofNat 32 r))).toNat)
    (inb : ∀ a, off a + S1.size a ≤ S16384.size a) (h1 : 0 < S1.numel) :
    View.readAt (Elt F) TB.view (Rect.unit (s := S16384) off S1.size inb).toLoadRect ft (Shape.Idx.first h1)
      = ft (ValueIdx.ix1 (⟨(128 * (i 0).val + r) % 16384, Nat.mod_lt _ (by decide)⟩ : Fin 16384)) :=
  word_read c TB i r hr ft off hoff inb h1

/-! ## A row once its copy has landed -/

/-- Where column `z` of the row cut out at offset `k` sits in an [N, 4096] array: at (k, z). -/
theorem unit_row_emb {N : Nat} (k : Nat) (hk : k < N)
    (inb : ∀ a, (![k, 0] : Fin 2 → Nat) a + S1x4096.size a ≤ (⟨2, ![N, 4096]⟩ : Shape).size a) (z : S4096.Idx) :
    (Rect.unit (s := ⟨2, ![N, 4096]⟩) ![k, 0] S1x4096.size inb).emb (Shape.reshapeEquiv squeezes_S1x4096_S4096.numel_eq z)
      = ValueIdx.ix2 (⟨k, hk⟩ : Fin N) (z 0) := by
  rw [Shape.reshapeEquiv_cons_one]
  funext a
  apply Fin.ext
  rw [Rect.emb_apply]
  fin_cases a
  · show k + 1 * 0 = k
    omega
  · show 0 + 1 * (z 0).val = (z 0).val
    omega

/-- A row filled whole by a payload `p` is the row held at any contents `g` of the scratch buffer that read `p`
    through the row: what the row held before does not matter on the row's own elements. -/
theorem row_settle_core (c : Dev nD) (S : Memref sig .tc .vmem S128x4096 .f32) (r : Nat)
    (h : ∀ a, (![r, 0] : Fin 2 → Nat) a + S1x4096.size a ≤ S128x4096.size a)
    (f0 : Bf (F := F) c (rowM S r h)) (p : S4096.Idx → Elt F .f32) (g : Bf (F := F) c S)
    (hg : ∀ z : S4096.Idx, (rowM S r h).view.read (Elt F) (show Bf (F := F) c (rowM S r h) from g) z = p z) :
    ((rowM S r h).view.loc (c : Thread nD τ) ↦[(rowM S r h).view.set]{fullShare} (rowM S r h).view.writes (Elt F) f0 [⟨Rect.whole S4096, p⟩] : sProp 𝕄)
      ⊢ rowPt c S r h g := by
  refine ent_of_eq (pointsTo_congr fun j hj => ?_)
  obtain ⟨z, -, rfl⟩ := Finset.mem_map.mp hj
  rw [← View.write_univ_eq_writes_whole, View.writes_nil, View.write_emb_of_mem _ _ (Finset.mem_univ _), ← hg z,
    View.read_apply, cast_cast, cast_eq]

/-- Row `r` of the first scratch buffer, filled by the copy of row `w` of the transposed array, holds the gathered
    contents: column z of the payload is the array at (w, z), and `w` is the table's word at 128·i + r, a column
    number below 16384, so that is what `gath` names at (r, z). -/
theorem row_settle_A (c : Dev nD) (i : grid1.Coords) (r : Nat) (hr : r < 128)
    (h : ∀ a, (![r, 0] : Fin 2 → Nat) a + S1x4096.size a ≤ S128x4096.size a)
    (f0 : Bf (F := F) c (rowM SA r h)) (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ((rowM SA r h).view.loc (c : Thread nD τ) ↦[(rowM SA r h).view.set]{fullShare} (rowM SA r h).view.writes (Elt F) f0 [⟨Rect.whole S4096, ReadAs.same.apply (View.read (Elt F) (xrowM w hw).view fx)⟩] : sProp 𝕄)
      ⊢ rowPt c SA r h (gath i ft fx) := by
  refine row_settle_core c SA r h f0 _ (gath i ft fx) fun z => ?_
  rw [View.read_apply]
  have e1 : (rowM SA r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

/-- The same for the second scratch buffer. -/
theorem row_settle_B (c : Dev nD) (i : grid1.Coords) (r : Nat) (hr : r < 128)
    (h : ∀ a, (![r, 0] : Fin 2 → Nat) a + S1x4096.size a ≤ S128x4096.size a)
    (f0 : Bf (F := F) c (rowM SB r h)) (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ((rowM SB r h).view.loc (c : Thread nD τ) ↦[(rowM SB r h).view.set]{fullShare} (rowM SB r h).view.writes (Elt F) f0 [⟨Rect.whole S4096, ReadAs.same.apply (View.read (Elt F) (xrowM w hw).view fx)⟩] : sProp 𝕄)
      ⊢ rowPt c SB r h (gath i ft fx) := by
  refine row_settle_core c SB r h f0 _ (gath i ft fx) fun z => ?_
  rw [View.read_apply]
  have e1 : (rowM SB r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

/-! ## The same pointwise: the gathered contents read through a row are the copy's payload -/

/-- Through row `r` of the first scratch buffer, the gathered contents at column z are the transposed array at (w, z):
    the payload of the copy of its row `w`. -/
theorem row_point_A (c : Dev nD) (i : grid1.Coords) (r : Nat) (hr : r < 128)
    (h : ∀ a, (![r, 0] : Fin 2 → Nat) a + S1x4096.size a ≤ S128x4096.size a)
    (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ∀ z : S4096.Idx, (rowM SA r h).view.read (Elt F) (show Bf (F := F) c (rowM SA r h) from gath i ft fx) z
      = ReadAs.same.apply (View.read (Elt F) (xrowM w hw).view fx) z := by
  intro z
  rw [View.read_apply]
  have e1 : (rowM SA r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

/-- The same through row `r` of the second scratch buffer. -/
theorem row_point_B (c : Dev nD) (i : grid1.Coords) (r : Nat) (hr : r < 128)
    (h : ∀ a, (![r, 0] : Fin 2 → Nat) a + S1x4096.size a ≤ S128x4096.size a)
    (ft : S16384.Idx → BitVec 32) (fx : Bf (F := F) c XT) (w : BitVec 32)
    (hw : ∀ a, (![w.toNat, 0] : Fin 2 → Nat) a + S1x4096.size a ≤ S16384x4096.size a)
    (hword : w = ft (ValueIdx.ix1 (⟨(128 * (i 0).val + r) % 16384, Nat.mod_lt _ (by decide)⟩ : Fin 16384))) (hlt : w.toNat < 16384) :
    ∀ z : S4096.Idx, (rowM SB r h).view.read (Elt F) (show Bf (F := F) c (rowM SB r h) from gath i ft fx) z
      = ReadAs.same.apply (View.read (Elt F) (xrowM w hw).view fx) z := by
  intro z
  rw [View.read_apply]
  have e1 : (rowM SB r h).view.emb z = ValueIdx.ix2 (⟨r, hr⟩ : Fin 128) (z 0) := unit_row_emb r hr h z
  have e2 : (xrowM w hw).view.emb z = ValueIdx.ix2 (⟨w.toNat, hlt⟩ : Fin 16384) (z 0) := unit_row_emb w.toNat hlt hw z
  rw [e1]
  show _ = View.read (Elt F) (xrowM w hw).view fx z
  rw [View.read_apply, e2]
  refine (cast_eq _ _).trans (Eq.trans ?_ (cast_eq _ _).symm)
  show fx (ValueIdx.ix2 (Cert.Spec.col (ft (ValueIdx.ix1 (⟨(128 * (i 0).val + r) % 16384, Nat.mod_lt _ (by decide)⟩ : Fin 16384)))) (z 0)) = _
  rw [← hword]
  have e3 : Cert.Spec.col w = (⟨w.toNat, hlt⟩ : Fin 16384) := Fin.ext (Cert.Spec.col_val w hlt)
  rw [e3]
  rfl

end Cert.Kernel.Gather

end
-- ==== Proof.Bits.Body1.lean ====
/-
  The gather kernel's body, run once at symbolic operands: for each of the 128 rows of the point it reads the two
  row indices off the SMEM tables, checks them against the 16384 rows of the transposed array (the range the
  precondition gives), copies row a[r] of that array into row r of the first scratch and row b[r] into row r of the
  second, 32 rows at a time, each copy on a semaphore cell of its own and waited for before the next 32 start; then
  it loads the two scratch buffers and the coefficient block, combines them and stores the transposed result.
  While the copies fly each scratch buffer is held row by row (a copy takes its own row), the transposed array as one
  read share per semaphore cell (two copies may read one row), each cell at zero between a wait and the next start;
  once all have landed every row is rewritten to the gathered contents (`gath`) and the rows are joined to the buffer.
-/
import proofs.«418221_j52063593562999_1_alg».proof.Proof.Bits.Rows
import Idealize.ShloMosaic.Lib.Pipeline.FrameBody
import Idealize.ShloMosaic.Lib.Pipeline.Value

noncomputable section

namespace Cert.Kernel.Gather

open Cert.Kernel Cert.Kernel.Gen

open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The store's offset, the origin. -/
theorem zero_off2 : (![0, 0] : Fin 2 → Nat) = fun _ => 0 := funext fun a => by fin_cases a <;> rfl

set_option maxHeartbeats 16000000 in
/-- From the two tables (every word below 16384), the transposed array as its 64 read shares, the coefficient block's
    staging buffer at `kb`, the output block's at anything, the two scratch buffers at anything, the 64 cells at zero
    and the core owing nothing: the body runs to its return with the tables, the array and the coefficient block as
    they were, the output block's buffer at `outBlk`, the scratch buffers at something, the cells at zero. -/
theorem kernelRun (c : Dev nD) (i : grid1.Coords)
    (M4 : Memref sig .tc .vmem S128x4 .f32) (h4 : M4.IsWhole) (M5 : Memref sig .tc .vmem S4096x128 .f32) (h5 : M5.IsWhole)
    (fa : Bf (F := F) c TA) (fb : Bf (F := F) c TB) (fx : Bf (F := F) c XT) (kb : Vec F S128x4 .f32)
    (ha : ∀ j, (fa j).toNat < 16384) (hb : ∀ j, (fb j).toNat < 16384)
    (qa qb : PosShare TreeShare) (f6 : Bf (F := F) c SA) (f7 : Bf (F := F) c SB) (W0 : Waits sig Unit) (Q : PUnit → sProp 𝕄) :
    iprop(pt c TA qa fa ∗ pt c TB qb fb ∗ xtoks c fx ∗ owns (c : Thread nD τ) M4 fullShare kb
        ∗ (∃ d, owns (c : Thread nD τ) M5 fullShare d)
        ∗ pt c SA fullShare f6 ∗ pt c SB fullShare f7 ∗ sems0 c ∗ owes (c : Thread nD τ) 0 W0
        ∗ (iprop(pt c TA qa fa ∗ pt c TB qb fb ∗ xtoks c fx ∗ owns (c : Thread nD τ) M4 fullShare kb
              ∗ owns (c : Thread nD τ) M5 fullShare (outBlk i fa fb fx kb)
              ∗ (∃ f, pt c SA fullShare f) ∗ (∃ f, pt c SB fullShare f) ∗ sems0 c ∗ ∃ W', owes (c : Thread nD τ) 0 W') -∗ Q ⟨⟩))
      ⊢ wp frame (wpE (defs₀ (F := F)) Variants.none c none) Set.univ
          (cc1__gather_kernel i TA (Memref.isWhole_whole _) TB (Memref.isWhole_whole _) XT (Memref.isWhole_whole _) M4 h4 M5 h5
            SA (Memref.isWhole_whole _) SB (Memref.isWhole_whole _) cc1_scratch2 cc1_scratch3) Q := by
  unfold owns
  iintro ⟨HTA, HTB, ⟨HX8, HX9, HX10, HX11, HX12, HX13, HX14, HX15, HX16, HX17, HX18, HX19, HX20, HX21, HX22, HX23, HX24, HX25, HX26, HX27, HX28, HX29, HX30, HX31, HX32, HX33, HX34, HX35, HX36, HX37, HX38, HX39, HX40, HX41, HX42, HX43, HX44, HX45, HX46, HX47, HX48, HX49, HX50, HX51, HX52, HX53, HX54, HX55, HX56, HX57, HX58, HX59, HX60, HX61, HX62, HX63, HX64, HX65, HX66, HX67, HX68, HX69, HX70, HX71⟩, ⟨%f4, %hf4, H4⟩, ⟨%d5, %f5, -, H5⟩, H6, H7, ⟨Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hd35, Hd36, Hd37, Hd38, Hd39, Hd40, Hd41, Hd42, Hd43, Hd44, Hd45, Hd46, Hd47, Hd48, Hd49, Hd50, Hd51, Hd52, Hd53, Hd54, Hd55, Hd56, Hd57, Hd58, Hd59, Hd60, Hd61, Hd62, Hd63, Hd64, Hd65, Hd66, Hd67, Hd68, Hd69, Hd70, Hd71⟩, HO, Hk⟩
  subst hf4
  -- each scratch buffer row by row: a copy takes its own row and leaves the others
  ihave HA := (rows_split c SA (Memref.isWhole_whole _) f6) $$ H6
  icases HA with ⟨HA0, HA1, HA2, HA3, HA4, HA5, HA6, HA7, HA8, HA9, HA10, HA11, HA12, HA13, HA14, HA15, HA16, HA17, HA18, HA19, HA20, HA21, HA22, HA23, HA24, HA25, HA26, HA27, HA28, HA29, HA30, HA31, HA32, HA33, HA34, HA35, HA36, HA37, HA38, HA39, HA40, HA41, HA42, HA43, HA44, HA45, HA46, HA47, HA48, HA49, HA50, HA51, HA52, HA53, HA54, HA55, HA56, HA57, HA58, HA59, HA60, HA61, HA62, HA63, HA64, HA65, HA66, HA67, HA68, HA69, HA70, HA71, HA72, HA73, HA74, HA75, HA76, HA77, HA78, HA79, HA80, HA81, HA82, HA83, HA84, HA85, HA86, HA87, HA88, HA89, HA90, HA91, HA92, HA93, HA94, HA95, HA96, HA97, HA98, HA99, HA100, HA101, HA102, HA103, HA104, HA105, HA106, HA107, HA108, HA109, HA110, HA111, HA112, HA113, HA114, HA115, HA116, HA117, HA118, HA119, HA120, HA121, HA122, HA123, HA124, HA125, HA126, HA127⟩
  ihave HB := (rows_split c SB (Memref.isWhole_whole _) f7) $$ H7
  icases HB with ⟨HB0, HB1, HB2, HB3, HB4, HB5, HB6, HB7, HB8, HB9, HB10, HB11, HB12, HB13, HB14, HB15, HB16, HB17, HB18, HB19, HB20, HB21, HB22, HB23, HB24, HB25, HB26, HB27, HB28, HB29, HB30, HB31, HB32, HB33, HB34, HB35, HB36, HB37, HB38, HB39, HB40, HB41, HB42, HB43, HB44, HB45, HB46, HB47, HB48, HB49, HB50, HB51, HB52, HB53, HB54, HB55, HB56, HB57, HB58, HB59, HB60, HB61, HB62, HB63, HB64, HB65, HB66, HB67, HB68, HB69, HB70, HB71, HB72, HB73, HB74, HB75, HB76, HB77, HB78, HB79, HB80, HB81, HB82, HB83, HB84, HB85, HB86, HB87, HB88, HB89, HB90, HB91, HB92, HB93, HB94, HB95, HB96, HB97, HB98, HB99, HB100, HB101, HB102, HB103, HB104, HB105, HB106, HB107, HB108, HB109, HB110, HB111, HB112, HB113, HB114, HB115, HB116, HB117, HB118, HB119, HB120, HB121, HB122, HB123, HB124, HB125, HB126, HB127⟩
  -- the 256 table reads and range checks, the 256 copies and their waits
  sl_exec_parts! (disch := first | exact row_inb _ (ha _) | exact row_inb _ (hb _))
  -- every row has landed: row r of the first scratch is the row of the transposed array that a[128·i + r] names
  ihave HA0 := (row_settle_core c SA 0 _ _ _ (gath i fa fx) (by exact row_point_A c i 0 (by decide) _ fa fx _ _ (word_read_A c i 0 (by decide) fa (k1_off1 i) rfl _ _) (ha _))) $$ HA0
  ihave HA1 := (row_settle_core c SA 1 _ _ _ (gath i fa fx) (by exact row_point_A c i 1 (by decide) _ fa fx _ _ (word_read_A c i 1 (by decide) fa (k1_off4 i) rfl _ _) (ha _))) $$ HA1
  ihave HA2 := (row_settle_core c SA 2 _ _ _ (gath i fa fx) (by exact row_point_A c i 2 (by decide) _ fa fx _ _ (word_read_A c i 2 (by decide) fa (k1_off7 i) rfl _ _) (ha _))) $$ HA2
  ihave HA3 := (row_settle_core c SA 3 _ _ _ (gath i fa fx) (by exact row_point_A c i 3 (by decide) _ fa fx _ _ (word_read_A c i 3 (by decide) fa (k1_off10 i) rfl _ _) (ha _))) $$ HA3
  ihave HA4 := (row_settle_core c SA 4 _ _ _ (gath i fa fx) (by exact row_point_A c i 4 (by decide) _ fa fx _ _ (word_read_A c i 4 (by decide) fa (k1_off13 i) rfl _ _) (ha _))) $$ HA4
  ihave HA5 := (row_settle_core c SA 5 _ _ _ (gath i fa fx) (by exact row_point_A c i 5 (by decide) _ fa fx _ _ (word_read_A c i 5 (by decide) fa (k1_off16 i) rfl _ _) (ha _))) $$ HA5
  ihave HA6 := (row_settle_core c SA 6 _ _ _ (gath i fa fx) (by exact row_point_A c i 6 (by decide) _ fa fx _ _ (word_read_A c i 6 (by decide) fa (k1_off19 i) rfl _ _) (ha _))) $$ HA6
  ihave HA7 := (row_settle_core c SA 7 _ _ _ (gath i fa fx) (by exact row_point_A c i 7 (by decide) _ fa fx _ _ (word_read_A c i 7 (by decide) fa (k1_off22 i) rfl _ _) (ha _))) $$ HA7
  ihave HA8 := (row_settle_core c SA 8 _ _ _ (gath i fa fx) (by exact row_point_A c i 8 (by decide) _ fa fx _ _ (word_read_A c i 8 (by decide) fa (k1_off25 i) rfl _ _) (ha _))) $$ HA8
  ihave HA9 := (row_settle_core c SA 9 _ _ _ (gath i fa fx) (by exact row_point_A c i 9 (by decide) _ fa fx _ _ (word_read_A c i 9 (by decide) fa (k1_off28 i) rfl _ _) (ha _))) $$ HA9
  ihave HA10 := (row_settle_core c SA 10 _ _ _ (gath i fa fx) (by exact row_point_A c i 10 (by decide) _ fa fx _ _ (word_read_A c i 10 (by decide) fa (k1_off31 i) rfl _ _) (ha _))) $$ HA10
  ihave HA11 := (row_settle_core c SA 11 _ _ _ (gath i fa fx) (by exact row_point_A c i 11 (by decide) _ fa fx _ _ (word_read_A c i 11 (by decide) fa (k1_off34 i) rfl _ _) (ha _))) $$ HA11
  ihave HA12 := (row_settle_core c SA 12 _ _ _ (gath i fa fx) (by exact row_point_A c i 12 (by decide) _ fa fx _ _ (word_read_A c i 12 (by decide) fa (k1_off37 i) rfl _ _) (ha _))) $$ HA12
  ihave HA13 := (row_settle_core c SA 13 _ _ _ (gath i fa fx) (by exact row_point_A c i 13 (by decide) _ fa fx _ _ (word_read_A c i 13 (by decide) fa (k1_off40 i) rfl _ _) (ha _))) $$ HA13
  ihave HA14 := (row_settle_core c SA 14 _ _ _ (gath i fa fx) (by exact row_point_A c i 14 (by decide) _ fa fx _ _ (word_read_A c i 14 (by decide) fa (k1_off43 i) rfl _ _) (ha _))) $$ HA14
  ihave HA15 := (row_settle_core c SA 15 _ _ _ (gath i fa fx) (by exact row_point_A c i 15 (by decide) _ fa fx _ _ (word_read_A c i 15 (by decide) fa (k1_off46 i) rfl _ _) (ha _))) $$ HA15
  ihave HA16 := (row_settle_core c SA 16 _ _ _ (gath i fa fx) (by exact row_point_A c i 16 (by decide) _ fa fx _ _ (word_read_A c i 16 (by decide) fa (k1_off49 i) rfl _ _) (ha _))) $$ HA16
  ihave HA17 := (row_settle_core c SA 17 _ _ _ (gath i fa fx) (by exact row_point_A c i 17 (by decide) _ fa fx _ _ (word_read_A c i 17 (by decide) fa (k1_off52 i) rfl _ _) (ha _))) $$ HA17
  ihave HA18 := (row_settle_core c SA 18 _ _ _ (gath i fa fx) (by exact row_point_A c i 18 (by decide) _ fa fx _ _ (word_read_A c i 18 (by decide) fa (k1_off55 i) rfl _ _) (ha _))) $$ HA18
  ihave HA19 := (row_settle_core c SA 19 _ _ _ (gath i fa fx) (by exact row_point_A c i 19 (by decide) _ fa fx _ _ (word_read_A c i 19 (by decide) fa (k1_off58 i) rfl _ _) (ha _))) $$ HA19
  ihave HA20 := (row_settle_core c SA 20 _ _ _ (gath i fa fx) (by exact row_point_A c i 20 (by decide) _ fa fx _ _ (word_read_A c i 20 (by decide) fa (k1_off61 i) rfl _ _) (ha _))) $$ HA20
  ihave HA21 := (row_settle_core c SA 21 _ _ _ (gath i fa fx) (by exact row_point_A c i 21 (by decide) _ fa fx _ _ (word_read_A c i 21 (by decide) fa (k1_off64 i) rfl _ _) (ha _))) $$ HA21
  ihave HA22 := (row_settle_core c SA 22 _ _ _ (gath i fa fx) (by exact row_point_A c i 22 (by decide) _ fa fx _ _ (word_read_A c i 22 (by decide) fa (k1_off67 i) rfl _ _) (ha _))) $$ HA22
  ihave HA23 := (row_settle_core c SA 23 _ _ _ (gath i fa fx) (by exact row_point_A c i 23 (by decide) _ fa fx _ _ (word_read_A c i 23 (by decide) fa (k1_off70 i) rfl _ _) (ha _))) $$ HA23
  ihave HA24 := (row_settle_core c SA 24 _ _ _ (gath i fa fx) (by exact row_point_A c i 24 (by decide) _ fa fx _ _ (word_read_A c i 24 (by decide) fa (k1_off73 i) rfl _ _) (ha _))) $$ HA24
  ihave HA25 := (row_settle_core c SA 25 _ _ _ (gath i fa fx) (by exact row_point_A c i 25 (by decide) _ fa fx _ _ (word_read_A c i 25 (by decide) fa (k1_off76 i) rfl _ _) (ha _))) $$ HA25
  ihave HA26 := (row_settle_core c SA 26 _ _ _ (gath i fa fx) (by exact row_point_A c i 26 (by decide) _ fa fx _ _ (word_read_A c i 26 (by decide) fa (k1_off79 i) rfl _ _) (ha _))) $$ HA26
  ihave HA27 := (row_settle_core c SA 27 _ _ _ (gath i fa fx) (by exact row_point_A c i 27 (by decide) _ fa fx _ _ (word_read_A c i 27 (by decide) fa (k1_off82 i) rfl _ _) (ha _))) $$ HA27
  ihave HA28 := (row_settle_core c SA 28 _ _ _ (gath i fa fx) (by exact row_point_A c i 28 (by decide) _ fa fx _ _ (word_read_A c i 28 (by decide) fa (k1_off85 i) rfl _ _) (ha _))) $$ HA28
  ihave HA29 := (row_settle_core c SA 29 _ _ _ (gath i fa fx) (by exact row_point_A c i 29 (by decide) _ fa fx _ _ (word_read_A c i 29 (by decide) fa (k1_off88 i) rfl _ _) (ha _))) $$ HA29
  ihave HA30 := (row_settle_core c SA 30 _ _ _ (gath i fa fx) (by exact row_point_A c i 30 (by decide) _ fa fx _ _ (word_read_A c i 30 (by decide) fa (k1_off91 i) rfl _ _) (ha _))) $$ HA30
  ihave HA31 := (row_settle_core c SA 31 _ _ _ (gath i fa fx) (by exact row_point_A c i 31 (by decide) _ fa fx _ _ (word_read_A c i 31 (by decide) fa (k1_off94 i) rfl _ _) (ha _))) $$ HA31
  ihave HA32 := (row_settle_core c SA 32 _ _ _ (gath i fa fx) (by exact row_point_A c i 32 (by decide) _ fa fx _ _ (word_read_A c i 32 (by decide) fa (k1_off97 i) rfl _ _) (ha _))) $$ HA32
  ihave HA33 := (row_settle_core c SA 33 _ _ _ (gath i fa fx) (by exact row_point_A c i 33 (by decide) _ fa fx _ _ (word_read_A c i 33 (by decide) fa (k1_off100 i) rfl _ _) (ha _))) $$ HA33
  ihave HA34 := (row_settle_core c SA 34 _ _ _ (gath i fa fx) (by exact row_point_A c i 34 (by decide) _ fa fx _ _ (word_read_A c i 34 (by decide) fa (k1_off103 i) rfl _ _) (ha _))) $$ HA34
  ihave HA35 := (row_settle_core c SA 35 _ _ _ (gath i fa fx) (by exact row_point_A c i 35 (by decide) _ fa fx _ _ (word_read_A c i 35 (by decide) fa (k1_off106 i) rfl _ _) (ha _))) $$ HA35
  ihave HA36 := (row_settle_core c SA 36 _ _ _ (gath i fa fx) (by exact row_point_A c i 36 (by decide) _ fa fx _ _ (word_read_A c i 36 (by decide) fa (k1_off109 i) rfl _ _) (ha _))) $$ HA36
  ihave HA37 := (row_settle_core c SA 37 _ _ _ (gath i fa fx) (by exact row_point_A c i 37 (by decide) _ fa fx _ _ (word_read_A c i 37 (by decide) fa (k1_off112 i) rfl _ _) (ha _))) $$ HA37
  ihave HA38 := (row_settle_core c SA 38 _ _ _ (gath i fa fx) (by exact row_point_A c i 38 (by decide) _ fa fx _ _ (word_read_A c i 38 (by decide) fa (k1_off115 i) rfl _ _) (ha _))) $$ HA38
  ihave HA39 := (row_settle_core c SA 39 _ _ _ (gath i fa fx) (by exact row_point_A c i 39 (by decide) _ fa fx _ _ (word_read_A c i 39 (by decide) fa (k1_off118 i) rfl _ _) (ha _))) $$ HA39
  ihave HA40 := (row_settle_core c SA 40 _ _ _ (gath i fa fx) (by exact row_point_A c i 40 (by decide) _ fa fx _ _ (word_read_A c i 40 (by decide) fa (k1_off121 i) rfl _ _) (ha _))) $$ HA40
  ihave HA41 := (row_settle_core c SA 41 _ _ _ (gath i fa fx) (by exact row_point_A c i 41 (by decide) _ fa fx _ _ (word_read_A c i 41 (by decide) fa (k1_off124 i) rfl _ _) (ha _))) $$ HA41
  ihave HA42 := (row_settle_core c SA 42 _ _ _ (gath i fa fx) (by exact row_point_A c i 42 (by decide) _ fa fx _ _ (word_read_A c i 42 (by decide) fa (k1_off127 i) rfl _ _) (ha _))) $$ HA42
  ihave HA43 := (row_settle_core c SA 43 _ _ _ (gath i fa fx) (by exact row_point_A c i 43 (by decide) _ fa fx _ _ (word_read_A c i 43 (by decide) fa (k1_off130 i) rfl _ _) (ha _))) $$ HA43
  ihave HA44 := (row_settle_core c SA 44 _ _ _ (gath i fa fx) (by exact row_point_A c i 44 (by decide) _ fa fx _ _ (word_read_A c i 44 (by decide) fa (k1_off133 i) rfl _ _) (ha _))) $$ HA44
  ihave HA45 := (row_settle_core c SA 45 _ _ _ (gath i fa fx) (by exact row_point_A c i 45 (by decide) _ fa fx _ _ (word_read_A c i 45 (by decide) fa (k1_off136 i) rfl _ _) (ha _))) $$ HA45
  ihave HA46 := (row_settle_core c SA 46 _ _ _ (gath i fa fx) (by exact row_point_A c i 46 (by decide) _ fa fx _ _ (word_read_A c i 46 (by decide) fa (k1_off139 i) rfl _ _) (ha _))) $$ HA46
  ihave HA47 := (row_settle_core c SA 47 _ _ _ (gath i fa fx) (by exact row_point_A c i 47 (by decide) _ fa fx _ _ (word_read_A c i 47 (by decide) fa (k1_off142 i) rfl _ _) (ha _))) $$ HA47
  ihave HA48 := (row_settle_core c SA 48 _ _ _ (gath i fa fx) (by exact row_point_A c i 48 (by decide) _ fa fx _ _ (word_read_A c i 48 (by decide) fa (k1_off145 i) rfl _ _) (ha _))) $$ HA48
  ihave HA49 := (row_settle_core c SA 49 _ _ _ (gath i fa fx) (by exact row_point_A c i 49 (by decide) _ fa fx _ _ (word_read_A c i 49 (by decide) fa (k1_off148 i) rfl _ _) (ha _))) $$ HA49
  ihave HA50 := (row_settle_core c SA 50 _ _ _ (gath i fa fx) (by exact row_point_A c i 50 (by decide) _ fa fx _ _ (word_read_A c i 50 (by decide) fa (k1_off151 i) rfl _ _) (ha _))) $$ HA50
  ihave HA51 := (row_settle_core c SA 51 _ _ _ (gath i fa fx) (by exact row_point_A c i 51 (by decide) _ fa fx _ _ (word_read_A c i 51 (by decide) fa (k1_off154 i) rfl _ _) (ha _))) $$ HA51
  ihave HA52 := (row_settle_core c SA 52 _ _ _ (gath i fa fx) (by exact row_point_A c i 52 (by decide) _ fa fx _ _ (word_read_A c i 52 (by decide) fa (k1_off157 i) rfl _ _) (ha _))) $$ HA52
  ihave HA53 := (row_settle_core c SA 53 _ _ _ (gath i fa fx) (by exact row_point_A c i 53 (by decide) _ fa fx _ _ (word_read_A c i 53 (by decide) fa (k1_off160 i) rfl _ _) (ha _))) $$ HA53
  ihave HA54 := (row_settle_core c SA 54 _ _ _ (gath i fa fx) (by exact row_point_A c i 54 (by decide) _ fa fx _ _ (word_read_A c i 54 (by decide) fa (k1_off163 i) rfl _ _) (ha _))) $$ HA54
  ihave HA55 := (row_settle_core c SA 55 _ _ _ (gath i fa fx) (by exact row_point_A c i 55 (by decide) _ fa fx _ _ (word_read_A c i 55 (by decide) fa (k1_off166 i) rfl _ _) (ha _))) $$ HA55
  ihave HA56 := (row_settle_core c SA 56 _ _ _ (gath i fa fx) (by exact row_point_A c i 56 (by decide) _ fa fx _ _ (word_read_A c i 56 (by decide) fa (k1_off169 i) rfl _ _) (ha _))) $$ HA56
  ihave HA57 := (row_settle_core c SA 57 _ _ _ (gath i fa fx) (by exact row_point_A c i 57 (by decide) _ fa fx _ _ (word_read_A c i 57 (by decide) fa (k1_off172 i) rfl _ _) (ha _))) $$ HA57
  ihave HA58 := (row_settle_core c SA 58 _ _ _ (gath i fa fx) (by exact row_point_A c i 58 (by decide) _ fa fx _ _ (word_read_A c i 58 (by decide) fa (k1_off175 i) rfl _ _) (ha _))) $$ HA58
  ihave HA59 := (row_settle_core c SA 59 _ _ _ (gath i fa fx) (by exact row_point_A c i 59 (by decide) _ fa fx _ _ (word_read_A c i 59 (by decide) fa (k1_off178 i) rfl _ _) (ha _))) $$ HA59
  ihave HA60 := (row_settle_core c SA 60 _ _ _ (gath i fa fx) (by exact row_point_A c i 60 (by decide) _ fa fx _ _ (word_read_A c i 60 (by decide) fa (k1_off181 i) rfl _ _) (ha _))) $$ HA60
  ihave HA61 := (row_settle_core c SA 61 _ _ _ (gath i fa fx) (by exact row_point_A c i 61 (by decide) _ fa fx _ _ (word_read_A c i 61 (by decide) fa (k1_off184 i) rfl _ _) (ha _))) $$ HA61
  ihave HA62 := (row_settle_core c SA 62 _ _ _ (gath i fa fx) (by exact row_point_A c i 62 (by decide) _ fa fx _ _ (word_read_A c i 62 (by decide) fa (k1_off187 i) rfl _ _) (ha _))) $$ HA62
  ihave HA63 := (row_settle_core c SA 63 _ _ _ (gath i fa fx) (by exact row_point_A c i 63 (by decide) _ fa fx _ _ (word_read_A c i 63 (by decide) fa (k1_off190 i) rfl _ _) (ha _))) $$ HA63
  ihave HA64 := (row_settle_core c SA 64 _ _ _ (gath i fa fx) (by exact row_point_A c i 64 (by decide) _ fa fx _ _ (word_read_A c i 64 (by decide) fa (k1_off193 i) rfl _ _) (ha _))) $$ HA64
  ihave HA65 := (row_settle_core c SA 65 _ _ _ (gath i fa fx) (by exact row_point_A c i 65 (by decide) _ fa fx _ _ (word_read_A c i 65 (by decide) fa (k1_off196 i) rfl _ _) (ha _))) $$ HA65
  ihave HA66 := (row_settle_core c SA 66 _ _ _ (gath i fa fx) (by exact row_point_A c i 66 (by decide) _ fa fx _ _ (word_read_A c i 66 (by decide) fa (k1_off199 i) rfl _ _) (ha _))) $$ HA66
  ihave HA67 := (row_settle_core c SA 67 _ _ _ (gath i fa fx) (by exact row_point_A c i 67 (by decide) _ fa fx _ _ (word_read_A c i 67 (by decide) fa (k1_off202 i) rfl _ _) (ha _))) $$ HA67
  ihave HA68 := (row_settle_core c SA 68 _ _ _ (gath i fa fx) (by exact row_point_A c i 68 (by decide) _ fa fx _ _ (word_read_A c i 68 (by decide) fa (k1_off205 i) rfl _ _) (ha _))) $$ HA68
  ihave HA69 := (row_settle_core c SA 69 _ _ _ (gath i fa fx) (by exact row_point_A c i 69 (by decide) _ fa fx _ _ (word_read_A c i 69 (by decide) fa (k1_off208 i) rfl _ _) (ha _))) $$ HA69
  ihave HA70 := (row_settle_core c SA 70 _ _ _ (gath i fa fx) (by exact row_point_A c i 70 (by decide) _ fa fx _ _ (word_read_A c i 70 (by decide) fa (k1_off211 i) rfl _ _) (ha _))) $$ HA70
  ihave HA71 := (row_settle_core c SA 71 _ _ _ (gath i fa fx) (by exact row_point_A c i 71 (by decide) _ fa fx _ _ (word_read_A c i 71 (by decide) fa (k1_off214 i) rfl _ _) (ha _))) $$ HA71
  ihave HA72 := (row_settle_core c SA 72 _ _ _ (gath i fa fx) (by exact row_point_A c i 72 (by decide) _ fa fx _ _ (word_read_A c i 72 (by decide) fa (k1_off217 i) rfl _ _) (ha _))) $$ HA72
  ihave HA73 := (row_settle_core c SA 73 _ _ _ (gath i fa fx) (by exact row_point_A c i 73 (by decide) _ fa fx _ _ (word_read_A c i 73 (by decide) fa (k1_off220 i) rfl _ _) (ha _))) $$ HA73
  ihave HA74 := (row_settle_core c SA 74 _ _ _ (gath i fa fx) (by exact row_point_A c i 74 (by decide) _ fa fx _ _ (word_read_A c i 74 (by decide) fa (k1_off223 i) rfl _ _) (ha _))) $$ HA74
  ihave HA75 := (row_settle_core c SA 75 _ _ _ (gath i fa fx) (by exact row_point_A c i 75 (by decide) _ fa fx _ _ (word_read_A c i 75 (by decide) fa (k1_off226 i) rfl _ _) (ha _))) $$ HA75
  ihave HA76 := (row_settle_core c SA 76 _ _ _ (gath i fa fx) (by exact row_point_A c i 76 (by decide) _ fa fx _ _ (word_read_A c i 76 (by decide) fa (k1_off229 i) rfl _ _) (ha _))) $$ HA76
  ihave HA77 := (row_settle_core c SA 77 _ _ _ (gath i fa fx) (by exact row_point_A c i 77 (by decide) _ fa fx _ _ (word_read_A c i 77 (by decide) fa (k1_off232 i) rfl _ _) (ha _))) $$ HA77
  ihave HA78 := (row_settle_core c SA 78 _ _ _ (gath i fa fx) (by exact row_point_A c i 78 (by decide) _ fa fx _ _ (word_read_A c i 78 (by decide) fa (k1_off235 i) rfl _ _) (ha _))) $$ HA78
  ihave HA79 := (row_settle_core c SA 79 _ _ _ (gath i fa fx) (by exact row_point_A c i 79 (by decide) _ fa fx _ _ (word_read_A c i 79 (by decide) fa (k1_off238 i) rfl _ _) (ha _))) $$ HA79
  ihave HA80 := (row_settle_core c SA 80 _ _ _ (gath i fa fx) (by exact row_point_A c i 80 (by decide) _ fa fx _ _ (word_read_A c i 80 (by decide) fa (k1_off241 i) rfl _ _) (ha _))) $$ HA80
  ihave HA81 := (row_settle_core c SA 81 _ _ _ (gath i fa fx) (by exact row_point_A c i 81 (by decide) _ fa fx _ _ (word_read_A c i 81 (by decide) fa (k1_off244 i) rfl _ _) (ha _))) $$ HA81
  ihave HA82 := (row_settle_core c SA 82 _ _ _ (gath i fa fx) (by exact row_point_A c i 82 (by decide) _ fa fx _ _ (word_read_A c i 82 (by decide) fa (k1_off247 i) rfl _ _) (ha _))) $$ HA82
  ihave HA83 := (row_settle_core c SA 83 _ _ _ (gath i fa fx) (by exact row_point_A c i 83 (by decide) _ fa fx _ _ (word_read_A c i 83 (by decide) fa (k1_off250 i) rfl _ _) (ha _))) $$ HA83
  ihave HA84 := (row_settle_core c SA 84 _ _ _ (gath i fa fx) (by exact row_point_A c i 84 (by decide) _ fa fx _ _ (word_read_A c i 84 (by decide) fa (k1_off253 i) rfl _ _) (ha _))) $$ HA84
  ihave HA85 := (row_settle_core c SA 85 _ _ _ (gath i fa fx) (by exact row_point_A c i 85 (by decide) _ fa fx _ _ (word_read_A c i 85 (by decide) fa (k1_off256 i) rfl _ _) (ha _))) $$ HA85
  ihave HA86 := (row_settle_core c SA 86 _ _ _ (gath i fa fx) (by exact row_point_A c i 86 (by decide) _ fa fx _ _ (word_read_A c i 86 (by decide) fa (k1_off259 i) rfl _ _) (ha _))) $$ HA86
  ihave HA87 := (row_settle_core c SA 87 _ _ _ (gath i fa fx) (by exact row_point_A c i 87 (by decide) _ fa fx _ _ (word_read_A c i 87 (by decide) fa (k1_off262 i) rfl _ _) (ha _))) $$ HA87
  ihave HA88 := (row_settle_core c SA 88 _ _ _ (gath i fa fx) (by exact row_point_A c i 88 (by decide) _ fa fx _ _ (word_read_A c i 88 (by decide) fa (k1_off265 i) rfl _ _) (ha _))) $$ HA88
  ihave HA89 := (row_settle_core c SA 89 _ _ _ (gath i fa fx) (by exact row_point_A c i 89 (by decide) _ fa fx _ _ (word_read_A c i 89 (by decide) fa (k1_off268 i) rfl _ _) (ha _))) $$ HA89
  ihave HA90 := (row_settle_core c SA 90 _ _ _ (gath i fa fx) (by exact row_point_A c i 90 (by decide) _ fa fx _ _ (word_read_A c i 90 (by decide) fa (k1_off271 i) rfl _ _) (ha _))) $$ HA90
  ihave HA91 := (row_settle_core c SA 91 _ _ _ (gath i fa fx) (by exact row_point_A c i 91 (by decide) _ fa fx _ _ (word_read_A c i 91 (by decide) fa (k1_off274 i) rfl _ _) (ha _))) $$ HA91
  ihave HA92 := (row_settle_core c SA 92 _ _ _ (gath i fa fx) (by exact row_point_A c i 92 (by decide) _ fa fx _ _ (word_read_A c i 92 (by decide) fa (k1_off277 i) rfl _ _) (ha _))) $$ HA92
  ihave HA93 := (row_settle_core c SA 93 _ _ _ (gath i fa fx) (by exact row_point_A c i 93 (by decide) _ fa fx _ _ (word_read_A c i 93 (by decide) fa (k1_off280 i) rfl _ _) (ha _))) $$ HA93
  ihave HA94 := (row_settle_core c SA 94 _ _ _ (gath i fa fx) (by exact row_point_A c i 94 (by decide) _ fa fx _ _ (word_read_A c i 94 (by decide) fa (k1_off283 i) rfl _ _) (ha _))) $$ HA94
  ihave HA95 := (row_settle_core c SA 95 _ _ _ (gath i fa fx) (by exact row_point_A c i 95 (by decide) _ fa fx _ _ (word_read_A c i 95 (by decide) fa (k1_off286 i) rfl _ _) (ha _))) $$ HA95
  ihave HA96 := (row_settle_core c SA 96 _ _ _ (gath i fa fx) (by exact row_point_A c i 96 (by decide) _ fa fx _ _ (word_read_A c i 96 (by decide) fa (k1_off289 i) rfl _ _) (ha _))) $$ HA96
  ihave HA97 := (row_settle_core c SA 97 _ _ _ (gath i fa fx) (by exact row_point_A c i 97 (by decide) _ fa fx _ _ (word_read_A c i 97 (by decide) fa (k1_off292 i) rfl _ _) (ha _))) $$ HA97
  ihave HA98 := (row_settle_core c SA 98 _ _ _ (gath i fa fx) (by exact row_point_A c i 98 (by decide) _ fa fx _ _ (word_read_A c i 98 (by decide) fa (k1_off295 i) rfl _ _) (ha _))) $$ HA98
  ihave HA99 := (row_settle_core c SA 99 _ _ _ (gath i fa fx) (by exact row_point_A c i 99 (by decide) _ fa fx _ _ (word_read_A c i 99 (by decide) fa (k1_off298 i) rfl _ _) (ha _))) $$ HA99
  ihave HA100 := (row_settle_core c SA 100 _ _ _ (gath i fa fx) (by exact row_point_A c i 100 (by decide) _ fa fx _ _ (word_read_A c i 100 (by decide) fa (k1_off301 i) rfl _ _) (ha _))) $$ HA100
  ihave HA101 := (row_settle_core c SA 101 _ _ _ (gath i fa fx) (by exact row_point_A c i 101 (by decide) _ fa fx _ _ (word_read_A c i 101 (by decide) fa (k1_off304 i) rfl _ _) (ha _))) $$ HA101
  ihave HA102 := (row_settle_core c SA 102 _ _ _ (gath i fa fx) (by exact row_point_A c i 102 (by decide) _ fa fx _ _ (word_read_A c i 102 (by decide) fa (k1_off307 i) rfl _ _) (ha _))) $$ HA102
  ihave HA103 := (row_settle_core c SA 103 _ _ _ (gath i fa fx) (by exact row_point_A c i 103 (by decide) _ fa fx _ _ (word_read_A c i 103 (by decide) fa (k1_off310 i) rfl _ _) (ha _))) $$ HA103
  ihave HA104 := (row_settle_core c SA 104 _ _ _ (gath i fa fx) (by exact row_point_A c i 104 (by decide) _ fa fx _ _ (word_read_A c i 104 (by decide) fa (k1_off313 i) rfl _ _) (ha _))) $$ HA104
  ihave HA105 := (row_settle_core c SA 105 _ _ _ (gath i fa fx) (by exact row_point_A c i 105 (by decide) _ fa fx _ _ (word_read_A c i 105 (by decide) fa (k1_off316 i) rfl _ _) (ha _))) $$ HA105
  ihave HA106 := (row_settle_core c SA 106 _ _ _ (gath i fa fx) (by exact row_point_A c i 106 (by decide) _ fa fx _ _ (word_read_A c i 106 (by decide) fa (k1_off319 i) rfl _ _) (ha _))) $$ HA106
  ihave HA107 := (row_settle_core c SA 107 _ _ _ (gath i fa fx) (by exact row_point_A c i 107 (by decide) _ fa fx _ _ (word_read_A c i 107 (by decide) fa (k1_off322 i) rfl _ _) (ha _))) $$ HA107
  ihave HA108 := (row_settle_core c SA 108 _ _ _ (gath i fa fx) (by exact row_point_A c i 108 (by decide) _ fa fx _ _ (word_read_A c i 108 (by decide) fa (k1_off325 i) rfl _ _) (ha _))) $$ HA108
  ihave HA109 := (row_settle_core c SA 109 _ _ _ (gath i fa fx) (by exact row_point_A c i 109 (by decide) _ fa fx _ _ (word_read_A c i 109 (by decide) fa (k1_off328 i) rfl _ _) (ha _))) $$ HA109
  ihave HA110 := (row_settle_core c SA 110 _ _ _ (gath i fa fx) (by exact row_point_A c i 110 (by decide) _ fa fx _ _ (word_read_A c i 110 (by decide) fa (k1_off331 i) rfl _ _) (ha _))) $$ HA110
  ihave HA111 := (row_settle_core c SA 111 _ _ _ (gath i fa fx) (by exact row_point_A c i 111 (by decide) _ fa fx _ _ (word_read_A c i 111 (by decide) fa (k1_off334 i) rfl _ _) (ha _))) $$ HA111
  ihave HA112 := (row_settle_core c SA 112 _ _ _ (gath i fa fx) (by exact row_point_A c i 112 (by decide) _ fa fx _ _ (word_read_A c i 112 (by decide) fa (k1_off337 i) rfl _ _) (ha _))) $$ HA112
  ihave HA113 := (row_settle_core c SA 113 _ _ _ (gath i fa fx) (by exact row_point_A c i 113 (by decide) _ fa fx _ _ (word_read_A c i 113 (by decide) fa (k1_off340 i) rfl _ _) (ha _))) $$ HA113
  ihave HA114 := (row_settle_core c SA 114 _ _ _ (gath i fa fx) (by exact row_point_A c i 114 (by decide) _ fa fx _ _ (word_read_A c i 114 (by decide) fa (k1_off343 i) rfl _ _) (ha _))) $$ HA114
  ihave HA115 := (row_settle_core c SA 115 _ _ _ (gath i fa fx) (by exact row_point_A c i 115 (by decide) _ fa fx _ _ (word_read_A c i 115 (by decide) fa (k1_off346 i) rfl _ _) (ha _))) $$ HA115
  ihave HA116 := (row_settle_core c SA 116 _ _ _ (gath i fa fx) (by exact row_point_A c i 116 (by decide) _ fa fx _ _ (word_read_A c i 116 (by decide) fa (k1_off349 i) rfl _ _) (ha _))) $$ HA116
  ihave HA117 := (row_settle_core c SA 117 _ _ _ (gath i fa fx) (by exact row_point_A c i 117 (by decide) _ fa fx _ _ (word_read_A c i 117 (by decide) fa (k1_off352 i) rfl _ _) (ha _))) $$ HA117
  ihave HA118 := (row_settle_core c SA 118 _ _ _ (gath i fa fx) (by exact row_point_A c i 118 (by decide) _ fa fx _ _ (word_read_A c i 118 (by decide) fa (k1_off355 i) rfl _ _) (ha _))) $$ HA118
  ihave HA119 := (row_settle_core c SA 119 _ _ _ (gath i fa fx) (by exact row_point_A c i 119 (by decide) _ fa fx _ _ (word_read_A c i 119 (by decide) fa (k1_off358 i) rfl _ _) (ha _))) $$ HA119
  ihave HA120 := (row_settle_core c SA 120 _ _ _ (gath i fa fx) (by exact row_point_A c i 120 (by decide) _ fa fx _ _ (word_read_A c i 120 (by decide) fa (k1_off361 i) rfl _ _) (ha _))) $$ HA120
  ihave HA121 := (row_settle_core c SA 121 _ _ _ (gath i fa fx) (by exact row_point_A c i 121 (by decide) _ fa fx _ _ (word_read_A c i 121 (by decide) fa (k1_off364 i) rfl _ _) (ha _))) $$ HA121
  ihave HA122 := (row_settle_core c SA 122 _ _ _ (gath i fa fx) (by exact row_point_A c i 122 (by decide) _ fa fx _ _ (word_read_A c i 122 (by decide) fa (k1_off367 i) rfl _ _) (ha _))) $$ HA122
  ihave HA123 := (row_settle_core c SA 123 _ _ _ (gath i fa fx) (by exact row_point_A c i 123 (by decide) _ fa fx _ _ (word_read_A c i 123 (by decide) fa (k1_off370 i) rfl _ _) (ha _))) $$ HA123
  ihave HA124 := (row_settle_core c SA 124 _ _ _ (gath i fa fx) (by exact row_point_A c i 124 (by decide) _ fa fx _ _ (word_read_A c i 124 (by decide) fa (k1_off373 i) rfl _ _) (ha _))) $$ HA124
  ihave HA125 := (row_settle_core c SA 125 _ _ _ (gath i fa fx) (by exact row_point_A c i 125 (by decide) _ fa fx _ _ (word_read_A c i 125 (by decide) fa (k1_off376 i) rfl _ _) (ha _))) $$ HA125
  ihave HA126 := (row_settle_core c SA 126 _ _ _ (gath i fa fx) (by exact row_point_A c i 126 (by decide) _ fa fx _ _ (word_read_A c i 126 (by decide) fa (k1_off379 i) rfl _ _) (ha _))) $$ HA126
  ihave HA127 := (row_settle_core c SA 127 _ _ _ (gath i fa fx) (by exact row_point_A c i 127 (by decide) _ fa fx _ _ (word_read_A c i 127 (by decide) fa (k1_off382 i) rfl _ _) (ha _))) $$ HA127
  -- and row r of the second the row that b[128·i + r] names
  ihave HB0 := (row_settle_core c SB 0 _ _ _ (gath i fb fx) (by exact row_point_B c i 0 (by decide) _ fb fx _ _ (word_read_B c i 0 (by decide) fb (k1_off1 i) rfl _ _) (hb _))) $$ HB0
  ihave HB1 := (row_settle_core c SB 1 _ _ _ (gath i fb fx) (by exact row_point_B c i 1 (by decide) _ fb fx _ _ (word_read_B c i 1 (by decide) fb (k1_off4 i) rfl _ _) (hb _))) $$ HB1
  ihave HB2 := (row_settle_core c SB 2 _ _ _ (gath i fb fx) (by exact row_point_B c i 2 (by decide) _ fb fx _ _ (word_read_B c i 2 (by decide) fb (k1_off7 i) rfl _ _) (hb _))) $$ HB2
  ihave HB3 := (row_settle_core c SB 3 _ _ _ (gath i fb fx) (by exact row_point_B c i 3 (by decide) _ fb fx _ _ (word_read_B c i 3 (by decide) fb (k1_off10 i) rfl _ _) (hb _))) $$ HB3
  ihave HB4 := (row_settle_core c SB 4 _ _ _ (gath i fb fx) (by exact row_point_B c i 4 (by decide) _ fb fx _ _ (word_read_B c i 4 (by decide) fb (k1_off13 i) rfl _ _) (hb _))) $$ HB4
  ihave HB5 := (row_settle_core c SB 5 _ _ _ (gath i fb fx) (by exact row_point_B c i 5 (by decide) _ fb fx _ _ (word_read_B c i 5 (by decide) fb (k1_off16 i) rfl _ _) (hb _))) $$ HB5
  ihave HB6 := (row_settle_core c SB 6 _ _ _ (gath i fb fx) (by exact row_point_B c i 6 (by decide) _ fb fx _ _ (word_read_B c i 6 (by decide) fb (k1_off19 i) rfl _ _) (hb _))) $$ HB6
  ihave HB7 := (row_settle_core c SB 7 _ _ _ (gath i fb fx) (by exact row_point_B c i 7 (by decide) _ fb fx _ _ (word_read_B c i 7 (by decide) fb (k1_off22 i) rfl _ _) (hb _))) $$ HB7
  ihave HB8 := (row_settle_core c SB 8 _ _ _ (gath i fb fx) (by exact row_point_B c i 8 (by decide) _ fb fx _ _ (word_read_B c i 8 (by decide) fb (k1_off25 i) rfl _ _) (hb _))) $$ HB8
  ihave HB9 := (row_settle_core c SB 9 _ _ _ (gath i fb fx) (by exact row_point_B c i 9 (by decide) _ fb fx _ _ (word_read_B c i 9 (by decide) fb (k1_off28 i) rfl _ _) (hb _))) $$ HB9
  ihave HB10 := (row_settle_core c SB 10 _ _ _ (gath i fb fx) (by exact row_point_B c i 10 (by decide) _ fb fx _ _ (word_read_B c i 10 (by decide) fb (k1_off31 i) rfl _ _) (hb _))) $$ HB10
  ihave HB11 := (row_settle_core c SB 11 _ _ _ (gath i fb fx) (by exact row_point_B c i 11 (by decide) _ fb fx _ _ (word_read_B c i 11 (by decide) fb (k1_off34 i) rfl _ _) (hb _))) $$ HB11
  ihave HB12 := (row_settle_core c SB 12 _ _ _ (gath i fb fx) (by exact row_point_B c i 12 (by decide) _ fb fx _ _ (word_read_B c i 12 (by decide) fb (k1_off37 i) rfl _ _) (hb _))) $$ HB12
  ihave HB13 := (row_settle_core c SB 13 _ _ _ (gath i fb fx) (by exact row_point_B c i 13 (by decide) _ fb fx _ _ (word_read_B c i 13 (by decide) fb (k1_off40 i) rfl _ _) (hb _))) $$ HB13
  ihave HB14 := (row_settle_core c SB 14 _ _ _ (gath i fb fx) (by exact row_point_B c i 14 (by decide) _ fb fx _ _ (word_read_B c i 14 (by decide) fb (k1_off43 i) rfl _ _) (hb _))) $$ HB14
  ihave HB15 := (row_settle_core c SB 15 _ _ _ (gath i fb fx) (by exact row_point_B c i 15 (by decide) _ fb fx _ _ (word_read_B c i 15 (by decide) fb (k1_off46 i) rfl _ _) (hb _))) $$ HB15
  ihave HB16 := (row_settle_core c SB 16 _ _ _ (gath i fb fx) (by exact row_point_B c i 16 (by decide) _ fb fx _ _ (word_read_B c i 16 (by decide) fb (k1_off49 i) rfl _ _) (hb _))) $$ HB16
  ihave HB17 := (row_settle_core c SB 17 _ _ _ (gath i fb fx) (by exact row_point_B c i 17 (by decide) _ fb fx _ _ (word_read_B c i 17 (by decide) fb (k1_off52 i) rfl _ _) (hb _))) $$ HB17
  ihave HB18 := (row_settle_core c SB 18 _ _ _ (gath i fb fx) (by exact row_point_B c i 18 (by decide) _ fb fx _ _ (word_read_B c i 18 (by decide) fb (k1_off55 i) rfl _ _) (hb _))) $$ HB18
  ihave HB19 := (row_settle_core c SB 19 _ _ _ (gath i fb fx) (by exact row_point_B c i 19 (by decide) _ fb fx _ _ (word_read_B c i 19 (by decide) fb (k1_off58 i) rfl _ _) (hb _))) $$ HB19
  ihave HB20 := (row_settle_core c SB 20 _ _ _ (gath i fb fx) (by exact row_point_B c i 20 (by decide) _ fb fx _ _ (word_read_B c i 20 (by decide) fb (k1_off61 i) rfl _ _) (hb _))) $$ HB20
  ihave HB21 := (row_settle_core c SB 21 _ _ _ (gath i fb fx) (by exact row_point_B c i 21 (by decide) _ fb fx _ _ (word_read_B c i 21 (by decide) fb (k1_off64 i) rfl _ _) (hb _))) $$ HB21
  ihave HB22 := (row_settle_core c SB 22 _ _ _ (gath i fb fx) (by exact row_point_B c i 22 (by decide) _ fb fx _ _ (word_read_B c i 22 (by decide) fb (k1_off67 i) rfl _ _) (hb _))) $$ HB22
  ihave HB23 := (row_settle_core c SB 23 _ _ _ (gath i fb fx) (by exact row_point_B c i 23 (by decide) _ fb fx _ _ (word_read_B c i 23 (by decide) fb (k1_off70 i) rfl _ _) (hb _))) $$ HB23
  ihave HB24 := (row_settle_core c SB 24 _ _ _ (gath i fb fx) (by exact row_point_B c i 24 (by decide) _ fb fx _ _ (word_read_B c i 24 (by decide) fb (k1_off73 i) rfl _ _) (hb _))) $$ HB24
  ihave HB25 := (row_settle_core c SB 25 _ _ _ (gath i fb fx) (by exact row_point_B c i 25 (by decide) _ fb fx _ _ (word_read_B c i 25 (by decide) fb (k1_off76 i) rfl _ _) (hb _))) $$ HB25
  ihave HB26 := (row_settle_core c SB 26 _ _ _ (gath i fb fx) (by exact row_point_B c i 26 (by decide) _ fb fx _ _ (word_read_B c i 26 (by decide) fb (k1_off79 i) rfl _ _) (hb _))) $$ HB26
  ihave HB27 := (row_settle_core c SB 27 _ _ _ (gath i fb fx) (by exact row_point_B c i 27 (by decide) _ fb fx _ _ (word_read_B c i 27 (by decide) fb (k1_off82 i) rfl _ _) (hb _))) $$ HB27
  ihave HB28 := (row_settle_core c SB 28 _ _ _ (gath i fb fx) (by exact row_point_B c i 28 (by decide) _ fb fx _ _ (word_read_B c i 28 (by decide) fb (k1_off85 i) rfl _ _) (hb _))) $$ HB28
  ihave HB29 := (row_settle_core c SB 29 _ _ _ (gath i fb fx) (by exact row_point_B c i 29 (by decide) _ fb fx _ _ (word_read_B c i 29 (by decide) fb (k1_off88 i) rfl _ _) (hb _))) $$ HB29
  ihave HB30 := (row_settle_core c SB 30 _ _ _ (gath i fb fx) (by exact row_point_B c i 30 (by decide) _ fb fx _ _ (word_read_B c i 30 (by decide) fb (k1_off91 i) rfl _ _) (hb _))) $$ HB30
  ihave HB31 := (row_settle_core c SB 31 _ _ _ (gath i fb fx) (by exact row_point_B c i 31 (by decide) _ fb fx _ _ (word_read_B c i 31 (by decide) fb (k1_off94 i) rfl _ _) (hb _))) $$ HB31
  ihave HB32 := (row_settle_core c SB 32 _ _ _ (gath i fb fx) (by exact row_point_B c i 32 (by decide) _ fb fx _ _ (word_read_B c i 32 (by decide) fb (k1_off97 i) rfl _ _) (hb _))) $$ HB32
  ihave HB33 := (row_settle_core c SB 33 _ _ _ (gath i fb fx) (by exact row_point_B c i 33 (by decide) _ fb fx _ _ (word_read_B c i 33 (by decide) fb (k1_off100 i) rfl _ _) (hb _))) $$ HB33
  ihave HB34 := (row_settle_core c SB 34 _ _ _ (gath i fb fx) (by exact row_point_B c i 34 (by decide) _ fb fx _ _ (word_read_B c i 34 (by decide) fb (k1_off103 i) rfl _ _) (hb _))) $$ HB34
  ihave HB35 := (row_settle_core c SB 35 _ _ _ (gath i fb fx) (by exact row_point_B c i 35 (by decide) _ fb fx _ _ (word_read_B c i 35 (by decide) fb (k1_off106 i) rfl _ _) (hb _))) $$ HB35
  ihave HB36 := (row_settle_core c SB 36 _ _ _ (gath i fb fx) (by exact row_point_B c i 36 (by decide) _ fb fx _ _ (word_read_B c i 36 (by decide) fb (k1_off109 i) rfl _ _) (hb _))) $$ HB36
  ihave HB37 := (row_settle_core c SB 37 _ _ _ (gath i fb fx) (by exact row_point_B c i 37 (by decide) _ fb fx _ _ (word_read_B c i 37 (by decide) fb (k1_off112 i) rfl _ _) (hb _))) $$ HB37
  ihave HB38 := (row_settle_core c SB 38 _ _ _ (gath i fb fx) (by exact row_point_B c i 38 (by decide) _ fb fx _ _ (word_read_B c i 38 (by decide) fb (k1_off115 i) rfl _ _) (hb _))) $$ HB38
  ihave HB39 := (row_settle_core c SB 39 _ _ _ (gath i fb fx) (by exact row_point_B c i 39 (by decide) _ fb fx _ _ (word_read_B c i 39 (by decide) fb (k1_off118 i) rfl _ _) (hb _))) $$ HB39
  ihave HB40 := (row_settle_core c SB 40 _ _ _ (gath i fb fx) (by exact row_point_B c i 40 (by decide) _ fb fx _ _ (word_read_B c i 40 (by decide) fb (k1_off121 i) rfl _ _) (hb _))) $$ HB40
  ihave HB41 := (row_settle_core c SB 41 _ _ _ (gath i fb fx) (by exact row_point_B c i 41 (by decide) _ fb fx _ _ (word_read_B c i 41 (by decide) fb (k1_off124 i) rfl _ _) (hb _))) $$ HB41
  ihave HB42 := (row_settle_core c SB 42 _ _ _ (gath i fb fx) (by exact row_point_B c i 42 (by decide) _ fb fx _ _ (word_read_B c i 42 (by decide) fb (k1_off127 i) rfl _ _) (hb _))) $$ HB42
  ihave HB43 := (row_settle_core c SB 43 _ _ _ (gath i fb fx) (by exact row_point_B c i 43 (by decide) _ fb fx _ _ (word_read_B c i 43 (by decide) fb (k1_off130 i) rfl _ _) (hb _))) $$ HB43
  ihave HB44 := (row_settle_core c SB 44 _ _ _ (gath i fb fx) (by exact row_point_B c i 44 (by decide) _ fb fx _ _ (word_read_B c i 44 (by decide) fb (k1_off133 i) rfl _ _) (hb _))) $$ HB44
  ihave HB45 := (row_settle_core c SB 45 _ _ _ (gath i fb fx) (by exact row_point_B c i 45 (by decide) _ fb fx _ _ (word_read_B c i 45 (by decide) fb (k1_off136 i) rfl _ _) (hb _))) $$ HB45
  ihave HB46 := (row_settle_core c SB 46 _ _ _ (gath i fb fx) (by exact row_point_B c i 46 (by decide) _ fb fx _ _ (word_read_B c i 46 (by decide) fb (k1_off139 i) rfl _ _) (hb _))) $$ HB46
  ihave HB47 := (row_settle_core c SB 47 _ _ _ (gath i fb fx) (by exact row_point_B c i 47 (by decide) _ fb fx _ _ (word_read_B c i 47 (by decide) fb (k1_off142 i) rfl _ _) (hb _))) $$ HB47
  ihave HB48 := (row_settle_core c SB 48 _ _ _ (gath i fb fx) (by exact row_point_B c i 48 (by decide) _ fb fx _ _ (word_read_B c i 48 (by decide) fb (k1_off145 i) rfl _ _) (hb _))) $$ HB48
  ihave HB49 := (row_settle_core c SB 49 _ _ _ (gath i fb fx) (by exact row_point_B c i 49 (by decide) _ fb fx _ _ (word_read_B c i 49 (by decide) fb (k1_off148 i) rfl _ _) (hb _))) $$ HB49
  ihave HB50 := (row_settle_core c SB 50 _ _ _ (gath i fb fx) (by exact row_point_B c i 50 (by decide) _ fb fx _ _ (word_read_B c i 50 (by decide) fb (k1_off151 i) rfl _ _) (hb _))) $$ HB50
  ihave HB51 := (row_settle_core c SB 51 _ _ _ (gath i fb fx) (by exact row_point_B c i 51 (by decide) _ fb fx _ _ (word_read_B c i 51 (by decide) fb (k1_off154 i) rfl _ _) (hb _))) $$ HB51
  ihave HB52 := (row_settle_core c SB 52 _ _ _ (gath i fb fx) (by exact row_point_B c i 52 (by decide) _ fb fx _ _ (word_read_B c i 52 (by decide) fb (k1_off157 i) rfl _ _) (hb _))) $$ HB52
  ihave HB53 := (row_settle_core c SB 53 _ _ _ (gath i fb fx) (by exact row_point_B c i 53 (by decide) _ fb fx _ _ (word_read_B c i 53 (by decide) fb (k1_off160 i) rfl _ _) (hb _))) $$ HB53
  ihave HB54 := (row_settle_core c SB 54 _ _ _ (gath i fb fx) (by exact row_point_B c i 54 (by decide) _ fb fx _ _ (word_read_B c i 54 (by decide) fb (k1_off163 i) rfl _ _) (hb _))) $$ HB54
  ihave HB55 := (row_settle_core c SB 55 _ _ _ (gath i fb fx) (by exact row_point_B c i 55 (by decide) _ fb fx _ _ (word_read_B c i 55 (by decide) fb (k1_off166 i) rfl _ _) (hb _))) $$ HB55
  ihave HB56 := (row_settle_core c SB 56 _ _ _ (gath i fb fx) (by exact row_point_B c i 56 (by decide) _ fb fx _ _ (word_read_B c i 56 (by decide) fb (k1_off169 i) rfl _ _) (hb _))) $$ HB56
  ihave HB57 := (row_settle_core c SB 57 _ _ _ (gath i fb fx) (by exact row_point_B c i 57 (by decide) _ fb fx _ _ (word_read_B c i 57 (by decide) fb (k1_off172 i) rfl _ _) (hb _))) $$ HB57
  ihave HB58 := (row_settle_core c SB 58 _ _ _ (gath i fb fx) (by exact row_point_B c i 58 (by decide) _ fb fx _ _ (word_read_B c i 58 (by decide) fb (k1_off175 i) rfl _ _) (hb _))) $$ HB58
  ihave HB59 := (row_settle_core c SB 59 _ _ _ (gath i fb fx) (by exact row_point_B c i 59 (by decide) _ fb fx _ _ (word_read_B c i 59 (by decide) fb (k1_off178 i) rfl _ _) (hb _))) $$ HB59
  ihave HB60 := (row_settle_core c SB 60 _ _ _ (gath i fb fx) (by exact row_point_B c i 60 (by decide) _ fb fx _ _ (word_read_B c i 60 (by decide) fb (k1_off181 i) rfl _ _) (hb _))) $$ HB60
  ihave HB61 := (row_settle_core c SB 61 _ _ _ (gath i fb fx) (by exact row_point_B c i 61 (by decide) _ fb fx _ _ (word_read_B c i 61 (by decide) fb (k1_off184 i) rfl _ _) (hb _))) $$ HB61
  ihave HB62 := (row_settle_core c SB 62 _ _ _ (gath i fb fx) (by exact row_point_B c i 62 (by decide) _ fb fx _ _ (word_read_B c i 62 (by decide) fb (k1_off187 i) rfl _ _) (hb _))) $$ HB62
  ihave HB63 := (row_settle_core c SB 63 _ _ _ (gath i fb fx) (by exact row_point_B c i 63 (by decide) _ fb fx _ _ (word_read_B c i 63 (by decide) fb (k1_off190 i) rfl _ _) (hb _))) $$ HB63
  ihave HB64 := (row_settle_core c SB 64 _ _ _ (gath i fb fx) (by exact row_point_B c i 64 (by decide) _ fb fx _ _ (word_read_B c i 64 (by decide) fb (k1_off193 i) rfl _ _) (hb _))) $$ HB64
  ihave HB65 := (row_settle_core c SB 65 _ _ _ (gath i fb fx) (by exact row_point_B c i 65 (by decide) _ fb fx _ _ (word_read_B c i 65 (by decide) fb (k1_off196 i) rfl _ _) (hb _))) $$ HB65
  ihave HB66 := (row_settle_core c SB 66 _ _ _ (gath i fb fx) (by exact row_point_B c i 66 (by decide) _ fb fx _ _ (word_read_B c i 66 (by decide) fb (k1_off199 i) rfl _ _) (hb _))) $$ HB66
  ihave HB67 := (row_settle_core c SB 67 _ _ _ (gath i fb fx) (by exact row_point_B c i 67 (by decide) _ fb fx _ _ (word_read_B c i 67 (by decide) fb (k1_off202 i) rfl _ _) (hb _))) $$ HB67
  ihave HB68 := (row_settle_core c SB 68 _ _ _ (gath i fb fx) (by exact row_point_B c i 68 (by decide) _ fb fx _ _ (word_read_B c i 68 (by decide) fb (k1_off205 i) rfl _ _) (hb _))) $$ HB68
  ihave HB69 := (row_settle_core c SB 69 _ _ _ (gath i fb fx) (by exact row_point_B c i 69 (by decide) _ fb fx _ _ (word_read_B c i 69 (by decide) fb (k1_off208 i) rfl _ _) (hb _))) $$ HB69
  ihave HB70 := (row_settle_core c SB 70 _ _ _ (gath i fb fx) (by exact row_point_B c i 70 (by decide) _ fb fx _ _ (word_read_B c i 70 (by decide) fb (k1_off211 i) rfl _ _) (hb _))) $$ HB70
  ihave HB71 := (row_settle_core c SB 71 _ _ _ (gath i fb fx) (by exact row_point_B c i 71 (by decide) _ fb fx _ _ (word_read_B c i 71 (by decide) fb (k1_off214 i) rfl _ _) (hb _))) $$ HB71
  ihave HB72 := (row_settle_core c SB 72 _ _ _ (gath i fb fx) (by exact row_point_B c i 72 (by decide) _ fb fx _ _ (word_read_B c i 72 (by decide) fb (k1_off217 i) rfl _ _) (hb _))) $$ HB72
  ihave HB73 := (row_settle_core c SB 73 _ _ _ (gath i fb fx) (by exact row_point_B c i 73 (by decide) _ fb fx _ _ (word_read_B c i 73 (by decide) fb (k1_off220 i) rfl _ _) (hb _))) $$ HB73
  ihave HB74 := (row_settle_core c SB 74 _ _ _ (gath i fb fx) (by exact row_point_B c i 74 (by decide) _ fb fx _ _ (word_read_B c i 74 (by decide) fb (k1_off223 i) rfl _ _) (hb _))) $$ HB74
  ihave HB75 := (row_settle_core c SB 75 _ _ _ (gath i fb fx) (by exact row_point_B c i 75 (by decide) _ fb fx _ _ (word_read_B c i 75 (by decide) fb (k1_off226 i) rfl _ _) (hb _))) $$ HB75
  ihave HB76 := (row_settle_core c SB 76 _ _ _ (gath i fb fx) (by exact row_point_B c i 76 (by decide) _ fb fx _ _ (word_read_B c i 76 (by decide) fb (k1_off229 i) rfl _ _) (hb _))) $$ HB76
  ihave HB77 := (row_settle_core c SB 77 _ _ _ (gath i fb fx) (by exact row_point_B c i 77 (by decide) _ fb fx _ _ (word_read_B c i 77 (by decide) fb (k1_off232 i) rfl _ _) (hb _))) $$ HB77
  ihave HB78 := (row_settle_core c SB 78 _ _ _ (gath i fb fx) (by exact row_point_B c i 78 (by decide) _ fb fx _ _ (word_read_B c i 78 (by decide) fb (k1_off235 i) rfl _ _) (hb _))) $$ HB78
  ihave HB79 := (row_settle_core c SB 79 _ _ _ (gath i fb fx) (by exact row_point_B c i 79 (by decide) _ fb fx _ _ (word_read_B c i 79 (by decide) fb (k1_off238 i) rfl _ _) (hb _))) $$ HB79
  ihave HB80 := (row_settle_core c SB 80 _ _ _ (gath i fb fx) (by exact row_point_B c i 80 (by decide) _ fb fx _ _ (word_read_B c i 80 (by decide) fb (k1_off241 i) rfl _ _) (hb _))) $$ HB80
  ihave HB81 := (row_settle_core c SB 81 _ _ _ (gath i fb fx) (by exact row_point_B c i 81 (by decide) _ fb fx _ _ (word_read_B c i 81 (by decide) fb (k1_off244 i) rfl _ _) (hb _))) $$ HB81
  ihave HB82 := (row_settle_core c SB 82 _ _ _ (gath i fb fx) (by exact row_point_B c i 82 (by decide) _ fb fx _ _ (word_read_B c i 82 (by decide) fb (k1_off247 i) rfl _ _) (hb _))) $$ HB82
  ihave HB83 := (row_settle_core c SB 83 _ _ _ (gath i fb fx) (by exact row_point_B c i 83 (by decide) _ fb fx _ _ (word_read_B c i 83 (by decide) fb (k1_off250 i) rfl _ _) (hb _))) $$ HB83
  ihave HB84 := (row_settle_core c SB 84 _ _ _ (gath i fb fx) (by exact row_point_B c i 84 (by decide) _ fb fx _ _ (word_read_B c i 84 (by decide) fb (k1_off253 i) rfl _ _) (hb _))) $$ HB84
  ihave HB85 := (row_settle_core c SB 85 _ _ _ (gath i fb fx) (by exact row_point_B c i 85 (by decide) _ fb fx _ _ (word_read_B c i 85 (by decide) fb (k1_off256 i) rfl _ _) (hb _))) $$ HB85
  ihave HB86 := (row_settle_core c SB 86 _ _ _ (gath i fb fx) (by exact row_point_B c i 86 (by decide) _ fb fx _ _ (word_read_B c i 86 (by decide) fb (k1_off259 i) rfl _ _) (hb _))) $$ HB86
  ihave HB87 := (row_settle_core c SB 87 _ _ _ (gath i fb fx) (by exact row_point_B c i 87 (by decide) _ fb fx _ _ (word_read_B c i 87 (by decide) fb (k1_off262 i) rfl _ _) (hb _))) $$ HB87
  ihave HB88 := (row_settle_core c SB 88 _ _ _ (gath i fb fx) (by exact row_point_B c i 88 (by decide) _ fb fx _ _ (word_read_B c i 88 (by decide) fb (k1_off265 i) rfl _ _) (hb _))) $$ HB88
  ihave HB89 := (row_settle_core c SB 89 _ _ _ (gath i fb fx) (by exact row_point_B c i 89 (by decide) _ fb fx _ _ (word_read_B c i 89 (by decide) fb (k1_off268 i) rfl _ _) (hb _))) $$ HB89
  ihave HB90 := (row_settle_core c SB 90 _ _ _ (gath i fb fx) (by exact row_point_B c i 90 (by decide) _ fb fx _ _ (word_read_B c i 90 (by decide) fb (k1_off271 i) rfl _ _) (hb _))) $$ HB90
  ihave HB91 := (row_settle_core c SB 91 _ _ _ (gath i fb fx) (by exact row_point_B c i 91 (by decide) _ fb fx _ _ (word_read_B c i 91 (by decide) fb (k1_off274 i) rfl _ _) (hb _))) $$ HB91
  ihave HB92 := (row_settle_core c SB 92 _ _ _ (gath i fb fx) (by exact row_point_B c i 92 (by decide) _ fb fx _ _ (word_read_B c i 92 (by decide) fb (k1_off277 i) rfl _ _) (hb _))) $$ HB92
  ihave HB93 := (row_settle_core c SB 93 _ _ _ (gath i fb fx) (by exact row_point_B c i 93 (by decide) _ fb fx _ _ (word_read_B c i 93 (by decide) fb (k1_off280 i) rfl _ _) (hb _))) $$ HB93
  ihave HB94 := (row_settle_core c SB 94 _ _ _ (gath i fb fx) (by exact row_point_B c i 94 (by decide) _ fb fx _ _ (word_read_B c i 94 (by decide) fb (k1_off283 i) rfl _ _) (hb _))) $$ HB94
  ihave HB95 := (row_settle_core c SB 95 _ _ _ (gath i fb fx) (by exact row_point_B c i 95 (by decide) _ fb fx _ _ (word_read_B c i 95 (by decide) fb (k1_off286 i) rfl _ _) (hb _))) $$ HB95
  ihave HB96 := (row_settle_core c SB 96 _ _ _ (gath i fb fx) (by exact row_point_B c i 96 (by decide) _ fb fx _ _ (word_read_B c i 96 (by decide) fb (k1_off289 i) rfl _ _) (hb _))) $$ HB96
  ihave HB97 := (row_settle_core c SB 97 _ _ _ (gath i fb fx) (by exact row_point_B c i 97 (by decide) _ fb fx _ _ (word_read_B c i 97 (by decide) fb (k1_off292 i) rfl _ _) (hb _))) $$ HB97
  ihave HB98 := (row_settle_core c SB 98 _ _ _ (gath i fb fx) (by exact row_point_B c i 98 (by decide) _ fb fx _ _ (word_read_B c i 98 (by decide) fb (k1_off295 i) rfl _ _) (hb _))) $$ HB98
  ihave HB99 := (row_settle_core c SB 99 _ _ _ (gath i fb fx) (by exact row_point_B c i 99 (by decide) _ fb fx _ _ (word_read_B c i 99 (by decide) fb (k1_off298 i) rfl _ _) (hb _))) $$ HB99
  ihave HB100 := (row_settle_core c SB 100 _ _ _ (gath i fb fx) (by exact row_point_B c i 100 (by decide) _ fb fx _ _ (word_read_B c i 100 (by decide) fb (k1_off301 i) rfl _ _) (hb _))) $$ HB100
  ihave HB101 := (row_settle_core c SB 101 _ _ _ (gath i fb fx) (by exact row_point_B c i 101 (by decide) _ fb fx _ _ (word_read_B c i 101 (by decide) fb (k1_off304 i) rfl _ _) (hb _))) $$ HB101
  ihave HB102 := (row_settle_core c SB 102 _ _ _ (gath i fb fx) (by exact row_point_B c i 102 (by decide) _ fb fx _ _ (word_read_B c i 102 (by decide) fb (k1_off307 i) rfl _ _) (hb _))) $$ HB102
  ihave HB103 := (row_settle_core c SB 103 _ _ _ (gath i fb fx) (by exact row_point_B c i 103 (by decide) _ fb fx _ _ (word_read_B c i 103 (by decide) fb (k1_off310 i) rfl _ _) (hb _))) $$ HB103
  ihave HB104 := (row_settle_core c SB 104 _ _ _ (gath i fb fx) (by exact row_point_B c i 104 (by decide) _ fb fx _ _ (word_read_B c i 104 (by decide) fb (k1_off313 i) rfl _ _) (hb _))) $$ HB104
  ihave HB105 := (row_settle_core c SB 105 _ _ _ (gath i fb fx) (by exact row_point_B c i 105 (by decide) _ fb fx _ _ (word_read_B c i 105 (by decide) fb (k1_off316 i) rfl _ _) (hb _))) $$ HB105
  ihave HB106 := (row_settle_core c SB 106 _ _ _ (gath i fb fx) (by exact row_point_B c i 106 (by decide) _ fb fx _ _ (word_read_B c i 106 (by decide) fb (k1_off319 i) rfl _ _) (hb _))) $$ HB106
  ihave HB107 := (row_settle_core c SB 107 _ _ _ (gath i fb fx) (by exact row_point_B c i 107 (by decide) _ fb fx _ _ (word_read_B c i 107 (by decide) fb (k1_off322 i) rfl _ _) (hb _))) $$ HB107
  ihave HB108 := (row_settle_core c SB 108 _ _ _ (gath i fb fx) (by exact row_point_B c i 108 (by decide) _ fb fx _ _ (word_read_B c i 108 (by decide) fb (k1_off325 i) rfl _ _) (hb _))) $$ HB108
  ihave HB109 := (row_settle_core c SB 109 _ _ _ (gath i fb fx) (by exact row_point_B c i 109 (by decide) _ fb fx _ _ (word_read_B c i 109 (by decide) fb (k1_off328 i) rfl _ _) (hb _))) $$ HB109
  ihave HB110 := (row_settle_core c SB 110 _ _ _ (gath i fb fx) (by exact row_point_B c i 110 (by decide) _ fb fx _ _ (word_read_B c i 110 (by decide) fb (k1_off331 i) rfl _ _) (hb _))) $$ HB110
  ihave HB111 := (row_settle_core c SB 111 _ _ _ (gath i fb fx) (by exact row_point_B c i 111 (by decide) _ fb fx _ _ (word_read_B c i 111 (by decide) fb (k1_off334 i) rfl _ _) (hb _))) $$ HB111
  ihave HB112 := (row_settle_core c SB 112 _ _ _ (gath i fb fx) (by exact row_point_B c i 112 (by decide) _ fb fx _ _ (word_read_B c i 112 (by decide) fb (k1_off337 i) rfl _ _) (hb _))) $$ HB112
  ihave HB113 := (row_settle_core c SB 113 _ _ _ (gath i fb fx) (by exact row_point_B c i 113 (by decide) _ fb fx _ _ (word_read_B c i 113 (by decide) fb (k1_off340 i) rfl _ _) (hb _))) $$ HB113
  ihave HB114 := (row_settle_core c SB 114 _ _ _ (gath i fb fx) (by exact row_point_B c i 114 (by decide) _ fb fx _ _ (word_read_B c i 114 (by decide) fb (k1_off343 i) rfl _ _) (hb _))) $$ HB114
  ihave HB115 := (row_settle_core c SB 115 _ _ _ (gath i fb fx) (by exact row_point_B c i 115 (by decide) _ fb fx _ _ (word_read_B c i 115 (by decide) fb (k1_off346 i) rfl _ _) (hb _))) $$ HB115
  ihave HB116 := (row_settle_core c SB 116 _ _ _ (gath i fb fx) (by exact row_point_B c i 116 (by decide) _ fb fx _ _ (word_read_B c i 116 (by decide) fb (k1_off349 i) rfl _ _) (hb _))) $$ HB116
  ihave HB117 := (row_settle_core c SB 117 _ _ _ (gath i fb fx) (by exact row_point_B c i 117 (by decide) _ fb fx _ _ (word_read_B c i 117 (by decide) fb (k1_off352 i) rfl _ _) (hb _))) $$ HB117
  ihave HB118 := (row_settle_core c SB 118 _ _ _ (gath i fb fx) (by exact row_point_B c i 118 (by decide) _ fb fx _ _ (word_read_B c i 118 (by decide) fb (k1_off355 i) rfl _ _) (hb _))) $$ HB118
  ihave HB119 := (row_settle_core c SB 119 _ _ _ (gath i fb fx) (by exact row_point_B c i 119 (by decide) _ fb fx _ _ (word_read_B c i 119 (by decide) fb (k1_off358 i) rfl _ _) (hb _))) $$ HB119
  ihave HB120 := (row_settle_core c SB 120 _ _ _ (gath i fb fx) (by exact row_point_B c i 120 (by decide) _ fb fx _ _ (word_read_B c i 120 (by decide) fb (k1_off361 i) rfl _ _) (hb _))) $$ HB120
  ihave HB121 := (row_settle_core c SB 121 _ _ _ (gath i fb fx) (by exact row_point_B c i 121 (by decide) _ fb fx _ _ (word_read_B c i 121 (by decide) fb (k1_off364 i) rfl _ _) (hb _))) $$ HB121
  ihave HB122 := (row_settle_core c SB 122 _ _ _ (gath i fb fx) (by exact row_point_B c i 122 (by decide) _ fb fx _ _ (word_read_B c i 122 (by decide) fb (k1_off367 i) rfl _ _) (hb _))) $$ HB122
  ihave HB123 := (row_settle_core c SB 123 _ _ _ (gath i fb fx) (by exact row_point_B c i 123 (by decide) _ fb fx _ _ (word_read_B c i 123 (by decide) fb (k1_off370 i) rfl _ _) (hb _))) $$ HB123
  ihave HB124 := (row_settle_core c SB 124 _ _ _ (gath i fb fx) (by exact row_point_B c i 124 (by decide) _ fb fx _ _ (word_read_B c i 124 (by decide) fb (k1_off373 i) rfl _ _) (hb _))) $$ HB124
  ihave HB125 := (row_settle_core c SB 125 _ _ _ (gath i fb fx) (by exact row_point_B c i 125 (by decide) _ fb fx _ _ (word_read_B c i 125 (by decide) fb (k1_off376 i) rfl _ _) (hb _))) $$ HB125
  ihave HB126 := (row_settle_core c SB 126 _ _ _ (gath i fb fx) (by exact row_point_B c i 126 (by decide) _ fb fx _ _ (word_read_B c i 126 (by decide) fb (k1_off379 i) rfl _ _) (hb _))) $$ HB126
  ihave HB127 := (row_settle_core c SB 127 _ _ _ (gath i fb fx) (by exact row_point_B c i 127 (by decide) _ fb fx _ _ (word_read_B c i 127 (by decide) fb (k1_off382 i) rfl _ _) (hb _))) $$ HB127
  -- the rows are the buffers again, at the gathered contents
  ihave H6 := (rows_join c SA (Memref.isWhole_whole _) (gath i fa fx)) $$ [HA0 HA1 HA2 HA3 HA4 HA5 HA6 HA7 HA8 HA9 HA10 HA11 HA12 HA13 HA14 HA15 HA16 HA17 HA18 HA19 HA20 HA21 HA22 HA23 HA24 HA25 HA26 HA27 HA28 HA29 HA30 HA31 HA32 HA33 HA34 HA35 HA36 HA37 HA38 HA39 HA40 HA41 HA42 HA43 HA44 HA45 HA46 HA47 HA48 HA49 HA50 HA51 HA52 HA53 HA54 HA55 HA56 HA57 HA58 HA59 HA60 HA61 HA62 HA63 HA64 HA65 HA66 HA67 HA68 HA69 HA70 HA71 HA72 HA73 HA74 HA75 HA76 HA77 HA78 HA79 HA80 HA81 HA82 HA83 HA84 HA85 HA86 HA87 HA88 HA89 HA90 HA91 HA92 HA93 HA94 HA95 HA96 HA97 HA98 HA99 HA100 HA101 HA102 HA103 HA104 HA105 HA106 HA107 HA108 HA109 HA110 HA111 HA112 HA113 HA114 HA115 HA116 HA117 HA118 HA119 HA120 HA121 HA122 HA123 HA124 HA125 HA126 HA127]
  · unfold rowsAt
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HA12]; · iexact HA12
    isplitl [HA13]; · iexact HA13
    isplitl [HA14]; · iexact HA14
    isplitl [HA15]; · iexact HA15
    isplitl [HA16]; · iexact HA16
    isplitl [HA17]; · iexact HA17
    isplitl [HA18]; · iexact HA18
    isplitl [HA19]; · iexact HA19
    isplitl [HA20]; · iexact HA20
    isplitl [HA21]; · iexact HA21
    isplitl [HA22]; · iexact HA22
    isplitl [HA23]; · iexact HA23
    isplitl [HA24]; · iexact HA24
    isplitl [HA25]; · iexact HA25
    isplitl [HA26]; · iexact HA26
    isplitl [HA27]; · iexact HA27
    isplitl [HA28]; · iexact HA28
    isplitl [HA29]; · iexact HA29
    isplitl [HA30]; · iexact HA30
    isplitl [HA31]; · iexact HA31
    isplitl [HA32]; · iexact HA32
    isplitl [HA33]; · iexact HA33
    isplitl [HA34]; · iexact HA34
    isplitl [HA35]; · iexact HA35
    isplitl [HA36]; · iexact HA36
    isplitl [HA37]; · iexact HA37
    isplitl [HA38]; · iexact HA38
    isplitl [HA39]; · iexact HA39
    isplitl [HA40]; · iexact HA40
    isplitl [HA41]; · iexact HA41
    isplitl [HA42]; · iexact HA42
    isplitl [HA43]; · iexact HA43
    isplitl [HA44]; · iexact HA44
    isplitl [HA45]; · iexact HA45
    isplitl [HA46]; · iexact HA46
    isplitl [HA47]; · iexact HA47
    isplitl [HA48]; · iexact HA48
    isplitl [HA49]; · iexact HA49
    isplitl [HA50]; · iexact HA50
    isplitl [HA51]; · iexact HA51
    isplitl [HA52]; · iexact HA52
    isplitl [HA53]; · iexact HA53
    isplitl [HA54]; · iexact HA54
    isplitl [HA55]; · iexact HA55
    isplitl [HA56]; · iexact HA56
    isplitl [HA57]; · iexact HA57
    isplitl [HA58]; · iexact HA58
    isplitl [HA59]; · iexact HA59
    isplitl [HA60]; · iexact HA60
    isplitl [HA61]; · iexact HA61
    isplitl [HA62]; · iexact HA62
    isplitl [HA63]; · iexact HA63
    isplitl [HA64]; · iexact HA64
    isplitl [HA65]; · iexact HA65
    isplitl [HA66]; · iexact HA66
    isplitl [HA67]; · iexact HA67
    isplitl [HA68]; · iexact HA68
    isplitl [HA69]; · iexact HA69
    isplitl [HA70]; · iexact HA70
    isplitl [HA71]; · iexact HA71
    isplitl [HA72]; · iexact HA72
    isplitl [HA73]; · iexact HA73
    isplitl [HA74]; · iexact HA74
    isplitl [HA75]; · iexact HA75
    isplitl [HA76]; · iexact HA76
    isplitl [HA77]; · iexact HA77
    isplitl [HA78]; · iexact HA78
    isplitl [HA79]; · iexact HA79
    isplitl [HA80]; · iexact HA80
    isplitl [HA81]; · iexact HA81
    isplitl [HA82]; · iexact HA82
    isplitl [HA83]; · iexact HA83
    isplitl [HA84]; · iexact HA84
    isplitl [HA85]; · iexact HA85
    isplitl [HA86]; · iexact HA86
    isplitl [HA87]; · iexact HA87
    isplitl [HA88]; · iexact HA88
    isplitl [HA89]; · iexact HA89
    isplitl [HA90]; · iexact HA90
    isplitl [HA91]; · iexact HA91
    isplitl [HA92]; · iexact HA92
    isplitl [HA93]; · iexact HA93
    isplitl [HA94]; · iexact HA94
    isplitl [HA95]; · iexact HA95
    isplitl [HA96]; · iexact HA96
    isplitl [HA97]; · iexact HA97
    isplitl [HA98]; · iexact HA98
    isplitl [HA99]; · iexact HA99
    isplitl [HA100]; · iexact HA100
    isplitl [HA101]; · iexact HA101
    isplitl [HA102]; · iexact HA102
    isplitl [HA103]; · iexact HA103
    isplitl [HA104]; · iexact HA104
    isplitl [HA105]; · iexact HA105
    isplitl [HA106]; · iexact HA106
    isplitl [HA107]; · iexact HA107
    isplitl [HA108]; · iexact HA108
    isplitl [HA109]; · iexact HA109
    isplitl [HA110]; · iexact HA110
    isplitl [HA111]; · iexact HA111
    isplitl [HA112]; · iexact HA112
    isplitl [HA113]; · iexact HA113
    isplitl [HA114]; · iexact HA114
    isplitl [HA115]; · iexact HA115
    isplitl [HA116]; · iexact HA116
    isplitl [HA117]; · iexact HA117
    isplitl [HA118]; · iexact HA118
    isplitl [HA119]; · iexact HA119
    isplitl [HA120]; · iexact HA120
    isplitl [HA121]; · iexact HA121
    isplitl [HA122]; · iexact HA122
    isplitl [HA123]; · iexact HA123
    isplitl [HA124]; · iexact HA124
    isplitl [HA125]; · iexact HA125
    isplitl [HA126]; · iexact HA126
    iexact HA127
  ihave H7 := (rows_join c SB (Memref.isWhole_whole _) (gath i fb fx)) $$ [HB0 HB1 HB2 HB3 HB4 HB5 HB6 HB7 HB8 HB9 HB10 HB11 HB12 HB13 HB14 HB15 HB16 HB17 HB18 HB19 HB20 HB21 HB22 HB23 HB24 HB25 HB26 HB27 HB28 HB29 HB30 HB31 HB32 HB33 HB34 HB35 HB36 HB37 HB38 HB39 HB40 HB41 HB42 HB43 HB44 HB45 HB46 HB47 HB48 HB49 HB50 HB51 HB52 HB53 HB54 HB55 HB56 HB57 HB58 HB59 HB60 HB61 HB62 HB63 HB64 HB65 HB66 HB67 HB68 HB69 HB70 HB71 HB72 HB73 HB74 HB75 HB76 HB77 HB78 HB79 HB80 HB81 HB82 HB83 HB84 HB85 HB86 HB87 HB88 HB89 HB90 HB91 HB92 HB93 HB94 HB95 HB96 HB97 HB98 HB99 HB100 HB101 HB102 HB103 HB104 HB105 HB106 HB107 HB108 HB109 HB110 HB111 HB112 HB113 HB114 HB115 HB116 HB117 HB118 HB119 HB120 HB121 HB122 HB123 HB124 HB125 HB126 HB127]
  · unfold rowsAt
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [HB8]; · iexact HB8
    isplitl [HB9]; · iexact HB9
    isplitl [HB10]; · iexact HB10
    isplitl [HB11]; · iexact HB11
    isplitl [HB12]; · iexact HB12
    isplitl [HB13]; · iexact HB13
    isplitl [HB14]; · iexact HB14
    isplitl [HB15]; · iexact HB15
    isplitl [HB16]; · iexact HB16
    isplitl [HB17]; · iexact HB17
    isplitl [HB18]; · iexact HB18
    isplitl [HB19]; · iexact HB19
    isplitl [HB20]; · iexact HB20
    isplitl [HB21]; · iexact HB21
    isplitl [HB22]; · iexact HB22
    isplitl [HB23]; · iexact HB23
    isplitl [HB24]; · iexact HB24
    isplitl [HB25]; · iexact HB25
    isplitl [HB26]; · iexact HB26
    isplitl [HB27]; · iexact HB27
    isplitl [HB28]; · iexact HB28
    isplitl [HB29]; · iexact HB29
    isplitl [HB30]; · iexact HB30
    isplitl [HB31]; · iexact HB31
    isplitl [HB32]; · iexact HB32
    isplitl [HB33]; · iexact HB33
    isplitl [HB34]; · iexact HB34
    isplitl [HB35]; · iexact HB35
    isplitl [HB36]; · iexact HB36
    isplitl [HB37]; · iexact HB37
    isplitl [HB38]; · iexact HB38
    isplitl [HB39]; · iexact HB39
    isplitl [HB40]; · iexact HB40
    isplitl [HB41]; · iexact HB41
    isplitl [HB42]; · iexact HB42
    isplitl [HB43]; · iexact HB43
    isplitl [HB44]; · iexact HB44
    isplitl [HB45]; · iexact HB45
    isplitl [HB46]; · iexact HB46
    isplitl [HB47]; · iexact HB47
    isplitl [HB48]; · iexact HB48
    isplitl [HB49]; · iexact HB49
    isplitl [HB50]; · iexact HB50
    isplitl [HB51]; · iexact HB51
    isplitl [HB52]; · iexact HB52
    isplitl [HB53]; · iexact HB53
    isplitl [HB54]; · iexact HB54
    isplitl [HB55]; · iexact HB55
    isplitl [HB56]; · iexact HB56
    isplitl [HB57]; · iexact HB57
    isplitl [HB58]; · iexact HB58
    isplitl [HB59]; · iexact HB59
    isplitl [HB60]; · iexact HB60
    isplitl [HB61]; · iexact HB61
    isplitl [HB62]; · iexact HB62
    isplitl [HB63]; · iexact HB63
    isplitl [HB64]; · iexact HB64
    isplitl [HB65]; · iexact HB65
    isplitl [HB66]; · iexact HB66
    isplitl [HB67]; · iexact HB67
    isplitl [HB68]; · iexact HB68
    isplitl [HB69]; · iexact HB69
    isplitl [HB70]; · iexact HB70
    isplitl [HB71]; · iexact HB71
    isplitl [HB72]; · iexact HB72
    isplitl [HB73]; · iexact HB73
    isplitl [HB74]; · iexact HB74
    isplitl [HB75]; · iexact HB75
    isplitl [HB76]; · iexact HB76
    isplitl [HB77]; · iexact HB77
    isplitl [HB78]; · iexact HB78
    isplitl [HB79]; · iexact HB79
    isplitl [HB80]; · iexact HB80
    isplitl [HB81]; · iexact HB81
    isplitl [HB82]; · iexact HB82
    isplitl [HB83]; · iexact HB83
    isplitl [HB84]; · iexact HB84
    isplitl [HB85]; · iexact HB85
    isplitl [HB86]; · iexact HB86
    isplitl [HB87]; · iexact HB87
    isplitl [HB88]; · iexact HB88
    isplitl [HB89]; · iexact HB89
    isplitl [HB90]; · iexact HB90
    isplitl [HB91]; · iexact HB91
    isplitl [HB92]; · iexact HB92
    isplitl [HB93]; · iexact HB93
    isplitl [HB94]; · iexact HB94
    isplitl [HB95]; · iexact HB95
    isplitl [HB96]; · iexact HB96
    isplitl [HB97]; · iexact HB97
    isplitl [HB98]; · iexact HB98
    isplitl [HB99]; · iexact HB99
    isplitl [HB100]; · iexact HB100
    isplitl [HB101]; · iexact HB101
    isplitl [HB102]; · iexact HB102
    isplitl [HB103]; · iexact HB103
    isplitl [HB104]; · iexact HB104
    isplitl [HB105]; · iexact HB105
    isplitl [HB106]; · iexact HB106
    isplitl [HB107]; · iexact HB107
    isplitl [HB108]; · iexact HB108
    isplitl [HB109]; · iexact HB109
    isplitl [HB110]; · iexact HB110
    isplitl [HB111]; · iexact HB111
    isplitl [HB112]; · iexact HB112
    isplitl [HB113]; · iexact HB113
    isplitl [HB114]; · iexact HB114
    isplitl [HB115]; · iexact HB115
    isplitl [HB116]; · iexact HB116
    isplitl [HB117]; · iexact HB117
    isplitl [HB118]; · iexact HB118
    isplitl [HB119]; · iexact HB119
    isplitl [HB120]; · iexact HB120
    isplitl [HB121]; · iexact HB121
    isplitl [HB122]; · iexact HB122
    isplitl [HB123]; · iexact HB123
    isplitl [HB124]; · iexact HB124
    isplitl [HB125]; · iexact HB125
    isplitl [HB126]; · iexact HB126
    iexact HB127
  -- the loads, the combination, the store
  sl_exec!
  sl_step
  iapply Hk
  isplitl [HTA]; · iexact HTA
  isplitl [HTB]; · iexact HTB
  isplitl [HX8 HX9 HX10 HX11 HX12 HX13 HX14 HX15 HX16 HX17 HX18 HX19 HX20 HX21 HX22 HX23 HX24 HX25 HX26 HX27 HX28 HX29 HX30 HX31 HX32 HX33 HX34 HX35 HX36 HX37 HX38 HX39 HX40 HX41 HX42 HX43 HX44 HX45 HX46 HX47 HX48 HX49 HX50 HX51 HX52 HX53 HX54 HX55 HX56 HX57 HX58 HX59 HX60 HX61 HX62 HX63 HX64 HX65 HX66 HX67 HX68 HX69 HX70 HX71]
  · unfold xtoks
    isplitl [HX8]; · iexact HX8
    isplitl [HX9]; · iexact HX9
    isplitl [HX10]; · iexact HX10
    isplitl [HX11]; · iexact HX11
    isplitl [HX12]; · iexact HX12
    isplitl [HX13]; · iexact HX13
    isplitl [HX14]; · iexact HX14
    isplitl [HX15]; · iexact HX15
    isplitl [HX16]; · iexact HX16
    isplitl [HX17]; · iexact HX17
    isplitl [HX18]; · iexact HX18
    isplitl [HX19]; · iexact HX19
    isplitl [HX20]; · iexact HX20
    isplitl [HX21]; · iexact HX21
    isplitl [HX22]; · iexact HX22
    isplitl [HX23]; · iexact HX23
    isplitl [HX24]; · iexact HX24
    isplitl [HX25]; · iexact HX25
    isplitl [HX26]; · iexact HX26
    isplitl [HX27]; · iexact HX27
    isplitl [HX28]; · iexact HX28
    isplitl [HX29]; · iexact HX29
    isplitl [HX30]; · iexact HX30
    isplitl [HX31]; · iexact HX31
    isplitl [HX32]; · iexact HX32
    isplitl [HX33]; · iexact HX33
    isplitl [HX34]; · iexact HX34
    isplitl [HX35]; · iexact HX35
    isplitl [HX36]; · iexact HX36
    isplitl [HX37]; · iexact HX37
    isplitl [HX38]; · iexact HX38
    isplitl [HX39]; · iexact HX39
    isplitl [HX40]; · iexact HX40
    isplitl [HX41]; · iexact HX41
    isplitl [HX42]; · iexact HX42
    isplitl [HX43]; · iexact HX43
    isplitl [HX44]; · iexact HX44
    isplitl [HX45]; · iexact HX45
    isplitl [HX46]; · iexact HX46
    isplitl [HX47]; · iexact HX47
    isplitl [HX48]; · iexact HX48
    isplitl [HX49]; · iexact HX49
    isplitl [HX50]; · iexact HX50
    isplitl [HX51]; · iexact HX51
    isplitl [HX52]; · iexact HX52
    isplitl [HX53]; · iexact HX53
    isplitl [HX54]; · iexact HX54
    isplitl [HX55]; · iexact HX55
    isplitl [HX56]; · iexact HX56
    isplitl [HX57]; · iexact HX57
    isplitl [HX58]; · iexact HX58
    isplitl [HX59]; · iexact HX59
    isplitl [HX60]; · iexact HX60
    isplitl [HX61]; · iexact HX61
    isplitl [HX62]; · iexact HX62
    isplitl [HX63]; · iexact HX63
    isplitl [HX64]; · iexact HX64
    isplitl [HX65]; · iexact HX65
    isplitl [HX66]; · iexact HX66
    isplitl [HX67]; · iexact HX67
    isplitl [HX68]; · iexact HX68
    isplitl [HX69]; · iexact HX69
    isplitl [HX70]; · iexact HX70
    iexact HX71
  isplitl [H4]
  · iexists f4; isplitr; · ipureintro; rfl
    iexact H4
  isplitl [H5]
  · iexists _; isplitr
    swap; · iexact H5
    ipureintro
    sl_unfold_run_names
    refine (View.read_writes_eq_canon _ _ _ (fun y => View.cover_of_tiled [⟨_, _⟩] S4096x128.size (by rfl) y)).trans ?_
    rw [View.canon_unit_zero zero_off2]
    unfold outBlk
    simp only [View.readAt_eq_ld, View.ld_unit_zero (S := S128x4096) zero_off2, View.ld_unit_zero (S := S128x4) zero_off2]
    rfl
  isplitl [H6]; · iexists _; iexact H6
  isplitl [H7]; · iexists _; iexact H7
  isplitl [Hd8 Hd9 Hd10 Hd11 Hd12 Hd13 Hd14 Hd15 Hd16 Hd17 Hd18 Hd19 Hd20 Hd21 Hd22 Hd23 Hd24 Hd25 Hd26 Hd27 Hd28 Hd29 Hd30 Hd31 Hd32 Hd33 Hd34 Hd35 Hd36 Hd37 Hd38 Hd39 Hd40 Hd41 Hd42 Hd43 Hd44 Hd45 Hd46 Hd47 Hd48 Hd49 Hd50 Hd51 Hd52 Hd53 Hd54 Hd55 Hd56 Hd57 Hd58 Hd59 Hd60 Hd61 Hd62 Hd63 Hd64 Hd65 Hd66 Hd67 Hd68 Hd69 Hd70 Hd71]
  · unfold sems0
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    isplitl [Hd31]; · iexact Hd31
    isplitl [Hd32]; · iexact Hd32
    isplitl [Hd33]; · iexact Hd33
    isplitl [Hd34]; · iexact Hd34
    isplitl [Hd35]; · iexact Hd35
    isplitl [Hd36]; · iexact Hd36
    isplitl [Hd37]; · iexact Hd37
    isplitl [Hd38]; · iexact Hd38
    isplitl [Hd39]; · iexact Hd39
    isplitl [Hd40]; · iexact Hd40
    isplitl [Hd41]; · iexact Hd41
    isplitl [Hd42]; · iexact Hd42
    isplitl [Hd43]; · iexact Hd43
    isplitl [Hd44]; · iexact Hd44
    isplitl [Hd45]; · iexact Hd45
    isplitl [Hd46]; · iexact Hd46
    isplitl [Hd47]; · iexact Hd47
    isplitl [Hd48]; · iexact Hd48
    isplitl [Hd49]; · iexact Hd49
    isplitl [Hd50]; · iexact Hd50
    isplitl [Hd51]; · iexact Hd51
    isplitl [Hd52]; · iexact Hd52
    isplitl [Hd53]; · iexact Hd53
    isplitl [Hd54]; · iexact Hd54
    isplitl [Hd55]; · iexact Hd55
    isplitl [Hd56]; · iexact Hd56
    isplitl [Hd57]; · iexact Hd57
    isplitl [Hd58]; · iexact Hd58
    isplitl [Hd59]; · iexact Hd59
    isplitl [Hd60]; · iexact Hd60
    isplitl [Hd61]; · iexact Hd61
    isplitl [Hd62]; · iexact Hd62
    isplitl [Hd63]; · iexact Hd63
    isplitl [Hd64]; · iexact Hd64
    isplitl [Hd65]; · iexact Hd65
    isplitl [Hd66]; · iexact Hd66
    isplitl [Hd67]; · iexact Hd67
    isplitl [Hd68]; · iexact Hd68
    isplitl [Hd69]; · iexact Hd69
    isplitl [Hd70]; · iexact Hd70
    iexact Hd71
  iexists _; iexact HO

end Cert.Kernel.Gather

end
-- ==== Proof.Bits.Region1.lean ====
/-
  Region 1: the gather.

  The region walks 128 grid points. At point t it is handed block t (128 rows of 4 coefficients) of the coefficient
  array and produces block t (all 4096 rows of 128 consecutive columns) of the result. For each of the block's 128
  columns the body looks up two row numbers in two prefetched tables, copies those two rows of the transposed input
  into two scratch buffers, and combines the gathered rows with the coefficients. This module names the tables'
  contents as the region finds them, states what the body leaves in the result's buffer at every point, packages that
  as the region's proof data with the invariant the body relies on (the scoped memory it uses as scratch, the tables,
  the transposed array whole, and the body's own 64 semaphore cells at zero), and proves the body meets the
  description at every point.
-/
import proofs.«418221_j52063593562999_1_alg».proof.Proof.Gen.Kernel.Launch
import proofs.«418221_j52063593562999_1_alg».proof.Proof.Gen.Kernel.Skeleton
import proofs.«418221_j52063593562999_1_alg».proof.Proof.Bits.GatherBase
import proofs.«418221_j52063593562999_1_alg».proof.Proof.Bits.Body1
import Idealize.ShloMosaic.Lib.Pipeline.FrameBody
import Idealize.ShloMosaic.Lib.Pipeline.Kit
import Idealize.ShloMosaic.Lib.Pipeline.Value
import Idealize.ShloMosaic.Lib.Transfers
import Idealize.ShloMosaic.Lib.ValueIdx
import Idealize.ShloMosaic.Lib.Tactic
import Mathlib.Tactic.Convert

set_option maxRecDepth 16384

noncomputable section

namespace Cert.Kernel.Region1

open Cert.Kernel Cert.Kernel.Gen Cert.Kernel.Gather
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body's own semaphore cells -/

/-- The body's 64 semaphore cells: the two arrays of 32 occupy the pool's numbers 8 to 71, after the eight cells the
    two regions' windows stage on. -/
abbrev osem : Fin 64 → SemLoc sig := fun k => .dma ⟨k.val + 8, by have := k.isLt; show k.val + 8 < 72; omega⟩

/-- They are scoped, pairwise distinct, and none is a cell a window of this region stages on. -/
theorem ownSemFacts : Pipeline.OwnSemFacts spec1 osem := by decide

omit [FloatOps F] in
/-- The 64 cells at zero, listed in order. -/
theorem ownSems0_eq (c : Dev nD) :
    (Pipeline.ownSems0 (Ix := Unit) (Name := ℕ) (U := UU) (Lvl := ℕ) (Val := Elt F) (τ := τ) osem c : sProp 𝕄) = sems0 c :=
  Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)

/-! ## The tables' contents and the pipeline at them -/

-- the buffer contents when the region is entered
variable (V : (c : Dev nD) → (b : Ref sig .tc) → Buf (Elt F) ((c : Thread nD τ).loc b))

/-- The two tables' contents when the region is entered (there is one device: device 0's). -/
def tbl : pre1.Contents (Elt F) := fun j => V (0 : Dev nD) (pre1.ref j)

/-- On every device the tables hold those contents. -/
theorem V_pre (c : Dev nD) (j : Fin 2) : V c (pre1.ref j) = tbl V j := by
  obtain rfl : c = 0 := Subsingleton.elim _ _; rfl

/-- The tables' contents as admissible contents (no window's index map reads a table, so the side condition is
    empty), and the pipeline at them. -/
abbrev adm : (pcfg1 (F := F)).Adm := ⟨tbl V, by show ok1 (tbl V); unfold ok1; trivial⟩
abbrev cfgM : Pipeline.Cfg sig Λ₀ := cfg1 (adm V)

/-- The two tables held whole, table by table. -/
theorem tables_eq (c : Dev nD) :
    (Pipeline.prefHeld (Ix := Unit) (Name := ℕ) (U := UU) (Lvl := ℕ) pre1 c (fun _ => fullShare) (tbl V) : sProp 𝕄)
      = iprop(pt c TA fullShare (tbl V 0) ∗ pt c TB fullShare (tbl V 1)) := by
  unfold Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk1 (c : Dev nD) (w : Fin (cfgM V).W) (t : Fin (cfgM V).N) : (((cfgM V).win w).xblock ((cfgM V).grid.coords t)).Idx → Elt F ((cfgM V).win w).elt :=
  (((cfgM V).win w).blk t).view.read (Elt F) (V c (Pipeline.arrRef spec1 w))

/-- The coefficient window's current buffer holds its block at every point, for any proof data whose coefficient array
    is the entry contents and whose body leaves the block in place: the window is never idle and never cut, so a point
    that does not fetch has the same block index as the one before it. -/
theorem before1_0_of {c : Dev nD} (dat : Dat τ (Elt F) Unit ℕ UU ℕ (cfgM V) c) (hA : dat.A 0 = V c (Pipeline.arrRef spec1 0))
    (hafter : ∀ t, dat.after 0 t = iblk1 V c 0 t) (t : Fin (cfgM V).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The region's invariant -/

/-- What the body relies on between points, beyond its two windows: the scoped memory that is no staging buffer of this
    region (among it the two scratch buffers the copies fill) with the generator register; the two tables whole; the
    transposed array whole at the contents the region finds, which the copies read; and the body's 64 cells at zero. -/
def Φ1 (c : Dev nD) : sProp 𝕄 :=
  iprop(Pipeline.ΦA spec1 c
    ∗ Pipeline.prefHeld (Ix := Unit) (Name := ℕ) (U := UU) (Lvl := ℕ) pre1 c (fun _ => fullShare) (tbl V)
    ∗ pt c XT fullShare (V c main_v12) ∗ sems0 c)

/-! ## What the body leaves in the result window's buffer -/

/-- The one rectangle the body stores through: the whole 4096 × 128 buffer. -/
abbrev r1_1 : Rect S4096x128 := Rect.unit (s := S4096x128) ![0, 0] S4096x128.size inb_S4096x128_S4096x128_0_0

theorem zero_off : (![0, 0] : Fin 2 → Nat) = fun _ => 0 := funext fun a => by fin_cases a <;> rfl

/-- The result buffer after the body at point `t`: one store over the whole buffer of the combination of the rows the two
    tables name at the point's 128 columns with the point's coefficient block. -/
def out1_1 (c : Dev nD) (t : Fin (cfgM V).N) : Vec F S4096x128 .f32 :=
  View.canon [⟨r1_1, outBlk (grid1.coords t) (tbl V 0) (tbl V 1) (V c main_v12) (iblk1 V c 0 t)⟩]

/-- One store over the whole buffer leaves exactly its payload. -/
theorem out1_1_eq (c : Dev nD) (t : Fin (cfgM V).N) :
    out1_1 V c t = outBlk (grid1.coords t) (tbl V 0) (tbl V 1) (V c main_v12) (iblk1 V c 0 t) := by
  unfold out1_1
  exact View.canon_unit_zero zero_off _ _

/-- The store's rectangle is the whole buffer, so every index of the buffer lies in it. -/
theorem cover1_1 (p0 : Vec F S4096x128 .f32) (y : S4096x128.Idx) :
    ∃ pc ∈ ([⟨r1_1, p0⟩] : List (View.Piece (Elt F) S4096x128 .f32)), y ∈ pc.1.set :=
  View.cover_of_tiled [⟨r1_1, p0⟩] S4096x128.size (by rfl) y

/-! ## The region's proof data -/

/-- The proof data of the region on core `c`: the arrays as the region finds them; after the body at point `t` the
    coefficient buffer at its block and the result buffer at the combination above; the invariant; nothing owed; full
    shares. -/
def dat1 (c : Dev nD) : Dat τ (Elt F) Unit ℕ UU ℕ (cfgM V) c where
  A w := V c (Pipeline.arrRef spec1 w)
  after w t := match w with
    | ⟨0, _⟩ => iblk1 V c 0 t
    | ⟨1, _⟩ => out1_1 V c t
  Φ _ := Φ1 V c
  q _ := fullShare
  owed _ := 0

/-- The proof data's arrays are the entry contents. -/
theorem A_eq1 (c : Dev nD) (w : Fin (cfgM V).W) : (dat1 V c).A w = V c (Pipeline.arrRef spec1 w) := by
  dsimp only [dat1]

/-- What the body leaves, window by window. -/
theorem after1_0 (c : Dev nD) (t : Fin (cfgM V).N) : (dat1 V c).after 0 t = iblk1 V c 0 t := by dsimp only [dat1]; try rfl
theorem after1_1 (c : Dev nD) (t : Fin (cfgM V).N) : (dat1 V c).after 1 t = out1_1 V c t := by dsimp only [dat1]; try rfl

/-- The coefficient window's current buffer holds its block at every point. -/
theorem before1_0 (c : Dev nD) (t : Fin (cfgM V).N) (d) : (dat1 V c).before 0 t d = iblk1 V c 0 t :=
  before1_0_of V (dat1 V c) (A_eq1 V c 0) (after1_0 V c) t d

/-! ## The transposed array as read shares -/

/-- The read shares of the transposed array the body does not take: what is left of the full share once 72 shares are
    split off it, and the first eight of those (the body's cells are numbers 8 to 71, and it takes the share of each
    cell's number). -/
abbrev xrest (c : Dev nD) (fx : Bf (F := F) c XT) : sProp 𝕄 :=
  iprop(pt c XT (Transfers.shareDrop fullShare 72) fx ∗ pt c XT (Transfers.shareTokN fullShare 0) fx ∗ pt c XT (Transfers.shareTokN fullShare 1) fx ∗ pt c XT (Transfers.shareTokN fullShare 2) fx ∗ pt c XT (Transfers.shareTokN fullShare 3) fx ∗ pt c XT (Transfers.shareTokN fullShare 4) fx ∗ pt c XT (Transfers.shareTokN fullShare 5) fx ∗ pt c XT (Transfers.shareTokN fullShare 6) fx ∗ pt c XT (Transfers.shareTokN fullShare 7) fx)

omit [FloatOps F] in
/-- The transposed array whole is what is left after 72 shares are split off, then the 72 shares in order: the first eight,
    then the 64 the body takes. -/
theorem xt_chain (c : Dev nD) (fx : Bf (F := F) c XT) :
    (pt c XT fullShare fx : sProp 𝕄)
      ⊣⊢ iprop(pt c XT (Transfers.shareDrop fullShare 72) fx ∗ pt c XT (Transfers.shareTokN fullShare 0) fx ∗ pt c XT (Transfers.shareTokN fullShare 1) fx ∗ pt c XT (Transfers.shareTokN fullShare 2) fx ∗ pt c XT (Transfers.shareTokN fullShare 3) fx ∗ pt c XT (Transfers.shareTokN fullShare 4) fx ∗ pt c XT (Transfers.shareTokN fullShare 5) fx ∗ pt c XT (Transfers.shareTokN fullShare 6) fx ∗ pt c XT (Transfers.shareTokN fullShare 7) fx ∗ xtoks c fx) := by
  have h := Transfers.pointsTo_toks_range (Ix := Unit) (Name := ℕ) (U := UU) (Lvl := ℕ) (Val := Elt F)
    (ℓ := XT.view.loc (c : Thread nD τ)) (S := Finset.univ) (f := fx) fullShare 72
  rw [bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71] (by decide) (by decide)] at h
  exact h

omit [FloatOps F] in
/-- The transposed array whole is the shares the body takes together with those it does not. -/
theorem xt_shares (c : Dev nD) (fx : Bf (F := F) c XT) :
    (pt c XT fullShare fx : sProp 𝕄) ⊣⊢ iprop(xrest c fx ∗ xtoks c fx) := by
  have h := xt_chain c fx
  constructor
  · refine h.1.trans ?_
    iintro ⟨Hd, H0, H1, H2, H3, H4, H5, H6, H7, Hx⟩
    isplitr [Hx]
    · isplitl [Hd]; · iexact Hd
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact Hx
  · refine BIBase.Entails.trans ?_ h.2
    iintro ⟨⟨Hd, H0, H1, H2, H3, H4, H5, H6, H7⟩, Hx⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Hx

/-! ## The body obligation, at a generic point -/

/-- The current staging memref of each window at point `t`. -/
abbrev st1_0 (t : Fin (cfgM V).N) : Memref sig .tc .vmem S128x4 .f32 := spec1_0.stage ((cfgM V).slots t 0)
abbrev hst1_0 (t : Fin (cfgM V).N) : (st1_0 V t).IsWhole := hstage1_0 (((cfgM V).slots t 0).cast nbuf1_0)
abbrev st1_1 (t : Fin (cfgM V).N) : Memref sig .tc .vmem S4096x128 .f32 := spec1_1.stage ((cfgM V).slots t 1)
abbrev hst1_1 (t : Fin (cfgM V).N) : (st1_1 V t).IsWhole := hstage1_1 (((cfgM V).slots t 1).cast nbuf1_1)

/-- The body at point `t`, on what the pipeline calls it with. -/
abbrev bodyAt1 (t : Fin (cfgM V).N) : Prog (TpuEff nD τ sig (Elt F) Λ₀ .tc) PUnit :=
  cc1__gather_kernel (grid1.coords t) TA (Memref.isWhole_whole _) TB (Memref.isWhole_whole _) XT (Memref.isWhole_whole _)
    (st1_0 V t) (hst1_0 V t) (st1_1 V t) (hst1_1 V t) SA (Memref.isWhole_whole _) SB (Memref.isWhole_whole _) cc1_scratch2 cc1_scratch3

/-- What the body is called with at point `t`, the windows one by one, -/
def bodyPre1 (c : Dev nD) (t : Fin (cfgM V).N) : sProp 𝕄 :=
  iprop((dat1 V c).Φ t.castSucc ∗ (dat1 V c).owesAt () t.castSucc
    ∗ (∃ d, owns (c : Thread nD τ) (st1_0 V t) fullShare ((dat1 V c).before 0 t d))
    ∗ (∃ d, owns (c : Thread nD τ) (st1_1 V t) fullShare ((dat1 V c).before 1 t d)))

/-- and what it returns. -/
def bodyPost1 (c : Dev nD) (t : Fin (cfgM V).N) : sProp 𝕄 :=
  iprop((dat1 V c).Φ t.succ ∗ (dat1 V c).owesAt () t.succ
    ∗ owns (c : Thread nD τ) (st1_0 V t) fullShare ((dat1 V c).after 0 t)
    ∗ owns (c : Thread nD τ) (st1_1 V t) fullShare ((dat1 V c).after 1 t))

/-- The body at any point. The coefficient buffer holds its block; the invariant yields the two tables, the two scratch
    buffers, the cells, and the transposed array, which is split into the shares the copies read through; the body's
    triple applies; afterwards the shares are joined back into the whole array and the invariant is put together
    again, the scratch buffers at whatever the copies left. -/
theorem sound_body1 (hidx : ∀ j : S16384.Idx, (tbl V 0 j).toNat < 16384 ∧ (tbl V 1 j).toNat < 16384) (c : Dev nD) (t : Fin (cfgM V).N) :
    bodyPre1 V c t ⊢ wp frame (wpE (defs₀ (F := F)) Variants.none c none) Set.univ (bodyAt1 V t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, out1_1_eq]
  rw [show (dat1 V c).Φ t.castSucc = Φ1 V c from rfl]
  unfold Φ1 Pipeline.ΦA; rw [tables_eq, scopedRest1_eq]
  unfold Dat.owesAt Pipeline.owesWithin
  rw [show (dat1 V c).owed t.castSucc = 0 from rfl]
  iintro ⟨⟨⟨⟨S0, S1, S2, S3, ⟨%f6, H6⟩, ⟨%f7, H7⟩⟩, Hr⟩, ⟨HTA, HTB⟩, HX, Hsems⟩, ⟨%W, %hW, HO⟩, ⟨%d0, H0⟩, ⟨%d1, H1⟩⟩
  ihave HX' := (xt_shares c (V c main_v12)).1 $$ HX
  icases HX' with ⟨Hxr, Hxt⟩
  iapply (kernelRun c (grid1.coords t) (st1_0 V t) (hst1_0 V t) (st1_1 V t) (hst1_1 V t) (tbl V 0) (tbl V 1) (V c main_v12) (iblk1 V c 0 t)
    (fun j => (hidx j).1) (fun j => (hidx j).2) fullShare fullShare f6 f7 W _)
  isplitl [HTA]; · iexact HTA
  isplitl [HTB]; · iexact HTB
  isplitl [Hxt]; · iexact Hxt
  isplitl [H0]; · iexact H0
  isplitl [H1]; · iexists _; iexact H1
  isplitl [H6]; · iexact H6
  isplitl [H7]; · iexact H7
  isplitl [Hsems]; · iexact Hsems
  isplitl [HO]; · iexact HO
  iintro ⟨HTA, HTB, Hxt, H0, H1, ⟨%g6, H6⟩, ⟨%g7, H7⟩, Hsems, ⟨%W', HO⟩⟩
  isplitl [S0 S1 S2 S3 H6 H7 Hr HTA HTB Hxr Hxt Hsems]
  · isplitl [S0 S1 S2 S3 H6 H7 Hr]
    · isplitl [S0 S1 S2 S3 H6 H7]
      · isplitl [S0]; · iexact S0
        isplitl [S1]; · iexact S1
        isplitl [S2]; · iexact S2
        isplitl [S3]; · iexact S3
        isplitl [H6]; · iexists g6; iexact H6
        iexists g7; iexact H7
      iexact Hr
    isplitl [HTA HTB]
    · isplitl [HTA]; · iexact HTA
      iexact HTB
    isplitl [Hxr Hxt]
    · iapply (xt_shares c (V c main_v12)).2
      isplitl [Hxr]; · iexact Hxr
      iexact Hxt
    iexact Hsems
  isplitl [HO]
  · iexists W'; isplitr; · ipureintro; exact fun _ _ => Or.inl trivial
    iexact HO
  isplitl [H0]; · iexact H0
  iexact H1

/-- The body obligation, at every point, for tables whose every word names a row of the transposed array. -/
theorem body_obligation1 (hidx : ∀ j : S16384.Idx, (tbl V 0 j).toNat < 16384 ∧ (tbl V 1 j).toNat < 16384) (c : Dev nD) :
    BodyObligation (dat1 (F := F) V c) (defs₀ (F := F)) Variants.none () Set.univ := fun t => by
  rw [bigSep_W1, bigSep_W1]
  -- the obligation, window by window, is the statement above: no window of this region is ever idle, the staging
  -- memrefs and the body's call are the ones named there; compared piece by piece
  have h := sound_body1 V hidx c t
  unfold bodyPre1 bodyPost1 bodyAt1 at h
  convert h using 7 <;> rfl

end Cert.Kernel.Region1

end
-- ==== Proof.Bits.Run.lean ====
/-
  The kernel program's run, from the launch to the return: the host stretch that computes the coefficient array, the
  transpose region, the gather region. Between two items a core holds every unscoped buffer at a named valuation:
  the launch memory, then what the host stretch computes, then the transposed array in place, then the result in
  place. Each region is entered from that state — its windows' arrays split out of the unscoped buffers, what its
  body needs routed into its invariant — and left at the next. The run's post names the result array and says the
  four argument arrays end as launched; the frame claim forgets the first.
-/
import proofs.«418221_j52063593562999_1_alg».proof.Proof.Bits.Region0
import proofs.«418221_j52063593562999_1_alg».proof.Proof.Bits.Region1
import proofs.«418221_j52063593562999_1_alg».proof.Proof.Gen.Kernel.Regions
import Idealize.ShloMosaic.Lib.Pipeline.RegionsLoop

noncomputable section

namespace Cert.Kernel.Run

open Cert.Kernel Cert.Kernel.Gen Cert.Kernel.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The pipeline library's algebra is the left component of the certificate's. -/
abbrev EP : Emb (UR sig nD τ) (MT nD τ sig Unit (Elt F) ℕ UU ℕ) := embL

variable (m : (ℓ : Loc nD τ sig) → Buf (Elt F) ℓ) (ρ : Dev nD → PrngReg)

/-! ## The buffers' contents at the boundaries -/

/-- When the transpose region is entered: the host stretch has run. -/
abbrev VR1 : (c : Dev nD) → (b : Ref sig .tc) → Buf (Elt F) ((c : Thread nD τ).loc b) := fun c b => V1 m c b

/-- What the transpose region leaves in its result array. -/
def T12 (c : Dev nD) : Buf (Elt F) ((c : Thread nD τ).loc main_v12) := (Region0.dat0 (VR1 m) c).arrAt 1 cfg0.N

/-- The regions' results as far as the gather region's entry: the transposed array. -/
def outs2 : Outs (F := F) := fun _ => Function.update (fun r c => m ((c : Thread nD τ).loc r)) main_v12 (T12 m)

/-- When the gather region is entered. -/
abbrev VR2 : (c : Dev nD) → (b : Ref sig .tc) → Buf (Elt F) ((c : Thread nD τ).loc b) := fun c b => V2 m (outs2 m) c b

/-- What the gather region leaves in its result array. -/
def O13 (c : Dev nD) : Buf (Elt F) ((c : Thread nD τ).loc main_v13) := (Region1.dat1 (VR2 m) c).arrAt 1 (Region1.cfgM (VR2 m)).N

/-- The regions' results: the transposed array (which the gather region leaves as it found it) and the result. -/
def outs : Outs (F := F) := fun _ =>
  Function.update (Function.update (fun r c => m ((c : Thread nD τ).loc r)) main_v13 (O13 m)) main_v12 (T12 m)

theorem outs_v12 (J : ℕ) (c : Dev nD) : outs m J main_v12 c = T12 m c := by
  unfold outs; rw [Function.update_self]
theorem outs2_v12 (J : ℕ) (c : Dev nD) : outs2 m J main_v12 c = T12 m c := by
  unfold outs2; rw [Function.update_self]
theorem outs_v13 (J : ℕ) (c : Dev nD) : outs m J main_v13 c = O13 m c := by
  unfold outs; rw [Function.update_of_ne (by decide : main_v13 ≠ main_v12), Function.update_self]

/-- The gather region's entry contents do not depend on its own result. -/
theorem V2_outs (c : Dev nD) : V2 m (outs m) c = V2 m (outs2 m) c := by
  unfold V2; rw [outs_v12, outs2_v12]

/-- After the gather region. -/
abbrev VR3 : (c : Dev nD) → (b : Ref sig .tc) → Buf (Elt F) ((c : Thread nD τ).loc b) := fun c b => V3 m (outs m) c b

theorem VR2_v12 (c : Dev nD) : VR2 m c main_v12 = T12 m c := by
  show V2 m (outs2 m) c (Proc.devRef .tc main_v12) = _
  unfold V2; rw [Function.update_self, outs2_v12]
theorem VR3_v12 (c : Dev nD) : VR3 m c main_v12 = T12 m c := by
  show V3 m (outs m) c (Proc.devRef .tc main_v12) = _
  unfold V3; rw [Function.update_self, outs_v12]
theorem VR3_v13 (c : Dev nD) : VR3 m c main_v13 = O13 m c := by
  show V3 m (outs m) c (Proc.devRef .tc main_v13) = _
  unfold V3
  rw [Function.update_of_ne (StableHlo.devRef_ne_of_ne (by decide : main_v13 ≠ main_v12)), Function.update_self, outs_v13]

/-! ## The proof data family -/

/-- The prefetched tables' admissible contents: the transpose has none; the gather's are the two index arrays. -/
abbrev adm : (p : Fin 2) → (pcfgs (F := F) p).Adm
  | ⟨0, _⟩ => cfg0.toPCfg_adm
  | ⟨1, _⟩ => Region1.adm (VR2 m)

/-- Each pipeline's proof data at its region's entry contents. -/
def pdats : (p : Fin 2) → (c : Dev nD) → Dat τ (Elt F) Unit ℕ UU ℕ (Pipeline.pin (pcfgs (F := F)) (adm m) p) c
  | ⟨0, _⟩ => fun c => Region0.dat0 (VR1 m) c
  | ⟨1, _⟩ => fun c => Region1.dat1 (VR2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core's debts, none. -/
abbrev R (c : Dev nD) : sProp 𝕄 := iprop((∃ r, prngReg c r) ∗ ∃ W, owes (c : Thread nD τ) (0 : CellTallies nD τ sig Unit) W)

/-! ## The transpose region as a segment -/

theorem hF0 (c : Dev nD) (w : Fin cfg0.W) : (Region0.dat0 (VR1 m) c).arrAt w cfg0.N = V2 m (outs m) c (Pipeline.arrRef spec0 w) := by
  match w with
  | ⟨0, _⟩ =>
    refine ((Region0.dat0 (VR1 m) c).arrAt_in 0 rfl _).trans ((Region0.A_eq0 (VR1 m) c 0).trans ?_)
    exact (V2_of m (outs m) c main_arg0 (by decide)).symm
  | ⟨1, _⟩ =>
    show _ = V2 m (outs m) c (Proc.devRef .tc main_v12)
    unfold V2; rw [Function.update_self, outs_v12]; rfl

theorem hrest0 (c : Dev nD) : ∀ b, b ∉ Finset.univ.image (Pipeline.arrRef spec0) → V2 m (outs m) c b = V1 m c b := fun b hb =>
  V2_of m (outs m) c b (by
    intro h
    rcases List.mem_singleton.mp h with rfl
    exact hb (Finset.mem_image.mpr ⟨1, Finset.mem_univ _, rfl⟩))

set_option backward.isDefEq.respectTransparency.types false in
/-- The transpose region: entered with every unscoped buffer as the host stretch left it, left with the transposed
    array in place; its arrays split out of the unscoped buffers and put back; the generator register into the
    invariant and out; nothing owed; no semaphore of the kernel's own. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Region0.body_obligation0 (VR1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UU) (Lvl := ℕ) spec0 c (VR1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UU) (Lvl := ℕ)
      (launch0 (F := F)).win (launch0 (F := F)).arr_whole c (pdats m) ((pdats m 0 c).share_full fun _ => rfl)
      (VR1 m c) (fun b => V2 m (outs m) c b) ((pdats m 0 c).arrAt · cfg0.N) (hF0 m c) (fun b hb => hrest0 m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The gather region as a segment -/

/-- The unscoped buffers that bypass the gather region: neither a window's array, nor a table, nor the transposed
    array (which its body's copies read, so it goes through the invariant). -/
abbrev Z1 (c : Dev nD) (V : (b : Ref sig .tc) → Buf (Elt F) ((c : Thread nD τ).loc b)) : sProp 𝕄 :=
  iprop((((c : Thread nD τ).loc main_arg0) ↦{fullShare} V main_arg0) ∗ (((c : Thread nD τ).loc main_arg1) ↦{fullShare} V main_arg1) ∗ (((c : Thread nD τ).loc main_cst) ↦{fullShare} V main_cst) ∗ (((c : Thread nD τ).loc main_cst_0) ↦{fullShare} V main_cst_0) ∗ (((c : Thread nD τ).loc main_v0) ↦{fullShare} V main_v0) ∗ (((c : Thread nD τ).loc main_cst_1) ↦{fullShare} V main_cst_1) ∗ (((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_v6) ↦{fullShare} V main_v6) ∗ (((c : Thread nD τ).loc main_cst_2) ↦{fullShare} V main_cst_2) ∗ (((c : Thread nD τ).loc main_v7) ↦{fullShare} V main_v7) ∗ (((c : Thread nD τ).loc main_v8) ↦{fullShare} V main_v8) ∗ (((c : Thread nD τ).loc main_v9) ↦{fullShare} V main_v9) ∗ (((c : Thread nD τ).loc main_v10) ↦{fullShare} V main_v10))

theorem restP1_split (c : Dev nD) (V : (b : Ref sig .tc) → Buf (Elt F) ((c : Thread nD τ).loc b)) :
    (Pipeline.unscopedRestP (Ix := Unit) (Name := ℕ) (U := UU) (Lvl := ℕ) pre1 spec1 c V : sProp 𝕄)
      ⊣⊢ iprop(Z1 c V ∗ pt c XT fullShare (V main_v12)) := by
  rw [unscopedRestP1_eq]
  constructor
  · iintro ⟨H0, H1, H2, H3, H4, H5, H6, H7, H8, H9, H10, H11, H12, H13, H14, H15, H16, Hx⟩
    isplitr [Hx]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iexact Hx
  · iintro ⟨⟨H0, H1, H2, H3, H4, H5, H6, H7, H8, H9, H10, H11, H12, H13, H14, H15, H16⟩, Hx⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact Hx

theorem tbl_eq (c : Dev nD) : (fun k => VR2 m c (pre1.ref k)) = Region1.tbl (VR2 m) := by
  obtain rfl : c = 0 := Subsingleton.elim _ _; rfl

theorem hF1 (c : Dev nD) (w : Fin (Region1.cfgM (VR2 m)).W) :
    (Region1.dat1 (VR2 m) c).arrAt w (Region1.cfgM (VR2 m)).N = V3 m (outs m) c (Pipeline.arrRef spec1 w) := by
  match w with
  | ⟨0, _⟩ =>
    refine ((Region1.dat1 (VR2 m) c).arrAt_in 0 rfl _).trans ((Region1.A_eq1 (VR2 m) c 0).trans ?_)
    show V2 m (outs2 m) c (Proc.devRef .tc main_v11) = V3 m (outs m) c (Proc.devRef .tc main_v11)
    rw [← V2_outs]; exact (V3_of m (outs m) c main_v11 (by decide)).symm
  | ⟨1, _⟩ => exact (VR3_v13 m c).symm

theorem hrest1 (c : Dev nD) : ∀ b, b ∉ Finset.univ.image (Pipeline.arrRef spec1) → VR3 m c b = VR2 m c b := fun b hb => by
  by_cases h12 : b = main_v12
  · subst h12; rw [VR3_v12, VR2_v12]
  · show V3 m (outs m) c b = V2 m (outs2 m) c b
    rw [← V2_outs]
    refine V3_of m (outs m) c b ?_
    intro h
    rcases List.mem_cons.mp h with rfl | h
    · exact hb (Finset.mem_image.mpr ⟨1, Finset.mem_univ _, rfl⟩)
    · exact h12 (List.mem_singleton.mp h)

set_option backward.isDefEq.respectTransparency.types false in
/-- The gather region: entered with the transposed array in place, left with the result in place. Out of the
    unscoped buffers come its two windows' arrays, its two tables, and the transposed array, which goes into the
    invariant with the generator register and the kernel's 64 cells; the rest bypasses it. -/
def reg1 (hidx : ∀ j, (Region1.tbl (VR2 m) 0 j).toNat < 16384 ∧ (Region1.tbl (VR2 m) 1 j).toNat < 16384) : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 64
  osem := Region1.osem
  ho := Region1.ownSemFacts
  hbody c := (Region1.body_obligation1 (VR2 m) hidx c).loose
  hwaits := Pipeline.hwaits_of_owed_zero _ _ _ _ L lv 1 fun _ _ => rfl
  pre c := iprop(StableHlo.held (c : Thread nD τ) (Pipeline.ucRefs τ sig) (V2 m (outs m) c) ∗ R c)
  post c := iprop(StableHlo.held (c : Thread nD τ) (Pipeline.ucRefs τ sig) (V3 m (outs m) c) ∗ R c)
  X c := iprop((∃ r, prngReg c r) ∗ pt c XT fullShare (VR2 m c main_v12) ∗ sems0 c)
  Y c := iprop((∃ r, prngReg c r) ∗ Pipeline.prefHeld (Ix := Unit) (Name := ℕ) (U := UU) (Lvl := ℕ) pre1 c (fun _ => fullShare) (Region1.tbl (VR2 m))
    ∗ pt c XT fullShare (VR2 m c main_v12))
  Z c := Z1 c (VR2 m c)
  hentry c := by
    rw [Region1.ownSems0_eq, V2_outs]
    have hsplit := Pipeline.arrays_of_unscopedBufs (p := 1) (pcfgs (F := F)) (adm m) (pdats m) (launch1 (F := F)).win (launch1 (F := F)).arr_whole c
      ((pdats m 1 c).share_full fun _ => rfl) (VR2 m c) fun _ => rfl
    rw [Pipeline.unscopedBufs_held, show (Pipeline.pin (pcfgs (F := F)) (adm m) 1).spec = spec1 from rfl, Pipeline.unscopedRest_split preFacts1, tbl_eq] at hsplit
    iintro ⟨⟨Hub, Hp, HO⟩, Hos, -⟩
    ihave H := hsplit $$ Hub
    icases H with ⟨Ha, Ht, Hrest⟩
    ihave Hrest' := (restP1_split c (VR2 m c)).1 $$ Hrest
    icases Hrest' with ⟨Hz, Hx⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hx Hos]
    · isplitl [Hp]; · iexact Hp
      isplitl [Hx]; · iexact Hx
      iexact Hos
    iexact Hz
  hin c := by
    rw [show (pdats m 1 c).Φ 0 = Region1.Φ1 (VR2 m) c from rfl]; unfold Region1.Φ1 Pipeline.ΦA
    iintro ⟨⟨Hp, Hx, Hos⟩, Ht, Hr⟩
    isplitl [Hr Hp]
    · isplitl [Hr]; · iexact Hr
      iexact Hp
    isplitl [Ht]; · iexact Ht
    isplitl [Hx]; · iexact Hx
    iexact Hos
  hout c := by
    rw [Region1.ownSems0_eq, show (pdats m 1 c).Φ (Fin.last _) = Region1.Φ1 (VR2 m) c from rfl]; unfold Region1.Φ1 Pipeline.ΦA
    iintro ⟨⟨Hr, Hp⟩, Ht, Hx, Hos⟩
    isplitl [Hp Ht Hx]
    · isplitl [Hp]; · iexact Hp
      isplitl [Ht]; · iexact Ht
      iexact Hx
    isplitl [Hos]; · iexact Hos
    iexact Hr
  hexit c := by
    have hjoin := Pipeline.unscopedBufs_of_arrays (p := 1) (pcfgs (F := F)) (adm m) (Ix := Unit) (Name := ℕ) (U := UU) (Lvl := ℕ)
      (launch1 (F := F)).win (launch1 (F := F)).arr_whole c (pdats m) ((pdats m 1 c).share_full fun _ => rfl)
      (VR2 m c) (VR3 m c) ((pdats m 1 c).arrAt · (Region1.cfgM (VR2 m)).N) (hF1 m c) (hrest1 m c)
    rw [Pipeline.unscopedBufs_held, show (Pipeline.pin (pcfgs (F := F)) (adm m) 1).spec = spec1 from rfl, Pipeline.unscopedRest_split preFacts1, tbl_eq] at hjoin
    iintro ⟨Ha, HO, ⟨Hp, Ht, Hx⟩, Hz⟩
    ihave Hrest := (restP1_split c (VR2 m c)).2 $$ [Hz Hx]
    · isplitl [Hz]; · iexact Hz
      iexact Hx
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The launch -/

/-- The launch element: the pipeline library's at the staging cells; no counter yet. -/
def u₀ : UU := (initOf (Pipeline.cells (Pipeline.pin (pcfgs (F := F)) (adm m)) (cellOf_inj (adm m))) (Pipeline.launchToks (Pipeline.pin (pcfgs (F := F)) (adm m)) (cellOf_inj (adm m))), 1)

/-- @main's three items as segments. -/
abbrev segsAt (hidx : ∀ j, (Region1.tbl (VR2 m) 0 j).toNat < 16384 ∧ (Region1.tbl (VR2 m) 1 j).toNat < 16384) (c : Dev nD) : List (Pipeline.Seg (pcfgs (F := F)) (adm m) (pdats m) () defs₀ 𝒱₀ L lv) :=
  [.host (seg0 m 𝒱₀ L lv (fun _ => R)), .region (reg0 m), .region (reg1 m hidx)]

set_option backward.isDefEq.respectTransparency.types false in
/-- At the compiled mesh, from any memory with zero counters whose index tables hold row numbers: every weakly fair
    execution of @main terminates, nothing faulting, and every final state holds the result array at what the gather
    region leaves and each argument array as launched. -/
theorem run_main (hidx : ∀ j, (Region1.tbl (VR2 m) 0 j).toNat < 16384 ∧ (Region1.tbl (VR2 m) 1 j).toNat < 16384) : θ_run defs (onTc (τ := τ) (main (F := F))) ⟨m, fun _ => 0, ρ⟩ (fun r => ∀ c : Dev nD,
      r.2.mem ((c.tc : Thread nD τ).loc main_v13) = O13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) (adm m) (pdats m) () (cellOf_inj (adm m)) EP defs₀ 𝒱₀ L lv m ρ main
    (segsAt m hidx)
    (fun c Q => by
      rewrite [main_chain c, Pipeline.Seg.run_eq_chain,
        show (segsAt m hidx c).map Pipeline.Seg.prog = [
          StableHlo.seq hostOps0,
          Prog.lift (.customCall (Pipeline.entry 0) ()),
          Prog.lift (.customCall (Pipeline.entry 1) ()) ] from rfl]
      exact .rfl)
    (fun c => by simp only [segsAt, Pipeline.Seg.pipes_host, Pipeline.Seg.pipes_region, Pipeline.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V3 m (outs m) c) ∗ ∃ r, prngReg c r))
    (hch := fun c => ⟨.rfl, .rfl, .rfl, by
      show iprop(StableHlo.held (c : Thread nD τ) (Pipeline.ucRefs τ sig) (V3 m (outs m) c) ∗ R c)
        ⊢ iprop((StableHlo.held (c : Thread nD τ) (Pipeline.ucRefs τ sig) (V3 m (outs m) c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := ?_)
    (QY := fun c s => s.mem ((c.tc : Thread nD τ).loc main_v13) = O13 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v13) (Finset.mem_filter.mpr ⟨StableHlo.devRef_mem_tcRefs main_v13, by decide⟩)).trans (VR3_v13 m c),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c)⟩
    · iexact HSI

end Cert.Kernel.Run

end
-- ==== Proof.Assembly.lean ====
/-
  The assembly: the claim's five parts, from the runs of the three programs.

  Both printings of the kernel run to a final memory in which the result array is what the gather region leaves and
  the four argument arrays are as launched; that run needs every word of the two index tables, as the gather region
  finds them, to be below 16384. Neither the host operations nor the transpose region write an argument array, so the
  tables the gather region finds are the launch contents, and the precondition bounds those. The reference runs to its
  own result and leaves the arguments unchanged. Dropping the result from each run gives the three frame parts. At the
  ideal instance the kernel's result and the reference's result are both the shared specification's function of the
  arguments, with the same coefficient array; so from memories that agree on the arguments the two results are equal.
-/
import proofs.«418221_j52063593562999_1_alg».proof.Defs
import proofs.«418221_j52063593562999_1_alg».proof.Proof.Gen.Kernel.Regions
import proofs.«418221_j52063593562999_1_alg».proof.Proof.Gen.KernelIdeal.Regions
import proofs.«418221_j52063593562999_1_alg».proof.Proof.Gen.ReferenceIdeal
import proofs.«418221_j52063593562999_1_alg».proof.Proof.Gen.Pre_finite_inputs
import proofs.«418221_j52063593562999_1_alg».proof.Proof.PreFacts
import proofs.«418221_j52063593562999_1_alg».proof.Proof.RefRun
import proofs.«418221_j52063593562999_1_alg».proof.Proof.RefRead
import proofs.«418221_j52063593562999_1_alg».proof.Proof.Run
import proofs.«418221_j52063593562999_1_alg».proof.Proof.ValueRun
import proofs.«418221_j52063593562999_1_alg».proof.Proof.Bits.Run

noncomputable section

namespace Cert.Proof.Parts

open Idealize.ShloMosaic Idealize.ShloMosaic.TcCoe Idealize.SL.Sem

/-! ## The idealized kernel -/

section IdealProgram

open Cert.KernelIdeal Cert.KernelIdeal.Gen

/-- Under the precondition, every word of the two index tables as the gather region finds them on device 0 is below
    16384, whatever the transpose region left in its own result array: no host operation and neither region writes an
    argument array, so the tables hold their launch contents, which the precondition bounds. -/
theorem tables_lt_ideal (m : (ℓ : Loc nD τ sig) → Buf (Elt Ideal) ℓ) (outs : Outs (F := Ideal))
    (h : Cert.Pre_KernelIdeal (hPre_finite_inputs := Cert.Pre_finite_inputs.Gen.facts) m) :
    ∀ j, (V2 m outs (0 : Dev nD) (pre1.ref 0) j).toNat < 16384 ∧ (V2 m outs (0 : Dev nD) (pre1.ref 1) j).toNat < 16384 := by
  have e2 : V2 m outs (0 : Dev nD) (pre1.ref 0) = m (((0 : Dev nD).tc : Thread nD τ).loc main_arg2) :=
    (V2_of m outs 0 main_arg2 (by decide)).trans <| (V1_of m 0 main_arg2 (by decide)).trans rfl
  have e3 : V2 m outs (0 : Dev nD) (pre1.ref 1) = m (((0 : Dev nD).tc : Thread nD τ).loc main_arg3) :=
    (V2_of m outs 0 main_arg3 (by decide)).trans <| (V1_of m 0 main_arg3 (by decide)).trans rfl
  intro j
  rw [e2, e3]
  exact Cert.PreFacts.idx_lt _ _ _ _ (h 0) j

/-- The bound in the form the run of the idealized kernel asks for. -/
theorem hidx_ideal (m : (ℓ : Loc nD τ sig) → Buf (Elt Ideal) ℓ)
    (h : Cert.Pre_KernelIdeal (hPre_finite_inputs := Cert.Pre_finite_inputs.Gen.facts) m) :
    ∀ j, (Cert.KernelIdeal.Region1.tbl (Cert.KernelIdeal.Run.VR2 m) 0 j).toNat < 16384
      ∧ (Cert.KernelIdeal.Region1.tbl (Cert.KernelIdeal.Run.VR2 m) 1 j).toNat < 16384 :=
  tables_lt_ideal m (Cert.KernelIdeal.Run.outs2 m) h

/-- The idealized kernel runs and leaves its arguments as launched: its run with the result dropped. -/
theorem frame_pi : Cert.frame_KernelIdeal (hKernelIdeal := Cert.KernelIdeal.Gen.facts) (hPre_finite_inputs := Cert.Pre_finite_inputs.Gen.facts) :=
  fun m ρ hpre => (θ_run defs _ _).mono (fun _ h c => (h c).2) (Cert.KernelIdeal.Run.run_main m ρ (hidx_ideal m hpre))

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The idealization rewrote no operation, so there is nothing to preserve. -/
theorem preserves : Cert.preserves_Kernel_KernelIdeal := trivial

/-- At the ideal instance, from memories that agree on the four arguments, both programs run, and both results are the
    specification's function of the kernel's arguments at the coefficient array the reference computes from the
    weights: the kernel's by its value, the reference's by its own reading, the index words in range by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.out (Cert.ReferenceIdeal.RefRun.kOf (F := Ideal) (m ((c.tc : Thread nD τ).loc main_arg1)))
      (m ((c.tc : Thread nD τ).loc main_arg0)) (m ((c.tc : Thread nD τ).loc main_arg2)) (m ((c.tc : Thread nD τ).loc main_arg3)), ?_, ?_⟩
  · exact (θ_run defs _ _).mono (fun _ h c => ⟨(h c).1.trans (Cert.KernelIdeal.ValueRun.O13_eq m c), (h c).2⟩)
      (Cert.KernelIdeal.Run.run_main m ρ (hidx_ideal m hpre))
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2]
    exact Cert.ReferenceIdeal.RefRead.val_eq _ _ _ _ (fun j => (Cert.PreFacts.idx_lt _ _ _ _ (hpre c) j).1)
      (fun j => (Cert.PreFacts.idx_lt _ _ _ _ (hpre c) j).2)

end IdealProgram

/-! ## The kernel as printed (this whole section, and the import of its run above, stand or fall together) -/

section WordProgram

open Cert.Kernel Cert.Kernel.Gen

/-- The same bound on the index tables for the kernel as printed. -/
theorem tables_lt_word (m : (ℓ : Loc nD τ sig) → Buf (Elt Bits) ℓ) (outs : Outs (F := Bits))
    (h : Cert.Pre_Kernel (hPre_finite_inputs := Cert.Pre_finite_inputs.Gen.facts) m) :
    ∀ j, (V2 m outs (0 : Dev nD) (pre1.ref 0) j).toNat < 16384 ∧ (V2 m outs (0 : Dev nD) (pre1.ref 1) j).toNat < 16384 := by
  have e2 : V2 m outs (0 : Dev nD) (pre1.ref 0) = m (((0 : Dev nD).tc : Thread nD τ).loc main_arg2) :=
    (V2_of m outs 0 main_arg2 (by decide)).trans <| (V1_of m 0 main_arg2 (by decide)).trans rfl
  have e3 : V2 m outs (0 : Dev nD) (pre1.ref 1) = m (((0 : Dev nD).tc : Thread nD τ).loc main_arg3) :=
    (V2_of m outs 0 main_arg3 (by decide)).trans <| (V1_of m 0 main_arg3 (by decide)).trans rfl
  intro j
  rw [e2, e3]
  exact Cert.PreFacts.idx_lt _ _ _ _ (h 0) j

/-- The bound in the form the run of the kernel as printed asks for. -/
theorem hidx_word (m : (ℓ : Loc nD τ sig) → Buf (Elt Bits) ℓ)
    (h : Cert.Pre_Kernel (hPre_finite_inputs := Cert.Pre_finite_inputs.Gen.facts) m) :
    ∀ j, (Cert.Kernel.Region1.tbl (Cert.Kernel.Run.VR2 m) 0 j).toNat < 16384
      ∧ (Cert.Kernel.Region1.tbl (Cert.Kernel.Run.VR2 m) 1 j).toNat < 16384 :=
  tables_lt_word m (Cert.Kernel.Run.outs2 m) h

/-- The kernel as printed runs and leaves its arguments as launched: its run with the result dropped. -/
theorem frame_p : Cert.frame_Kernel (hKernel := Cert.Kernel.Gen.facts) (hPre_finite_inputs := Cert.Pre_finite_inputs.Gen.facts) :=
  fun m ρ hpre => (θ_run defs _ _).mono (fun _ h c => (h c).2) (Cert.Kernel.Run.run_main m ρ (hidx_word m hpre))

end WordProgram

end Cert.Proof.Parts

end
-- ==== Proof.lean ====
/-
  The certificate's claim, assembled. The kernel computes out[n, y] = k[y,0] + k[y,1]·x[n, a[y]] + k[y,2]·x[n, b[y]]
  + k[y,3]·(x[n, a[y]]·x[n, b[y]]), k the softmax of the gate logits times the gate table, by transposing x, copying the
  rows the two index tables name, and combining; the reference gathers the columns of x directly. Under the
  precondition — every float input finite, every index a column of x — both programs run, leave their arguments as they
  found them, and end with that same array: the five parts are in Proof/Assembly.lean.
-/
import proofs.«418221_j52063593562999_1_alg».proof.Defs
import proofs.«418221_j52063593562999_1_alg».proof.Proof.Assembly

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Parts.frame_p, Parts.frame_pi, Parts.frame_ri, Parts.preserves, Parts.algebraic⟩

end Cert.Proof

end
